-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S256x128 : Shape := ⟨2, ![256, 128]⟩
abbrev S256x1 : Shape := ⟨2, ![256, 1]⟩
abbrev S8192x32 : Shape := ⟨2, ![8192, 32]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S256x1 : S_.BroadcastsInDim S256x1 (![] : Fin 0 → Fin S256x1.rank)
  reducesTo_S256x1_S_d0_1 : S256x1.ReducesTo [0, 1] S_
  bcast_S_S8192x32 : S_.BroadcastsInDim S8192x32 (![] : Fin 0 → Fin S8192x32.rank)
  reducesTo_S8192x32_S_d0_1 : S8192x32.ReducesTo [0, 1] S_

variable [Facts]

def fn_part1 {F : FTy → Type} [FloatOps F] (main_arg3 : IVec S8192x32 32) (main_v13 : IVec S_ 1) (main_v15 : IVec S8192x32 1) (main_c_5 : IVec S_ 1) : IVec S_ 1 :=
  let main_v16 : IVec S_ 1 := (fun x v => Host.reduce IntOp.andi x v reducesTo_S8192x32_S_d0_1 h_S_) main_v15 main_c_5
  let main_v17 : IVec S_ 1 := andi main_v13 main_v16
  let main_c_6 : IVec S_ 32 := constantI S_ 32 8192#32
  let main_v18 : IVec S8192x32 32 := broadcastInDim S8192x32 ![] bcast_S_S8192x32 main_c_6
  let main_v19 : IVec S8192x32 1 := cmpi .slt main_arg3 main_v18
  let main_c_7 : IVec S_ 1 := constantI S_ 1 1#1
  let main_v20 : IVec S_ 1 := (fun x v => Host.reduce IntOp.andi x v reducesTo_S8192x32_S_d0_1 h_S_) main_v19 main_c_7
  let main_v21 : IVec S_ 1 := andi main_v17 main_v20
  main_v21

def fn {F : FTy → Type} [FloatOps F] (main_arg0 : FVec F S8192x256 .f32) (main_arg1 : FVec F S256x128 .f32) (main_arg2 : FVec F S256x1 .f32) (main_arg3 : IVec S8192x32 32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S256x128 .f32 := Host.absf main_arg1
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S256x1 .f32 := Host.absf main_arg2
  let main_cst_2 : FVec F S_ .f32 := constant S_ .f32 0x7F800000#32
  let main_v10 : FVec F S256x1 .f32 := broadcastInDim S256x1 ![] bcast_S_S256x1 main_cst_2
  let main_v11 : IVec S256x1 1 := cmpf .olt main_v9 main_v10
  let main_c_3 : IVec S_ 1 := constantI S_ 1 1#1
  let main_v12 : IVec S_ 1 := (fun x v => Host.reduce IntOp.andi x v reducesTo_S256x1_S_d0_1 h_S_) main_v11 main_c_3
  let main_v13 : IVec S_ 1 := andi main_v8 main_v12
  let main_c_4 : IVec S_ 32 := constantI S_ 32 0#32
  let main_v14 : IVec S8192x32 32 := broadcastInDim S8192x32 ![] bcast_S_S8192x32 main_c_4
  let main_v15 : IVec S8192x32 1 := cmpi .sge main_arg3 main_v14
  let main_c_5 : IVec S_ 1 := constantI S_ 1 1#1
  fn_part1 (F := F) main_arg3 main_v13 main_v15 main_c_5
-- ==== Kernel.lean ====
abbrev S8192x256 : Shape := ⟨2, ![8192, 256]⟩
abbrev S256x128 : Shape := ⟨2, ![256, 128]⟩
abbrev S256x1 : Shape := ⟨2, ![256, 1]⟩
abbrev S8192x32 : Shape := ⟨2, ![8192, 32]⟩
abbrev S128x1 : Shape := ⟨2, ![128, 1]⟩
abbrev S8192x128 : Shape := ⟨2, ![8192, 128]⟩
abbrev S8192x1 : Shape := ⟨2, ![8192, 1]⟩
abbrev S1024x256 : Shape := ⟨2, ![1024, 256]⟩
abbrev S1024x128 : Shape := ⟨2, ![1024, 128]⟩
abbrev S1024x1 : Shape := ⟨2, ![1024, 1]⟩
abbrev S1x8192 : Shape := ⟨2, ![1, 8192]⟩
abbrev S1x256 : Shape := ⟨2, ![1, 256]⟩
abbrev S1024x32 : Shape := ⟨2, ![1024, 32]⟩
abbrev S1024 : Shape := ⟨1, ![1024]⟩

abbrev nBuf : Space → Nat
  | .hbm => 11
  | .vmem => 23
  | .smem => 0
  | _ => 0

abbrev bufTy : (tb : Table) → Fin (tcTables nBuf tb) → BufTy
  | .hbm, ⟨0, _⟩ => ⟨S8192x256, .f32⟩
  | .hbm, ⟨1, _⟩ => ⟨S256x128, .f32⟩
  | .hbm, ⟨2, _⟩ => ⟨S256x1, .f32⟩
  | .hbm, ⟨3, _⟩ => ⟨S8192x32, .i32⟩
  | .hbm, ⟨4, _⟩ => ⟨S128x1, .f32⟩
  | .hbm, ⟨5, _⟩ => ⟨S128x1, .f32⟩
  | .hbm, ⟨6, _⟩ => ⟨S8192x128, .f32⟩
  | .hbm, ⟨7, _⟩ => ⟨S8192x1, .f32⟩
  | .hbm, ⟨8, _⟩ => ⟨S8192x1, .f32⟩
  | .hbm, ⟨9, _⟩ => ⟨S1x8192, .f32⟩
  | .hbm, ⟨10, _⟩ => ⟨S8192x128, .f32⟩
  | .local _ .vmem, ⟨0, _⟩ => ⟨S1024x256, .f32⟩
  | .local _ .vmem, ⟨1, _⟩ => ⟨S1024x256, .f32⟩
  | .local _ .vmem, ⟨2, _⟩ => ⟨S256x128, .f32⟩
  | .local _ .vmem, ⟨3, _⟩ => ⟨S128x1, .f32⟩
  | .local _ .vmem, ⟨4, _⟩ => ⟨S128x1, .f32⟩
  | .local _ .vmem, ⟨5, _⟩ => ⟨S1024x128, .f32⟩
  | .local _ .vmem, ⟨6, _⟩ => ⟨S1024x128, .f32⟩
  | .local _ .vmem, ⟨7, _⟩ => ⟨S1024x1, .f32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S8192x128, .f32⟩
  | .local _ .vmem, ⟨12, _⟩ => ⟨S1024x1, .f32⟩
  | .local _ .vmem, ⟨13, _⟩ => ⟨S1024x1, .f32⟩
  | .local _ .vmem, ⟨14, _⟩ => ⟨S1x256, .f32⟩
  | .local _ .vmem, ⟨15, _⟩ => ⟨S1x256, .f32⟩
  | .local _ .vmem, ⟨16, _⟩ => ⟨S1024x32, .i32⟩
  | .local _ .vmem, ⟨17, _⟩ => ⟨S1024x32, .i32⟩
  | .local _ .vmem, ⟨18, _⟩ => ⟨S1024x128, .f32⟩
  | .local _ .vmem, ⟨19, _⟩ => ⟨S1024x128, .f32⟩
  | .local _ .vmem, ⟨20, _⟩ => ⟨S1024x1, .f32⟩
  | .local _ .vmem, ⟨21, _⟩ => ⟨S1024x1, .f32⟩
  | .local _ .vmem, ⟨22, _⟩ => ⟨S1024x128, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_scratch0 : Ref sig .tc := ⟨.vmem, 20, rfl⟩
abbrev cc1_scratch1 : Ref sig .tc := ⟨.vmem, 21, rfl⟩
abbrev cc1_scratch2 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![8, 32], ![false, false]⟩

def k1_mult1 (i : grid1.Coords) : BitVec 32 :=
  let arg1 : BitVec 32 := BitVec.ofNat 32 (i 1).val
  let c256_i32 : BitVec 32 := 256#32
  let v4 : BitVec 32 := Scalar.muli arg1 c256_i32
  v4
def k1_off1 (i : grid1.Coords) : Fin 2 → Nat :=
  let arg1 : BitVec 32 := BitVec.ofNat 32 (i 1).val
  let c256_i32 : BitVec 32 := 256#32
  let v4 : BitVec 32 := Scalar.muli arg1 c256_i32
  let v250 : BitVec 32 := v4
  let v251 : Index := Scalar.indexCast v250
  let c0_53 : Index := 0#32
  ![v251.toNat, 0]
def k1_cond2 (i : grid1.Coords) : BitVec 1 :=
  let arg1 : BitVec 32 := BitVec.ofNat 32 (i 1).val
  let c31_i32 : BitVec 32 := 31#32
  let v267 : BitVec 1 := Scalar.cmpi .eq arg1 c31_i32
  let v268 : BitVec 32 := Scalar.extui v267
  let c0_i32_61 : BitVec 32 := 0#32
  let v269 : BitVec 1 := Scalar.cmpi .ne v268 c0_i32_61
  v269

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 1 → Memref sig .tc .vmem S8192x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S1024x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x32 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1024x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  slices_S256x1_S128x1_0_0 : S256x1.Slices ![0, 0] S128x1
  slices_S256x1_S128x1_128_0 : S256x1.Slices ![128, 0] S128x1
  inb_S1024x256_S1024x256_0_0 : ∀ a, (![0, 0] : Fin 2 → Nat) a + S1024x256.size a ≤ S1024x256.size a
  h_S1024x256 : 0 < S1024x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S1024x128_S1024x128_0_0 : ∀ a, (![0, 0] : Fin 2 → Nat) a + S1024x128.size a ≤ S1024x128.size a
  h_S1024x128 : 0 < S1024x128.numel
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1024x1_S1024x1_0_0 : ∀ a, (![0, 0] : Fin 2 → Nat) a + S1024x1.size a ≤ S1024x1.size a
  h_S1024x1 : 0 < S1024x1.numel
  shapeCasts_S8192x1_S1x8192 : S8192x1.ShapeCasts S1x8192
  shapeCasts_S1024x1_S1024x1 : S1024x1.ShapeCasts S1024x1
  shapeCasts_S1024x128_S1024x128 : S1024x128.ShapeCasts S1024x128
  iota_S1024x1_d0_w32 : S1024x1.Iotas .tc 32 [0]
  iota_S1x256_d1_w32 : S1x256.Iotas .tc 32 [1]
  inb_S1024x32_S1024x1_0_0 : ∀ a, (![0, 0] : Fin 2 → Nat) a + S1024x1.size a ≤ S1024x32.size a
  broadcasts_S1024x1_S1024x256 : S1024x1.Broadcasts S1024x256
  broadcasts_S1x256_S1024x256 : S1x256.Broadcasts S1024x256
  natLt_1_32 : 1 < 32
  inb_S1024x32_S1024x1_0_1 : ∀ a, (![0, 1] : Fin 2 → Nat) a + S1024x1.size a ≤ S1024x32.size a
  inb_S1024x32_S1024x1_0_2 : ∀ a, (![0, 2] : Fin 2 → Nat) a + S1024x1.size a ≤ S1024x32.size a
  inb_S1024x32_S1024x1_0_3 : ∀ a, (![0, 3] : Fin 2 → Nat) a + S1024x1.size a ≤ S1024x32.size a
  inb_S1024x32_S1024x1_0_4 : ∀ a, (![0, 4] : Fin 2 → Nat) a + S1024x1.size a ≤ S1024x32.size a
  inb_S1024x32_S1024x1_0_5 : ∀ a, (![0, 5] : Fin 2 → Nat) a + S1024x1.size a ≤ S1024x32.size a
  inb_S1024x32_S1024x1_0_6 : ∀ a, (![0, 6] : Fin 2 → Nat) a + S1024x1.size a ≤ S1024x32.size a
  inb_S1024x32_S1024x1_0_7 : ∀ a, (![0, 7] : Fin 2 → Nat) a + S1024x1.size a ≤ S1024x32.size a
  inb_S1024x32_S1024x1_0_8 : ∀ a, (![0, 8] : Fin 2 → Nat) a + S1024x1.size a ≤ S1024x32.size a
  inb_S1024x32_S1024x1_0_9 : ∀ a, (![0, 9] : Fin 2 → Nat) a + S1024x1.size a ≤ S1024x32.size a
  inb_S1024x32_S1024x1_0_10 : ∀ a, (![0, 10] : Fin 2 → Nat) a + S1024x1.size a ≤ S1024x32.size a
  inb_S1024x32_S1024x1_0_11 : ∀ a, (![0, 11] : Fin 2 → Nat) a + S1024x1.size a ≤ S1024x32.size a
  inb_S1024x32_S1024x1_0_12 : ∀ a, (![0, 12] : Fin 2 → Nat) a + S1024x1.size a ≤ S1024x32.size a
  inb_S1024x32_S1024x1_0_13 : ∀ a, (![0, 13] : Fin 2 → Nat) a + S1024x1.size a ≤ S1024x32.size a
  inb_S1024x32_S1024x1_0_14 : ∀ a, (![0, 14] : Fin 2 → Nat) a + S1024x1.size a ≤ S1024x32.size a
  inb_S1024x32_S1024x1_0_15 : ∀ a, (![0, 15] : Fin 2 → Nat) a + S1024x1.size a ≤ S1024x32.size a
  inb_S1024x32_S1024x1_0_16 : ∀ a, (![0, 16] : Fin 2 → Nat) a + S1024x1.size a ≤ S1024x32.size a
  inb_S1024x32_S1024x1_0_17 : ∀ a, (![0, 17] : Fin 2 → Nat) a + S1024x1.size a ≤ S1024x32.size a
  inb_S1024x32_S1024x1_0_18 : ∀ a, (![0, 18] : Fin 2 → Nat) a + S1024x1.size a ≤ S1024x32.size a
  inb_S1024x32_S1024x1_0_19 : ∀ a, (![0, 19] : Fin 2 → Nat) a + S1024x1.size a ≤ S1024x32.size a
  inb_S1024x32_S1024x1_0_20 : ∀ a, (![0, 20] : Fin 2 → Nat) a + S1024x1.size a ≤ S1024x32.size a
  inb_S1024x32_S1024x1_0_21 : ∀ a, (![0, 21] : Fin 2 → Nat) a + S1024x1.size a ≤ S1024x32.size a
  inb_S1024x32_S1024x1_0_22 : ∀ a, (![0, 22] : Fin 2 → Nat) a + S1024x1.size a ≤ S1024x32.size a
  inb_S1024x32_S1024x1_0_23 : ∀ a, (![0, 23] : Fin 2 → Nat) a + S1024x1.size a ≤ S1024x32.size a
  inb_S1024x32_S1024x1_0_24 : ∀ a, (![0, 24] : Fin 2 → Nat) a + S1024x1.size a ≤ S1024x32.size a
  inb_S1024x32_S1024x1_0_25 : ∀ a, (![0, 25] : Fin 2 → Nat) a + S1024x1.size a ≤ S1024x32.size a
  inb_S1024x32_S1024x1_0_26 : ∀ a, (![0, 26] : Fin 2 → Nat) a + S1024x1.size a ≤ S1024x32.size a
  inb_S1024x32_S1024x1_0_27 : ∀ a, (![0, 27] : Fin 2 → Nat) a + S1024x1.size a ≤ S1024x32.size a
  inb_S1024x32_S1024x1_0_28 : ∀ a, (![0, 28] : Fin 2 → Nat) a + S1024x1.size a ≤ S1024x32.size a
  inb_S1024x32_S1024x1_0_29 : ∀ a, (![0, 29] : Fin 2 → Nat) a + S1024x1.size a ≤ S1024x32.size a
  inb_S1024x32_S1024x1_0_30 : ∀ a, (![0, 30] : Fin 2 → Nat) a + S1024x1.size a ≤ S1024x32.size a
  inb_S1024x32_S1024x1_0_31 : ∀ a, (![0, 31] : Fin 2 → Nat) a + S1024x1.size a ≤ S1024x32.size a
  inb_S1x256_S1x256_0_0 : ∀ a, (![0, 0] : Fin 2 → Nat) a + S1x256.size a ≤ S1x256.size a
  h_S1x256 : 0 < S1x256.numel
  shapeCasts_S1x256_S1x256 : S1x256.ShapeCasts S1x256
  reduces_S1024x256_S1024 : S1024x256.Reduces [1] S1024
  shapeCasts_S1024_S1024x1 : S1024.ShapeCasts S1024x1
  shapeCasts_S256x128_S256x128 : S256x128.ShapeCasts S256x128
  broadcasts_S1024x1_S1024x128 : S1024x1.Broadcasts S1024x128
  dot_S1024x256_S256x128_S1024x128_1_0_0_1_n_n_wf : DotDims.WF S1024x256 S256x128 S1024x128 [1] [0] [0] [1] [] []
  dot_S1024x128_S128x1_S1024x1_1_0_0_1_n_n_wf : DotDims.WF S1024x128 S128x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S128x1.size a
  hwx0_2 : ∀ i : grid0.Coords, EltTy.bits .f32 = 32 ∨ (Rect.block (s := S128x1) S128x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x1.size a ≤ S128x1.size a
  hwx0_3 : ∀ i : grid0.Coords, EltTy.bits .f32 = 32 ∨ (Rect.block (s := S128x1) S128x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x128.size a ≤ S8192x128.size a
  hwx0_4 : ∀ i : grid0.Coords, EltTy.bits .f32 = 32 ∨ (Rect.block (s := S8192x128) S1024x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S8192x1.size a
  hwx0_5 : ∀ i : grid0.Coords, EltTy.bits .f32 = 32 ∨ (Rect.block (s := S8192x1) S1024x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1.size a ≤ S8192x1.size a
  hwx0_6 : ∀ i : grid0.Coords, EltTy.bits .f32 = 32 ∨ (Rect.block (s := S8192x1) S1024x1.size (cc0_transform_6 i) (hinb0_6 i)).WholeWords (EltTy.packing .f32)
  hrank1 : 0 < grid1.rank
  k1_mult1_dvd : ∀ i : grid1.Coords, 256 ∣ (k1_mult1 i).toNat
  k1_off1_inb : ∀ i : grid1.Coords, ∀ a, (k1_off1 i) a + S256x128.size a ≤ S8192x128.size a
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S8192x128.size a ≤ S8192x128.size a
  hwx1_0 : ∀ i : grid1.Coords, EltTy.bits .f32 = 32 ∨ (Rect.block (s := S8192x128) S8192x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1.size a ≤ S8192x1.size a
  hwx1_1 : ∀ i : grid1.Coords, EltTy.bits .f32 = 32 ∨ (Rect.block (s := S8192x1) S1024x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x8192.size a
  hwx1_2 : ∀ i : grid1.Coords, EltTy.bits .f32 = 32 ∨ (Rect.block (s := S1x8192) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x32.size a ≤ S8192x32.size a
  hwx1_3 : ∀ i : grid1.Coords, EltTy.bits .i32 = 32 ∨ (Rect.block (s := S8192x32) S1024x32.size (cc1_transform_3 i) (hinb1_3 i)).WholeWords (EltTy.packing .i32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x128.size a ≤ S8192x128.size a
  hwx1_4 : ∀ i : grid1.Coords, EltTy.bits .f32 = 32 ∨ (Rect.block (s := S8192x128) S1024x128.size (cc1_transform_4 i) (hinb1_4 i)).WholeWords (EltTy.packing .f32)

variable [Facts₀]

def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def dot_S1024x128_S128x1_S1024x1_1_0_0_1_n_n : DotDims S1024x128 S128x1 S1024x1 where
  lhsContracting := [1]
  rhsContracting := [0]
  lhsNonContracting := [0]
  rhsNonContracting := [1]
  lhsBatch := []
  rhsBatch := []
  wf := dot_S1024x128_S128x1_S1024x1_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S1024x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S1024x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2_2) S1024x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v2_0) S8192x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v2_1) S1024x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S1024x32.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v4) S1024x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S8192x256 : Shape := ⟨2, ![8192, 256]⟩
abbrev S256x128 : Shape := ⟨2, ![256, 128]⟩
abbrev S256x1 : Shape := ⟨2, ![256, 1]⟩
abbrev S8192x32 : Shape := ⟨2, ![8192, 32]⟩
abbrev S8192 : Shape := ⟨1, ![8192]⟩
abbrev S262144 : Shape := ⟨1, ![262144]⟩
abbrev S_ : Shape := ⟨0, ![]⟩
abbrev S8192x8192 : Shape := ⟨2, ![8192, 8192]⟩
abbrev S262144x1 : Shape := ⟨2, ![262144, 1]⟩
abbrev S262144x2 : Shape := ⟨2, ![262144, 2]⟩
abbrev S8192x1 : Shape := ⟨2, ![8192, 1]⟩
abbrev S8192x128 : Shape := ⟨2, ![8192, 128]⟩
abbrev S128x1 : Shape := ⟨2, ![128, 1]⟩
abbrev S1x8192 : Shape := ⟨2, ![1, 8192]⟩

abbrev nBuf : Space → Nat
  | .hbm => 102
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S256x128, .f32⟩
  | .hbm, ⟨2, _⟩ => ⟨S256x1, .f32⟩
  | .hbm, ⟨3, _⟩ => ⟨S8192x32, .i32⟩
  | .hbm, ⟨4, _⟩ => ⟨S8192, .i32⟩
  | .hbm, ⟨5, _⟩ => ⟨S8192x32, .i32⟩
  | .hbm, ⟨6, _⟩ => ⟨S262144, .i32⟩
  | .hbm, ⟨7, _⟩ => ⟨S_, .f32⟩
  | .hbm, ⟨8, _⟩ => ⟨S8192x8192, .f32⟩
  | .hbm, ⟨9, _⟩ => ⟨S262144, .i32⟩
  | .hbm, ⟨10, _⟩ => ⟨S_, .i32⟩
  | .hbm, ⟨11, _⟩ => ⟨S262144, .i32⟩
  | .hbm, ⟨12, _⟩ => ⟨S262144, .i1⟩
  | .hbm, ⟨13, _⟩ => ⟨S_, .i32⟩
  | .hbm, ⟨14, _⟩ => ⟨S262144, .i32⟩
  | .hbm, ⟨15, _⟩ => ⟨S262144, .i32⟩
  | .hbm, ⟨16, _⟩ => ⟨S262144, .i32⟩
  | .hbm, ⟨17, _⟩ => ⟨S_, .i32⟩
  | .hbm, ⟨18, _⟩ => ⟨S262144, .i32⟩
  | .hbm, ⟨19, _⟩ => ⟨S262144, .i1⟩
  | .hbm, ⟨20, _⟩ => ⟨S_, .i32⟩
  | .hbm, ⟨21, _⟩ => ⟨S262144, .i32⟩
  | .hbm, ⟨22, _⟩ => ⟨S262144, .i32⟩
  | .hbm, ⟨23, _⟩ => ⟨S262144, .i32⟩
  | .hbm, ⟨24, _⟩ => ⟨S262144x1, .i32⟩
  | .hbm, ⟨25, _⟩ => ⟨S262144x1, .i32⟩
  | .hbm, ⟨26, _⟩ => ⟨S262144x2, .i32⟩
  | .hbm, ⟨27, _⟩ => ⟨S_, .f32⟩
  | .hbm, ⟨28, _⟩ => ⟨S262144, .f32⟩
  | .hbm, ⟨29, _⟩ => ⟨S8192x8192, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S8192x8192, .f32⟩
  | .hbm, ⟨34, _⟩ => ⟨S8192x8192, .f32⟩
  | .hbm, ⟨35, _⟩ => ⟨S8192x8192, .i32⟩
  | .hbm, ⟨36, _⟩ => ⟨S8192x8192, .i32⟩
  | .hbm, ⟨37, _⟩ => ⟨S_, .i32⟩
  | .hbm, ⟨38, _⟩ => ⟨S8192x8192, .i32⟩
  | .hbm, ⟨39, _⟩ => ⟨S8192x8192, .i32⟩
  | .hbm, ⟨40, _⟩ => ⟨S8192x8192, .i1⟩
  | .hbm, ⟨41, _⟩ => ⟨S8192x8192, .f32⟩
  | .hbm, ⟨42, _⟩ => ⟨S8192x8192, .f32⟩
  | .hbm, ⟨43, _⟩ => ⟨S_, .f32⟩
  | .hbm, ⟨44, _⟩ => ⟨S8192, .f32⟩
  | .hbm, ⟨45, _⟩ => ⟨S8192x1, .f32⟩
  | .hbm, ⟨46, _⟩ => ⟨S8192x8192, .f32⟩
  | .hbm, ⟨47, _⟩ => ⟨S8192x8192, .f32⟩
  | .hbm, ⟨48, _⟩ => ⟨S8192x128, .f32⟩
  | .hbm, ⟨49, _⟩ => ⟨S128x1, .f32⟩
  | .hbm, ⟨50, _⟩ => ⟨S8192x1, .f32⟩
  | .hbm, ⟨51, _⟩ => ⟨S128x1, .f32⟩
  | .hbm, ⟨52, _⟩ => ⟨S8192x1, .f32⟩
  | .hbm, ⟨53, _⟩ => ⟨S1x8192, .f32⟩
  | .hbm, ⟨54, _⟩ => ⟨S8192x8192, .f32⟩
  | .hbm, ⟨55, _⟩ => ⟨S8192x8192, .f32⟩
  | .hbm, ⟨56, _⟩ => ⟨S8192x8192, .f32⟩
  | .hbm, ⟨57, _⟩ => ⟨S8192x8192, .f32⟩
  | .hbm, ⟨58, _⟩ => ⟨S_, .f32⟩
  | .hbm, ⟨59, _⟩ => ⟨S8192x8192, .f32⟩
  | .hbm, ⟨60, _⟩ => ⟨S8192x8192, .i1⟩
  | .hbm, ⟨61, _⟩ => ⟨S_, .f32⟩
  | .hbm, ⟨62, _⟩ => ⟨S8192x8192, .f32⟩
  | .hbm, ⟨63, _⟩ => ⟨S8192x8192, .f32⟩
  | .hbm, ⟨64, _⟩ => ⟨S8192x8192, .f32⟩
  | .hbm, ⟨65, _⟩ => ⟨S_, .f32⟩
  | .hbm, ⟨66, _⟩ => ⟨S8192x8192, .f32⟩
  | .hbm, ⟨67, _⟩ => ⟨S8192x8192, .i1⟩
  | .hbm, ⟨68, _⟩ => ⟨S_, .f32⟩
  | .hbm, ⟨69, _⟩ => ⟨S_, .f32⟩
  | .hbm, ⟨70, _⟩ => ⟨S8192x8192, .f32⟩
  | .hbm, ⟨71, _⟩ => ⟨S8192x8192, .f32⟩
  | .hbm, ⟨72, _⟩ => ⟨S_, .f32⟩
  | .hbm, ⟨73, _⟩ => ⟨S8192, .f32⟩
  | .hbm, ⟨74, _⟩ => ⟨S_, .f32⟩
  | .hbm, ⟨75, _⟩ => ⟨S8192, .f32⟩
  | .hbm, ⟨76, _⟩ => ⟨S8192, .f32⟩
  | .hbm, ⟨77, _⟩ => ⟨S8192x1, .f32⟩
  | .hbm, ⟨78, _⟩ => ⟨S8192x8192, .f32⟩
  | .hbm, ⟨79, _⟩ => ⟨S8192x8192, .f32⟩
  | .hbm, ⟨80, _⟩ => ⟨S8192x8192, .f32⟩
  | .hbm, ⟨81, _⟩ => ⟨S_, .f32⟩
  | .hbm, ⟨82, _⟩ => ⟨S8192, .f32⟩
  | .hbm, ⟨83, _⟩ => ⟨S8192x1, .f32⟩
  | .hbm, ⟨84, _⟩ => ⟨S8192x8192, .f32⟩
  | .hbm, ⟨85, _⟩ => ⟨S8192x8192, .f32⟩
  | .hbm, ⟨86, _⟩ => ⟨S8192x128, .f32⟩
  | .hbm, ⟨87, _⟩ => ⟨S_, .f32⟩
  | .hbm, ⟨88, _⟩ => ⟨S8192x128, .f32⟩
  | .hbm, ⟨89, _⟩ => ⟨S8192x128, .i1⟩
  | .hbm, ⟨90, _⟩ => ⟨S_, .f32⟩
  | .hbm, ⟨91, _⟩ => ⟨S8192x128, .f32⟩
  | .hbm, ⟨92, _⟩ => ⟨S8192x128, .i1⟩
  | .hbm, ⟨93, _⟩ => ⟨S_, .f32⟩
  | .hbm, ⟨94, _⟩ => ⟨S_, .f32⟩
  | .hbm, ⟨95, _⟩ => ⟨S8192x128, .f32⟩
  | .hbm, ⟨96, _⟩ => ⟨S8192x128, .f32⟩
  | .hbm, ⟨97, _⟩ => ⟨S8192x128, .f32⟩
  | .hbm, ⟨98, _⟩ => ⟨S_, .f32⟩
  | .hbm, ⟨99, _⟩ => ⟨S8192x128, .f32⟩
  | .hbm, ⟨100, _⟩ => ⟨S8192x128, .f32⟩
  | .hbm, ⟨101, _⟩ => ⟨S8192x128, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_7 : Ref sig .tc := ⟨.hbm, 58, rfl⟩
abbrev main_v45 : Ref sig .tc := ⟨.hbm, 59, rfl⟩
abbrev main_v46 : Ref sig .tc := ⟨.hbm, 60, rfl⟩
abbrev main_cst_8 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_9 : Ref sig .tc := ⟨.hbm, 65, rfl⟩
abbrev main_v50 : Ref sig .tc := ⟨.hbm, 66, rfl⟩
abbrev main_v51 : Ref sig .tc := ⟨.hbm, 67, rfl⟩
abbrev main_cst_10 : Ref sig .tc := ⟨.hbm, 68, rfl⟩
abbrev main_call1_v0 : Ref sig .tc := ⟨.hbm, 69, rfl⟩
abbrev main_call1_v1 : Ref sig .tc := ⟨.hbm, 70, rfl⟩
abbrev main_v52 : Ref sig .tc := ⟨.hbm, 71, rfl⟩
abbrev main_cst_11 : Ref sig .tc := ⟨.hbm, 72, rfl⟩
abbrev main_v53 : Ref sig .tc := ⟨.hbm, 73, rfl⟩
abbrev main_cst_12 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_13 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_call2_cst : Ref sig .tc := ⟨.hbm, 87, rfl⟩
abbrev main_call2_v0 : Ref sig .tc := ⟨.hbm, 88, rfl⟩
abbrev main_call2_v1 : Ref sig .tc := ⟨.hbm, 89, rfl⟩
abbrev main_call2_cst_0 : Ref sig .tc := ⟨.hbm, 90, rfl⟩
abbrev main_call2_v2 : Ref sig .tc := ⟨.hbm, 91, rfl⟩
abbrev main_call2_v3 : Ref sig .tc := ⟨.hbm, 92, rfl⟩
abbrev main_call2_cst_1 : Ref sig .tc := ⟨.hbm, 93, rfl⟩
abbrev main_call2_call0_v0 : Ref sig .tc := ⟨.hbm, 94, rfl⟩
abbrev main_call2_call0_v1 : Ref sig .tc := ⟨.hbm, 95, rfl⟩
abbrev main_call2_v4 : Ref sig .tc := ⟨.hbm, 96, rfl⟩
abbrev main_call2_v5 : Ref sig .tc := ⟨.hbm, 97, rfl⟩
abbrev main_call2_cst_2 : Ref sig .tc := ⟨.hbm, 98, rfl⟩
abbrev main_call2_v6 : Ref sig .tc := ⟨.hbm, 99, rfl⟩
abbrev main_call2_v7 : Ref sig .tc := ⟨.hbm, 100, rfl⟩
abbrev main_v65 : Ref sig .tc := ⟨.hbm, 101, rfl⟩

abbrev nD : Nat := 1
abbrev τ : Topo := Topo.v7x

variable {F : FTy → Type} [FloatOps F]

class Facts₀ : Prop where
  bcast_S8192_S8192x32_0 : S8192.BroadcastsInDim S8192x32 (![0] : Fin 1 → Fin S8192x32.rank)
  shapeCasts_S8192x32_S262144 : S8192x32.ShapeCasts S262144
  bcast_S_S8192x8192 : S_.BroadcastsInDim S8192x8192 (![] : Fin 0 → Fin S8192x8192.rank)
  bcast_S_S262144 : S_.BroadcastsInDim S262144 (![] : Fin 0 → Fin S262144.rank)
  bcast_S262144_S262144x1_0 : S262144.BroadcastsInDim S262144x1 (![0] : Fin 1 → Fin S262144x1.rank)
  concatenates_S262144x1_S262144x1_S262144x2_d1 : Shape.Concatenates [S262144x1, S262144x1] S262144x2 1
  reducesTo_S8192x8192_S8192_d1 : S8192x8192.ReducesTo [1] S8192
  h_S_ : 0 < S_.numel
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  slices_S256x1_S128x1_0_0 : S256x1.Slices ![0, 0] S128x1
  slices_S256x1_S128x1_128_0 : S256x1.Slices ![128, 0] S128x1
  transposes_S8192x1_S1x8192_1_0 : S8192x1.Transposes [1, 0] S1x8192
  bcast_S1x8192_S8192x8192_0_1 : S1x8192.BroadcastsInDim S8192x8192 (![0, 1] : Fin 2 → Fin S8192x8192.rank)
  bcast_S_S8192 : S_.BroadcastsInDim S8192 (![] : Fin 0 → Fin S8192.rank)
  bcast_S_S8192x128 : S_.BroadcastsInDim S8192x128 (![] : Fin 0 → Fin S8192x128.rank)
  scatter_S8192x8192_S262144x2_S262144_n_01_01_1_wf : ScatterDims.WF S8192x8192 S262144x2 S262144 [] [0, 1] [0, 1] 1
  dot_S8192x256_S256x128_S8192x128_1_0_0_1_n_n_wf : DotDims.WF S8192x256 S256x128 S8192x128 [1] [0] [0] [1] [] []
  dot_S8192x128_S128x1_S8192x1_1_0_0_1_n_n_wf : DotDims.WF S8192x128 S128x1 S8192x1 [1] [0] [0] [1] [] []
  dot_S8192x8192_S8192x128_S8192x128_1_0_0_1_n_n_wf : DotDims.WF S8192x8192 S8192x128 S8192x128 [1] [0] [0] [1] [] []

variable [Facts₀]

def scatter_S8192x8192_S262144x2_S262144_n_01_01_1 : ScatterDims S8192x8192 S262144x2 S262144 where
  updateWindowDims := []
  insertedWindowDims := [0, 1]
  scatterDimsToOperandDims := [0, 1]
  indexVectorDim := 1
  wf := scatter_S8192x8192_S262144x2_S262144_n_01_01_1_wf
def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf
def dot_S8192x128_S128x1_S8192x1_1_0_0_1_n_n : DotDims S8192x128 S128x1 S8192x1 where
  lhsContracting := [1]
  rhsContracting := [0]
  lhsNonContracting := [0]
  rhsNonContracting := [1]
  lhsBatch := []
  rhsBatch := []
  wf := dot_S8192x128_S128x1_S8192x1_1_0_0_1_n_n_wf
def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf

class Facts : Prop extends Facts₀ where

variable [Facts]
-- ==== Proof.R0.lean ====
/-
  Region 0 of the kernel program, at any float model: the projected features and the two logit halves of one
  tile of 1024 rows.

  The region's grid has 8 points; point t sees rows [1024·t, 1024·t + 1024) of the feature matrix (window 0),
  the whole weight matrix (window 1) and the two halves of the attention vector (windows 2 and 3), and writes the
  same rows of three arrays (windows 4, 5, 6). The body reads its four inputs whole, and stores, each once and whole,
    * into window 4 the product  x · W                       (payload 1),
    * into window 5 the product  (x · W) · a[0:128]          (payload 2),
    * into window 6 the product  (x · W) · a[128:256]        (payload 3).
  It reads each output's buffer before storing into it, and uses nothing of what it reads there. So after the body
  every input's buffer holds the block it held and each output's buffer holds its payload of the input blocks:
  that is the proof data below, and the body's triple is what the pipeline asks of it at every point.
-/
import proofs.«413656_j34187939676687_3_alg».proof.Proof.Gen.KernelIdeal.Launch
import proofs.«413656_j34187939676687_3_alg».proof.Proof.Gen.KernelIdeal.Skeleton
import proofs.«413656_j34187939676687_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window w's block at point t: the rows (or the whole) of its array that point t sees. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input's buffer holds its block at every point, whether the point fetched it or kept the block of the point
    before: the body leaves inputs in place, and an unfetched window's block index has not moved. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## What the body leaves in each output's buffer -/

/-- Window 4 after the body: x · W of the tile. -/
def out0_4 (x0 : Vec F S1024x256 .f32) (x1 : Vec F S256x128 .f32) : Vec F S1024x128 .f32 :=
  Gen.k0_pay1 x0 x1

/-- Window 5 after the body: (x · W) · (first half of a). -/
def out0_5 (x0 : Vec F S1024x256 .f32) (x1 : Vec F S256x128 .f32) (x2 : Vec F S128x1 .f32) : Vec F S1024x1 .f32 :=
  Gen.k0_pay2 x0 x1 x2

/-- Window 6 after the body: (x · W) · (second half of a). -/
def out0_6 (x0 : Vec F S1024x256 .f32) (x1 : Vec F S256x128 .f32) (x3 : Vec F S128x1 .f32) : Vec F S1024x1 .f32 :=
  Gen.k0_pay3 x0 x1 x3

/-! Every access of the body is to the whole of a buffer: at offsets zero, of the buffer's own sizes. -/

/-- The offsets of a whole-buffer access are all zero. -/
theorem zeroOff : (![0, 0] : Fin 2 → Nat) = fun _ => 0 := by
  funext a; fin_cases a <;> rfl

/-- A load of the whole of a buffer reads the buffer's contents. -/
theorem load_whole {κ : Kind} {sp : Space} {S : Shape} {e : EltTy} (v : View sig κ sp S e) (f : v.ty.Contents (Elt F))
    {off : Fin S.rank → Nat} (h : off = fun _ => 0) (inb : ∀ a, off a + S.size a ≤ S.size a) :
    v.readAt (Elt F) (Rect.unit off S.size inb).toLoadRect f = v.read (Elt F) f :=
  View.ld_unit_zero h inb (v.read (Elt F) f)

/-- A buffer stored into once, over its whole, reads as what was stored, whatever it held. -/
theorem read_store_whole {κ : Kind} {sp : Space} {S : Shape} {e : EltTy} (v : View sig κ sp S e) (f : v.ty.Contents (Elt F))
    {off : Fin S.rank → Nat} (h : off = fun _ => 0) (inb : ∀ a, off a + S.size a ≤ S.size a) (p : S.Idx → Elt F e) :
    v.read (Elt F) (v.writes (Elt F) f [⟨Rect.unit off S.size inb, p⟩]) = p := by
  rw [View.read_writes_eq_canon v f _ (fun y => ⟨_, List.mem_singleton_self _, View.mem_set_unit_zero h inb y⟩),
    View.canon_unit_zero h]

/-! ## The body's triple -/

set_option maxHeartbeats 1000000 in
/-- The body on whole buffers, the inputs' at x0 … x3 and the outputs' at anything, runs to the continuation holding the
    inputs' as they were and the outputs' at the three products. -/
theorem sound_kernel0 (c : Dev nD) (E : Set ℕ) (i : grid0.Coords)
    (arg1 : Memref sig .tc .vmem S1024x256 .f32) (harg1 : arg1.IsWhole) (arg2 : Memref sig .tc .vmem S256x128 .f32) (harg2 : arg2.IsWhole)
    (arg3 : Memref sig .tc .vmem S128x1 .f32) (harg3 : arg3.IsWhole) (arg4 : Memref sig .tc .vmem S128x1 .f32) (harg4 : arg4.IsWhole)
    (arg5 : Memref sig .tc .vmem S1024x128 .f32) (harg5 : arg5.IsWhole) (arg6 : Memref sig .tc .vmem S1024x1 .f32) (harg6 : arg6.IsWhole)
    (arg7 : Memref sig .tc .vmem S1024x1 .f32) (harg7 : arg7.IsWhole)
    (x0 : Vec F S1024x256 .f32) (x1 : Vec F S256x128 .f32) (x2 : Vec F S128x1 .f32) (x3 : Vec F S128x1 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out0_4 x0 x1) ∗ owns (c : Thread nD τ) arg6 fullShare (out0_5 x0 x1 x2)
            ∗ owns (c : Thread nD τ) arg7 fullShare (out0_6 x0 x1 x3)) -∗ K ⟨⟩))
      ⊢ wp frame (wpE (defs₀ (F := F)) Variants.none c none) E (cc0__hW_kernel i arg1 harg1 arg2 harg2 arg3 harg3 arg4 harg4 arg5 harg5 arg6 harg6 arg7 harg7) K := by
  simp only [cc0__hW_kernel_eq_skeleton]; unfold cc0__hW_kernel_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf1 hf2 hf3 hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    rw [read_store_whole _ _ zeroOff, load_whole _ _ zeroOff, load_whole _ _ zeroOff]; rfl
  isplitl [H6]
  · iexists _; isplitr
    swap; · iexact H6
    ipureintro
    rw [read_store_whole _ _ zeroOff, load_whole _ _ zeroOff, load_whole _ _ zeroOff, load_whole _ _ zeroOff]; rfl
  iexists _; isplitr
  swap; · iexact H7
  ipureintro
  rw [read_store_whole _ _ zeroOff, load_whole _ _ zeroOff, load_whole _ _ zeroOff, load_whole _ _ zeroOff]; rfl

/-! ## The region's proof data -/

/-- The arrays as the region finds them; after the body at point t each input's buffer at its block and each output's
    at its product of the input blocks; the invariant is the scoped rest and the generator register, untouched;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 1 t) (iblk0 V c 2 t)
    | ⟨6, _⟩ => out0_6 (iblk0 V c 0 t) (iblk0 V c 1 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 1 t) (iblk0 V c 2 t) := by dsimp only [dat0]
theorem after0_6 (c : Dev nD) (t : Fin cfg0.N) : (dat0 V c).after 6 t = out0_6 (iblk0 V c 0 t) (iblk0 V c 1 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's obligation on the body, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.R1Defs.lean ====
/-
  Region 1 of the kernel program (the attention call, grid 8 × 32): one run of its body updates three
  scratch buffers it carries across the 32 column steps of a row tile: a running row maximum m, a running
  denominator l and a running numerator acc. Here, what the body's runs and the region's proof data are
  both stated over: the rectangles the body reads through; the update as a pure function of the point's
  input blocks and of the scratch the point before left (reset to -inf, 0, 0 at column step 0); the output
  block of a scratch; the body's two conditionals, decided over the grid.
-/
import proofs.«413656_j34187939676687_3_alg».proof.Proof.Gen.KernelIdeal.Launch
import proofs.«413656_j34187939676687_3_alg».proof.Proof.Gen.KernelIdeal.Skeleton
import proofs.«413656_j34187939676687_3_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The rectangles the body reads through -/

/-- Column k of the neighbour block, k = 0 … 31: one word per row. -/
abbrev rNb0 : Rect S1024x32 := Rect.unit (s := S1024x32) ![0, 0] S1024x1.size inb_S1024x32_S1024x1_0_0
abbrev rNb1 : Rect S1024x32 := Rect.unit (s := S1024x32) ![0, 1] S1024x1.size inb_S1024x32_S1024x1_0_1
abbrev rNb2 : Rect S1024x32 := Rect.unit (s := S1024x32) ![0, 2] S1024x1.size inb_S1024x32_S1024x1_0_2
abbrev rNb3 : Rect S1024x32 := Rect.unit (s := S1024x32) ![0, 3] S1024x1.size inb_S1024x32_S1024x1_0_3
abbrev rNb4 : Rect S1024x32 := Rect.unit (s := S1024x32) ![0, 4] S1024x1.size inb_S1024x32_S1024x1_0_4
abbrev rNb5 : Rect S1024x32 := Rect.unit (s := S1024x32) ![0, 5] S1024x1.size inb_S1024x32_S1024x1_0_5
abbrev rNb6 : Rect S1024x32 := Rect.unit (s := S1024x32) ![0, 6] S1024x1.size inb_S1024x32_S1024x1_0_6
abbrev rNb7 : Rect S1024x32 := Rect.unit (s := S1024x32) ![0, 7] S1024x1.size inb_S1024x32_S1024x1_0_7
abbrev rNb8 : Rect S1024x32 := Rect.unit (s := S1024x32) ![0, 8] S1024x1.size inb_S1024x32_S1024x1_0_8
abbrev rNb9 : Rect S1024x32 := Rect.unit (s := S1024x32) ![0, 9] S1024x1.size inb_S1024x32_S1024x1_0_9
abbrev rNb10 : Rect S1024x32 := Rect.unit (s := S1024x32) ![0, 10] S1024x1.size inb_S1024x32_S1024x1_0_10
abbrev rNb11 : Rect S1024x32 := Rect.unit (s := S1024x32) ![0, 11] S1024x1.size inb_S1024x32_S1024x1_0_11
abbrev rNb12 : Rect S1024x32 := Rect.unit (s := S1024x32) ![0, 12] S1024x1.size inb_S1024x32_S1024x1_0_12
abbrev rNb13 : Rect S1024x32 := Rect.unit (s := S1024x32) ![0, 13] S1024x1.size inb_S1024x32_S1024x1_0_13
abbrev rNb14 : Rect S1024x32 := Rect.unit (s := S1024x32) ![0, 14] S1024x1.size inb_S1024x32_S1024x1_0_14
abbrev rNb15 : Rect S1024x32 := Rect.unit (s := S1024x32) ![0, 15] S1024x1.size inb_S1024x32_S1024x1_0_15
abbrev rNb16 : Rect S1024x32 := Rect.unit (s := S1024x32) ![0, 16] S1024x1.size inb_S1024x32_S1024x1_0_16
abbrev rNb17 : Rect S1024x32 := Rect.unit (s := S1024x32) ![0, 17] S1024x1.size inb_S1024x32_S1024x1_0_17
abbrev rNb18 : Rect S1024x32 := Rect.unit (s := S1024x32) ![0, 18] S1024x1.size inb_S1024x32_S1024x1_0_18
abbrev rNb19 : Rect S1024x32 := Rect.unit (s := S1024x32) ![0, 19] S1024x1.size inb_S1024x32_S1024x1_0_19
abbrev rNb20 : Rect S1024x32 := Rect.unit (s := S1024x32) ![0, 20] S1024x1.size inb_S1024x32_S1024x1_0_20
abbrev rNb21 : Rect S1024x32 := Rect.unit (s := S1024x32) ![0, 21] S1024x1.size inb_S1024x32_S1024x1_0_21
abbrev rNb22 : Rect S1024x32 := Rect.unit (s := S1024x32) ![0, 22] S1024x1.size inb_S1024x32_S1024x1_0_22
abbrev rNb23 : Rect S1024x32 := Rect.unit (s := S1024x32) ![0, 23] S1024x1.size inb_S1024x32_S1024x1_0_23
abbrev rNb24 : Rect S1024x32 := Rect.unit (s := S1024x32) ![0, 24] S1024x1.size inb_S1024x32_S1024x1_0_24
abbrev rNb25 : Rect S1024x32 := Rect.unit (s := S1024x32) ![0, 25] S1024x1.size inb_S1024x32_S1024x1_0_25
abbrev rNb26 : Rect S1024x32 := Rect.unit (s := S1024x32) ![0, 26] S1024x1.size inb_S1024x32_S1024x1_0_26
abbrev rNb27 : Rect S1024x32 := Rect.unit (s := S1024x32) ![0, 27] S1024x1.size inb_S1024x32_S1024x1_0_27
abbrev rNb28 : Rect S1024x32 := Rect.unit (s := S1024x32) ![0, 28] S1024x1.size inb_S1024x32_S1024x1_0_28
abbrev rNb29 : Rect S1024x32 := Rect.unit (s := S1024x32) ![0, 29] S1024x1.size inb_S1024x32_S1024x1_0_29
abbrev rNb30 : Rect S1024x32 := Rect.unit (s := S1024x32) ![0, 30] S1024x1.size inb_S1024x32_S1024x1_0_30
abbrev rNb31 : Rect S1024x32 := Rect.unit (s := S1024x32) ![0, 31] S1024x1.size inb_S1024x32_S1024x1_0_31
/-- The 256 rows of the projected features the column step reads: rows 256·step … 256·step + 255. -/
abbrev rHW (i : grid1.Coords) : Rect S8192x128 := Rect.unit (s := S8192x128) (k1_off1 i) S256x128.size (k1_off1_inb i)

/-! ## One column step as a pure function -/

/-- The carried scratch: the running row maximum, the running denominator, the running numerator. -/
abbrev Scr (F : FTy → Type) : Type := Vec F S1024x1 .f32 × Vec F S1024x1 .f32 × Vec F S1024x128 .f32

/-- The step's mask block, counts/64 + diagonal/2, from the grid point and the neighbour block: the 32
    word compares in the order the body makes them. -/
def maskOf (i : grid1.Coords) (x3 : Vec F S1024x32 .i32) : FVec F S1024x256 .f32 :=
  k1_pay15 (F := F) (k1_pay7 i) (k1_pay8 i)
    (k1_pay13 (F := F) (k1_pay8 i)
      (k1_pay12 (F := F) (k1_pay8 i)
        (k1_pay10 (F := F) (k1_pay8 i)
          (k1_pay9 (F := F) i (View.ld x3 rNb0) (View.ld x3 rNb1) (View.ld x3 rNb2) (View.ld x3 rNb3) (View.ld x3 rNb4))
          (View.ld x3 rNb5) (View.ld x3 rNb6) (View.ld x3 rNb7) (View.ld x3 rNb8) (View.ld x3 rNb9) (View.ld x3 rNb10) (View.ld x3 rNb11))
        (k1_pay11 (F := F) (View.ld x3 rNb12))
        (View.ld x3 rNb13) (View.ld x3 rNb14) (View.ld x3 rNb15) (View.ld x3 rNb16) (View.ld x3 rNb17) (View.ld x3 rNb18) (View.ld x3 rNb19))
      (View.ld x3 rNb20) (View.ld x3 rNb21) (View.ld x3 rNb22) (View.ld x3 rNb23) (View.ld x3 rNb24) (View.ld x3 rNb25) (View.ld x3 rNb26))
    (k1_pay14 (F := F) (View.ld x3 rNb27))
    (View.ld x3 rNb28) (View.ld x3 rNb29) (View.ld x3 rNb30) (View.ld x3 rNb31)

/-- The step's logit block h1 i + h2 j, from the two logit halves' blocks. -/
def logitOf (x1 : Vec F S1024x1 .f32) (x2 : Vec F S1x256 .f32) : FVec F S1024x256 .f32 :=
  k1_pay16 (F := F) x1 x2

/-- One column step on the scratch: the new maximum, the denominator and the numerator rescaled by
    exp(m_old - m_new) plus this step's terms (the numerator's against rows 256·step … of the projected
    features). -/
def stepUpd (i : grid1.Coords) (x0 : Vec F S8192x128 .f32) (x1 : Vec F S1024x1 .f32) (x2 : Vec F S1x256 .f32)
    (x3 : Vec F S1024x32 .i32) (s : Scr F) : Scr F :=
  (k1_pay2 (F := F) (k1_pay18 (F := F) (maskOf i x3) (logitOf x1 x2) s.1),
   k1_pay21 (F := F) (maskOf i x3) (logitOf x1 x2) s.1 s.1 s.2.1,
   k1_pay1 (F := F) (k1_pay22 (F := F) (maskOf i x3) (logitOf x1 x2) s.1 s.1 (View.ld x0 (rHW i)) s.2.2))

/-- Column step 0: the scratch is first reset to (-inf, 0, 0). -/
def stepA (i : grid1.Coords) (x0 : Vec F S8192x128 .f32) (x1 : Vec F S1024x1 .f32) (x2 : Vec F S1x256 .f32)
    (x3 : Vec F S1024x32 .i32) : Scr F :=
  stepUpd i x0 x1 x2 x3 (k1_pay4 (F := F), k1_pay5 (F := F), k1_pay6 (F := F))

/-- A column step strictly between the first and the last: the update of what the step before left. -/
def stepB (i : grid1.Coords) (x0 : Vec F S8192x128 .f32) (x1 : Vec F S1024x1 .f32) (x2 : Vec F S1x256 .f32)
    (x3 : Vec F S1024x32 .i32) (s : Scr F) : Scr F :=
  stepUpd i x0 x1 x2 x3 s

/-- Column step 31: the same update (the output block is then written from it, `outOf`). -/
def stepC (i : grid1.Coords) (x0 : Vec F S8192x128 .f32) (x1 : Vec F S1024x1 .f32) (x2 : Vec F S1x256 .f32)
    (x3 : Vec F S1024x32 .i32) (s : Scr F) : Scr F :=
  stepUpd i x0 x1 x2 x3 s

/-- The output block of a scratch: ELU(acc / l). Written at column step 31 only; at the other steps the
    output window is idle, not written back and not read by the next point, so the value named there is
    consulted by nothing. -/
def outOf (s : Scr F) : Vec F S1024x128 .f32 := k1_pay3 (F := F) s.2.2 s.2.1

/-! ## The body's two conditionals, decided over the grid -/

/-- "Column step = 0" as the body computes it from the grid point. -/
abbrev cond1_0 (i : grid1.Coords) : Prop :=
  (Scalar.cmpi .ne (Scalar.extui (Scalar.cmpi .eq (BitVec.ofNat 32 (i 1).val) 0#32)) 0#32) = 1#1
theorem hcond1_0 : ∀ t : Fin cfg1.N, cond1_0 (grid1.coords t) ↔ t.val % 32 = 0 :=
  (by decide +kernel : ∀ t : Fin grid1.N, cond1_0 (grid1.coords t) ↔ t.val % 32 = 0)

/-- "Column step = 31" as the body computes it. -/
abbrev cond1_1 (i : grid1.Coords) : Prop := k1_cond2 i = 1#1
theorem hcond1_1 : ∀ t : Fin cfg1.N, cond1_1 (grid1.coords t) ↔ t.val % 32 = 31 :=
  (by decide +kernel : ∀ t : Fin grid1.N, cond1_1 (grid1.coords t) ↔ t.val % 32 = 31)

/-- The output window is idle, and not written back, exactly off column step 31. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
theorem liveAt1_4 : ∀ t : Fin cfg1.N, cond1_1 (grid1.coords t) → cfg1.idle 4 (grid1.coords t) = false := by decide +kernel

/-- The zero offsets, however spelt. -/
theorem hz2 : (![0, 0] : Fin 2 → ℕ) = fun _ => 0 := by funext a; fin_cases a <;> rfl

end Cert.KernelIdeal.Hand

end
-- ==== Proof.R1Runs.lean ====
/-
  Region 1 of the kernel program (the attention call, grid 8 × 32): the body's run in each of its three control
  cases, at any float model.

  One run of the body, at the grid point i = (row tile, column step):
    * if the column step is 0, stores (-inf, 0, 0) over the whole of the three scratch buffers m, l, acc;
    * reads the 32 columns of the neighbour block, the two logit blocks, and the scratch m, l, acc; reads rows
      256·step … 256·step + 255 of the projected features; stores, each once and over its whole, the updated
      denominator into l, the updated numerator into acc and the updated maximum into m;
    * if the column step is 31, reads acc and l back and stores ELU(acc / l) over the whole of the output buffer.
  Every store is over the whole of a buffer, so what a buffer holds afterwards is the payload of the last store into
  it, and a scratch read after a store in the same run reads that store's payload. Read off in this way, the three
  scratch buffers end at the step function of the point's input blocks and of what the scratch held (the reset
  values at column step 0), and at column step 31 the output buffer ends at the output block of that scratch.
-/
import proofs.«413656_j34187939676687_3_alg».proof.Proof.R1Defs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## Whole-buffer accesses

Every store of the body, and every load of a scratch buffer or of a logit block, is over the whole of a buffer:
at offsets zero, of the buffer's own sizes. -/

/-- A load of the whole of a buffer reads the buffer's contents. -/
theorem readAt_whole {κ : Kind} {sp : Space} {S : Shape} {e : EltTy} (v : View sig κ sp S e) (f : v.ty.Contents (Elt F))
    {off : Fin S.rank → Nat} (h : off = fun _ => 0) (inb : ∀ a, off a + S.size a ≤ S.size a) :
    v.readAt (Elt F) (Rect.unit off S.size inb).toLoadRect f = v.read (Elt F) f :=
  View.ld_unit_zero h inb (v.read (Elt F) f)

/-- A buffer whose last store is over its whole reads as that store's payload, whatever was stored before. -/
theorem read_last_store_whole {κ : Kind} {sp : Space} {S : Shape} {e : EltTy} (v : View sig κ sp S e) (f : v.ty.Contents (Elt F))
    {off : Fin S.rank → Nat} (h : off = fun _ => 0) (inb : ∀ a, off a + S.size a ≤ S.size a) (p : S.Idx → Elt F e)
    (L : List (View.Piece (Elt F) S e)) :
    v.read (Elt F) (v.writes (Elt F) f (⟨Rect.unit off S.size inb, p⟩ :: L)) = p := by
  rw [View.read_writes_eq_canon v f _ (fun y => ⟨_, List.mem_cons.mpr (Or.inl rfl), View.mem_set_unit_zero h inb y⟩),
    View.canon_cons_unit_zero h]

/-! ## Column step 0 -/

set_option maxHeartbeats 4000000 in
/-- The first branch is taken: the three scratch buffers, found at anything, are reset and then updated once; the
    inputs and the output buffer are left as found. -/
theorem sound_kernel1_A (c : Dev nD) (i : grid1.Coords)
    (arg2 : Memref sig .tc .vmem S8192x128 .f32) (harg2 : arg2.IsWhole) (arg3 : Memref sig .tc .vmem S1024x1 .f32) (harg3 : arg3.IsWhole)
    (arg4 : Memref sig .tc .vmem S1x256 .f32) (harg4 : arg4.IsWhole) (arg5 : Memref sig .tc .vmem S1024x32 .i32) (harg5 : arg5.IsWhole)
    (arg6 : Memref sig .tc .vmem S1024x128 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x128 .f32) (harg9 : arg9.IsWhole)
    (hc0 : cond1_0 i) (hc1 : ¬cond1_1 i)
    (x0 : Vec F S8192x128 .f32) (x1 : Vec F S1024x1 .f32) (x2 : Vec F S1x256 .f32) (x3 : Vec F S1024x32 .i32) (xi4 : Vec F S1024x128 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ owns (c : Thread nD τ) arg7 fullShare (stepA i x0 x1 x2 x3).1 ∗ owns (c : Thread nD τ) arg8 fullShare (stepA i x0 x1 x2 x3).2.1
            ∗ owns (c : Thread nD τ) arg9 fullShare (stepA i x0 x1 x2 x3).2.2) -∗ K ⟨⟩))
      ⊢ wp frame (wpE (defs₀ (F := F)) Variants.none c none) E (cc1__attn_kernel i arg2 harg2 arg3 harg3 arg4 harg4 arg5 harg5 arg6 harg6 arg7 harg7 arg8 harg8 arg9 harg9) K := by
  simp only [cc1__attn_kernel_eq_skeleton]; unfold cc1__attn_kernel_skel
  simp only [k1_part1_eq_skeleton, k1_part2_eq_skeleton, k1_part3_eq_skeleton, k1_part4_eq_skeleton, k1_part5_eq_skeleton, k1_part6_eq_skeleton]
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf2 hf3 hf4 hf5 hf6
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    refine (read_last_store_whole _ _ hz2 _ _ _).trans ?_
    sl_unfold_run_names
    simp only [View.readAt_eq_ld, View.ld_unit_zero (S := S1024x1) hz2, View.ld_unit_zero (S := S1x256) hz2, View.ld_unit_zero (S := S1024x128) hz2, View.readCov_unit_zero (S := S1024x1) _ hz2, View.readCov_unit_zero (S := S1024x128) _ hz2]
    rfl
  isplitl [H8]
  · iexists _; isplitr
    swap; · iexact H8
    ipureintro
    refine (read_last_store_whole _ _ hz2 _ _ _).trans ?_
    sl_unfold_run_names
    simp only [View.readAt_eq_ld, View.ld_unit_zero (S := S1024x1) hz2, View.ld_unit_zero (S := S1x256) hz2, View.ld_unit_zero (S := S1024x128) hz2, View.readCov_unit_zero (S := S1024x1) _ hz2, View.readCov_unit_zero (S := S1024x128) _ hz2]
    rfl
  iexists _; isplitr
  swap; · iexact H9
  ipureintro
  refine (read_last_store_whole _ _ hz2 _ _ _).trans ?_
  sl_unfold_run_names
  simp only [View.readAt_eq_ld, View.ld_unit_zero (S := S1024x1) hz2, View.ld_unit_zero (S := S1x256) hz2, View.ld_unit_zero (S := S1024x128) hz2, View.readCov_unit_zero (S := S1024x1) _ hz2, View.readCov_unit_zero (S := S1024x128) _ hz2]
  rfl

/-! ## A column step strictly between the first and the last -/

set_option maxHeartbeats 4000000 in
/-- Neither branch is taken: the three scratch buffers, found at (sm, sl, sacc), are left at one update of them; the
    inputs and the output buffer are left as found. -/
theorem sound_kernel1_B (c : Dev nD) (i : grid1.Coords)
    (arg2 : Memref sig .tc .vmem S8192x128 .f32) (harg2 : arg2.IsWhole) (arg3 : Memref sig .tc .vmem S1024x1 .f32) (harg3 : arg3.IsWhole)
    (arg4 : Memref sig .tc .vmem S1x256 .f32) (harg4 : arg4.IsWhole) (arg5 : Memref sig .tc .vmem S1024x32 .i32) (harg5 : arg5.IsWhole)
    (arg6 : Memref sig .tc .vmem S1024x128 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x128 .f32) (harg9 : arg9.IsWhole)
    (hc0 : ¬cond1_0 i) (hc1 : ¬cond1_1 i)
    (x0 : Vec F S8192x128 .f32) (x1 : Vec F S1024x1 .f32) (x2 : Vec F S1x256 .f32) (x3 : Vec F S1024x32 .i32) (xi4 : Vec F S1024x128 .f32)
    (sm : Vec F S1024x1 .f32) (sl : Vec F S1024x1 .f32) (sacc : Vec F S1024x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
        ∗ owns (c : Thread nD τ) arg7 fullShare sm ∗ owns (c : Thread nD τ) arg8 fullShare sl ∗ owns (c : Thread nD τ) arg9 fullShare sacc
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ owns (c : Thread nD τ) arg7 fullShare (stepB i x0 x1 x2 x3 (sm, sl, sacc)).1 ∗ owns (c : Thread nD τ) arg8 fullShare (stepB i x0 x1 x2 x3 (sm, sl, sacc)).2.1
            ∗ owns (c : Thread nD τ) arg9 fullShare (stepB i x0 x1 x2 x3 (sm, sl, sacc)).2.2) -∗ K ⟨⟩))
      ⊢ wp frame (wpE (defs₀ (F := F)) Variants.none c none) E (cc1__attn_kernel i arg2 harg2 arg3 harg3 arg4 harg4 arg5 harg5 arg6 harg6 arg7 harg7 arg8 harg8 arg9 harg9) K := by
  simp only [cc1__attn_kernel_eq_skeleton]; unfold cc1__attn_kernel_skel
  simp only [k1_part1_eq_skeleton, k1_part2_eq_skeleton, k1_part3_eq_skeleton, k1_part4_eq_skeleton, k1_part5_eq_skeleton, k1_part6_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf2 hf3 hf4 hf5 hf6 hf7 hf8 hf9
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    refine (read_last_store_whole _ _ hz2 _ _ _).trans ?_
    sl_unfold_run_names
    simp only [View.readAt_eq_ld, View.ld_unit_zero (S := S1024x1) hz2, View.ld_unit_zero (S := S1x256) hz2, View.ld_unit_zero (S := S1024x128) hz2]
    rfl
  isplitl [H8]
  · iexists _; isplitr
    swap; · iexact H8
    ipureintro
    refine (read_last_store_whole _ _ hz2 _ _ _).trans ?_
    sl_unfold_run_names
    simp only [View.readAt_eq_ld, View.ld_unit_zero (S := S1024x1) hz2, View.ld_unit_zero (S := S1x256) hz2, View.ld_unit_zero (S := S1024x128) hz2]
    rfl
  iexists _; isplitr
  swap; · iexact H9
  ipureintro
  refine (read_last_store_whole _ _ hz2 _ _ _).trans ?_
  sl_unfold_run_names
  simp only [View.readAt_eq_ld, View.ld_unit_zero (S := S1024x1) hz2, View.ld_unit_zero (S := S1x256) hz2, View.ld_unit_zero (S := S1024x128) hz2]
  rfl

/-! ## Column step 31 -/

set_option maxHeartbeats 4000000 in
/-- The second branch is taken: the three scratch buffers, found at (sm, sl, sacc), are left at one update of them, and
    the output buffer, found at anything, at the output block of that update; the inputs are left as found. -/
theorem sound_kernel1_C (c : Dev nD) (i : grid1.Coords)
    (arg2 : Memref sig .tc .vmem S8192x128 .f32) (harg2 : arg2.IsWhole) (arg3 : Memref sig .tc .vmem S1024x1 .f32) (harg3 : arg3.IsWhole)
    (arg4 : Memref sig .tc .vmem S1x256 .f32) (harg4 : arg4.IsWhole) (arg5 : Memref sig .tc .vmem S1024x32 .i32) (harg5 : arg5.IsWhole)
    (arg6 : Memref sig .tc .vmem S1024x128 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x128 .f32) (harg9 : arg9.IsWhole)
    (hc0 : ¬cond1_0 i) (hc1 : cond1_1 i)
    (x0 : Vec F S8192x128 .f32) (x1 : Vec F S1024x1 .f32) (x2 : Vec F S1x256 .f32) (x3 : Vec F S1024x32 .i32)
    (sm : Vec F S1024x1 .f32) (sl : Vec F S1024x1 .f32) (sacc : Vec F S1024x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
        ∗ owns (c : Thread nD τ) arg7 fullShare sm ∗ owns (c : Thread nD τ) arg8 fullShare sl ∗ owns (c : Thread nD τ) arg9 fullShare sacc
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (outOf (stepC i x0 x1 x2 x3 (sm, sl, sacc)))
            ∗ owns (c : Thread nD τ) arg7 fullShare (stepC i x0 x1 x2 x3 (sm, sl, sacc)).1 ∗ owns (c : Thread nD τ) arg8 fullShare (stepC i x0 x1 x2 x3 (sm, sl, sacc)).2.1
            ∗ owns (c : Thread nD τ) arg9 fullShare (stepC i x0 x1 x2 x3 (sm, sl, sacc)).2.2) -∗ K ⟨⟩))
      ⊢ wp frame (wpE (defs₀ (F := F)) Variants.none c none) E (cc1__attn_kernel i arg2 harg2 arg3 harg3 arg4 harg4 arg5 harg5 arg6 harg6 arg7 harg7 arg8 harg8 arg9 harg9) K := by
  simp only [cc1__attn_kernel_eq_skeleton]; unfold cc1__attn_kernel_skel
  simp only [k1_part1_eq_skeleton, k1_part2_eq_skeleton, k1_part3_eq_skeleton, k1_part4_eq_skeleton, k1_part5_eq_skeleton, k1_part6_eq_skeleton]
  unfold owns
  iintro ⟨⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, Hk⟩
  subst hf2 hf3 hf4 hf5 hf7 hf8 hf9
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    refine (read_last_store_whole _ _ hz2 _ _ _).trans ?_
    sl_unfold_run_names
    simp only [View.readAt_eq_ld, View.ld_unit_zero (S := S1024x1) hz2, View.ld_unit_zero (S := S1x256) hz2, View.ld_unit_zero (S := S1024x128) hz2, View.readCov_unit_zero (S := S1024x1) _ hz2, View.readCov_unit_zero (S := S1024x128) _ hz2]
    rfl
  isplitl [H7]
  · iexists _; isplitr
    swap; · iexact H7
    ipureintro
    refine (read_last_store_whole _ _ hz2 _ _ _).trans ?_
    sl_unfold_run_names
    simp only [View.readAt_eq_ld, View.ld_unit_zero (S := S1024x1) hz2, View.ld_unit_zero (S := S1x256) hz2, View.ld_unit_zero (S := S1024x128) hz2, View.readCov_unit_zero (S := S1024x1) _ hz2, View.readCov_unit_zero (S := S1024x128) _ hz2]
    rfl
  isplitl [H8]
  · iexists _; isplitr
    swap; · iexact H8
    ipureintro
    refine (read_last_store_whole _ _ hz2 _ _ _).trans ?_
    sl_unfold_run_names
    simp only [View.readAt_eq_ld, View.ld_unit_zero (S := S1024x1) hz2, View.ld_unit_zero (S := S1x256) hz2, View.ld_unit_zero (S := S1024x128) hz2, View.readCov_unit_zero (S := S1024x1) _ hz2, View.readCov_unit_zero (S := S1024x128) _ hz2]
    rfl
  iexists _; isplitr
  swap; · iexact H9
  ipureintro
  refine (read_last_store_whole _ _ hz2 _ _ _).trans ?_
  sl_unfold_run_names
  simp only [View.readAt_eq_ld, View.ld_unit_zero (S := S1024x1) hz2, View.ld_unit_zero (S := S1x256) hz2, View.ld_unit_zero (S := S1024x128) hz2, View.readCov_unit_zero (S := S1024x1) _ hz2, View.readCov_unit_zero (S := S1024x128) _ hz2]
  rfl

end Cert.KernelIdeal.Hand

end
-- ==== Proof.R1.lean ====
/-
  Region 1 of the kernel program (the attention call, grid 8 × 32), over the step functions of the
  definitions module: the windows' blocks; the scratch (running maximum, denominator, numerator) and the
  output block point by point, with their equations at the three kinds of column step; the invariant
  that carries the scratch across the points; the proof data; the body obligation, from the three runs of
  the body (one per kind of column step).
-/
import proofs.«413656_j34187939676687_3_alg».proof.Proof.R1Defs
import proofs.«413656_j34187939676687_3_alg».proof.Proof.R1Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The windows' blocks and the scratch point by point -/

section Region
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The scratch after the body at position `n`: column step 0 of a row tile (n ≡ 0 mod 32) restarts from the
    reset scratch, every other step updates what position `n - 1` left. -/
def scrAt1 (c : Dev nD) : (n : ℕ) → n < cfg1.N → Scr F
  | 0, hn => stepA (grid1.coords ⟨0, hn⟩) (iblk1 V c 0 ⟨0, hn⟩) (iblk1 V c 1 ⟨0, hn⟩) (iblk1 V c 2 ⟨0, hn⟩) (iblk1 V c 3 ⟨0, hn⟩)
  | n + 1, hn =>
    if (n + 1) % 32 = 0 then
      stepA (grid1.coords ⟨n + 1, hn⟩) (iblk1 V c 0 ⟨n + 1, hn⟩) (iblk1 V c 1 ⟨n + 1, hn⟩) (iblk1 V c 2 ⟨n + 1, hn⟩) (iblk1 V c 3 ⟨n + 1, hn⟩)
    else if (n + 1) % 32 = 31 then
      stepC (grid1.coords ⟨n + 1, hn⟩) (iblk1 V c 0 ⟨n + 1, hn⟩) (iblk1 V c 1 ⟨n + 1, hn⟩) (iblk1 V c 2 ⟨n + 1, hn⟩) (iblk1 V c 3 ⟨n + 1, hn⟩) (scrAt1 c n (Nat.lt_of_succ_lt hn))
    else
      stepB (grid1.coords ⟨n + 1, hn⟩) (iblk1 V c 0 ⟨n + 1, hn⟩) (iblk1 V c 1 ⟨n + 1, hn⟩) (iblk1 V c 2 ⟨n + 1, hn⟩) (iblk1 V c 3 ⟨n + 1, hn⟩) (scrAt1 c n (Nat.lt_of_succ_lt hn))

/-- After position `k`: the output block, then the scratch (m, l, acc). -/
def outsAt1 (c : Dev nD) (k : ℕ) (hk : k < cfg1.N) :
    Vec F S1024x128 .f32 × (Vec F S1024x1 .f32 × Vec F S1024x1 .f32 × Vec F S1024x128 .f32) :=
  (outOf (scrAt1 V c k hk), scrAt1 V c k hk)

/-- At column step 0. -/
theorem scrAt1_A (c : Dev nD) (t : Fin cfg1.N) (h0 : t.val % 32 = 0) :
    scrAt1 V c t.val t.isLt = stepA (grid1.coords t) (iblk1 V c 0 t) (iblk1 V c 1 t) (iblk1 V c 2 t) (iblk1 V c 3 t) := by
  obtain ⟨n, hn⟩ := t
  cases n with
  | zero => rfl
  | succ n => exact if_pos h0

theorem scrAt1_B (c : Dev nD) (t : Fin cfg1.N) (h0 : ¬t.val % 32 = 0) (h1 : ¬t.val % 32 = 31) :
    scrAt1 V c t.val t.isLt = stepB (grid1.coords t) (iblk1 V c 0 t) (iblk1 V c 1 t) (iblk1 V c 2 t) (iblk1 V c 3 t)
      (scrAt1 V c (t.val - 1) (Nat.lt_of_le_of_lt (Nat.sub_le _ _) t.isLt)) := by
  obtain ⟨n, hn⟩ := t
  cases n with
  | zero => exact absurd (Nat.zero_mod _) h0
  | succ n => exact (if_neg h0).trans (if_neg h1)

theorem scrAt1_C (c : Dev nD) (t : Fin cfg1.N) (h1 : t.val % 32 = 31) :
    scrAt1 V c t.val t.isLt = stepC (grid1.coords t) (iblk1 V c 0 t) (iblk1 V c 1 t) (iblk1 V c 2 t) (iblk1 V c 3 t)
      (scrAt1 V c (t.val - 1) (Nat.lt_of_le_of_lt (Nat.sub_le _ _) t.isLt)) := by
  obtain ⟨n, hn⟩ := t
  cases n with
  | zero => exfalso; (try dsimp only at h1); omega
  | succ n =>
    have h0 : ¬(n + 1) % 32 = 0 := fun h => by (try dsimp only at h1); omega
    exact (if_neg h0).trans (if_pos h1)

theorem outsAt1_A (c : Dev nD) (t : Fin cfg1.N) (h0 : t.val % 32 = 0) :
    outsAt1 V c t.val t.isLt
      = (outOf (stepA (grid1.coords t) (iblk1 V c 0 t) (iblk1 V c 1 t) (iblk1 V c 2 t) (iblk1 V c 3 t)),
         stepA (grid1.coords t) (iblk1 V c 0 t) (iblk1 V c 1 t) (iblk1 V c 2 t) (iblk1 V c 3 t)) := by
  unfold outsAt1; rw [scrAt1_A V c t h0]

/-- At a column step strictly between 0 and 31: over what the point before left. -/
theorem outsAt1_B (c : Dev nD) (t : Fin cfg1.N) (h0 : ¬t.val % 32 = 0) (h1 : ¬t.val % 32 = 31) :
    outsAt1 V c t.val t.isLt
      = (outOf (stepB (grid1.coords t) (iblk1 V c 0 t) (iblk1 V c 1 t) (iblk1 V c 2 t) (iblk1 V c 3 t)
            (outsAt1 V c (t.val - 1) (Nat.lt_of_le_of_lt (Nat.sub_le _ _) t.isLt)).2),
         stepB (grid1.coords t) (iblk1 V c 0 t) (iblk1 V c 1 t) (iblk1 V c 2 t) (iblk1 V c 3 t)
            (outsAt1 V c (t.val - 1) (Nat.lt_of_le_of_lt (Nat.sub_le _ _) t.isLt)).2) := by
  unfold outsAt1; rw [scrAt1_B V c t h0 h1]

/-- At column step 31: over what the point before left. -/
theorem outsAt1_C (c : Dev nD) (t : Fin cfg1.N) (h1 : t.val % 32 = 31) :
    outsAt1 V c t.val t.isLt
      = (outOf (stepC (grid1.coords t) (iblk1 V c 0 t) (iblk1 V c 1 t) (iblk1 V c 2 t) (iblk1 V c 3 t)
            (outsAt1 V c (t.val - 1) (Nat.lt_of_le_of_lt (Nat.sub_le _ _) t.isLt)).2),
         stepC (grid1.coords t) (iblk1 V c 0 t) (iblk1 V c 1 t) (iblk1 V c 2 t) (iblk1 V c 3 t)
            (outsAt1 V c (t.val - 1) (Nat.lt_of_le_of_lt (Nat.sub_le _ _) t.isLt)).2) := by
  unfold outsAt1; rw [scrAt1_C V c t h1]

/-! ## The invariant carrying the scratch -/

/-- The three scratch operands: whole scoped buffers of the call's own. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x128 .f32 := Memref.whole cc1_scratch2

/-- The core's scoped buffers that region 1 neither stages through nor uses as scratch (region 0's staging
    buffers), each at some contents. -/
def rest1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg5_1), ((c : Thread nD τ).loc cc0_stg5_1) ↦{fullShare} f)
    ∗ (∃ f : Buf (Elt F) ((c : Thread nD τ).loc cc0_stg6_0), ((c : Thread nD τ).loc cc0_stg6_0) ↦{fullShare} f)
    ∗ (∃ f : Buf (Elt F) ((c : Thread nD τ).loc cc0_stg6_1), ((c : Thread nD τ).loc cc0_stg6_1) ↦{fullShare} f))

/-- What the launch hands the region gives the scratch operands as memrefs owned at some contents, -/
theorem PhiA1_split (c : Dev nD) :
    (Pipeline.ΦA spec1 c : sProp 𝕄)
      ⊢ iprop(iprop(rest1 (F := F) c ∗ (∃ d, owns (c : Thread nD τ) scM1_0 fullShare d)
          ∗ (∃ d, owns (c : Thread nD τ) scM1_1 fullShare d) ∗ (∃ d, owns (c : Thread nD τ) scM1_2 fullShare d))
        ∗ (∃ r, prngReg c r)) := by
  unfold Pipeline.ΦA rest1; rw [scopedRest1_eq]
  simp only [scM1_0, scM1_1, scM1_2, owns_whole]
  iintro ⟨⟨R0, R1, R2, R3, R4, R5, R6, R7, R8, R9, R10, S0, S1, S2⟩, Hg⟩
  iframe

/-- and is given back from them. -/
theorem PhiA1_join (c : Dev nD) :
    iprop(iprop(rest1 (F := F) c ∗ (∃ d, owns (c : Thread nD τ) scM1_0 fullShare d)
          ∗ (∃ d, owns (c : Thread nD τ) scM1_1 fullShare d) ∗ (∃ d, owns (c : Thread nD τ) scM1_2 fullShare d))
        ∗ (∃ r, prngReg c r))
      ⊢ (Pipeline.ΦA spec1 c : sProp 𝕄) := by
  unfold Pipeline.ΦA rest1; rw [scopedRest1_eq]
  simp only [scM1_0, scM1_1, scM1_2, owns_whole]
  iintro ⟨⟨⟨R0, R1, R2, R3, R4, R5, R6, R7, R8, R9, R10⟩, S0, S1, S2⟩, Hg⟩
  iframe

/-- The region invariant before position `n`: before the first point what the launch hands over (every
    scratch at anything); afterwards the three scratch buffers at what the point before left. -/
def PhiS1 (c : Dev nD) : (n : ℕ) → n ≤ cfg1.N → sProp 𝕄
  | 0, _ => Pipeline.ΦA spec1 c
  | n + 1, hn =>
    iprop(iprop(rest1 (F := F) c ∗ owns (c : Thread nD τ) scM1_0 fullShare ((outsAt1 V c n hn).2.1)
        ∗ owns (c : Thread nD τ) scM1_1 fullShare ((outsAt1 V c n hn).2.2.1)
        ∗ owns (c : Thread nD τ) scM1_2 fullShare ((outsAt1 V c n hn).2.2.2))
      ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn
      = iprop(iprop(rest1 (F := F) c ∗ owns (c : Thread nD τ) scM1_0 fullShare ((outsAt1 V c n hn).2.1)
          ∗ owns (c : Thread nD τ) scM1_1 fullShare ((outsAt1 V c n hn).2.2.1)
          ∗ owns (c : Thread nD τ) scM1_2 fullShare ((outsAt1 V c n hn).2.2.2))
        ∗ (∃ r, prngReg c r)) := rfl

theorem PhiS1_pos (c : Dev nD) (n : ℕ) (h : n ≤ cfg1.N) (hz : n ≠ 0) :
    PhiS1 V c n h
      = iprop(iprop(rest1 (F := F) c ∗ owns (c : Thread nD τ) scM1_0 fullShare ((outsAt1 V c (n - 1) (by omega)).2.1)
          ∗ owns (c : Thread nD τ) scM1_1 fullShare ((outsAt1 V c (n - 1) (by omega)).2.2.1)
          ∗ owns (c : Thread nD τ) scM1_2 fullShare ((outsAt1 V c (n - 1) (by omega)).2.2.2))
        ∗ (∃ r, prngReg c r)) := by
  cases n with
  | zero => exact absurd rfl hz
  | succ n => rfl

/-! ## The proof data -/

/-- Region 1's proof data on core `c`: the arrays as the region finds them; after the body at point `t` each
    input's buffer at its block and the output's at `outsAt1`'s first component; the invariant `PhiS1`;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

/-! ## The body obligation -/

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-- The input windows are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl

/-- Each input's current staging buffer holds its block at every point, fetched there or not: unfetched, the
    block index has not moved and the body left the block in place. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)

/-- Each window's current staging memref at point `t`, spelt as the pipeline passes it to the body. -/
abbrev ms1_0 (t : Fin cfg1.N) : Memref sig .tc .vmem S8192x128 .f32 := win1_0.stage (cfg1.slots t 0)
abbrev ms1_1 (t : Fin cfg1.N) : Memref sig .tc .vmem S1024x1 .f32 := win1_1.stage (cfg1.slots t 1)
abbrev ms1_2 (t : Fin cfg1.N) : Memref sig .tc .vmem S1x256 .f32 := win1_2.stage (cfg1.slots t 2)
abbrev ms1_3 (t : Fin cfg1.N) : Memref sig .tc .vmem S1024x32 .i32 := win1_3.stage (cfg1.slots t 3)
abbrev ms1_4 (t : Fin cfg1.N) : Memref sig .tc .vmem S1024x128 .f32 := win1_4.stage (cfg1.slots t 4)

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t
    ∗ (dat1 V c).leavesExact 3 t ∗ (dat1 V c).leavesExact 4 t)

set_option maxHeartbeats 4800000 in
/-- The body at any point. The inputs' memrefs hold their blocks; the point's column step says which of the
    three runs applies; the invariant hands the body the scratch at what the point before left (at anything
    before the first point, where the step is 0 and the body resets it) and takes it back at this point's;
    off step 31 the output buffer is handed back as it came, at step 31 it holds the output block. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  have hN : t.val < 256 := lt_of_lt_of_eq t.isLt (show cfg1.N = 256 from N_1)
  by_cases h1 : t.val % 32 = 31
  · have h0 : ¬t.val % 32 = 0 := by omega
    have hz : t.val ≠ 0 := by omega
    rw [show (dat1 V c).leavesExact 4 t = owns (c : Thread nD τ) (ms1_4 t) fullShare ((dat1 V c).after 4 t) from by
      unfold Dat.leavesExact; rw [liveAt1_4 t ((hcond1_1 t).mpr h1)], after1_4]
    rw [outsAt1_C V c t h1]
    (try dsimp only)
    rw [PhiS1_castSucc V c t, PhiS1_pos V c _ _ hz]
    iintro ⟨⟨⟨Hr, HS0, HS1, HS2⟩, Hg⟩, Ho, ⟨%d0, H0⟩, ⟨%d1, H1⟩, ⟨%d2, H2⟩, ⟨%d3, H3⟩, ⟨%d4, H4⟩⟩
    iapply (sound_kernel1_C c (grid1.coords t) _ _ _ _ _ _ _ _ _ _ _ _ _ _ _ _ (fun h => h0 ((hcond1_0 t).mp h)) ((hcond1_1 t).mpr h1)
      (iblk1 V c 0 t) (iblk1 V c 1 t) (iblk1 V c 2 t) (iblk1 V c 3 t) _ _ _ Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    isplitl [HS2]; · iexact HS2
    iintro ⟨H0, H1, H2, H3, H4, HS0, HS1, HS2⟩
    isplitl [Hr HS0 HS1 HS2 Hg]
    · isplitr [Hg]
      · isplitl [Hr]; · iexact Hr
        isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    iexact H4
  · rw [Dat.leavesExact_idle (dat1 V c) 4 t (idleAt1_4 t (fun h => h1 ((hcond1_1 t).mp h))) (noFlush1_4 t (fun h => h1 ((hcond1_1 t).mp h)))]
    by_cases h0 : t.val % 32 = 0
    · rw [outsAt1_A V c t h0]
      (try dsimp only)
      by_cases hz : t.val = 0
      · rw [PhiS1_castSucc V c t, PhiS1_zero V c _ _ hz]
        iintro ⟨HP, Ho, ⟨%d0, H0⟩, ⟨%d1, H1⟩, ⟨%d2, H2⟩, ⟨%d3, H3⟩, ⟨%d4, H4⟩⟩
        ihave HP2 := (PhiA1_split (F := F) c) $$ HP
        icases HP2 with ⟨⟨Hr, HS0, HS1, HS2⟩, Hg⟩
        iapply (sound_kernel1_A c (grid1.coords t) _ _ _ _ _ _ _ _ _ _ _ _ _ _ _ _ ((hcond1_0 t).mpr h0) (fun h => h1 ((hcond1_1 t).mp h))
          (iblk1 V c 0 t) (iblk1 V c 1 t) (iblk1 V c 2 t) (iblk1 V c 3 t) _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        iintro ⟨H0, H1, H2, H3, H4, HS0, HS1, HS2⟩
        isplitl [Hr HS0 HS1 HS2 Hg]
        · isplitr [Hg]
          · isplitl [Hr]; · iexact Hr
            isplitl [HS0]; · iexact HS0
            isplitl [HS1]; · iexact HS1
            iexact HS2
          iexact Hg
        isplitl [Ho]; · iexact Ho
        isplitl [H0]; · iexact H0
        isplitl [H1]; · iexact H1
        isplitl [H2]; · iexact H2
        isplitl [H3]; · iexact H3
        iexists _; iexact H4
      · rw [PhiS1_castSucc V c t, PhiS1_pos V c _ _ hz]
        iintro ⟨⟨⟨Hr, HS0, HS1, HS2⟩, Hg⟩, Ho, ⟨%d0, H0⟩, ⟨%d1, H1⟩, ⟨%d2, H2⟩, ⟨%d3, H3⟩, ⟨%d4, H4⟩⟩
        iapply (sound_kernel1_A c (grid1.coords t) _ _ _ _ _ _ _ _ _ _ _ _ _ _ _ _ ((hcond1_0 t).mpr h0) (fun h => h1 ((hcond1_1 t).mp h))
          (iblk1 V c 0 t) (iblk1 V c 1 t) (iblk1 V c 2 t) (iblk1 V c 3 t) _ Set.univ _)
        isplitl [H0]; · iexact H0
        isplitl [H1]; · iexact H1
        isplitl [H2]; · iexact H2
        isplitl [H3]; · iexact H3
        isplitl [H4]; · iexact H4
        isplitl [HS0]; · iexists _; iexact HS0
        isplitl [HS1]; · iexists _; iexact HS1
        isplitl [HS2]; · iexists _; iexact HS2
        iintro ⟨H0, H1, H2, H3, H4, HS0, HS1, HS2⟩
        isplitl [Hr HS0 HS1 HS2 Hg]
        · isplitr [Hg]
          · isplitl [Hr]; · iexact Hr
            isplitl [HS0]; · iexact HS0
            isplitl [HS1]; · iexact HS1
            iexact HS2
          iexact Hg
        isplitl [Ho]; · iexact Ho
        isplitl [H0]; · iexact H0
        isplitl [H1]; · iexact H1
        isplitl [H2]; · iexact H2
        isplitl [H3]; · iexact H3
        iexists _; iexact H4
    · have hz : t.val ≠ 0 := fun h => h0 (by rw [h])
      rw [outsAt1_B V c t h0 h1]
      (try dsimp only)
      rw [PhiS1_castSucc V c t, PhiS1_pos V c _ _ hz]
      iintro ⟨⟨⟨Hr, HS0, HS1, HS2⟩, Hg⟩, Ho, ⟨%d0, H0⟩, ⟨%d1, H1⟩, ⟨%d2, H2⟩, ⟨%d3, H3⟩, ⟨%d4, H4⟩⟩
      iapply (sound_kernel1_B c (grid1.coords t) _ _ _ _ _ _ _ _ _ _ _ _ _ _ _ _ (fun h => h0 ((hcond1_0 t).mp h)) (fun h => h1 ((hcond1_1 t).mp h))
        (iblk1 V c 0 t) (iblk1 V c 1 t) (iblk1 V c 2 t) (iblk1 V c 3 t) _ _ _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, HS0, HS1, HS2⟩
      isplitl [Hr HS0 HS1 HS2 Hg]
      · isplitr [Hg]
        · isplitl [Hr]; · iexact Hr
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives it back: the scratch's named contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 256 := N_1; omega)]
  refine BIBase.Entails.trans ?_ (PhiA1_join c)
  iintro ⟨⟨Hr, S0, S1, S2⟩, Hg⟩
  isplitr [Hg]
  · isplitl [Hr]; · iexact Hr
    isplitl [S0]; · iexists _; iexact S0
    isplitl [S1]; · iexists _; iexact S1
    iexists _; iexact S2
  iexact Hg

end Region

end Cert.KernelIdeal.Hand

end
-- ==== Proof.FrameAsm.lean ====
/-
  The two kernel regions of @main as segment records, the frame, and the run that carries the result.

  @main is four items: the two slices of `a`, region 0 (projected features and the two logit halves), the reshape
  of the second half to a row, region 1 (masked attention with a running softmax). Between two items every unscoped
  buffer is held at a valuation: the launch contents, then each host stretch applied, then at a region's exit the
  region's arrays at what its write-backs leave (an input window's array as entered, an output window's after every
  flushed block) and every other buffer as entered. Each region's proof data is taken at its entry valuation; its
  arrays are split out of the held buffers at entry and put back at exit. Beside the buffers rides the core's
  generator register at some state and the core owing nothing. The frame reads the four arguments off the last
  valuation, which no item changes at them; the run with its value also reads `main_v4` there, which is region 1's
  output array after its last write-back.
-/
import proofs.«413656_j34187939676687_3_alg».proof.Proof.Gen.KernelIdeal.Regions
import proofs.«413656_j34187939676687_3_alg».proof.Proof.Gen.KernelIdeal.Skeleton
import proofs.«413656_j34187939676687_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic
import proofs.«413656_j34187939676687_3_alg».proof.Proof.R0
import proofs.«413656_j34187939676687_3_alg».proof.Proof.R1

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the regions' boundaries -/

/-- Region 0's entry contents, read at the TensorCore's references: the launch memory after the two slices of `a`. -/
abbrev ent0 (c : Dev nD) (b : Ref sig .tc) : Buf (Elt F) ((c : Thread nD τ).loc b) := Gen.V1 m c b

/-- Region 0's exit contents: each window's array after every write-back, every other buffer as entered. -/
def exit0 (c : Dev nD) : Valuation τ sig (Elt F) :=
  Pipeline.withArrays spec0 c (Gen.V1 m c) fun w => (dat0 (ent0 m) c).arrAt w cfg0.N

/-- What the regions leave, region 0's part: at every item the buffers as region 0 leaves them. -/
def outs0 : Outs (F := F) := fun _ r c => exit0 m c r

/-- Region 1's entry contents: region 0's exit after the reshape of `h2` to a row. -/
abbrev ent1 (c : Dev nD) (b : Ref sig .tc) : Buf (Elt F) ((c : Thread nD τ).loc b) := Gen.V3 m (outs0 m) c b

/-- Region 1's exit contents. -/
def exit1 (c : Dev nD) : Valuation τ sig (Elt F) :=
  Pipeline.withArrays spec1 c (Gen.V3 m (outs0 m) c) fun w => (dat1 (ent1 m) c).arrAt w cfg1.N

/-- What the regions leave: after item 3 region 1's exit contents, before it region 0's. -/
def outs : Outs (F := F) := fun J r c => if J = 4 then exit1 m c r else exit0 m c r

theorem outs_two (r : Ref sig .tc) (c : Dev nD) : outs m 2 r c = exit0 m c r := rfl
theorem outs_four (r : Ref sig .tc) (c : Dev nD) : outs m 4 r c = exit1 m c r := rfl
/-- Region 1 is entered from the same contents whichever of the two families names region 0's arrays. -/
theorem V3_outs (c : Dev nD) : Gen.V3 m (outs m) c = Gen.V3 m (outs0 m) c := rfl

theorem exit0_arr (c : Dev nD) (w : Fin cfg0.W) :
    exit0 m c (Proc.devRef .tc (Pipeline.arrRef spec0 w)) = (dat0 (ent0 m) c).arrAt w cfg0.N := by
  unfold exit0; exact Pipeline.withArrays_arr spec0 launch0.win.arr_inj c _ _ w
theorem exit1_arr (c : Dev nD) (w : Fin cfg1.W) :
    exit1 m c (Proc.devRef .tc (Pipeline.arrRef spec1 w)) = (dat1 (ent1 m) c).arrAt w cfg1.N := by
  unfold exit1; exact Pipeline.withArrays_arr spec1 launch1.win.arr_inj c _ _ w

/-- Region 0's three results, as the frame's unknowns name them. -/
theorem outs_main_v2_0 (c : Dev nD) : outs m 2 main_v2_0 c = (dat0 (ent0 m) c).arrAt 4 cfg0.N := exit0_arr m c 4
theorem outs_main_v2_1 (c : Dev nD) : outs m 2 main_v2_1 c = (dat0 (ent0 m) c).arrAt 5 cfg0.N := exit0_arr m c 5
theorem outs_main_v2_2 (c : Dev nD) : outs m 2 main_v2_2 c = (dat0 (ent0 m) c).arrAt 6 cfg0.N := exit0_arr m c 6
/-- Region 1's result. -/
theorem outs_main_v4 (c : Dev nD) : outs m 4 main_v4 c = (dat1 (ent1 m) c).arrAt 4 cfg1.N := exit1_arr m c 4

/-- The final array of region 1's output window: what the run leaves in `main_v4`. -/
def kernelOutArr (c : Dev nD) : Buf (Elt F) ((c.tc : Thread nD τ).loc main_v4) := (dat1 (ent1 m) c).arrAt 4 cfg1.N

/-! ## Reading the item valuations at the references the regions may change -/

theorem V2_main_v2_2 (o : Outs (F := F)) (c : Dev nD) : Gen.V2 m o c main_v2_2 = o 2 main_v2_2 c := by
  simp only [Gen.V2, Function.update_self]
theorem V2_main_v2_1 (o : Outs (F := F)) (c : Dev nD) : Gen.V2 m o c main_v2_1 = o 2 main_v2_1 c := by
  simp only [Gen.V2, Function.update_of_ne (StableHlo.devRef_ne_of_ne (by decide : main_v2_1 ≠ main_v2_2) : (Proc.devRef .tc main_v2_1 : DevRef τ sig) ≠ Proc.devRef .tc main_v2_2), Function.update_self]
theorem V2_main_v2_0 (o : Outs (F := F)) (c : Dev nD) : Gen.V2 m o c main_v2_0 = o 2 main_v2_0 c := by
  simp only [Gen.V2, Function.update_of_ne (StableHlo.devRef_ne_of_ne (by decide : main_v2_0 ≠ main_v2_2) : (Proc.devRef .tc main_v2_0 : DevRef τ sig) ≠ Proc.devRef .tc main_v2_2), Function.update_of_ne (StableHlo.devRef_ne_of_ne (by decide : main_v2_0 ≠ main_v2_1) : (Proc.devRef .tc main_v2_0 : DevRef τ sig) ≠ Proc.devRef .tc main_v2_1), Function.update_self]
theorem V4_main_v4 (o : Outs (F := F)) (c : Dev nD) : Gen.V4 m o c main_v4 = o 4 main_v4 c := by
  simp only [Gen.V4, Function.update_self]

/-! ## The proof data family -/

/-- Every pipeline's proof data, each at its region's entry contents. -/
def pdats : (p : Fin 2) → (c : Dev nD) → Dat τ (Elt F) Unit ℕ (UR sig nD τ) ℕ (cfgs p) c
  | ⟨0, _⟩ => fun c => dat0 (ent0 m) c
  | ⟨1, _⟩ => fun c => dat1 (ent1 m) c

/-! ## What a region's exit holds at its arrays, and off them -/

/-- At region 0's exit each of its arrays holds what the pipeline leaves: an input window's array as entered, an output
    window's after every write-back. -/
theorem hF0 (c : Dev nD) (w : Fin cfg0.W) :
    (dat0 (ent0 m) c).arrAt w cfg0.N = Gen.V2 m (outs m) c (Pipeline.arrRef spec0 w) := by
  fin_cases w
  · exact (((dat0 (ent0 m) c).arrAt_in 0 rfl _).trans (A_eq0 (ent0 m) c 0)).trans (Gen.V2_of m (outs m) c main_arg0 (by decide)).symm
  · exact (((dat0 (ent0 m) c).arrAt_in 1 rfl _).trans (A_eq0 (ent0 m) c 1)).trans (Gen.V2_of m (outs m) c main_arg1 (by decide)).symm
  · exact (((dat0 (ent0 m) c).arrAt_in 2 rfl _).trans (A_eq0 (ent0 m) c 2)).trans (Gen.V2_of m (outs m) c main_v0 (by decide)).symm
  · exact (((dat0 (ent0 m) c).arrAt_in 3 rfl _).trans (A_eq0 (ent0 m) c 3)).trans (Gen.V2_of m (outs m) c main_v1 (by decide)).symm
  · exact ((V2_main_v2_0 m (outs m) c).trans (outs_main_v2_0 m c)).symm
  · exact ((V2_main_v2_1 m (outs m) c).trans (outs_main_v2_1 m c)).symm
  · exact ((V2_main_v2_2 m (outs m) c).trans (outs_main_v2_2 m c)).symm

/-- Off region 0's arrays nothing moved. -/
theorem hrest0 (c : Dev nD) (b : Ref sig .tc) (hb : b ∉ Finset.univ.image (Pipeline.arrRef spec0)) :
    Gen.V2 m (outs m) c b = Gen.V1 m c b :=
  Gen.V2_of m (outs m) c b fun h => by
    simp only [List.mem_cons, List.not_mem_nil, or_false] at h
    rcases h with rfl | rfl | rfl
    · exact hb (Finset.mem_image.mpr ⟨4, Finset.mem_univ _, rfl⟩)
    · exact hb (Finset.mem_image.mpr ⟨5, Finset.mem_univ _, rfl⟩)
    · exact hb (Finset.mem_image.mpr ⟨6, Finset.mem_univ _, rfl⟩)

/-- At region 1's exit each of its arrays holds what the pipeline leaves. -/
theorem hF1 (c : Dev nD) (w : Fin cfg1.W) :
    (dat1 (ent1 m) c).arrAt w cfg1.N = Gen.V4 m (outs m) c (Pipeline.arrRef spec1 w) := by
  fin_cases w
  · exact (((dat1 (ent1 m) c).arrAt_in 0 rfl _).trans (A_eq1 (ent1 m) c 0)).trans (Gen.V4_of m (outs m) c main_v2_0 (by decide)).symm
  · exact (((dat1 (ent1 m) c).arrAt_in 1 rfl _).trans (A_eq1 (ent1 m) c 1)).trans (Gen.V4_of m (outs m) c main_v2_1 (by decide)).symm
  · exact (((dat1 (ent1 m) c).arrAt_in 2 rfl _).trans (A_eq1 (ent1 m) c 2)).trans (Gen.V4_of m (outs m) c main_v3 (by decide)).symm
  · exact (((dat1 (ent1 m) c).arrAt_in 3 rfl _).trans (A_eq1 (ent1 m) c 3)).trans (Gen.V4_of m (outs m) c main_arg3 (by decide)).symm
  · exact ((V4_main_v4 m (outs m) c).trans (outs_main_v4 m c)).symm

/-- Off region 1's arrays nothing moved. -/
theorem hrest1 (c : Dev nD) (b : Ref sig .tc) (hb : b ∉ Finset.univ.image (Pipeline.arrRef spec1)) :
    Gen.V4 m (outs m) c b = Gen.V3 m (outs m) c b :=
  Gen.V4_of m (outs m) c b fun h => by
    simp only [List.mem_cons, List.not_mem_nil, or_false] at h
    subst h
    exact hb (Finset.mem_image.mpr ⟨4, Finset.mem_univ _, rfl⟩)

/-! ## The thread state's rest, and the regions as segments -/

/-- No core owes another anything: no level is assigned. -/
abbrev noL : GSem nD τ sig → Finset Unit := fun _ => ∅
abbrev noLv : GSem nD τ sig → Unit → ℕ := fun _ _ => 0
/-- What rides beside the buffers through every item: the core's generator register at some state, and the core
    owing nothing. -/
abbrev rest (c : Dev nD) : sProp 𝕄 := iprop((∃ r, prngReg c r) ∗ ∃ W, owes (c : Thread nD τ) (0 : CellTallies nD τ sig Unit) W)
/-- The same rest between any two items. -/
abbrev rests : Fin 3 → Dev nD → sProp 𝕄 := fun _ c => rest c

-- a library lemma stated over the pinned configuration unifies with the printed one only when unification may unfold
-- plain definitions in a metavariable's type
set_option backward.isDefEq.respectTransparency.types false in
/-- REGION 0 over the thread state: entered from every unscoped buffer at the contents after the two slices, left at
    those contents with its three results at what the write-backs leave. Its arrays are split out of the unscoped
    buffers and put back at the exit contents; the generator register goes into the class invariant and comes out;
    nothing is owed; the kernel has no semaphore of its own. -/
def reg0 : Pipeline.RegionSeg (pcfgs (F := F)) adm (pdats m) () defs₀ Variants.none noL noLv 0 where
  win := launch0.win.to₀
  block_pos := launch0.block_pos
  stage_whole := launch0.stage_whole
  K := PEmpty
  osem k := k.elim
  ho := Pipeline.OwnSemFacts.none _
  hbody c := (body_obligation0 (ent0 m) c).loose
  hwaits := Pipeline.hwaits_of_owed_zero _ _ _ _ noL noLv 0 fun _ _ => rfl
  pre c := iprop(StableHlo.held (c : Thread nD τ) (Pipeline.ucRefs τ sig) (Gen.V1 m c) ∗ rest c)
  post c := iprop(StableHlo.held (c : Thread nD τ) (Pipeline.ucRefs τ sig) (Gen.V2 m (outs m) c) ∗ rest c)
  X c := iprop(∃ r, prngReg c r)
  Y c := iprop(∃ r, prngReg c r)
  Z c := Pipeline.unscopedRest (Ix := Unit) (Name := ℕ) (U := UR sig nD τ) (Lvl := ℕ) spec0 c (ent0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (ent0 m c) fun w => A_eq0 (ent0 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (ent0 m c) (fun b => Gen.V2 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The class invariant of region 1 from the generator register and the scoped buffers no window stages. -/
theorem enter_inv1 (c : Dev nD) (P : sProp 𝕄) :
    iprop((∃ r, prngReg c r) ∗ P ∗ Pipeline.scopedRest (Ix := Unit) (Name := ℕ) (U := UR sig nD τ) (Lvl := ℕ) (Val := Elt F) spec1 c)
      ⊢ (Pipeline.ΦA spec1 c : sProp 𝕄) := by
  unfold Pipeline.ΦA
  iintro ⟨Hp, -, Hr⟩
  isplitl [Hr]; · iexact Hr
  iexact Hp
/-- and back. -/
theorem leave_inv1 (c : Dev nD) :
    (Pipeline.ΦA spec1 c : sProp 𝕄)
      ⊢ iprop((∃ r, prngReg c r) ∗ BI.emp ∗ Pipeline.scopedRest (Ix := Unit) (Name := ℕ) (U := UR sig nD τ) (Lvl := ℕ) (Val := Elt F) spec1 c) := by
  unfold Pipeline.ΦA
  iintro ⟨Hr, Hp⟩
  isplitl [Hp]; · iexact Hp
  isplitr; · iempintro
  iexact Hr

set_option backward.isDefEq.respectTransparency.types false in
/-- REGION 1 over the thread state: entered from region 0's exit after the reshape, left with `main_v4` at what the
    write-backs leave. The scratch (running maximum, denominator, numerator) lives in the region's invariant, which is
    entered from and returns to the class invariant (`hin1`, `hout1`). -/
def reg1 : Pipeline.RegionSeg (pcfgs (F := F)) adm (pdats m) () defs₀ Variants.none noL noLv 1 where
  win := launch1.win.to₀
  block_pos := launch1.block_pos
  stage_whole := launch1.stage_whole
  K := PEmpty
  osem k := k.elim
  ho := Pipeline.OwnSemFacts.none _
  hbody c := (body_obligation1 (ent1 m) c).loose
  hwaits := Pipeline.hwaits_of_owed_zero _ _ _ _ noL noLv 1 fun _ _ => rfl
  pre c := iprop(StableHlo.held (c : Thread nD τ) (Pipeline.ucRefs τ sig) (Gen.V3 m (outs m) c) ∗ rest c)
  post c := iprop(StableHlo.held (c : Thread nD τ) (Pipeline.ucRefs τ sig) (Gen.V4 m (outs m) c) ∗ rest c)
  X c := iprop(∃ r, prngReg c r)
  Y c := iprop(∃ r, prngReg c r)
  Z c := Pipeline.unscopedRest (Ix := Unit) (Name := ℕ) (U := UR sig nD τ) (Lvl := ℕ) spec1 c (ent1 m c)
  hentry c := by
    rw [Pipeline.ownSems0_none, V3_outs m c]
    have hsplit := Pipeline.arrays_of_unscopedBufs (p := 1) (pcfgs (F := F)) adm (pdats m) launch1.win launch1.arr_whole c
      ((pdats m 1 c).share_full fun _ => rfl) (ent1 m c) fun w => A_eq1 (ent1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (enter_inv1 c _).trans (hin1 (ent1 m) c)
  hout c := by
    rw [Pipeline.ownSems0_none]
    exact (hout1 (ent1 m) c).trans (leave_inv1 c)
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (ent1 m c) (fun b => Gen.V4 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

/-- The launch element: the pipeline library's, at every pipeline's staging cells. -/
abbrev u0 : UR sig nD τ := initOf (Pipeline.cells cfgs cellOf_inj) (Pipeline.launchToks cfgs cellOf_inj)

/-- The launch element yields the pipeline library's; no core needs a ghost resource of its own. -/
theorem hu0 : (ownU u0 : sProp 𝕄)
    ⊢ |={Set.univ}=> iprop(BI.own ((emb₁ : Emb (UR sig nD τ) 𝕄) u0) ∗ bigSep Finset.univ fun _ : Dev nD => (BI.emp : sProp 𝕄)) := by
  iintro Hu; imodintro
  isplitl [Hu]
  · iapply (show (ownU u0 : sProp 𝕄) ⊢ BI.own ((emb₁ : Emb (UR sig nD τ) 𝕄) u0) from .rfl)
    iexact Hu
  iapply (show (BI.emp : sProp 𝕄) ⊢ bigSep Finset.univ (fun _ : Dev nD => (BI.emp : sProp 𝕄)) from by rw [BI.bigSep_emp_const])
  iempintro

/-- What the launch deals each core besides its buffers makes the first rest: the generator register at its launch
    state, the core owing nothing. -/
theorem hrest_init : iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts noL noLv)
      ⊢ (|={Set.univ}=> bigSep Finset.univ (rests (F := F) 0) : sProp 𝕄) := by
  refine Pipeline.initEach noL noLv fun c => ?_
  iintro ⟨⟨-, HO, -, Hp, -⟩, -⟩
  imodintro
  isplitl [Hp]; · iexists _; iexact Hp
  iexists ∅; iexact HO

/-- The last rest ends owing nothing. -/
theorem hrest_fin (c : Dev nD) : rests (F := F) 2 c ⊢ (iprop(∃ W, owes (c : Thread nD τ) (0 : CellTallies nD τ sig Unit) W) : sProp 𝕄) := by
  iintro ⟨-, HO⟩; iexact HO

/-! ## The frame -/

set_option backward.isDefEq.respectTransparency.types false in
/-- THE FRAME, at any `F`: from any memory with zero counters every weakly fair execution of @main terminates, nothing
    faulting, and every final memory holds the four argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Gen.frame_cond m (emb₁ : Emb (UR sig nD τ) 𝕄) () Variants.none noL noLv (fun _ _ => rfl) ρ (outs m) (pdats m)
    0 (fun _ => iprop(emp)) u0 hu0 rests (hrest_init ρ) hrest_fin
    (reg0 m) (fun _ => .rfl) (fun _ => .rfl) (reg1 m) (fun _ => .rfl) (fun _ => .rfl)

/-! ## The run, carrying the result -/

/-- The last valuation at `main_v4` is region 1's final output array. -/
theorem V4_val (c : Dev nD) : Gen.V4 m (outs m) c main_v4 = kernelOutArr m c :=
  (V4_main_v4 m (outs m) c).trans (outs_main_v4 m c)

set_option backward.isDefEq.respectTransparency.types false in
/-- THE RUN WITH ITS VALUE, at any `F`: as the frame, and every final memory holds in `main_v4` the final array of
    region 1's output window. -/
theorem run_val : θ_run defs (onTc (τ := τ) (main (F := F))) ⟨m, fun _ => 0, ρ⟩ (fun r => ∀ c : Dev nD,
      r.2.mem ((c.tc : Thread nD τ).loc main_v4) = kernelOutArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine Pipeline.θ_run_regions_kit_dev (pcfgs (F := F)) adm (pdats m) () cellOf_inj (emb₁ : Emb (UR sig nD τ) 𝕄) defs₀ Variants.none noL noLv m ρ main
    (Gen.segs m (outs m) Variants.none noL noLv rests () (pdats m) (reg0 m) (reg1 m))
    (fun c Q => by
      rewrite [main_chain c, Pipeline.Seg.run_eq_chain,
        show (Gen.segs m (outs m) Variants.none noL noLv rests () (pdats m) (reg0 m) (reg1 m) c).map Pipeline.Seg.prog = [
          StableHlo.seq hostOps0,
          Prog.lift (.customCall (Pipeline.entry 0) ()),
          StableHlo.seq hostOps1,
          Prog.lift (.customCall (Pipeline.entry 1) ()) ] from rfl]
      exact .rfl)
    (fun c => by simp only [Gen.segs, Pipeline.Seg.pipes_host, Pipeline.Seg.pipes_region, Pipeline.Seg.pipes_nil]; decide)
    0 (fun _ _ => rfl) (fun _ => iprop(emp)) u0 hu0
    (T₀ := fun c => iprop(StableHlo.held (c : Thread nD τ) (Pipeline.ucRefs τ sig) (Gen.V0 m c) ∗ rests 0 c))
    (Tₙ := fun c => StableHlo.held (c : Thread nD τ) (Pipeline.ucRefs τ sig) (Gen.V4 m (outs m) c))
    (hch := fun c => ⟨.rfl, .rfl, .rfl, .rfl, sep_mono .rfl (hrest_fin c)⟩)
    (hinit := ?_)
    (QY := fun c s => s.mem ((c.tc : Thread nD τ).loc main_v4) = kernelOutArr m c
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3))
    (hfin := fun c s' => ?_) (hQ := fun _ h => h)
  · -- the launch, core by core: the unscoped buffers are held at the launch contents; the generator register and the
    -- core's owing nothing make the first rest
    refine Pipeline.initEach noL noLv fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]; · iexists _; iexact Hp
    iexists ∅; iexact HO
  · -- the end: the result and each argument read off the last valuation
    unfold StableHlo.held
    iintro ⟨Hh, HSI⟩
    ihave Hr := (pointsTo_read_all (Pipeline.ucRefs τ sig) (fun b => ((c : Thread nD τ).1, b)) (Gen.V4 m (outs m) c) s') $$ [Hh HSI]
    · isplitl [Hh] <;> iassumption
    icases Hr with ⟨%h, HSI⟩
    imodintro
    isplitr
    · ipureintro
      exact ⟨(h (Proc.devRef .tc main_v4) (Finset.mem_filter.mpr ⟨StableHlo.devRef_mem_tcRefs main_v4, by decide⟩)).trans (V4_val m c),
        (h (Proc.devRef .tc main_arg0) (Finset.mem_filter.mpr ⟨StableHlo.devRef_mem_tcRefs main_arg0, by decide⟩)).trans (Gen.V4_main_arg0 m (outs m) c),
        (h (Proc.devRef .tc main_arg1) (Finset.mem_filter.mpr ⟨StableHlo.devRef_mem_tcRefs main_arg1, by decide⟩)).trans (Gen.V4_main_arg1 m (outs m) c),
        (h (Proc.devRef .tc main_arg2) (Finset.mem_filter.mpr ⟨StableHlo.devRef_mem_tcRefs main_arg2, by decide⟩)).trans (Gen.V4_main_arg2 m (outs m) c),
        (h (Proc.devRef .tc main_arg3) (Finset.mem_filter.mpr ⟨StableHlo.devRef_mem_tcRefs main_arg3, by decide⟩)).trans (Gen.V4_main_arg3 m (outs m) c)⟩
    · iexact HSI

end Cert.KernelIdeal.Hand

end
-- ==== Proof.R0Bits.lean ====
/-
  Region 0 of the kernel program, at any float model: the projected features and the two logit halves of one
  tile of 1024 rows.

  The region's grid has 8 points; point t sees rows [1024·t, 1024·t + 1024) of the feature matrix (window 0),
  the whole weight matrix (window 1) and the two halves of the attention vector (windows 2 and 3), and writes the
  same rows of three arrays (windows 4, 5, 6). The body reads its four inputs whole, and stores, each once and whole,
    * into window 4 the product  x · W                       (payload 1),
    * into window 5 the product  (x · W) · a[0:128]          (payload 2),
    * into window 6 the product  (x · W) · a[128:256]        (payload 3).
  It reads each output's buffer before storing into it, and uses nothing of what it reads there. So after the body
  every input's buffer holds the block it held and each output's buffer holds its payload of the input blocks:
  that is the proof data below, and the body's triple is what the pipeline asks of it at every point.
-/
import proofs.«413656_j34187939676687_3_alg».proof.Proof.Gen.Kernel.Launch
import proofs.«413656_j34187939676687_3_alg».proof.Proof.Gen.Kernel.Skeleton
import proofs.«413656_j34187939676687_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window w's block at point t: the rows (or the whole) of its array that point t sees. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input's buffer holds its block at every point, whether the point fetched it or kept the block of the point
    before: the body leaves inputs in place, and an unfetched window's block index has not moved. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## What the body leaves in each output's buffer -/

/-- Window 4 after the body: x · W of the tile. -/
def out0_4 (x0 : Vec F S1024x256 .f32) (x1 : Vec F S256x128 .f32) : Vec F S1024x128 .f32 :=
  Gen.k0_pay1 x0 x1

/-- Window 5 after the body: (x · W) · (first half of a). -/
def out0_5 (x0 : Vec F S1024x256 .f32) (x1 : Vec F S256x128 .f32) (x2 : Vec F S128x1 .f32) : Vec F S1024x1 .f32 :=
  Gen.k0_pay2 x0 x1 x2

/-- Window 6 after the body: (x · W) · (second half of a). -/
def out0_6 (x0 : Vec F S1024x256 .f32) (x1 : Vec F S256x128 .f32) (x3 : Vec F S128x1 .f32) : Vec F S1024x1 .f32 :=
  Gen.k0_pay3 x0 x1 x3

/-! Every access of the body is to the whole of a buffer: at offsets zero, of the buffer's own sizes. -/

/-- The offsets of a whole-buffer access are all zero. -/
theorem zeroOff : (![0, 0] : Fin 2 → Nat) = fun _ => 0 := by
  funext a; fin_cases a <;> rfl

/-- A load of the whole of a buffer reads the buffer's contents. -/
theorem load_whole {κ : Kind} {sp : Space} {S : Shape} {e : EltTy} (v : View sig κ sp S e) (f : v.ty.Contents (Elt F))
    {off : Fin S.rank → Nat} (h : off = fun _ => 0) (inb : ∀ a, off a + S.size a ≤ S.size a) :
    v.readAt (Elt F) (Rect.unit off S.size inb).toLoadRect f = v.read (Elt F) f :=
  View.ld_unit_zero h inb (v.read (Elt F) f)

/-- A buffer stored into once, over its whole, reads as what was stored, whatever it held. -/
theorem read_store_whole {κ : Kind} {sp : Space} {S : Shape} {e : EltTy} (v : View sig κ sp S e) (f : v.ty.Contents (Elt F))
    {off : Fin S.rank → Nat} (h : off = fun _ => 0) (inb : ∀ a, off a + S.size a ≤ S.size a) (p : S.Idx → Elt F e) :
    v.read (Elt F) (v.writes (Elt F) f [⟨Rect.unit off S.size inb, p⟩]) = p := by
  rw [View.read_writes_eq_canon v f _ (fun y => ⟨_, List.mem_singleton_self _, View.mem_set_unit_zero h inb y⟩),
    View.canon_unit_zero h]

/-! ## The body's triple -/

set_option maxHeartbeats 1000000 in
/-- The body on whole buffers, the inputs' at x0 … x3 and the outputs' at anything, runs to the continuation holding the
    inputs' as they were and the outputs' at the three products. -/
theorem sound_kernel0 (c : Dev nD) (E : Set ℕ) (i : grid0.Coords)
    (arg1 : Memref sig .tc .vmem S1024x256 .f32) (harg1 : arg1.IsWhole) (arg2 : Memref sig .tc .vmem S256x128 .f32) (harg2 : arg2.IsWhole)
    (arg3 : Memref sig .tc .vmem S128x1 .f32) (harg3 : arg3.IsWhole) (arg4 : Memref sig .tc .vmem S128x1 .f32) (harg4 : arg4.IsWhole)
    (arg5 : Memref sig .tc .vmem S1024x128 .f32) (harg5 : arg5.IsWhole) (arg6 : Memref sig .tc .vmem S1024x1 .f32) (harg6 : arg6.IsWhole)
    (arg7 : Memref sig .tc .vmem S1024x1 .f32) (harg7 : arg7.IsWhole)
    (x0 : Vec F S1024x256 .f32) (x1 : Vec F S256x128 .f32) (x2 : Vec F S128x1 .f32) (x3 : Vec F S128x1 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out0_4 x0 x1) ∗ owns (c : Thread nD τ) arg6 fullShare (out0_5 x0 x1 x2)
            ∗ owns (c : Thread nD τ) arg7 fullShare (out0_6 x0 x1 x3)) -∗ K ⟨⟩))
      ⊢ wp frame (wpE (defs₀ (F := F)) Variants.none c none) E (cc0__hW_kernel i arg1 harg1 arg2 harg2 arg3 harg3 arg4 harg4 arg5 harg5 arg6 harg6 arg7 harg7) K := by
  simp only [cc0__hW_kernel_eq_skeleton]; unfold cc0__hW_kernel_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf1 hf2 hf3 hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    rw [read_store_whole _ _ zeroOff, load_whole _ _ zeroOff, load_whole _ _ zeroOff]; rfl
  isplitl [H6]
  · iexists _; isplitr
    swap; · iexact H6
    ipureintro
    rw [read_store_whole _ _ zeroOff, load_whole _ _ zeroOff, load_whole _ _ zeroOff, load_whole _ _ zeroOff]; rfl
  iexists _; isplitr
  swap; · iexact H7
  ipureintro
  rw [read_store_whole _ _ zeroOff, load_whole _ _ zeroOff, load_whole _ _ zeroOff, load_whole _ _ zeroOff]; rfl

/-! ## The region's proof data -/

/-- The arrays as the region finds them; after the body at point t each input's buffer at its block and each output's
    at its product of the input blocks; the invariant is the scoped rest and the generator register, untouched;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 1 t) (iblk0 V c 2 t)
    | ⟨6, _⟩ => out0_6 (iblk0 V c 0 t) (iblk0 V c 1 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 1 t) (iblk0 V c 2 t) := by dsimp only [dat0]
theorem after0_6 (c : Dev nD) (t : Fin cfg0.N) : (dat0 V c).after 6 t = out0_6 (iblk0 V c 0 t) (iblk0 V c 1 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's obligation on the body, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.R1DefsBits.lean ====
/-
  Region 1 of the kernel program (the attention call, grid 8 × 32): one run of its body updates three
  scratch buffers it carries across the 32 column steps of a row tile: a running row maximum m, a running
  denominator l and a running numerator acc. Here, what the body's runs and the region's proof data are
  both stated over: the rectangles the body reads through; the update as a pure function of the point's
  input blocks and of the scratch the point before left (reset to -inf, 0, 0 at column step 0); the output
  block of a scratch; the body's two conditionals, decided over the grid.
-/
import proofs.«413656_j34187939676687_3_alg».proof.Proof.Gen.Kernel.Launch
import proofs.«413656_j34187939676687_3_alg».proof.Proof.Gen.Kernel.Skeleton
import proofs.«413656_j34187939676687_3_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The rectangles the body reads through -/

/-- Column k of the neighbour block, k = 0 … 31: one word per row. -/
abbrev rNb0 : Rect S1024x32 := Rect.unit (s := S1024x32) ![0, 0] S1024x1.size inb_S1024x32_S1024x1_0_0
abbrev rNb1 : Rect S1024x32 := Rect.unit (s := S1024x32) ![0, 1] S1024x1.size inb_S1024x32_S1024x1_0_1
abbrev rNb2 : Rect S1024x32 := Rect.unit (s := S1024x32) ![0, 2] S1024x1.size inb_S1024x32_S1024x1_0_2
abbrev rNb3 : Rect S1024x32 := Rect.unit (s := S1024x32) ![0, 3] S1024x1.size inb_S1024x32_S1024x1_0_3
abbrev rNb4 : Rect S1024x32 := Rect.unit (s := S1024x32) ![0, 4] S1024x1.size inb_S1024x32_S1024x1_0_4
abbrev rNb5 : Rect S1024x32 := Rect.unit (s := S1024x32) ![0, 5] S1024x1.size inb_S1024x32_S1024x1_0_5
abbrev rNb6 : Rect S1024x32 := Rect.unit (s := S1024x32) ![0, 6] S1024x1.size inb_S1024x32_S1024x1_0_6
abbrev rNb7 : Rect S1024x32 := Rect.unit (s := S1024x32) ![0, 7] S1024x1.size inb_S1024x32_S1024x1_0_7
abbrev rNb8 : Rect S1024x32 := Rect.unit (s := S1024x32) ![0, 8] S1024x1.size inb_S1024x32_S1024x1_0_8
abbrev rNb9 : Rect S1024x32 := Rect.unit (s := S1024x32) ![0, 9] S1024x1.size inb_S1024x32_S1024x1_0_9
abbrev rNb10 : Rect S1024x32 := Rect.unit (s := S1024x32) ![0, 10] S1024x1.size inb_S1024x32_S1024x1_0_10
abbrev rNb11 : Rect S1024x32 := Rect.unit (s := S1024x32) ![0, 11] S1024x1.size inb_S1024x32_S1024x1_0_11
abbrev rNb12 : Rect S1024x32 := Rect.unit (s := S1024x32) ![0, 12] S1024x1.size inb_S1024x32_S1024x1_0_12
abbrev rNb13 : Rect S1024x32 := Rect.unit (s := S1024x32) ![0, 13] S1024x1.size inb_S1024x32_S1024x1_0_13
abbrev rNb14 : Rect S1024x32 := Rect.unit (s := S1024x32) ![0, 14] S1024x1.size inb_S1024x32_S1024x1_0_14
abbrev rNb15 : Rect S1024x32 := Rect.unit (s := S1024x32) ![0, 15] S1024x1.size inb_S1024x32_S1024x1_0_15
abbrev rNb16 : Rect S1024x32 := Rect.unit (s := S1024x32) ![0, 16] S1024x1.size inb_S1024x32_S1024x1_0_16
abbrev rNb17 : Rect S1024x32 := Rect.unit (s := S1024x32) ![0, 17] S1024x1.size inb_S1024x32_S1024x1_0_17
abbrev rNb18 : Rect S1024x32 := Rect.unit (s := S1024x32) ![0, 18] S1024x1.size inb_S1024x32_S1024x1_0_18
abbrev rNb19 : Rect S1024x32 := Rect.unit (s := S1024x32) ![0, 19] S1024x1.size inb_S1024x32_S1024x1_0_19
abbrev rNb20 : Rect S1024x32 := Rect.unit (s := S1024x32) ![0, 20] S1024x1.size inb_S1024x32_S1024x1_0_20
abbrev rNb21 : Rect S1024x32 := Rect.unit (s := S1024x32) ![0, 21] S1024x1.size inb_S1024x32_S1024x1_0_21
abbrev rNb22 : Rect S1024x32 := Rect.unit (s := S1024x32) ![0, 22] S1024x1.size inb_S1024x32_S1024x1_0_22
abbrev rNb23 : Rect S1024x32 := Rect.unit (s := S1024x32) ![0, 23] S1024x1.size inb_S1024x32_S1024x1_0_23
abbrev rNb24 : Rect S1024x32 := Rect.unit (s := S1024x32) ![0, 24] S1024x1.size inb_S1024x32_S1024x1_0_24
abbrev rNb25 : Rect S1024x32 := Rect.unit (s := S1024x32) ![0, 25] S1024x1.size inb_S1024x32_S1024x1_0_25
abbrev rNb26 : Rect S1024x32 := Rect.unit (s := S1024x32) ![0, 26] S1024x1.size inb_S1024x32_S1024x1_0_26
abbrev rNb27 : Rect S1024x32 := Rect.unit (s := S1024x32) ![0, 27] S1024x1.size inb_S1024x32_S1024x1_0_27
abbrev rNb28 : Rect S1024x32 := Rect.unit (s := S1024x32) ![0, 28] S1024x1.size inb_S1024x32_S1024x1_0_28
abbrev rNb29 : Rect S1024x32 := Rect.unit (s := S1024x32) ![0, 29] S1024x1.size inb_S1024x32_S1024x1_0_29
abbrev rNb30 : Rect S1024x32 := Rect.unit (s := S1024x32) ![0, 30] S1024x1.size inb_S1024x32_S1024x1_0_30
abbrev rNb31 : Rect S1024x32 := Rect.unit (s := S1024x32) ![0, 31] S1024x1.size inb_S1024x32_S1024x1_0_31
/-- The 256 rows of the projected features the column step reads: rows 256·step … 256·step + 255. -/
abbrev rHW (i : grid1.Coords) : Rect S8192x128 := Rect.unit (s := S8192x128) (k1_off1 i) S256x128.size (k1_off1_inb i)

/-! ## One column step as a pure function -/

/-- The carried scratch: the running row maximum, the running denominator, the running numerator. -/
abbrev Scr (F : FTy → Type) : Type := Vec F S1024x1 .f32 × Vec F S1024x1 .f32 × Vec F S1024x128 .f32

/-- The step's mask block, counts/64 + diagonal/2, from the grid point and the neighbour block: the 32
    word compares in the order the body makes them. -/
def maskOf (i : grid1.Coords) (x3 : Vec F S1024x32 .i32) : FVec F S1024x256 .f32 :=
  k1_pay15 (F := F) (k1_pay7 i) (k1_pay8 i)
    (k1_pay13 (F := F) (k1_pay8 i)
      (k1_pay12 (F := F) (k1_pay8 i)
        (k1_pay10 (F := F) (k1_pay8 i)
          (k1_pay9 (F := F) i (View.ld x3 rNb0) (View.ld x3 rNb1) (View.ld x3 rNb2) (View.ld x3 rNb3) (View.ld x3 rNb4))
          (View.ld x3 rNb5) (View.ld x3 rNb6) (View.ld x3 rNb7) (View.ld x3 rNb8) (View.ld x3 rNb9) (View.ld x3 rNb10) (View.ld x3 rNb11))
        (k1_pay11 (F := F) (View.ld x3 rNb12))
        (View.ld x3 rNb13) (View.ld x3 rNb14) (View.ld x3 rNb15) (View.ld x3 rNb16) (View.ld x3 rNb17) (View.ld x3 rNb18) (View.ld x3 rNb19))
      (View.ld x3 rNb20) (View.ld x3 rNb21) (View.ld x3 rNb22) (View.ld x3 rNb23) (View.ld x3 rNb24) (View.ld x3 rNb25) (View.ld x3 rNb26))
    (k1_pay14 (F := F) (View.ld x3 rNb27))
    (View.ld x3 rNb28) (View.ld x3 rNb29) (View.ld x3 rNb30) (View.ld x3 rNb31)

/-- The step's logit block h1 i + h2 j, from the two logit halves' blocks. -/
def logitOf (x1 : Vec F S1024x1 .f32) (x2 : Vec F S1x256 .f32) : FVec F S1024x256 .f32 :=
  k1_pay16 (F := F) x1 x2

/-- One column step on the scratch: the new maximum, the denominator and the numerator rescaled by
    exp(m_old - m_new) plus this step's terms (the numerator's against rows 256·step … of the projected
    features). -/
def stepUpd (i : grid1.Coords) (x0 : Vec F S8192x128 .f32) (x1 : Vec F S1024x1 .f32) (x2 : Vec F S1x256 .f32)
    (x3 : Vec F S1024x32 .i32) (s : Scr F) : Scr F :=
  (k1_pay2 (F := F) (k1_pay18 (F := F) (maskOf i x3) (logitOf x1 x2) s.1),
   k1_pay21 (F := F) (maskOf i x3) (logitOf x1 x2) s.1 s.1 s.2.1,
   k1_pay1 (F := F) (k1_pay22 (F := F) (maskOf i x3) (logitOf x1 x2) s.1 s.1 (View.ld x0 (rHW i)) s.2.2))

/-- Column step 0: the scratch is first reset to (-inf, 0, 0). -/
def stepA (i : grid1.Coords) (x0 : Vec F S8192x128 .f32) (x1 : Vec F S1024x1 .f32) (x2 : Vec F S1x256 .f32)
    (x3 : Vec F S1024x32 .i32) : Scr F :=
  stepUpd i x0 x1 x2 x3 (k1_pay4 (F := F), k1_pay5 (F := F), k1_pay6 (F := F))

/-- A column step strictly between the first and the last: the update of what the step before left. -/
def stepB (i : grid1.Coords) (x0 : Vec F S8192x128 .f32) (x1 : Vec F S1024x1 .f32) (x2 : Vec F S1x256 .f32)
    (x3 : Vec F S1024x32 .i32) (s : Scr F) : Scr F :=
  stepUpd i x0 x1 x2 x3 s

/-- Column step 31: the same update (the output block is then written from it, `outOf`). -/
def stepC (i : grid1.Coords) (x0 : Vec F S8192x128 .f32) (x1 : Vec F S1024x1 .f32) (x2 : Vec F S1x256 .f32)
    (x3 : Vec F S1024x32 .i32) (s : Scr F) : Scr F :=
  stepUpd i x0 x1 x2 x3 s

/-- The output block of a scratch: ELU(acc / l). Written at column step 31 only; at the other steps the
    output window is idle, not written back and not read by the next point, so the value named there is
    consulted by nothing. -/
def outOf (s : Scr F) : Vec F S1024x128 .f32 := k1_pay3 (F := F) s.2.2 s.2.1

/-! ## The body's two conditionals, decided over the grid -/

/-- "Column step = 0" as the body computes it from the grid point. -/
abbrev cond1_0 (i : grid1.Coords) : Prop :=
  (Scalar.cmpi .ne (Scalar.extui (Scalar.cmpi .eq (BitVec.ofNat 32 (i 1).val) 0#32)) 0#32) = 1#1
theorem hcond1_0 : ∀ t : Fin cfg1.N, cond1_0 (grid1.coords t) ↔ t.val % 32 = 0 :=
  (by decide +kernel : ∀ t : Fin grid1.N, cond1_0 (grid1.coords t) ↔ t.val % 32 = 0)

/-- "Column step = 31" as the body computes it. -/
abbrev cond1_1 (i : grid1.Coords) : Prop := k1_cond2 i = 1#1
theorem hcond1_1 : ∀ t : Fin cfg1.N, cond1_1 (grid1.coords t) ↔ t.val % 32 = 31 :=
  (by decide +kernel : ∀ t : Fin grid1.N, cond1_1 (grid1.coords t) ↔ t.val % 32 = 31)

/-- The output window is idle, and not written back, exactly off column step 31. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
theorem liveAt1_4 : ∀ t : Fin cfg1.N, cond1_1 (grid1.coords t) → cfg1.idle 4 (grid1.coords t) = false := by decide +kernel

/-- The zero offsets, however spelt. -/
theorem hz2 : (![0, 0] : Fin 2 → ℕ) = fun _ => 0 := by funext a; fin_cases a <;> rfl

end Cert.Kernel.Hand

end
-- ==== Proof.R1RunsBits.lean ====
/-
  Region 1 of the kernel program (the attention call, grid 8 × 32): the body's run in each of its three control
  cases, at any float model.

  One run of the body, at the grid point i = (row tile, column step):
    * if the column step is 0, stores (-inf, 0, 0) over the whole of the three scratch buffers m, l, acc;
    * reads the 32 columns of the neighbour block, the two logit blocks, and the scratch m, l, acc; reads rows
      256·step … 256·step + 255 of the projected features; stores, each once and over its whole, the updated
      denominator into l, the updated numerator into acc and the updated maximum into m;
    * if the column step is 31, reads acc and l back and stores ELU(acc / l) over the whole of the output buffer.
  Every store is over the whole of a buffer, so what a buffer holds afterwards is the payload of the last store into
  it, and a scratch read after a store in the same run reads that store's payload. Read off in this way, the three
  scratch buffers end at the step function of the point's input blocks and of what the scratch held (the reset
  values at column step 0), and at column step 31 the output buffer ends at the output block of that scratch.
-/
import proofs.«413656_j34187939676687_3_alg».proof.Proof.R1DefsBits

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## Whole-buffer accesses

Every store of the body, and every load of a scratch buffer or of a logit block, is over the whole of a buffer:
at offsets zero, of the buffer's own sizes. -/

/-- A load of the whole of a buffer reads the buffer's contents. -/
theorem readAt_whole {κ : Kind} {sp : Space} {S : Shape} {e : EltTy} (v : View sig κ sp S e) (f : v.ty.Contents (Elt F))
    {off : Fin S.rank → Nat} (h : off = fun _ => 0) (inb : ∀ a, off a + S.size a ≤ S.size a) :
    v.readAt (Elt F) (Rect.unit off S.size inb).toLoadRect f = v.read (Elt F) f :=
  View.ld_unit_zero h inb (v.read (Elt F) f)

/-- A buffer whose last store is over its whole reads as that store's payload, whatever was stored before. -/
theorem read_last_store_whole {κ : Kind} {sp : Space} {S : Shape} {e : EltTy} (v : View sig κ sp S e) (f : v.ty.Contents (Elt F))
    {off : Fin S.rank → Nat} (h : off = fun _ => 0) (inb : ∀ a, off a + S.size a ≤ S.size a) (p : S.Idx → Elt F e)
    (L : List (View.Piece (Elt F) S e)) :
    v.read (Elt F) (v.writes (Elt F) f (⟨Rect.unit off S.size inb, p⟩ :: L)) = p := by
  rw [View.read_writes_eq_canon v f _ (fun y => ⟨_, List.mem_cons.mpr (Or.inl rfl), View.mem_set_unit_zero h inb y⟩),
    View.canon_cons_unit_zero h]

/-! ## Column step 0 -/

set_option maxHeartbeats 4000000 in
/-- The first branch is taken: the three scratch buffers, found at anything, are reset and then updated once; the
    inputs and the output buffer are left as found. -/
theorem sound_kernel1_A (c : Dev nD) (i : grid1.Coords)
    (arg2 : Memref sig .tc .vmem S8192x128 .f32) (harg2 : arg2.IsWhole) (arg3 : Memref sig .tc .vmem S1024x1 .f32) (harg3 : arg3.IsWhole)
    (arg4 : Memref sig .tc .vmem S1x256 .f32) (harg4 : arg4.IsWhole) (arg5 : Memref sig .tc .vmem S1024x32 .i32) (harg5 : arg5.IsWhole)
    (arg6 : Memref sig .tc .vmem S1024x128 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x128 .f32) (harg9 : arg9.IsWhole)
    (hc0 : cond1_0 i) (hc1 : ¬cond1_1 i)
    (x0 : Vec F S8192x128 .f32) (x1 : Vec F S1024x1 .f32) (x2 : Vec F S1x256 .f32) (x3 : Vec F S1024x32 .i32) (xi4 : Vec F S1024x128 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ owns (c : Thread nD τ) arg7 fullShare (stepA i x0 x1 x2 x3).1 ∗ owns (c : Thread nD τ) arg8 fullShare (stepA i x0 x1 x2 x3).2.1
            ∗ owns (c : Thread nD τ) arg9 fullShare (stepA i x0 x1 x2 x3).2.2) -∗ K ⟨⟩))
      ⊢ wp frame (wpE (defs₀ (F := F)) Variants.none c none) E (cc1__attn_kernel i arg2 harg2 arg3 harg3 arg4 harg4 arg5 harg5 arg6 harg6 arg7 harg7 arg8 harg8 arg9 harg9) K := by
  simp only [cc1__attn_kernel_eq_skeleton]; unfold cc1__attn_kernel_skel
  simp only [k1_part1_eq_skeleton, k1_part2_eq_skeleton, k1_part3_eq_skeleton, k1_part4_eq_skeleton, k1_part5_eq_skeleton, k1_part6_eq_skeleton]
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf2 hf3 hf4 hf5 hf6
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    refine (read_last_store_whole _ _ hz2 _ _ _).trans ?_
    sl_unfold_run_names
    simp only [View.readAt_eq_ld, View.ld_unit_zero (S := S1024x1) hz2, View.ld_unit_zero (S := S1x256) hz2, View.ld_unit_zero (S := S1024x128) hz2, View.readCov_unit_zero (S := S1024x1) _ hz2, View.readCov_unit_zero (S := S1024x128) _ hz2]
    rfl
  isplitl [H8]
  · iexists _; isplitr
    swap; · iexact H8
    ipureintro
    refine (read_last_store_whole _ _ hz2 _ _ _).trans ?_
    sl_unfold_run_names
    simp only [View.readAt_eq_ld, View.ld_unit_zero (S := S1024x1) hz2, View.ld_unit_zero (S := S1x256) hz2, View.ld_unit_zero (S := S1024x128) hz2, View.readCov_unit_zero (S := S1024x1) _ hz2, View.readCov_unit_zero (S := S1024x128) _ hz2]
    rfl
  iexists _; isplitr
  swap; · iexact H9
  ipureintro
  refine (read_last_store_whole _ _ hz2 _ _ _).trans ?_
  sl_unfold_run_names
  simp only [View.readAt_eq_ld, View.ld_unit_zero (S := S1024x1) hz2, View.ld_unit_zero (S := S1x256) hz2, View.ld_unit_zero (S := S1024x128) hz2, View.readCov_unit_zero (S := S1024x1) _ hz2, View.readCov_unit_zero (S := S1024x128) _ hz2]
  rfl

/-! ## A column step strictly between the first and the last -/

set_option maxHeartbeats 4000000 in
/-- Neither branch is taken: the three scratch buffers, found at (sm, sl, sacc), are left at one update of them; the
    inputs and the output buffer are left as found. -/
theorem sound_kernel1_B (c : Dev nD) (i : grid1.Coords)
    (arg2 : Memref sig .tc .vmem S8192x128 .f32) (harg2 : arg2.IsWhole) (arg3 : Memref sig .tc .vmem S1024x1 .f32) (harg3 : arg3.IsWhole)
    (arg4 : Memref sig .tc .vmem S1x256 .f32) (harg4 : arg4.IsWhole) (arg5 : Memref sig .tc .vmem S1024x32 .i32) (harg5 : arg5.IsWhole)
    (arg6 : Memref sig .tc .vmem S1024x128 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x128 .f32) (harg9 : arg9.IsWhole)
    (hc0 : ¬cond1_0 i) (hc1 : ¬cond1_1 i)
    (x0 : Vec F S8192x128 .f32) (x1 : Vec F S1024x1 .f32) (x2 : Vec F S1x256 .f32) (x3 : Vec F S1024x32 .i32) (xi4 : Vec F S1024x128 .f32)
    (sm : Vec F S1024x1 .f32) (sl : Vec F S1024x1 .f32) (sacc : Vec F S1024x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
        ∗ owns (c : Thread nD τ) arg7 fullShare sm ∗ owns (c : Thread nD τ) arg8 fullShare sl ∗ owns (c : Thread nD τ) arg9 fullShare sacc
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ owns (c : Thread nD τ) arg7 fullShare (stepB i x0 x1 x2 x3 (sm, sl, sacc)).1 ∗ owns (c : Thread nD τ) arg8 fullShare (stepB i x0 x1 x2 x3 (sm, sl, sacc)).2.1
            ∗ owns (c : Thread nD τ) arg9 fullShare (stepB i x0 x1 x2 x3 (sm, sl, sacc)).2.2) -∗ K ⟨⟩))
      ⊢ wp frame (wpE (defs₀ (F := F)) Variants.none c none) E (cc1__attn_kernel i arg2 harg2 arg3 harg3 arg4 harg4 arg5 harg5 arg6 harg6 arg7 harg7 arg8 harg8 arg9 harg9) K := by
  simp only [cc1__attn_kernel_eq_skeleton]; unfold cc1__attn_kernel_skel
  simp only [k1_part1_eq_skeleton, k1_part2_eq_skeleton, k1_part3_eq_skeleton, k1_part4_eq_skeleton, k1_part5_eq_skeleton, k1_part6_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf2 hf3 hf4 hf5 hf6 hf7 hf8 hf9
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    refine (read_last_store_whole _ _ hz2 _ _ _).trans ?_
    sl_unfold_run_names
    simp only [View.readAt_eq_ld, View.ld_unit_zero (S := S1024x1) hz2, View.ld_unit_zero (S := S1x256) hz2, View.ld_unit_zero (S := S1024x128) hz2]
    rfl
  isplitl [H8]
  · iexists _; isplitr
    swap; · iexact H8
    ipureintro
    refine (read_last_store_whole _ _ hz2 _ _ _).trans ?_
    sl_unfold_run_names
    simp only [View.readAt_eq_ld, View.ld_unit_zero (S := S1024x1) hz2, View.ld_unit_zero (S := S1x256) hz2, View.ld_unit_zero (S := S1024x128) hz2]
    rfl
  iexists _; isplitr
  swap; · iexact H9
  ipureintro
  refine (read_last_store_whole _ _ hz2 _ _ _).trans ?_
  sl_unfold_run_names
  simp only [View.readAt_eq_ld, View.ld_unit_zero (S := S1024x1) hz2, View.ld_unit_zero (S := S1x256) hz2, View.ld_unit_zero (S := S1024x128) hz2]
  rfl

/-! ## Column step 31 -/

set_option maxHeartbeats 4000000 in
/-- The second branch is taken: the three scratch buffers, found at (sm, sl, sacc), are left at one update of them, and
    the output buffer, found at anything, at the output block of that update; the inputs are left as found. -/
theorem sound_kernel1_C (c : Dev nD) (i : grid1.Coords)
    (arg2 : Memref sig .tc .vmem S8192x128 .f32) (harg2 : arg2.IsWhole) (arg3 : Memref sig .tc .vmem S1024x1 .f32) (harg3 : arg3.IsWhole)
    (arg4 : Memref sig .tc .vmem S1x256 .f32) (harg4 : arg4.IsWhole) (arg5 : Memref sig .tc .vmem S1024x32 .i32) (harg5 : arg5.IsWhole)
    (arg6 : Memref sig .tc .vmem S1024x128 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x128 .f32) (harg9 : arg9.IsWhole)
    (hc0 : ¬cond1_0 i) (hc1 : cond1_1 i)
    (x0 : Vec F S8192x128 .f32) (x1 : Vec F S1024x1 .f32) (x2 : Vec F S1x256 .f32) (x3 : Vec F S1024x32 .i32)
    (sm : Vec F S1024x1 .f32) (sl : Vec F S1024x1 .f32) (sacc : Vec F S1024x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
        ∗ owns (c : Thread nD τ) arg7 fullShare sm ∗ owns (c : Thread nD τ) arg8 fullShare sl ∗ owns (c : Thread nD τ) arg9 fullShare sacc
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (outOf (stepC i x0 x1 x2 x3 (sm, sl, sacc)))
            ∗ owns (c : Thread nD τ) arg7 fullShare (stepC i x0 x1 x2 x3 (sm, sl, sacc)).1 ∗ owns (c : Thread nD τ) arg8 fullShare (stepC i x0 x1 x2 x3 (sm, sl, sacc)).2.1
            ∗ owns (c : Thread nD τ) arg9 fullShare (stepC i x0 x1 x2 x3 (sm, sl, sacc)).2.2) -∗ K ⟨⟩))
      ⊢ wp frame (wpE (defs₀ (F := F)) Variants.none c none) E (cc1__attn_kernel i arg2 harg2 arg3 harg3 arg4 harg4 arg5 harg5 arg6 harg6 arg7 harg7 arg8 harg8 arg9 harg9) K := by
  simp only [cc1__attn_kernel_eq_skeleton]; unfold cc1__attn_kernel_skel
  simp only [k1_part1_eq_skeleton, k1_part2_eq_skeleton, k1_part3_eq_skeleton, k1_part4_eq_skeleton, k1_part5_eq_skeleton, k1_part6_eq_skeleton]
  unfold owns
  iintro ⟨⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, Hk⟩
  subst hf2 hf3 hf4 hf5 hf7 hf8 hf9
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    refine (read_last_store_whole _ _ hz2 _ _ _).trans ?_
    sl_unfold_run_names
    simp only [View.readAt_eq_ld, View.ld_unit_zero (S := S1024x1) hz2, View.ld_unit_zero (S := S1x256) hz2, View.ld_unit_zero (S := S1024x128) hz2, View.readCov_unit_zero (S := S1024x1) _ hz2, View.readCov_unit_zero (S := S1024x128) _ hz2]
    rfl
  isplitl [H7]
  · iexists _; isplitr
    swap; · iexact H7
    ipureintro
    refine (read_last_store_whole _ _ hz2 _ _ _).trans ?_
    sl_unfold_run_names
    simp only [View.readAt_eq_ld, View.ld_unit_zero (S := S1024x1) hz2, View.ld_unit_zero (S := S1x256) hz2, View.ld_unit_zero (S := S1024x128) hz2, View.readCov_unit_zero (S := S1024x1) _ hz2, View.readCov_unit_zero (S := S1024x128) _ hz2]
    rfl
  isplitl [H8]
  · iexists _; isplitr
    swap; · iexact H8
    ipureintro
    refine (read_last_store_whole _ _ hz2 _ _ _).trans ?_
    sl_unfold_run_names
    simp only [View.readAt_eq_ld, View.ld_unit_zero (S := S1024x1) hz2, View.ld_unit_zero (S := S1x256) hz2, View.ld_unit_zero (S := S1024x128) hz2, View.readCov_unit_zero (S := S1024x1) _ hz2, View.readCov_unit_zero (S := S1024x128) _ hz2]
    rfl
  iexists _; isplitr
  swap; · iexact H9
  ipureintro
  refine (read_last_store_whole _ _ hz2 _ _ _).trans ?_
  sl_unfold_run_names
  simp only [View.readAt_eq_ld, View.ld_unit_zero (S := S1024x1) hz2, View.ld_unit_zero (S := S1x256) hz2, View.ld_unit_zero (S := S1024x128) hz2, View.readCov_unit_zero (S := S1024x1) _ hz2, View.readCov_unit_zero (S := S1024x128) _ hz2]
  rfl

end Cert.Kernel.Hand

end
-- ==== Proof.R1Bits.lean ====
/-
  Region 1 of the kernel program (the attention call, grid 8 × 32), over the step functions of the
  definitions module: the windows' blocks; the scratch (running maximum, denominator, numerator) and the
  output block point by point, with their equations at the three kinds of column step; the invariant
  that carries the scratch across the points; the proof data; the body obligation, from the three runs of
  the body (one per kind of column step).
-/
import proofs.«413656_j34187939676687_3_alg».proof.Proof.R1DefsBits
import proofs.«413656_j34187939676687_3_alg».proof.Proof.R1RunsBits

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The windows' blocks and the scratch point by point -/

section Region
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The scratch after the body at position `n`: column step 0 of a row tile (n ≡ 0 mod 32) restarts from the
    reset scratch, every other step updates what position `n - 1` left. -/
def scrAt1 (c : Dev nD) : (n : ℕ) → n < cfg1.N → Scr F
  | 0, hn => stepA (grid1.coords ⟨0, hn⟩) (iblk1 V c 0 ⟨0, hn⟩) (iblk1 V c 1 ⟨0, hn⟩) (iblk1 V c 2 ⟨0, hn⟩) (iblk1 V c 3 ⟨0, hn⟩)
  | n + 1, hn =>
    if (n + 1) % 32 = 0 then
      stepA (grid1.coords ⟨n + 1, hn⟩) (iblk1 V c 0 ⟨n + 1, hn⟩) (iblk1 V c 1 ⟨n + 1, hn⟩) (iblk1 V c 2 ⟨n + 1, hn⟩) (iblk1 V c 3 ⟨n + 1, hn⟩)
    else if (n + 1) % 32 = 31 then
      stepC (grid1.coords ⟨n + 1, hn⟩) (iblk1 V c 0 ⟨n + 1, hn⟩) (iblk1 V c 1 ⟨n + 1, hn⟩) (iblk1 V c 2 ⟨n + 1, hn⟩) (iblk1 V c 3 ⟨n + 1, hn⟩) (scrAt1 c n (Nat.lt_of_succ_lt hn))
    else
      stepB (grid1.coords ⟨n + 1, hn⟩) (iblk1 V c 0 ⟨n + 1, hn⟩) (iblk1 V c 1 ⟨n + 1, hn⟩) (iblk1 V c 2 ⟨n + 1, hn⟩) (iblk1 V c 3 ⟨n + 1, hn⟩) (scrAt1 c n (Nat.lt_of_succ_lt hn))

/-- After position `k`: the output block, then the scratch (m, l, acc). -/
def outsAt1 (c : Dev nD) (k : ℕ) (hk : k < cfg1.N) :
    Vec F S1024x128 .f32 × (Vec F S1024x1 .f32 × Vec F S1024x1 .f32 × Vec F S1024x128 .f32) :=
  (outOf (scrAt1 V c k hk), scrAt1 V c k hk)

/-- At column step 0. -/
theorem scrAt1_A (c : Dev nD) (t : Fin cfg1.N) (h0 : t.val % 32 = 0) :
    scrAt1 V c t.val t.isLt = stepA (grid1.coords t) (iblk1 V c 0 t) (iblk1 V c 1 t) (iblk1 V c 2 t) (iblk1 V c 3 t) := by
  obtain ⟨n, hn⟩ := t
  cases n with
  | zero => rfl
  | succ n => exact if_pos h0

theorem scrAt1_B (c : Dev nD) (t : Fin cfg1.N) (h0 : ¬t.val % 32 = 0) (h1 : ¬t.val % 32 = 31) :
    scrAt1 V c t.val t.isLt = stepB (grid1.coords t) (iblk1 V c 0 t) (iblk1 V c 1 t) (iblk1 V c 2 t) (iblk1 V c 3 t)
      (scrAt1 V c (t.val - 1) (Nat.lt_of_le_of_lt (Nat.sub_le _ _) t.isLt)) := by
  obtain ⟨n, hn⟩ := t
  cases n with
  | zero => exact absurd (Nat.zero_mod _) h0
  | succ n => exact (if_neg h0).trans (if_neg h1)

theorem scrAt1_C (c : Dev nD) (t : Fin cfg1.N) (h1 : t.val % 32 = 31) :
    scrAt1 V c t.val t.isLt = stepC (grid1.coords t) (iblk1 V c 0 t) (iblk1 V c 1 t) (iblk1 V c 2 t) (iblk1 V c 3 t)
      (scrAt1 V c (t.val - 1) (Nat.lt_of_le_of_lt (Nat.sub_le _ _) t.isLt)) := by
  obtain ⟨n, hn⟩ := t
  cases n with
  | zero => exfalso; (try dsimp only at h1); omega
  | succ n =>
    have h0 : ¬(n + 1) % 32 = 0 := fun h => by (try dsimp only at h1); omega
    exact (if_neg h0).trans (if_pos h1)

theorem outsAt1_A (c : Dev nD) (t : Fin cfg1.N) (h0 : t.val % 32 = 0) :
    outsAt1 V c t.val t.isLt
      = (outOf (stepA (grid1.coords t) (iblk1 V c 0 t) (iblk1 V c 1 t) (iblk1 V c 2 t) (iblk1 V c 3 t)),
         stepA (grid1.coords t) (iblk1 V c 0 t) (iblk1 V c 1 t) (iblk1 V c 2 t) (iblk1 V c 3 t)) := by
  unfold outsAt1; rw [scrAt1_A V c t h0]

/-- At a column step strictly between 0 and 31: over what the point before left. -/
theorem outsAt1_B (c : Dev nD) (t : Fin cfg1.N) (h0 : ¬t.val % 32 = 0) (h1 : ¬t.val % 32 = 31) :
    outsAt1 V c t.val t.isLt
      = (outOf (stepB (grid1.coords t) (iblk1 V c 0 t) (iblk1 V c 1 t) (iblk1 V c 2 t) (iblk1 V c 3 t)
            (outsAt1 V c (t.val - 1) (Nat.lt_of_le_of_lt (Nat.sub_le _ _) t.isLt)).2),
         stepB (grid1.coords t) (iblk1 V c 0 t) (iblk1 V c 1 t) (iblk1 V c 2 t) (iblk1 V c 3 t)
            (outsAt1 V c (t.val - 1) (Nat.lt_of_le_of_lt (Nat.sub_le _ _) t.isLt)).2) := by
  unfold outsAt1; rw [scrAt1_B V c t h0 h1]

/-- At column step 31: over what the point before left. -/
theorem outsAt1_C (c : Dev nD) (t : Fin cfg1.N) (h1 : t.val % 32 = 31) :
    outsAt1 V c t.val t.isLt
      = (outOf (stepC (grid1.coords t) (iblk1 V c 0 t) (iblk1 V c 1 t) (iblk1 V c 2 t) (iblk1 V c 3 t)
            (outsAt1 V c (t.val - 1) (Nat.lt_of_le_of_lt (Nat.sub_le _ _) t.isLt)).2),
         stepC (grid1.coords t) (iblk1 V c 0 t) (iblk1 V c 1 t) (iblk1 V c 2 t) (iblk1 V c 3 t)
            (outsAt1 V c (t.val - 1) (Nat.lt_of_le_of_lt (Nat.sub_le _ _) t.isLt)).2) := by
  unfold outsAt1; rw [scrAt1_C V c t h1]

/-! ## The invariant carrying the scratch -/

/-- The three scratch operands: whole scoped buffers of the call's own. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x128 .f32 := Memref.whole cc1_scratch2

/-- The core's scoped buffers that region 1 neither stages through nor uses as scratch (region 0's staging
    buffers), each at some contents. -/
def rest1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg5_1), ((c : Thread nD τ).loc cc0_stg5_1) ↦{fullShare} f)
    ∗ (∃ f : Buf (Elt F) ((c : Thread nD τ).loc cc0_stg6_0), ((c : Thread nD τ).loc cc0_stg6_0) ↦{fullShare} f)
    ∗ (∃ f : Buf (Elt F) ((c : Thread nD τ).loc cc0_stg6_1), ((c : Thread nD τ).loc cc0_stg6_1) ↦{fullShare} f))

/-- What the launch hands the region gives the scratch operands as memrefs owned at some contents, -/
theorem PhiA1_split (c : Dev nD) :
    (Pipeline.ΦA spec1 c : sProp 𝕄)
      ⊢ iprop(iprop(rest1 (F := F) c ∗ (∃ d, owns (c : Thread nD τ) scM1_0 fullShare d)
          ∗ (∃ d, owns (c : Thread nD τ) scM1_1 fullShare d) ∗ (∃ d, owns (c : Thread nD τ) scM1_2 fullShare d))
        ∗ (∃ r, prngReg c r)) := by
  unfold Pipeline.ΦA rest1; rw [scopedRest1_eq]
  simp only [scM1_0, scM1_1, scM1_2, owns_whole]
  iintro ⟨⟨R0, R1, R2, R3, R4, R5, R6, R7, R8, R9, R10, S0, S1, S2⟩, Hg⟩
  iframe

/-- and is given back from them. -/
theorem PhiA1_join (c : Dev nD) :
    iprop(iprop(rest1 (F := F) c ∗ (∃ d, owns (c : Thread nD τ) scM1_0 fullShare d)
          ∗ (∃ d, owns (c : Thread nD τ) scM1_1 fullShare d) ∗ (∃ d, owns (c : Thread nD τ) scM1_2 fullShare d))
        ∗ (∃ r, prngReg c r))
      ⊢ (Pipeline.ΦA spec1 c : sProp 𝕄) := by
  unfold Pipeline.ΦA rest1; rw [scopedRest1_eq]
  simp only [scM1_0, scM1_1, scM1_2, owns_whole]
  iintro ⟨⟨⟨R0, R1, R2, R3, R4, R5, R6, R7, R8, R9, R10⟩, S0, S1, S2⟩, Hg⟩
  iframe

/-- The region invariant before position `n`: before the first point what the launch hands over (every
    scratch at anything); afterwards the three scratch buffers at what the point before left. -/
def PhiS1 (c : Dev nD) : (n : ℕ) → n ≤ cfg1.N → sProp 𝕄
  | 0, _ => Pipeline.ΦA spec1 c
  | n + 1, hn =>
    iprop(iprop(rest1 (F := F) c ∗ owns (c : Thread nD τ) scM1_0 fullShare ((outsAt1 V c n hn).2.1)
        ∗ owns (c : Thread nD τ) scM1_1 fullShare ((outsAt1 V c n hn).2.2.1)
        ∗ owns (c : Thread nD τ) scM1_2 fullShare ((outsAt1 V c n hn).2.2.2))
      ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn
      = iprop(iprop(rest1 (F := F) c ∗ owns (c : Thread nD τ) scM1_0 fullShare ((outsAt1 V c n hn).2.1)
          ∗ owns (c : Thread nD τ) scM1_1 fullShare ((outsAt1 V c n hn).2.2.1)
          ∗ owns (c : Thread nD τ) scM1_2 fullShare ((outsAt1 V c n hn).2.2.2))
        ∗ (∃ r, prngReg c r)) := rfl

theorem PhiS1_pos (c : Dev nD) (n : ℕ) (h : n ≤ cfg1.N) (hz : n ≠ 0) :
    PhiS1 V c n h
      = iprop(iprop(rest1 (F := F) c ∗ owns (c : Thread nD τ) scM1_0 fullShare ((outsAt1 V c (n - 1) (by omega)).2.1)
          ∗ owns (c : Thread nD τ) scM1_1 fullShare ((outsAt1 V c (n - 1) (by omega)).2.2.1)
          ∗ owns (c : Thread nD τ) scM1_2 fullShare ((outsAt1 V c (n - 1) (by omega)).2.2.2))
        ∗ (∃ r, prngReg c r)) := by
  cases n with
  | zero => exact absurd rfl hz
  | succ n => rfl

/-! ## The proof data -/

/-- Region 1's proof data on core `c`: the arrays as the region finds them; after the body at point `t` each
    input's buffer at its block and the output's at `outsAt1`'s first component; the invariant `PhiS1`;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

/-! ## The body obligation -/

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-- The input windows are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl

/-- Each input's current staging buffer holds its block at every point, fetched there or not: unfetched, the
    block index has not moved and the body left the block in place. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)

/-- Each window's current staging memref at point `t`, spelt as the pipeline passes it to the body. -/
abbrev ms1_0 (t : Fin cfg1.N) : Memref sig .tc .vmem S8192x128 .f32 := win1_0.stage (cfg1.slots t 0)
abbrev ms1_1 (t : Fin cfg1.N) : Memref sig .tc .vmem S1024x1 .f32 := win1_1.stage (cfg1.slots t 1)
abbrev ms1_2 (t : Fin cfg1.N) : Memref sig .tc .vmem S1x256 .f32 := win1_2.stage (cfg1.slots t 2)
abbrev ms1_3 (t : Fin cfg1.N) : Memref sig .tc .vmem S1024x32 .i32 := win1_3.stage (cfg1.slots t 3)
abbrev ms1_4 (t : Fin cfg1.N) : Memref sig .tc .vmem S1024x128 .f32 := win1_4.stage (cfg1.slots t 4)

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t
    ∗ (dat1 V c).leavesExact 3 t ∗ (dat1 V c).leavesExact 4 t)

set_option maxHeartbeats 4800000 in
/-- The body at any point. The inputs' memrefs hold their blocks; the point's column step says which of the
    three runs applies; the invariant hands the body the scratch at what the point before left (at anything
    before the first point, where the step is 0 and the body resets it) and takes it back at this point's;
    off step 31 the output buffer is handed back as it came, at step 31 it holds the output block. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  have hN : t.val < 256 := lt_of_lt_of_eq t.isLt (show cfg1.N = 256 from N_1)
  by_cases h1 : t.val % 32 = 31
  · have h0 : ¬t.val % 32 = 0 := by omega
    have hz : t.val ≠ 0 := by omega
    rw [show (dat1 V c).leavesExact 4 t = owns (c : Thread nD τ) (ms1_4 t) fullShare ((dat1 V c).after 4 t) from by
      unfold Dat.leavesExact; rw [liveAt1_4 t ((hcond1_1 t).mpr h1)], after1_4]
    rw [outsAt1_C V c t h1]
    (try dsimp only)
    rw [PhiS1_castSucc V c t, PhiS1_pos V c _ _ hz]
    iintro ⟨⟨⟨Hr, HS0, HS1, HS2⟩, Hg⟩, Ho, ⟨%d0, H0⟩, ⟨%d1, H1⟩, ⟨%d2, H2⟩, ⟨%d3, H3⟩, ⟨%d4, H4⟩⟩
    iapply (sound_kernel1_C c (grid1.coords t) _ _ _ _ _ _ _ _ _ _ _ _ _ _ _ _ (fun h => h0 ((hcond1_0 t).mp h)) ((hcond1_1 t).mpr h1)
      (iblk1 V c 0 t) (iblk1 V c 1 t) (iblk1 V c 2 t) (iblk1 V c 3 t) _ _ _ Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    isplitl [HS2]; · iexact HS2
    iintro ⟨H0, H1, H2, H3, H4, HS0, HS1, HS2⟩
    isplitl [Hr HS0 HS1 HS2 Hg]
    · isplitr [Hg]
      · isplitl [Hr]; · iexact Hr
        isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    iexact H4
  · rw [Dat.leavesExact_idle (dat1 V c) 4 t (idleAt1_4 t (fun h => h1 ((hcond1_1 t).mp h))) (noFlush1_4 t (fun h => h1 ((hcond1_1 t).mp h)))]
    by_cases h0 : t.val % 32 = 0
    · rw [outsAt1_A V c t h0]
      (try dsimp only)
      by_cases hz : t.val = 0
      · rw [PhiS1_castSucc V c t, PhiS1_zero V c _ _ hz]
        iintro ⟨HP, Ho, ⟨%d0, H0⟩, ⟨%d1, H1⟩, ⟨%d2, H2⟩, ⟨%d3, H3⟩, ⟨%d4, H4⟩⟩
        ihave HP2 := (PhiA1_split (F := F) c) $$ HP
        icases HP2 with ⟨⟨Hr, HS0, HS1, HS2⟩, Hg⟩
        iapply (sound_kernel1_A c (grid1.coords t) _ _ _ _ _ _ _ _ _ _ _ _ _ _ _ _ ((hcond1_0 t).mpr h0) (fun h => h1 ((hcond1_1 t).mp h))
          (iblk1 V c 0 t) (iblk1 V c 1 t) (iblk1 V c 2 t) (iblk1 V c 3 t) _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        iintro ⟨H0, H1, H2, H3, H4, HS0, HS1, HS2⟩
        isplitl [Hr HS0 HS1 HS2 Hg]
        · isplitr [Hg]
          · isplitl [Hr]; · iexact Hr
            isplitl [HS0]; · iexact HS0
            isplitl [HS1]; · iexact HS1
            iexact HS2
          iexact Hg
        isplitl [Ho]; · iexact Ho
        isplitl [H0]; · iexact H0
        isplitl [H1]; · iexact H1
        isplitl [H2]; · iexact H2
        isplitl [H3]; · iexact H3
        iexists _; iexact H4
      · rw [PhiS1_castSucc V c t, PhiS1_pos V c _ _ hz]
        iintro ⟨⟨⟨Hr, HS0, HS1, HS2⟩, Hg⟩, Ho, ⟨%d0, H0⟩, ⟨%d1, H1⟩, ⟨%d2, H2⟩, ⟨%d3, H3⟩, ⟨%d4, H4⟩⟩
        iapply (sound_kernel1_A c (grid1.coords t) _ _ _ _ _ _ _ _ _ _ _ _ _ _ _ _ ((hcond1_0 t).mpr h0) (fun h => h1 ((hcond1_1 t).mp h))
          (iblk1 V c 0 t) (iblk1 V c 1 t) (iblk1 V c 2 t) (iblk1 V c 3 t) _ Set.univ _)
        isplitl [H0]; · iexact H0
        isplitl [H1]; · iexact H1
        isplitl [H2]; · iexact H2
        isplitl [H3]; · iexact H3
        isplitl [H4]; · iexact H4
        isplitl [HS0]; · iexists _; iexact HS0
        isplitl [HS1]; · iexists _; iexact HS1
        isplitl [HS2]; · iexists _; iexact HS2
        iintro ⟨H0, H1, H2, H3, H4, HS0, HS1, HS2⟩
        isplitl [Hr HS0 HS1 HS2 Hg]
        · isplitr [Hg]
          · isplitl [Hr]; · iexact Hr
            isplitl [HS0]; · iexact HS0
            isplitl [HS1]; · iexact HS1
            iexact HS2
          iexact Hg
        isplitl [Ho]; · iexact Ho
        isplitl [H0]; · iexact H0
        isplitl [H1]; · iexact H1
        isplitl [H2]; · iexact H2
        isplitl [H3]; · iexact H3
        iexists _; iexact H4
    · have hz : t.val ≠ 0 := fun h => h0 (by rw [h])
      rw [outsAt1_B V c t h0 h1]
      (try dsimp only)
      rw [PhiS1_castSucc V c t, PhiS1_pos V c _ _ hz]
      iintro ⟨⟨⟨Hr, HS0, HS1, HS2⟩, Hg⟩, Ho, ⟨%d0, H0⟩, ⟨%d1, H1⟩, ⟨%d2, H2⟩, ⟨%d3, H3⟩, ⟨%d4, H4⟩⟩
      iapply (sound_kernel1_B c (grid1.coords t) _ _ _ _ _ _ _ _ _ _ _ _ _ _ _ _ (fun h => h0 ((hcond1_0 t).mp h)) (fun h => h1 ((hcond1_1 t).mp h))
        (iblk1 V c 0 t) (iblk1 V c 1 t) (iblk1 V c 2 t) (iblk1 V c 3 t) _ _ _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, HS0, HS1, HS2⟩
      isplitl [Hr HS0 HS1 HS2 Hg]
      · isplitr [Hg]
        · isplitl [Hr]; · iexact Hr
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives it back: the scratch's named contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 256 := N_1; omega)]
  refine BIBase.Entails.trans ?_ (PhiA1_join c)
  iintro ⟨⟨Hr, S0, S1, S2⟩, Hg⟩
  isplitr [Hg]
  · isplitl [Hr]; · iexact Hr
    isplitl [S0]; · iexists _; iexact S0
    isplitl [S1]; · iexists _; iexact S1
    iexists _; iexact S2
  iexact Hg

end Region

end Cert.Kernel.Hand

end
-- ==== Proof.FrameAsmBits.lean ====
/-
  The two kernel regions of @main as segment records, the frame, and the run that carries the result.

  @main is four items: the two slices of `a`, region 0 (projected features and the two logit halves), the reshape
  of the second half to a row, region 1 (masked attention with a running softmax). Between two items every unscoped
  buffer is held at a valuation: the launch contents, then each host stretch applied, then at a region's exit the
  region's arrays at what its write-backs leave (an input window's array as entered, an output window's after every
  flushed block) and every other buffer as entered. Each region's proof data is taken at its entry valuation; its
  arrays are split out of the held buffers at entry and put back at exit. Beside the buffers rides the core's
  generator register at some state and the core owing nothing. The frame reads the four arguments off the last
  valuation, which no item changes at them; the run with its value also reads `main_v4` there, which is region 1's
  output array after its last write-back.
-/
import proofs.«413656_j34187939676687_3_alg».proof.Proof.Gen.Kernel.Regions
import proofs.«413656_j34187939676687_3_alg».proof.Proof.Gen.Kernel.Skeleton
import proofs.«413656_j34187939676687_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic
import proofs.«413656_j34187939676687_3_alg».proof.Proof.R0Bits
import proofs.«413656_j34187939676687_3_alg».proof.Proof.R1Bits

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the regions' boundaries -/

/-- Region 0's entry contents, read at the TensorCore's references: the launch memory after the two slices of `a`. -/
abbrev ent0 (c : Dev nD) (b : Ref sig .tc) : Buf (Elt F) ((c : Thread nD τ).loc b) := Gen.V1 m c b

/-- Region 0's exit contents: each window's array after every write-back, every other buffer as entered. -/
def exit0 (c : Dev nD) : Valuation τ sig (Elt F) :=
  Pipeline.withArrays spec0 c (Gen.V1 m c) fun w => (dat0 (ent0 m) c).arrAt w cfg0.N

/-- What the regions leave, region 0's part: at every item the buffers as region 0 leaves them. -/
def outs0 : Outs (F := F) := fun _ r c => exit0 m c r

/-- Region 1's entry contents: region 0's exit after the reshape of `h2` to a row. -/
abbrev ent1 (c : Dev nD) (b : Ref sig .tc) : Buf (Elt F) ((c : Thread nD τ).loc b) := Gen.V3 m (outs0 m) c b

/-- Region 1's exit contents. -/
def exit1 (c : Dev nD) : Valuation τ sig (Elt F) :=
  Pipeline.withArrays spec1 c (Gen.V3 m (outs0 m) c) fun w => (dat1 (ent1 m) c).arrAt w cfg1.N

/-- What the regions leave: after item 3 region 1's exit contents, before it region 0's. -/
def outs : Outs (F := F) := fun J r c => if J = 4 then exit1 m c r else exit0 m c r

theorem outs_two (r : Ref sig .tc) (c : Dev nD) : outs m 2 r c = exit0 m c r := rfl
theorem outs_four (r : Ref sig .tc) (c : Dev nD) : outs m 4 r c = exit1 m c r := rfl
/-- Region 1 is entered from the same contents whichever of the two families names region 0's arrays. -/
theorem V3_outs (c : Dev nD) : Gen.V3 m (outs m) c = Gen.V3 m (outs0 m) c := rfl

theorem exit0_arr (c : Dev nD) (w : Fin cfg0.W) :
    exit0 m c (Proc.devRef .tc (Pipeline.arrRef spec0 w)) = (dat0 (ent0 m) c).arrAt w cfg0.N := by
  unfold exit0; exact Pipeline.withArrays_arr spec0 launch0.win.arr_inj c _ _ w
theorem exit1_arr (c : Dev nD) (w : Fin cfg1.W) :
    exit1 m c (Proc.devRef .tc (Pipeline.arrRef spec1 w)) = (dat1 (ent1 m) c).arrAt w cfg1.N := by
  unfold exit1; exact Pipeline.withArrays_arr spec1 launch1.win.arr_inj c _ _ w

/-- Region 0's three results, as the frame's unknowns name them. -/
theorem outs_main_v2_0 (c : Dev nD) : outs m 2 main_v2_0 c = (dat0 (ent0 m) c).arrAt 4 cfg0.N := exit0_arr m c 4
theorem outs_main_v2_1 (c : Dev nD) : outs m 2 main_v2_1 c = (dat0 (ent0 m) c).arrAt 5 cfg0.N := exit0_arr m c 5
theorem outs_main_v2_2 (c : Dev nD) : outs m 2 main_v2_2 c = (dat0 (ent0 m) c).arrAt 6 cfg0.N := exit0_arr m c 6
/-- Region 1's result. -/
theorem outs_main_v4 (c : Dev nD) : outs m 4 main_v4 c = (dat1 (ent1 m) c).arrAt 4 cfg1.N := exit1_arr m c 4

/-- The final array of region 1's output window: what the run leaves in `main_v4`. -/
def kernelOutArr (c : Dev nD) : Buf (Elt F) ((c.tc : Thread nD τ).loc main_v4) := (dat1 (ent1 m) c).arrAt 4 cfg1.N

/-! ## Reading the item valuations at the references the regions may change -/

theorem V2_main_v2_2 (o : Outs (F := F)) (c : Dev nD) : Gen.V2 m o c main_v2_2 = o 2 main_v2_2 c := by
  simp only [Gen.V2, Function.update_self]
theorem V2_main_v2_1 (o : Outs (F := F)) (c : Dev nD) : Gen.V2 m o c main_v2_1 = o 2 main_v2_1 c := by
  simp only [Gen.V2, Function.update_of_ne (StableHlo.devRef_ne_of_ne (by decide : main_v2_1 ≠ main_v2_2) : (Proc.devRef .tc main_v2_1 : DevRef τ sig) ≠ Proc.devRef .tc main_v2_2), Function.update_self]
theorem V2_main_v2_0 (o : Outs (F := F)) (c : Dev nD) : Gen.V2 m o c main_v2_0 = o 2 main_v2_0 c := by
  simp only [Gen.V2, Function.update_of_ne (StableHlo.devRef_ne_of_ne (by decide : main_v2_0 ≠ main_v2_2) : (Proc.devRef .tc main_v2_0 : DevRef τ sig) ≠ Proc.devRef .tc main_v2_2), Function.update_of_ne (StableHlo.devRef_ne_of_ne (by decide : main_v2_0 ≠ main_v2_1) : (Proc.devRef .tc main_v2_0 : DevRef τ sig) ≠ Proc.devRef .tc main_v2_1), Function.update_self]
theorem V4_main_v4 (o : Outs (F := F)) (c : Dev nD) : Gen.V4 m o c main_v4 = o 4 main_v4 c := by
  simp only [Gen.V4, Function.update_self]

/-! ## The proof data family -/

/-- Every pipeline's proof data, each at its region's entry contents. -/
def pdats : (p : Fin 2) → (c : Dev nD) → Dat τ (Elt F) Unit ℕ (UR sig nD τ) ℕ (cfgs p) c
  | ⟨0, _⟩ => fun c => dat0 (ent0 m) c
  | ⟨1, _⟩ => fun c => dat1 (ent1 m) c

/-! ## What a region's exit holds at its arrays, and off them -/

/-- At region 0's exit each of its arrays holds what the pipeline leaves: an input window's array as entered, an output
    window's after every write-back. -/
theorem hF0 (c : Dev nD) (w : Fin cfg0.W) :
    (dat0 (ent0 m) c).arrAt w cfg0.N = Gen.V2 m (outs m) c (Pipeline.arrRef spec0 w) := by
  fin_cases w
  · exact (((dat0 (ent0 m) c).arrAt_in 0 rfl _).trans (A_eq0 (ent0 m) c 0)).trans (Gen.V2_of m (outs m) c main_arg0 (by decide)).symm
  · exact (((dat0 (ent0 m) c).arrAt_in 1 rfl _).trans (A_eq0 (ent0 m) c 1)).trans (Gen.V2_of m (outs m) c main_arg1 (by decide)).symm
  · exact (((dat0 (ent0 m) c).arrAt_in 2 rfl _).trans (A_eq0 (ent0 m) c 2)).trans (Gen.V2_of m (outs m) c main_v0 (by decide)).symm
  · exact (((dat0 (ent0 m) c).arrAt_in 3 rfl _).trans (A_eq0 (ent0 m) c 3)).trans (Gen.V2_of m (outs m) c main_v1 (by decide)).symm
  · exact ((V2_main_v2_0 m (outs m) c).trans (outs_main_v2_0 m c)).symm
  · exact ((V2_main_v2_1 m (outs m) c).trans (outs_main_v2_1 m c)).symm
  · exact ((V2_main_v2_2 m (outs m) c).trans (outs_main_v2_2 m c)).symm

/-- Off region 0's arrays nothing moved. -/
theorem hrest0 (c : Dev nD) (b : Ref sig .tc) (hb : b ∉ Finset.univ.image (Pipeline.arrRef spec0)) :
    Gen.V2 m (outs m) c b = Gen.V1 m c b :=
  Gen.V2_of m (outs m) c b fun h => by
    simp only [List.mem_cons, List.not_mem_nil, or_false] at h
    rcases h with rfl | rfl | rfl
    · exact hb (Finset.mem_image.mpr ⟨4, Finset.mem_univ _, rfl⟩)
    · exact hb (Finset.mem_image.mpr ⟨5, Finset.mem_univ _, rfl⟩)
    · exact hb (Finset.mem_image.mpr ⟨6, Finset.mem_univ _, rfl⟩)

/-- At region 1's exit each of its arrays holds what the pipeline leaves. -/
theorem hF1 (c : Dev nD) (w : Fin cfg1.W) :
    (dat1 (ent1 m) c).arrAt w cfg1.N = Gen.V4 m (outs m) c (Pipeline.arrRef spec1 w) := by
  fin_cases w
  · exact (((dat1 (ent1 m) c).arrAt_in 0 rfl _).trans (A_eq1 (ent1 m) c 0)).trans (Gen.V4_of m (outs m) c main_v2_0 (by decide)).symm
  · exact (((dat1 (ent1 m) c).arrAt_in 1 rfl _).trans (A_eq1 (ent1 m) c 1)).trans (Gen.V4_of m (outs m) c main_v2_1 (by decide)).symm
  · exact (((dat1 (ent1 m) c).arrAt_in 2 rfl _).trans (A_eq1 (ent1 m) c 2)).trans (Gen.V4_of m (outs m) c main_v3 (by decide)).symm
  · exact (((dat1 (ent1 m) c).arrAt_in 3 rfl _).trans (A_eq1 (ent1 m) c 3)).trans (Gen.V4_of m (outs m) c main_arg3 (by decide)).symm
  · exact ((V4_main_v4 m (outs m) c).trans (outs_main_v4 m c)).symm

/-- Off region 1's arrays nothing moved. -/
theorem hrest1 (c : Dev nD) (b : Ref sig .tc) (hb : b ∉ Finset.univ.image (Pipeline.arrRef spec1)) :
    Gen.V4 m (outs m) c b = Gen.V3 m (outs m) c b :=
  Gen.V4_of m (outs m) c b fun h => by
    simp only [List.mem_cons, List.not_mem_nil, or_false] at h
    subst h
    exact hb (Finset.mem_image.mpr ⟨4, Finset.mem_univ _, rfl⟩)

/-! ## The thread state's rest, and the regions as segments -/

/-- No core owes another anything: no level is assigned. -/
abbrev noL : GSem nD τ sig → Finset Unit := fun _ => ∅
abbrev noLv : GSem nD τ sig → Unit → ℕ := fun _ _ => 0
/-- What rides beside the buffers through every item: the core's generator register at some state, and the core
    owing nothing. -/
abbrev rest (c : Dev nD) : sProp 𝕄 := iprop((∃ r, prngReg c r) ∗ ∃ W, owes (c : Thread nD τ) (0 : CellTallies nD τ sig Unit) W)
/-- The same rest between any two items. -/
abbrev rests : Fin 3 → Dev nD → sProp 𝕄 := fun _ c => rest c

-- a library lemma stated over the pinned configuration unifies with the printed one only when unification may unfold
-- plain definitions in a metavariable's type
set_option backward.isDefEq.respectTransparency.types false in
/-- REGION 0 over the thread state: entered from every unscoped buffer at the contents after the two slices, left at
    those contents with its three results at what the write-backs leave. Its arrays are split out of the unscoped
    buffers and put back at the exit contents; the generator register goes into the class invariant and comes out;
    nothing is owed; the kernel has no semaphore of its own. -/
def reg0 : Pipeline.RegionSeg (pcfgs (F := F)) adm (pdats m) () defs₀ Variants.none noL noLv 0 where
  win := launch0.win.to₀
  block_pos := launch0.block_pos
  stage_whole := launch0.stage_whole
  K := PEmpty
  osem k := k.elim
  ho := Pipeline.OwnSemFacts.none _
  hbody c := (body_obligation0 (ent0 m) c).loose
  hwaits := Pipeline.hwaits_of_owed_zero _ _ _ _ noL noLv 0 fun _ _ => rfl
  pre c := iprop(StableHlo.held (c : Thread nD τ) (Pipeline.ucRefs τ sig) (Gen.V1 m c) ∗ rest c)
  post c := iprop(StableHlo.held (c : Thread nD τ) (Pipeline.ucRefs τ sig) (Gen.V2 m (outs m) c) ∗ rest c)
  X c := iprop(∃ r, prngReg c r)
  Y c := iprop(∃ r, prngReg c r)
  Z c := Pipeline.unscopedRest (Ix := Unit) (Name := ℕ) (U := UR sig nD τ) (Lvl := ℕ) spec0 c (ent0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (ent0 m c) fun w => A_eq0 (ent0 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (ent0 m c) (fun b => Gen.V2 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The class invariant of region 1 from the generator register and the scoped buffers no window stages. -/
theorem enter_inv1 (c : Dev nD) (P : sProp 𝕄) :
    iprop((∃ r, prngReg c r) ∗ P ∗ Pipeline.scopedRest (Ix := Unit) (Name := ℕ) (U := UR sig nD τ) (Lvl := ℕ) (Val := Elt F) spec1 c)
      ⊢ (Pipeline.ΦA spec1 c : sProp 𝕄) := by
  unfold Pipeline.ΦA
  iintro ⟨Hp, -, Hr⟩
  isplitl [Hr]; · iexact Hr
  iexact Hp
/-- and back. -/
theorem leave_inv1 (c : Dev nD) :
    (Pipeline.ΦA spec1 c : sProp 𝕄)
      ⊢ iprop((∃ r, prngReg c r) ∗ BI.emp ∗ Pipeline.scopedRest (Ix := Unit) (Name := ℕ) (U := UR sig nD τ) (Lvl := ℕ) (Val := Elt F) spec1 c) := by
  unfold Pipeline.ΦA
  iintro ⟨Hr, Hp⟩
  isplitl [Hp]; · iexact Hp
  isplitr; · iempintro
  iexact Hr

set_option backward.isDefEq.respectTransparency.types false in
/-- REGION 1 over the thread state: entered from region 0's exit after the reshape, left with `main_v4` at what the
    write-backs leave. The scratch (running maximum, denominator, numerator) lives in the region's invariant, which is
    entered from and returns to the class invariant (`hin1`, `hout1`). -/
def reg1 : Pipeline.RegionSeg (pcfgs (F := F)) adm (pdats m) () defs₀ Variants.none noL noLv 1 where
  win := launch1.win.to₀
  block_pos := launch1.block_pos
  stage_whole := launch1.stage_whole
  K := PEmpty
  osem k := k.elim
  ho := Pipeline.OwnSemFacts.none _
  hbody c := (body_obligation1 (ent1 m) c).loose
  hwaits := Pipeline.hwaits_of_owed_zero _ _ _ _ noL noLv 1 fun _ _ => rfl
  pre c := iprop(StableHlo.held (c : Thread nD τ) (Pipeline.ucRefs τ sig) (Gen.V3 m (outs m) c) ∗ rest c)
  post c := iprop(StableHlo.held (c : Thread nD τ) (Pipeline.ucRefs τ sig) (Gen.V4 m (outs m) c) ∗ rest c)
  X c := iprop(∃ r, prngReg c r)
  Y c := iprop(∃ r, prngReg c r)
  Z c := Pipeline.unscopedRest (Ix := Unit) (Name := ℕ) (U := UR sig nD τ) (Lvl := ℕ) spec1 c (ent1 m c)
  hentry c := by
    rw [Pipeline.ownSems0_none, V3_outs m c]
    have hsplit := Pipeline.arrays_of_unscopedBufs (p := 1) (pcfgs (F := F)) adm (pdats m) launch1.win launch1.arr_whole c
      ((pdats m 1 c).share_full fun _ => rfl) (ent1 m c) fun w => A_eq1 (ent1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (enter_inv1 c _).trans (hin1 (ent1 m) c)
  hout c := by
    rw [Pipeline.ownSems0_none]
    exact (hout1 (ent1 m) c).trans (leave_inv1 c)
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (ent1 m c) (fun b => Gen.V4 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

/-- The launch element: the pipeline library's, at every pipeline's staging cells. -/
abbrev u0 : UR sig nD τ := initOf (Pipeline.cells cfgs cellOf_inj) (Pipeline.launchToks cfgs cellOf_inj)

/-- The launch element yields the pipeline library's; no core needs a ghost resource of its own. -/
theorem hu0 : (ownU u0 : sProp 𝕄)
    ⊢ |={Set.univ}=> iprop(BI.own ((emb₁ : Emb (UR sig nD τ) 𝕄) u0) ∗ bigSep Finset.univ fun _ : Dev nD => (BI.emp : sProp 𝕄)) := by
  iintro Hu; imodintro
  isplitl [Hu]
  · iapply (show (ownU u0 : sProp 𝕄) ⊢ BI.own ((emb₁ : Emb (UR sig nD τ) 𝕄) u0) from .rfl)
    iexact Hu
  iapply (show (BI.emp : sProp 𝕄) ⊢ bigSep Finset.univ (fun _ : Dev nD => (BI.emp : sProp 𝕄)) from by rw [BI.bigSep_emp_const])
  iempintro

/-- What the launch deals each core besides its buffers makes the first rest: the generator register at its launch
    state, the core owing nothing. -/
theorem hrest_init : iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts noL noLv)
      ⊢ (|={Set.univ}=> bigSep Finset.univ (rests (F := F) 0) : sProp 𝕄) := by
  refine Pipeline.initEach noL noLv fun c => ?_
  iintro ⟨⟨-, HO, -, Hp, -⟩, -⟩
  imodintro
  isplitl [Hp]; · iexists _; iexact Hp
  iexists ∅; iexact HO

/-- The last rest ends owing nothing. -/
theorem hrest_fin (c : Dev nD) : rests (F := F) 2 c ⊢ (iprop(∃ W, owes (c : Thread nD τ) (0 : CellTallies nD τ sig Unit) W) : sProp 𝕄) := by
  iintro ⟨-, HO⟩; iexact HO

/-! ## The frame -/

set_option backward.isDefEq.respectTransparency.types false in
/-- THE FRAME, at any `F`: from any memory with zero counters every weakly fair execution of @main terminates, nothing
    faulting, and every final memory holds the four argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Gen.frame_cond m (emb₁ : Emb (UR sig nD τ) 𝕄) () Variants.none noL noLv (fun _ _ => rfl) ρ (outs m) (pdats m)
    0 (fun _ => iprop(emp)) u0 hu0 rests (hrest_init ρ) hrest_fin
    (reg0 m) (fun _ => .rfl) (fun _ => .rfl) (reg1 m) (fun _ => .rfl) (fun _ => .rfl)

/-! ## The run, carrying the result -/

/-- The last valuation at `main_v4` is region 1's final output array. -/
theorem V4_val (c : Dev nD) : Gen.V4 m (outs m) c main_v4 = kernelOutArr m c :=
  (V4_main_v4 m (outs m) c).trans (outs_main_v4 m c)

set_option backward.isDefEq.respectTransparency.types false in
/-- THE RUN WITH ITS VALUE, at any `F`: as the frame, and every final memory holds in `main_v4` the final array of
    region 1's output window. -/
theorem run_val : θ_run defs (onTc (τ := τ) (main (F := F))) ⟨m, fun _ => 0, ρ⟩ (fun r => ∀ c : Dev nD,
      r.2.mem ((c.tc : Thread nD τ).loc main_v4) = kernelOutArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine Pipeline.θ_run_regions_kit_dev (pcfgs (F := F)) adm (pdats m) () cellOf_inj (emb₁ : Emb (UR sig nD τ) 𝕄) defs₀ Variants.none noL noLv m ρ main
    (Gen.segs m (outs m) Variants.none noL noLv rests () (pdats m) (reg0 m) (reg1 m))
    (fun c Q => by
      rewrite [main_chain c, Pipeline.Seg.run_eq_chain,
        show (Gen.segs m (outs m) Variants.none noL noLv rests () (pdats m) (reg0 m) (reg1 m) c).map Pipeline.Seg.prog = [
          StableHlo.seq hostOps0,
          Prog.lift (.customCall (Pipeline.entry 0) ()),
          StableHlo.seq hostOps1,
          Prog.lift (.customCall (Pipeline.entry 1) ()) ] from rfl]
      exact .rfl)
    (fun c => by simp only [Gen.segs, Pipeline.Seg.pipes_host, Pipeline.Seg.pipes_region, Pipeline.Seg.pipes_nil]; decide)
    0 (fun _ _ => rfl) (fun _ => iprop(emp)) u0 hu0
    (T₀ := fun c => iprop(StableHlo.held (c : Thread nD τ) (Pipeline.ucRefs τ sig) (Gen.V0 m c) ∗ rests 0 c))
    (Tₙ := fun c => StableHlo.held (c : Thread nD τ) (Pipeline.ucRefs τ sig) (Gen.V4 m (outs m) c))
    (hch := fun c => ⟨.rfl, .rfl, .rfl, .rfl, sep_mono .rfl (hrest_fin c)⟩)
    (hinit := ?_)
    (QY := fun c s => s.mem ((c.tc : Thread nD τ).loc main_v4) = kernelOutArr m c
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3))
    (hfin := fun c s' => ?_) (hQ := fun _ h => h)
  · -- the launch, core by core: the unscoped buffers are held at the launch contents; the generator register and the
    -- core's owing nothing make the first rest
    refine Pipeline.initEach noL noLv fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]; · iexists _; iexact Hp
    iexists ∅; iexact HO
  · -- the end: the result and each argument read off the last valuation
    unfold StableHlo.held
    iintro ⟨Hh, HSI⟩
    ihave Hr := (pointsTo_read_all (Pipeline.ucRefs τ sig) (fun b => ((c : Thread nD τ).1, b)) (Gen.V4 m (outs m) c) s') $$ [Hh HSI]
    · isplitl [Hh] <;> iassumption
    icases Hr with ⟨%h, HSI⟩
    imodintro
    isplitr
    · ipureintro
      exact ⟨(h (Proc.devRef .tc main_v4) (Finset.mem_filter.mpr ⟨StableHlo.devRef_mem_tcRefs main_v4, by decide⟩)).trans (V4_val m c),
        (h (Proc.devRef .tc main_arg0) (Finset.mem_filter.mpr ⟨StableHlo.devRef_mem_tcRefs main_arg0, by decide⟩)).trans (Gen.V4_main_arg0 m (outs m) c),
        (h (Proc.devRef .tc main_arg1) (Finset.mem_filter.mpr ⟨StableHlo.devRef_mem_tcRefs main_arg1, by decide⟩)).trans (Gen.V4_main_arg1 m (outs m) c),
        (h (Proc.devRef .tc main_arg2) (Finset.mem_filter.mpr ⟨StableHlo.devRef_mem_tcRefs main_arg2, by decide⟩)).trans (Gen.V4_main_arg2 m (outs m) c),
        (h (Proc.devRef .tc main_arg3) (Finset.mem_filter.mpr ⟨StableHlo.devRef_mem_tcRefs main_arg3, by decide⟩)).trans (Gen.V4_main_arg3 m (outs m) c)⟩
    · iexact HSI

end Cert.Kernel.Hand

end
-- ==== Proof.RefRunA.lean ====
/-
  The reference's value as a composition of named stages, for any float family.

  Stage by stage, over the neighbour table Nn (8192 rows of 32 words), the features X, the weights W and the
  attention vector A:
  * `stPairs`: for every one of the 262144 neighbour slots, the pair (row, word), each component moved up by 8192
    when negative; `stCounts`: a table of zeros with a one added at every pair.
  * `stRowNorm`: every row divided by its sum; `stEye`: the identity table; `stMask`: counts normalised, plus the
    identity, normalised again.
  * `stHW`: X·W; `stH1`, `stH2`: X·W against the two halves of A; `stPairSum`: h1 i + h2 j; `stScores`: mask times
    that.
  * `stLrelu`: the leaky slope; `stFill`: zeros replaced by the large negative fill.
  * `stRowMax`, `stExpShift`, `stSoft`: the row softmax (shift by the row maximum, exponential, divide by the row sum).
  * `stAgg`: the softmax times X·W; `stElu`: z where z > 0, else exp z − 1.
  `refTerm` is their composition.
-/
import proofs.«413656_j34187939676687_3_alg».proof.Proof.Gen.ReferenceIdeal

noncomputable section

namespace Cert.ReferenceIdeal.Hand

open Cert.ReferenceIdeal Cert.ReferenceIdeal.Gen Idealize.ShloMosaic

variable {F : FTy → Type} [FloatOps F]

/-! ## Neighbour pairs and counts -/

/-- Slot 32·i + k holds the row number i. -/
def stRowWords : IVec S262144 32 :=
  shapeCast S262144 (broadcastInDim S8192x32 ![0] bcast_S8192_S8192x32_0 (iotaInDim S8192 32 0)) shapeCasts_S8192x32_S262144

/-- Slot 32·i + k holds the k-th neighbour word of row i. -/
def stColWords (Nn : IVec S8192x32 32) : IVec S262144 32 :=
  shapeCast S262144 Nn shapeCasts_S8192x32_S262144

/-- A word below zero is moved up by 8192; any other is kept. -/
def stWrap (v : IVec S262144 32) : IVec S262144 32 :=
  select (cmpi .slt v (broadcastInDim S262144 ![] bcast_S_S262144 (constantI S_ 32 0#32)))
    (addi v (broadcastInDim S262144 ![] bcast_S_S262144 (constantI S_ 32 8192#32))) v

/-- The (row, column) pair of every neighbour slot. -/
def stPairs (Nn : IVec S8192x32 32) : IVec S262144x2 32 :=
  concatenate S262144x2 1
    [⟨S262144x1, broadcastInDim S262144x1 ![0] bcast_S262144_S262144x1_0 (stWrap stRowWords)⟩,
     ⟨S262144x1, broadcastInDim S262144x1 ![0] bcast_S262144_S262144x1_0 (stWrap (stColWords Nn))⟩]
    concatenates_S262144x1_S262144x1_S262144x2_d1

/-- Zeros, with a one added at every neighbour pair. -/
def stCounts (Nn : IVec S8192x32 32) : FVec F S8192x8192 .f32 :=
  Host.scatterAdd scatter_S8192x8192_S262144x2_S262144_n_01_01_1
    (broadcastInDim S8192x8192 ![] bcast_S_S8192x8192 (constant S_ .f32 0x00000000#32))
    (stPairs Nn)
    (broadcastInDim S262144 ![] bcast_S_S262144 (constant S_ .f32 0x3F800000#32))

/-! ## The mask -/

/-- The sum of every row, from zero. -/
def stRowSum (x : FVec F S8192x8192 .f32) : FVec F S8192 .f32 :=
  Host.reduceAdd x (constant S_ .f32 0x00000000#32) reducesTo_S8192x8192_S8192_d1 h_S_

/-- A value per row, repeated along the row. -/
def stSpread (r : FVec F S8192 .f32) : FVec F S8192x8192 .f32 :=
  broadcastInDim S8192x8192 ![0, 1] bcast_S8192x1_S8192x8192_0_1 (broadcastInDim S8192x1 ![0] bcast_S8192_S8192x1_0 r)

/-- Every row divided by its sum. -/
def stRowNorm (x : FVec F S8192x8192 .f32) : FVec F S8192x8192 .f32 :=
  Host.divf x (stSpread (stRowSum x))

/-- One on the diagonal, zero elsewhere. -/
def stEye : FVec F S8192x8192 .f32 :=
  uitofp (F := F) .f32
    (cmpi .eq
      (addi (iotaInDim S8192x8192 32 0) (broadcastInDim S8192x8192 ![] bcast_S_S8192x8192 (constantI S_ 32 0#32)))
      (iotaInDim S8192x8192 32 1))

/-- Counts normalised by row, plus the identity, normalised by row again. -/
def stMask (cnt : FVec F S8192x8192 .f32) : FVec F S8192x8192 .f32 :=
  stRowNorm (addf (stRowNorm cnt) stEye)

/-! ## Projected features and scores -/

def stHW (X : FVec F S8192x256 .f32) (W : FVec F S256x128 .f32) : FVec F S8192x128 .f32 :=
  Host.dotGeneral dot_S8192x256_S256x128_S8192x128_1_0_0_1_n_n none X W

/-- The projected features against the first 128 entries of A. -/
def stH1 (hw : FVec F S8192x128 .f32) (A : FVec F S256x1 .f32) : FVec F S8192x1 .f32 :=
  Host.dotGeneral dot_S8192x128_S128x1_S8192x1_1_0_0_1_n_n none hw
    (extractStridedSlice S128x1 ![0, 0] A slices_S256x1_S128x1_0_0)

/-- The projected features against the last 128 entries of A. -/
def stH2 (hw : FVec F S8192x128 .f32) (A : FVec F S256x1 .f32) : FVec F S8192x1 .f32 :=
  Host.dotGeneral dot_S8192x128_S128x1_S8192x1_1_0_0_1_n_n none hw
    (extractStridedSlice S128x1 ![128, 0] A slices_S256x1_S128x1_128_0)

/-- Entry (i, j): h1 i + h2 j. -/
def stPairSum (hw : FVec F S8192x128 .f32) (A : FVec F S256x1 .f32) : FVec F S8192x8192 .f32 :=
  addf (broadcastInDim S8192x8192 ![0, 1] bcast_S8192x1_S8192x8192_0_1 (stH1 hw A))
    (broadcastInDim S8192x8192 ![0, 1] bcast_S1x8192_S8192x8192_0_1
      (transpose S1x8192 [1, 0] (stH2 hw A) transposes_S8192x1_S1x8192_1_0))

def stScores (msk : FVec F S8192x8192 .f32) (hw : FVec F S8192x128 .f32) (A : FVec F S256x1 .f32) :
    FVec F S8192x8192 .f32 :=
  mulf msk (stPairSum hw A)

/-! ## Slope and fill -/

/-- z where z > 0, else 0.2·z. -/
def stLrelu (e : FVec F S8192x8192 .f32) : FVec F S8192x8192 .f32 :=
  select (cmpf .ogt e (broadcastInDim S8192x8192 ![] bcast_S_S8192x8192 (constant S_ .f32 0x00000000#32))) e
    (mulf (broadcastInDim S8192x8192 ![] bcast_S_S8192x8192 (constant S_ .f32 0x3E4CCCCD#32)) e)

/-- z where z ≠ 0, else the fill −9·10¹⁵. -/
def stFill (z : FVec F S8192x8192 .f32) : FVec F S8192x8192 .f32 :=
  select (cmpf .une z (broadcastInDim S8192x8192 ![] bcast_S_S8192x8192 (constant S_ .f32 0x00000000#32))) z
    (broadcastInDim S8192x8192 ![] bcast_S_S8192x8192 (constant S_ .f32 0xD9FFCB9E#32))

/-! ## Row softmax -/

/-- The maximum of every row, from −∞ (and once more against −∞). -/
def stRowMax (z : FVec F S8192x8192 .f32) : FVec F S8192 .f32 :=
  maximumf (broadcastInDim S8192 ![] bcast_S_S8192 (constant S_ .f32 0xFF800000#32))
    (Host.reduce FloatOps.maximumf z (constant S_ .f32 0xFF800000#32) reducesTo_S8192x8192_S8192_d1 h_S_)

/-- exp (z − row maximum). -/
def stExpShift (z : FVec F S8192x8192 .f32) : FVec F S8192x8192 .f32 :=
  Host.exp (subf z (stSpread (stRowMax z)))

def stSoft (z : FVec F S8192x8192 .f32) : FVec F S8192x8192 .f32 :=
  stRowNorm (stExpShift z)

/-! ## Aggregate and ELU -/

def stAgg (p : FVec F S8192x8192 .f32) (hw : FVec F S8192x128 .f32) : FVec F S8192x128 .f32 :=
  Host.dotGeneral dot_S8192x8192_S8192x128_S8192x128_1_0_0_1_n_n none p hw

/-- y where y > 0, else 1·(exp − 1) of (0 where y > 0, else y). -/
def stElu (y : FVec F S8192x128 .f32) : FVec F S8192x128 .f32 :=
  select (cmpf .ogt y (broadcastInDim S8192x128 ![] bcast_S_S8192x128 (constant S_ .f32 0x00000000#32))) y
    (mulf (broadcastInDim S8192x128 ![] bcast_S_S8192x128 (constant S_ .f32 0x3F800000#32))
      (Host.expm1
        (select (cmpf .ogt y (broadcastInDim S8192x128 ![] bcast_S_S8192x128 (constant S_ .f32 0x00000000#32)))
          (broadcastInDim S8192x128 ![] bcast_S_S8192x128 (constant S_ .f32 0x00000000#32)) y)))

/-! ## The whole -/

/-- The scores after slope and fill: what the row softmax is taken of. -/
def stAtt (X : FVec F S8192x256 .f32) (W : FVec F S256x128 .f32) (A : FVec F S256x1 .f32) (Nn : IVec S8192x32 32) :
    FVec F S8192x8192 .f32 :=
  stFill (stLrelu (stScores (stMask (stCounts Nn)) (stHW X W) A))

/-- What the reference computes from its four arguments. -/
def refTerm (X : FVec F S8192x256 .f32) (W : FVec F S256x128 .f32) (A : FVec F S256x1 .f32) (Nn : IVec S8192x32 32) :
    FVec F S8192x128 .f32 :=
  stElu (stAgg (stSoft (stAtt X W A Nn)) (stHW X W))

end Cert.ReferenceIdeal.Hand

end
-- ==== Proof.RefRunB.lean ====
/-
  The reference's @main as a list of its 98 host operations, cut into seven consecutive stretches, and what each
  stretch leaves in the buffers the later ones read: the stage functions applied to what was there before.
  The four outlined callees (the three-way choices and ELU) are listed inline at their call sites, over the buffers
  their calls name.
-/
import proofs.«413656_j34187939676687_3_alg».proof.Proof.RefRunA
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Contents after two stretches in a row: the second's after the first's. -/
theorem after_app (l₁ l₂ : List (HloOp τ sig (Elt F))) (V : Valuation τ sig (Elt F)) :
    after (l₁ ++ l₂) V = after l₂ (after l₁ V) := by
  induction l₁ generalizing V with
  | nil => rfl
  | cons op l ih => exact ih (op.result V)

/-! ## The stretches -/

/-- Operations 1 … 26 of 98. The neighbour pairs and their counts: the row numbers and the neighbour words, flattened and wrapped, paired, and a one added into a table of zeros at every pair. -/
abbrev opsCnt : List (HloOp τ sig (Elt F)) :=
  [ StableHlo.nullary main_v0 (iotaInDim S8192 32 0),
    StableHlo.unary main_v0 main_v1 (broadcastInDim S8192x32 ![0] bcast_S8192_S8192x32_0 : (⟨S8192, .i32⟩ : BufTy).Contents (Elt F) → (⟨S8192x32, .i32⟩ : BufTy).Contents (Elt F)),
    StableHlo.reshape main_v1 main_v2 rfl shapeCasts_S8192x32_S262144,
    StableHlo.nullary main_cst (constant S_ .f32 0x00000000#32),
    StableHlo.unary main_cst main_v3 (broadcastInDim S8192x8192 ![] bcast_S_S8192x8192 : (⟨S_, .f32⟩ : BufTy).Contents (Elt F) → (⟨S8192x8192, .f32⟩ : BufTy).Contents (Elt F)),
    StableHlo.reshape main_arg3 main_v4 rfl shapeCasts_S8192x32_S262144,
    StableHlo.nullary main_c (constantI S_ 32 0#32),
    StableHlo.unary main_c main_v5 (broadcastInDim S262144 ![] bcast_S_S262144 : (⟨S_, .i32⟩ : BufTy).Contents (Elt F) → (⟨S262144, .i32⟩ : BufTy).Contents (Elt F)),
    StableHlo.binary main_v2 main_v5 main_v6 (cmpi .slt : (⟨S262144, .i32⟩ : BufTy).Contents (Elt F) → (⟨S262144, .i32⟩ : BufTy).Contents (Elt F) → (⟨S262144, .i1⟩ : BufTy).Contents (Elt F)),
    StableHlo.nullary main_c_0 (constantI S_ 32 8192#32),
    StableHlo.unary main_c_0 main_v7 (broadcastInDim S262144 ![] bcast_S_S262144 : (⟨S_, .i32⟩ : BufTy).Contents (Elt F) → (⟨S262144, .i32⟩ : BufTy).Contents (Elt F)),
    StableHlo.binary main_v2 main_v7 main_v8 (addi : (⟨S262144, .i32⟩ : BufTy).Contents (Elt F) → (⟨S262144, .i32⟩ : BufTy).Contents (Elt F) → (⟨S262144, .i32⟩ : BufTy).Contents (Elt F)),
    StableHlo.ternary main_v6 main_v8 main_v2 main_v9 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    StableHlo.nullary main_c_1 (constantI S_ 32 0#32),
    StableHlo.unary main_c_1 main_v10 (broadcastInDim S262144 ![] bcast_S_S262144 : (⟨S_, .i32⟩ : BufTy).Contents (Elt F) → (⟨S262144, .i32⟩ : BufTy).Contents (Elt F)),
    StableHlo.binary main_v4 main_v10 main_v11 (cmpi .slt : (⟨S262144, .i32⟩ : BufTy).Contents (Elt F) → (⟨S262144, .i32⟩ : BufTy).Contents (Elt F) → (⟨S262144, .i1⟩ : BufTy).Contents (Elt F)),
    StableHlo.nullary main_c_2 (constantI S_ 32 8192#32),
    StableHlo.unary main_c_2 main_v12 (broadcastInDim S262144 ![] bcast_S_S262144 : (⟨S_, .i32⟩ : BufTy).Contents (Elt F) → (⟨S262144, .i32⟩ : BufTy).Contents (Elt F)),
    StableHlo.binary main_v4 main_v12 main_v13 (addi : (⟨S262144, .i32⟩ : BufTy).Contents (Elt F) → (⟨S262144, .i32⟩ : BufTy).Contents (Elt F) → (⟨S262144, .i32⟩ : BufTy).Contents (Elt F)),
    StableHlo.ternary main_v11 main_v13 main_v4 main_v14 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    StableHlo.unary main_v9 main_v15 (broadcastInDim S262144x1 ![0] bcast_S262144_S262144x1_0 : (⟨S262144, .i32⟩ : BufTy).Contents (Elt F) → (⟨S262144x1, .i32⟩ : BufTy).Contents (Elt F)),
    StableHlo.unary main_v14 main_v16 (broadcastInDim S262144x1 ![0] bcast_S262144_S262144x1_0 : (⟨S262144, .i32⟩ : BufTy).Contents (Elt F) → (⟨S262144x1, .i32⟩ : BufTy).Contents (Elt F)),
    StableHlo.binary main_v15 main_v16 main_v17 ((fun a b => concatenate S262144x2 1 [⟨S262144x1, a⟩, ⟨S262144x1, b⟩] concatenates_S262144x1_S262144x1_S262144x2_d1) : (⟨S262144x1, .i32⟩ : BufTy).Contents (Elt F) → (⟨S262144x1, .i32⟩ : BufTy).Contents (Elt F) → (⟨S262144x2, .i32⟩ : BufTy).Contents (Elt F)),
    StableHlo.nullary main_cst_3 (constant S_ .f32 0x3F800000#32),
    StableHlo.unary main_cst_3 main_v18 (broadcastInDim S262144 ![] bcast_S_S262144 : (⟨S_, .f32⟩ : BufTy).Contents (Elt F) → (⟨S262144, .f32⟩ : BufTy).Contents (Elt F)),
    StableHlo.ternary main_v3 main_v17 main_v18 main_v19 ((fun x i u => Host.scatterAdd scatter_S8192x8192_S262144x2_S262144_n_01_01_1 x i u) : (⟨S8192x8192, .f32⟩ : BufTy).Contents (Elt F) → (⟨S262144x2, .i32⟩ : BufTy).Contents (Elt F) → (⟨S262144, .f32⟩ : BufTy).Contents (Elt F) → (⟨S8192x8192, .f32⟩ : BufTy).Contents (Elt F)) ]

/-- The buffers that stretch writes. -/
abbrev wCnt : List (Ref sig .tc) := [main_v0, main_v1, main_v2, main_cst, main_v3, main_v4, main_c, main_v5, main_v6, main_c_0, main_v7, main_v8, main_v9, main_c_1, main_v10, main_v11, main_c_2, main_v12, main_v13, main_v14, main_v15, main_v16, main_v17, main_cst_3, main_v18, main_v19]

theorem opsCnt_sub : (opsCnt : List (HloOp τ sig (Elt F))).Forall fun op => op.bufs ⊆ tcRefs τ sig :=
  ⟨nullary_bufs_sub .., unary_bufs_sub .., reshape_bufs_sub .., nullary_bufs_sub .., unary_bufs_sub .., reshape_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., nullary_bufs_sub .., unary_bufs_sub .., ternary_bufs_sub ..⟩

theorem opsCnt_fresh : ∀ op ∈ (opsCnt : List (HloOp τ sig (Elt F))), op.fresh = ∅ := by
  intro _ h; (repeat (cases h with | head => rfl | tail _ h => ?_)); exact nomatch h

theorem opsCnt_writes : (opsCnt : List (HloOp τ sig (Elt F))).Forall fun op =>
    op.writes ⊆ (wCnt.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer the stretch does not write keeps its contents through it. -/
theorem keepCnt (V : Valuation τ sig (Elt F)) (r : Ref sig .tc) (h : r ∉ wCnt) :
    after opsCnt V (Proc.devRef .tc r) = V (Proc.devRef .tc r) :=
  after_of_writes_sub opsCnt V opsCnt_writes h

/-- Operations 27 … 44 of 98. The mask: counts divided by their row sums, plus the identity, divided by the row sums again. -/
abbrev opsMask : List (HloOp τ sig (Elt F)) :=
  [ StableHlo.nullary main_cst_4 (constant S_ .f32 0x00000000#32),
    StableHlo.binary main_v19 main_cst_4 main_v20 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    StableHlo.unary main_v20 main_v21 (broadcastInDim S8192x1 ![0] bcast_S8192_S8192x1_0 : (⟨S8192, .f32⟩ : BufTy).Contents (Elt F) → (⟨S8192x1, .f32⟩ : BufTy).Contents (Elt F)),
    StableHlo.unary main_v21 main_v22 (broadcastInDim S8192x8192 ![0, 1] bcast_S8192x1_S8192x8192_0_1 : (⟨S8192x1, .f32⟩ : BufTy).Contents (Elt F) → (⟨S8192x8192, .f32⟩ : BufTy).Contents (Elt F)),
    StableHlo.binary main_v19 main_v22 main_v23 (Host.divf : (⟨S8192x8192, .f32⟩ : BufTy).Contents (Elt F) → (⟨S8192x8192, .f32⟩ : BufTy).Contents (Elt F) → (⟨S8192x8192, .f32⟩ : BufTy).Contents (Elt F)),
    StableHlo.nullary main_v24 (iotaInDim S8192x8192 32 0),
    StableHlo.nullary main_v25 (iotaInDim S8192x8192 32 1),
    StableHlo.nullary main_c_5 (constantI S_ 32 0#32),
    StableHlo.unary main_c_5 main_v26 (broadcastInDim S8192x8192 ![] bcast_S_S8192x8192 : (⟨S_, .i32⟩ : BufTy).Contents (Elt F) → (⟨S8192x8192, .i32⟩ : BufTy).Contents (Elt F)),
    StableHlo.binary main_v24 main_v26 main_v27 (addi : (⟨S8192x8192, .i32⟩ : BufTy).Contents (Elt F) → (⟨S8192x8192, .i32⟩ : BufTy).Contents (Elt F) → (⟨S8192x8192, .i32⟩ : BufTy).Contents (Elt F)),
    StableHlo.binary main_v27 main_v25 main_v28 (cmpi .eq : (⟨S8192x8192, .i32⟩ : BufTy).Contents (Elt F) → (⟨S8192x8192, .i32⟩ : BufTy).Contents (Elt F) → (⟨S8192x8192, .i1⟩ : BufTy).Contents (Elt F)),
    StableHlo.unary main_v28 main_v29 (uitofp .f32 : (⟨S8192x8192, .i1⟩ : BufTy).Contents (Elt F) → (⟨S8192x8192, .f32⟩ : BufTy).Contents (Elt F)),
    StableHlo.binary main_v23 main_v29 main_v30 (addf : (⟨S8192x8192, .f32⟩ : BufTy).Contents (Elt F) → (⟨S8192x8192, .f32⟩ : BufTy).Contents (Elt F) → (⟨S8192x8192, .f32⟩ : BufTy).Contents (Elt F)),
    StableHlo.nullary main_cst_6 (constant S_ .f32 0x00000000#32),
    StableHlo.binary main_v30 main_cst_6 main_v31 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    StableHlo.unary main_v31 main_v32 (broadcastInDim S8192x1 ![0] bcast_S8192_S8192x1_0 : (⟨S8192, .f32⟩ : BufTy).Contents (Elt F) → (⟨S8192x1, .f32⟩ : BufTy).Contents (Elt F)),
    StableHlo.unary main_v32 main_v33 (broadcastInDim S8192x8192 ![0, 1] bcast_S8192x1_S8192x8192_0_1 : (⟨S8192x1, .f32⟩ : BufTy).Contents (Elt F) → (⟨S8192x8192, .f32⟩ : BufTy).Contents (Elt F)),
    StableHlo.binary main_v30 main_v33 main_v34 (Host.divf : (⟨S8192x8192, .f32⟩ : BufTy).Contents (Elt F) → (⟨S8192x8192, .f32⟩ : BufTy).Contents (Elt F) → (⟨S8192x8192, .f32⟩ : BufTy).Contents (Elt F)) ]

/-- The buffers that stretch writes. -/
abbrev wMask : List (Ref sig .tc) := [main_cst_4, main_v20, main_v21, main_v22, main_v23, main_v24, main_v25, main_c_5, main_v26, main_v27, main_v28, main_v29, main_v30, main_cst_6, main_v31, main_v32, main_v33, main_v34]

theorem opsMask_sub : (opsMask : List (HloOp τ sig (Elt F))).Forall fun op => op.bufs ⊆ tcRefs τ sig :=
  ⟨nullary_bufs_sub .., binary_bufs_sub .., unary_bufs_sub .., unary_bufs_sub .., binary_bufs_sub .., nullary_bufs_sub .., nullary_bufs_sub .., nullary_bufs_sub .., unary_bufs_sub .., binary_bufs_sub .., binary_bufs_sub .., unary_bufs_sub .., binary_bufs_sub .., nullary_bufs_sub .., binary_bufs_sub .., unary_bufs_sub .., unary_bufs_sub .., binary_bufs_sub ..⟩

theorem opsMask_fresh : ∀ op ∈ (opsMask : List (HloOp τ sig (Elt F))), op.fresh = ∅ := by
  intro _ h; (repeat (cases h with | head => rfl | tail _ h => ?_)); exact nomatch h

theorem opsMask_writes : (opsMask : List (HloOp τ sig (Elt F))).Forall fun op =>
    op.writes ⊆ (wMask.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer the stretch does not write keeps its contents through it. -/
theorem keepMask (V : Valuation τ sig (Elt F)) (r : Ref sig .tc) (h : r ∉ wMask) :
    after opsMask V (Proc.devRef .tc r) = V (Proc.devRef .tc r) :=
  after_of_writes_sub opsMask V opsMask_writes h

/-- Operations 45 … 54 of 98. The projected features, the two logit halves, and the mask times their pairwise sum. -/
abbrev opsScore : List (HloOp τ sig (Elt F)) :=
  [ StableHlo.binary main_arg0 main_arg1 main_v35 ((fun l r => Host.dotGeneral dot_S8192x256_S256x128_S8192x128_1_0_0_1_n_n none l r) : (⟨S8192x256, .f32⟩ : BufTy).Contents (Elt F) → (⟨S256x128, .f32⟩ : BufTy).Contents (Elt F) → (⟨S8192x128, .f32⟩ : BufTy).Contents (Elt F)),
    StableHlo.unary main_arg2 main_v36 ((extractStridedSlice S128x1 ![0, 0] · slices_S256x1_S128x1_0_0) : (⟨S256x1, .f32⟩ : BufTy).Contents (Elt F) → (⟨S128x1, .f32⟩ : BufTy).Contents (Elt F)),
    StableHlo.binary main_v35 main_v36 main_v37 ((fun l r => Host.dotGeneral dot_S8192x128_S128x1_S8192x1_1_0_0_1_n_n none l r) : (⟨S8192x128, .f32⟩ : BufTy).Contents (Elt F) → (⟨S128x1, .f32⟩ : BufTy).Contents (Elt F) → (⟨S8192x1, .f32⟩ : BufTy).Contents (Elt F)),
    StableHlo.unary main_arg2 main_v38 ((extractStridedSlice S128x1 ![128, 0] · slices_S256x1_S128x1_128_0) : (⟨S256x1, .f32⟩ : BufTy).Contents (Elt F) → (⟨S128x1, .f32⟩ : BufTy).Contents (Elt F)),
    StableHlo.binary main_v35 main_v38 main_v39 ((fun l r => Host.dotGeneral dot_S8192x128_S128x1_S8192x1_1_0_0_1_n_n none l r) : (⟨S8192x128, .f32⟩ : BufTy).Contents (Elt F) → (⟨S128x1, .f32⟩ : BufTy).Contents (Elt F) → (⟨S8192x1, .f32⟩ : BufTy).Contents (Elt F)),
    StableHlo.unary main_v39 main_v40 ((transpose S1x8192 [1, 0] · transposes_S8192x1_S1x8192_1_0) : (⟨S8192x1, .f32⟩ : BufTy).Contents (Elt F) → (⟨S1x8192, .f32⟩ : BufTy).Contents (Elt F)),
    StableHlo.unary main_v37 main_v41 (broadcastInDim S8192x8192 ![0, 1] bcast_S8192x1_S8192x8192_0_1 : (⟨S8192x1, .f32⟩ : BufTy).Contents (Elt F) → (⟨S8192x8192, .f32⟩ : BufTy).Contents (Elt F)),
    StableHlo.unary main_v40 main_v42 (broadcastInDim S8192x8192 ![0, 1] bcast_S1x8192_S8192x8192_0_1 : (⟨S1x8192, .f32⟩ : BufTy).Contents (Elt F) → (⟨S8192x8192, .f32⟩ : BufTy).Contents (Elt F)),
    StableHlo.binary main_v41 main_v42 main_v43 (addf : (⟨S8192x8192, .f32⟩ : BufTy).Contents (Elt F) → (⟨S8192x8192, .f32⟩ : BufTy).Contents (Elt F) → (⟨S8192x8192, .f32⟩ : BufTy).Contents (Elt F)),
    StableHlo.binary main_v34 main_v43 main_v44 (mulf : (⟨S8192x8192, .f32⟩ : BufTy).Contents (Elt F) → (⟨S8192x8192, .f32⟩ : BufTy).Contents (Elt F) → (⟨S8192x8192, .f32⟩ : BufTy).Contents (Elt F)) ]

/-- The buffers that stretch writes. -/
abbrev wScore : List (Ref sig .tc) := [main_v35, main_v36, main_v37, main_v38, main_v39, main_v40, main_v41, main_v42, main_v43, main_v44]

theorem opsScore_sub : (opsScore : List (HloOp τ sig (Elt F))).Forall fun op => op.bufs ⊆ tcRefs τ sig :=
  ⟨binary_bufs_sub .., unary_bufs_sub .., binary_bufs_sub .., unary_bufs_sub .., binary_bufs_sub .., unary_bufs_sub .., unary_bufs_sub .., unary_bufs_sub .., binary_bufs_sub .., binary_bufs_sub ..⟩

theorem opsScore_fresh : ∀ op ∈ (opsScore : List (HloOp τ sig (Elt F))), op.fresh = ∅ := by
  intro _ h; (repeat (cases h with | head => rfl | tail _ h => ?_)); exact nomatch h

theorem opsScore_writes : (opsScore : List (HloOp τ sig (Elt F))).Forall fun op =>
    op.writes ⊆ (wScore.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer the stretch does not write keeps its contents through it. -/
theorem keepScore (V : Valuation τ sig (Elt F)) (r : Ref sig .tc) (h : r ∉ wScore) :
    after opsScore V (Proc.devRef .tc r) = V (Proc.devRef .tc r) :=
  after_of_writes_sub opsScore V opsScore_writes h

/-- Operations 55 … 60 of 98. The sign test and the 0.2 multiple of the scores. -/
abbrev opsAct0 : List (HloOp τ sig (Elt F)) :=
  [ StableHlo.nullary main_cst_7 (constant S_ .f32 0x00000000#32),
    StableHlo.unary main_cst_7 main_v45 (broadcastInDim S8192x8192 ![] bcast_S_S8192x8192 : (⟨S_, .f32⟩ : BufTy).Contents (Elt F) → (⟨S8192x8192, .f32⟩ : BufTy).Contents (Elt F)),
    StableHlo.binary main_v44 main_v45 main_v46 (cmpf .ogt : (⟨S8192x8192, .f32⟩ : BufTy).Contents (Elt F) → (⟨S8192x8192, .f32⟩ : BufTy).Contents (Elt F) → (⟨S8192x8192, .i1⟩ : BufTy).Contents (Elt F)),
    StableHlo.nullary main_cst_8 (constant S_ .f32 0x3E4CCCCD#32),
    StableHlo.unary main_cst_8 main_v47 (broadcastInDim S8192x8192 ![] bcast_S_S8192x8192 : (⟨S_, .f32⟩ : BufTy).Contents (Elt F) → (⟨S8192x8192, .f32⟩ : BufTy).Contents (Elt F)),
    StableHlo.binary main_v47 main_v44 main_v48 (mulf : (⟨S8192x8192, .f32⟩ : BufTy).Contents (Elt F) → (⟨S8192x8192, .f32⟩ : BufTy).Contents (Elt F) → (⟨S8192x8192, .f32⟩ : BufTy).Contents (Elt F)) ]

/-- The buffers that stretch writes. -/
abbrev wAct0 : List (Ref sig .tc) := [main_cst_7, main_v45, main_v46, main_cst_8, main_v47, main_v48]

theorem opsAct0_sub : (opsAct0 : List (HloOp τ sig (Elt F))).Forall fun op => op.bufs ⊆ tcRefs τ sig :=
  ⟨nullary_bufs_sub .., unary_bufs_sub .., binary_bufs_sub .., nullary_bufs_sub .., unary_bufs_sub .., binary_bufs_sub ..⟩

theorem opsAct0_fresh : ∀ op ∈ (opsAct0 : List (HloOp τ sig (Elt F))), op.fresh = ∅ := by
  intro _ h; (repeat (cases h with | head => rfl | tail _ h => ?_)); exact nomatch h

theorem opsAct0_writes : (opsAct0 : List (HloOp τ sig (Elt F))).Forall fun op =>
    op.writes ⊆ (wAct0.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer the stretch does not write keeps its contents through it. -/
theorem keepAct0 (V : Valuation τ sig (Elt F)) (r : Ref sig .tc) (h : r ∉ wAct0) :
    after opsAct0 V (Proc.devRef .tc r) = V (Proc.devRef .tc r) :=
  after_of_writes_sub opsAct0 V opsAct0_writes h

/-- Operations 61 … 68 of 98. The leaky slope's choice, then zeros replaced by the fill. -/
abbrev opsAct1 : List (HloOp τ sig (Elt F)) :=
  [ StableHlo.TRef.ternary (.of main_v46) (.of main_v44) (.of main_v48) main_call0.v0 select,
    StableHlo.nullary main_cst_9 (constant S_ .f32 0x00000000#32),
    StableHlo.unary main_cst_9 main_v50 (broadcastInDim S8192x8192 ![] bcast_S_S8192x8192 : (⟨S_, .f32⟩ : BufTy).Contents (Elt F) → (⟨S8192x8192, .f32⟩ : BufTy).Contents (Elt F)),
    StableHlo.binary main_v49 main_v50 main_v51 (cmpf .une : (⟨S8192x8192, .f32⟩ : BufTy).Contents (Elt F) → (⟨S8192x8192, .f32⟩ : BufTy).Contents (Elt F) → (⟨S8192x8192, .i1⟩ : BufTy).Contents (Elt F)),
    StableHlo.nullary main_cst_10 (constant S_ .f32 0xD9FFCB9E#32),
    StableHlo.TRef.unary (.of main_cst_10) main_call1.v0 id,
    StableHlo.TRef.unary main_call1.v0 main_call1.v1 (broadcastInDim S8192x8192 ![] bcast_S_S8192x8192),
    StableHlo.TRef.ternary (.of main_v51) (.of main_v49) main_call1.v1 main_call1.v2 select ]

/-- The buffers that stretch writes. -/
abbrev wAct1 : List (Ref sig .tc) := [main_v49, main_cst_9, main_v50, main_v51, main_cst_10, main_call1_v0, main_call1_v1, main_v52]

theorem opsAct1_sub : (opsAct1 : List (HloOp τ sig (Elt F))).Forall fun op => op.bufs ⊆ tcRefs τ sig :=
  ⟨ternary_bufs_sub .., nullary_bufs_sub .., unary_bufs_sub .., binary_bufs_sub .., nullary_bufs_sub .., unary_bufs_sub .., unary_bufs_sub .., ternary_bufs_sub ..⟩

theorem opsAct1_fresh : ∀ op ∈ (opsAct1 : List (HloOp τ sig (Elt F))), op.fresh = ∅ := by
  intro _ h; (repeat (cases h with | head => rfl | tail _ h => ?_)); exact nomatch h

theorem opsAct1_writes : (opsAct1 : List (HloOp τ sig (Elt F))).Forall fun op =>
    op.writes ⊆ (wAct1.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer the stretch does not write keeps its contents through it. -/
theorem keepAct1 (V : Valuation τ sig (Elt F)) (r : Ref sig .tc) (h : r ∉ wAct1) :
    after opsAct1 V (Proc.devRef .tc r) = V (Proc.devRef .tc r) :=
  after_of_writes_sub opsAct1 V opsAct1_writes h

/-- Operations 69 … 82 of 98. The row softmax: the row maximum, the shifted exponential, its row sum, the quotient. -/
abbrev opsSoft : List (HloOp τ sig (Elt F)) :=
  [ StableHlo.nullary main_cst_11 (constant S_ .f32 0xFF800000#32),
    StableHlo.binary main_v52 main_cst_11 main_v53 ((fun x v => Host.reduce FloatOps.maximumf x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    StableHlo.nullary main_cst_12 (constant S_ .f32 0xFF800000#32),
    StableHlo.unary main_cst_12 main_v54 (broadcastInDim S8192 ![] bcast_S_S8192 : (⟨S_, .f32⟩ : BufTy).Contents (Elt F) → (⟨S8192, .f32⟩ : BufTy).Contents (Elt F)),
    StableHlo.binary main_v54 main_v53 main_v55 (maximumf : (⟨S8192, .f32⟩ : BufTy).Contents (Elt F) → (⟨S8192, .f32⟩ : BufTy).Contents (Elt F) → (⟨S8192, .f32⟩ : BufTy).Contents (Elt F)),
    StableHlo.unary main_v55 main_v56 (broadcastInDim S8192x1 ![0] bcast_S8192_S8192x1_0 : (⟨S8192, .f32⟩ : BufTy).Contents (Elt F) → (⟨S8192x1, .f32⟩ : BufTy).Contents (Elt F)),
    StableHlo.unary main_v56 main_v57 (broadcastInDim S8192x8192 ![0, 1] bcast_S8192x1_S8192x8192_0_1 : (⟨S8192x1, .f32⟩ : BufTy).Contents (Elt F) → (⟨S8192x8192, .f32⟩ : BufTy).Contents (Elt F)),
    StableHlo.binary main_v52 main_v57 main_v58 (subf : (⟨S8192x8192, .f32⟩ : BufTy).Contents (Elt F) → (⟨S8192x8192, .f32⟩ : BufTy).Contents (Elt F) → (⟨S8192x8192, .f32⟩ : BufTy).Contents (Elt F)),
    StableHlo.unary main_v58 main_v59 (Host.exp : (⟨S8192x8192, .f32⟩ : BufTy).Contents (Elt F) → (⟨S8192x8192, .f32⟩ : BufTy).Contents (Elt F)),
    StableHlo.nullary main_cst_13 (constant S_ .f32 0x00000000#32),
    StableHlo.binary main_v59 main_cst_13 main_v60 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    StableHlo.unary main_v60 main_v61 (broadcastInDim S8192x1 ![0] bcast_S8192_S8192x1_0 : (⟨S8192, .f32⟩ : BufTy).Contents (Elt F) → (⟨S8192x1, .f32⟩ : BufTy).Contents (Elt F)),
    StableHlo.unary main_v61 main_v62 (broadcastInDim S8192x8192 ![0, 1] bcast_S8192x1_S8192x8192_0_1 : (⟨S8192x1, .f32⟩ : BufTy).Contents (Elt F) → (⟨S8192x8192, .f32⟩ : BufTy).Contents (Elt F)),
    StableHlo.binary main_v59 main_v62 main_v63 (Host.divf : (⟨S8192x8192, .f32⟩ : BufTy).Contents (Elt F) → (⟨S8192x8192, .f32⟩ : BufTy).Contents (Elt F) → (⟨S8192x8192, .f32⟩ : BufTy).Contents (Elt F)) ]

/-- The buffers that stretch writes. -/
abbrev wSoft : List (Ref sig .tc) := [main_cst_11, main_v53, main_cst_12, main_v54, main_v55, main_v56, main_v57, main_v58, main_v59, main_cst_13, main_v60, main_v61, main_v62, main_v63]

theorem opsSoft_sub : (opsSoft : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub ..⟩

theorem opsSoft_fresh : ∀ op ∈ (opsSoft : List (HloOp τ sig (Elt F))), op.fresh = ∅ := by
  intro _ h; (repeat (cases h with | head => rfl | tail _ h => ?_)); exact nomatch h

theorem opsSoft_writes : (opsSoft : List (HloOp τ sig (Elt F))).Forall fun op =>
    op.writes ⊆ (wSoft.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer the stretch does not write keeps its contents through it. -/
theorem keepSoft (V : Valuation τ sig (Elt F)) (r : Ref sig .tc) (h : r ∉ wSoft) :
    after opsSoft V (Proc.devRef .tc r) = V (Proc.devRef .tc r) :=
  after_of_writes_sub opsSoft V opsSoft_writes h

/-- Operations 83 … 98 of 98. The softmax times the projected features, through ELU. -/
abbrev opsOut : List (HloOp τ sig (Elt F)) :=
  [ StableHlo.binary main_v63 main_v35 main_v64 ((fun l r => Host.dotGeneral dot_S8192x8192_S8192x128_S8192x128_1_0_0_1_n_n none l r) : (⟨S8192x8192, .f32⟩ : BufTy).Contents (Elt F) → (⟨S8192x128, .f32⟩ : BufTy).Contents (Elt F) → (⟨S8192x128, .f32⟩ : BufTy).Contents (Elt F)),
    StableHlo.TRef.nullary main_call2.cst (constant S_ .f32 0x00000000#32),
    StableHlo.TRef.unary main_call2.cst main_call2.v0 (broadcastInDim S8192x128 ![] bcast_S_S8192x128),
    StableHlo.TRef.binary (.of main_v64) main_call2.v0 main_call2.v1 (cmpf .ogt),
    StableHlo.TRef.nullary main_call2.cst_0 (constant S_ .f32 0x00000000#32),
    StableHlo.TRef.unary main_call2.cst_0 main_call2.v2 (broadcastInDim S8192x128 ![] bcast_S_S8192x128),
    StableHlo.TRef.binary (.of main_v64) main_call2.v2 main_call2.v3 (cmpf .ogt),
    StableHlo.TRef.nullary main_call2.cst_1 (constant S_ .f32 0x00000000#32),
    StableHlo.TRef.unary main_call2.cst_1 main_call2.call0.v0 id,
    StableHlo.TRef.unary main_call2.call0.v0 main_call2.call0.v1 (broadcastInDim S8192x128 ![] bcast_S_S8192x128),
    StableHlo.TRef.ternary main_call2.v3 main_call2.call0.v1 (.of main_v64) main_call2.call0.v2 select,
    StableHlo.TRef.unary main_call2.call0.v2 main_call2.v5 Host.expm1,
    StableHlo.TRef.nullary main_call2.cst_2 (constant S_ .f32 0x3F800000#32),
    StableHlo.TRef.unary main_call2.cst_2 main_call2.v6 (broadcastInDim S8192x128 ![] bcast_S_S8192x128),
    StableHlo.TRef.binary main_call2.v6 main_call2.v5 main_call2.v7 mulf,
    StableHlo.TRef.ternary main_call2.v1 (.of main_v64) main_call2.v7 main_call2.call1.v0 select ]

/-- The buffers that stretch writes. -/
abbrev wOut : List (Ref sig .tc) := [main_v64, main_call2_cst, main_call2_v0, main_call2_v1, main_call2_cst_0, main_call2_v2, main_call2_v3, main_call2_cst_1, main_call2_call0_v0, main_call2_call0_v1, main_call2_v4, main_call2_v5, main_call2_cst_2, main_call2_v6, main_call2_v7, main_v65]

theorem opsOut_sub : (opsOut : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩

theorem opsOut_fresh : ∀ op ∈ (opsOut : List (HloOp τ sig (Elt F))), op.fresh = ∅ := by
  intro _ h; (repeat (cases h with | head => rfl | tail _ h => ?_)); exact nomatch h

theorem opsOut_writes : (opsOut : List (HloOp τ sig (Elt F))).Forall fun op =>
    op.writes ⊆ (wOut.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer the stretch does not write keeps its contents through it. -/
theorem keepOut (V : Valuation τ sig (Elt F)) (r : Ref sig .tc) (h : r ∉ wOut) :
    after opsOut V (Proc.devRef .tc r) = V (Proc.devRef .tc r) :=
  after_of_writes_sub opsOut V opsOut_writes h

/-! ## What each stretch leaves, from any contents -/

set_option maxRecDepth 8192 in
set_option maxHeartbeats 2000000 in
theorem cnt_v19 (V : Valuation τ sig (Elt F)) :
    after opsCnt V (Proc.devRef .tc main_v19) = stCounts (V (Proc.devRef .tc main_arg3)) := by
  simp only [opsCnt]
  after_results_simp <;> rfl

set_option maxRecDepth 8192 in
set_option maxHeartbeats 2000000 in
theorem mask_v34 (V : Valuation τ sig (Elt F)) :
    after opsMask V (Proc.devRef .tc main_v34) = stMask (V (Proc.devRef .tc main_v19)) := by
  simp only [opsMask]
  after_results_simp <;> rfl

set_option maxRecDepth 8192 in
set_option maxHeartbeats 1000000 in
theorem score_v35 (V : Valuation τ sig (Elt F)) :
    after opsScore V (Proc.devRef .tc main_v35) = stHW (V (Proc.devRef .tc main_arg0)) (V (Proc.devRef .tc main_arg1)) := by
  simp only [opsScore]
  after_results_simp <;> rfl

set_option maxRecDepth 8192 in
set_option maxHeartbeats 1000000 in
theorem score_v44 (V : Valuation τ sig (Elt F)) :
    after opsScore V (Proc.devRef .tc main_v44)
      = stScores (V (Proc.devRef .tc main_v34)) (stHW (V (Proc.devRef .tc main_arg0)) (V (Proc.devRef .tc main_arg1))) (V (Proc.devRef .tc main_arg2)) := by
  simp only [opsScore]
  after_results_simp <;> rfl

set_option maxRecDepth 8192 in
set_option maxHeartbeats 1000000 in
theorem act_v52 (V : Valuation τ sig (Elt F)) :
    after opsAct1 (after opsAct0 V) (Proc.devRef .tc main_v52) = stFill (stLrelu (V (Proc.devRef .tc main_v44))) := by
  simp only [opsAct0, opsAct1]
  after_results_simp <;> rfl

set_option maxRecDepth 8192 in
set_option maxHeartbeats 1000000 in
theorem soft_v63 (V : Valuation τ sig (Elt F)) :
    after opsSoft V (Proc.devRef .tc main_v63) = stSoft (V (Proc.devRef .tc main_v52)) := by
  simp only [opsSoft]
  after_results_simp <;> rfl

set_option maxRecDepth 8192 in
set_option maxHeartbeats 1000000 in
theorem out_v65 (V : Valuation τ sig (Elt F)) :
    after opsOut V (Proc.devRef .tc main_v65) = stElu (stAgg (V (Proc.devRef .tc main_v63)) (V (Proc.devRef .tc main_v35))) := by
  simp only [opsOut]
  after_results_simp <;> rfl

/-! ## The whole list -/

/-- @main's 98 operations, in order. -/
abbrev ops : List (HloOp τ sig (Elt F)) :=
  (opsCnt ++ (opsMask ++ (opsScore ++ opsAct0))) ++ (opsAct1 ++ (opsSoft ++ opsOut))

theorem after_ops (V : Valuation τ sig (Elt F)) :
    after ops V
      = after opsOut (after opsSoft (after opsAct1 (after opsAct0 (after opsScore (after opsMask (after opsCnt V)))))) := by
  simp only [ops, after_app]

/-- The result buffer after the whole list: the stages composed, over the four arguments' contents. -/
theorem ops_v65 (V : Valuation τ sig (Elt F)) :
    after ops V (Proc.devRef .tc main_v65)
      = refTerm (V (Proc.devRef .tc main_arg0)) (V (Proc.devRef .tc main_arg1)) (V (Proc.devRef .tc main_arg2)) (V (Proc.devRef .tc main_arg3)) := by
  rw [after_ops, out_v65, soft_v63, act_v52, score_v44, mask_v34, cnt_v19,
    keepSoft _ main_v35 (by decide), keepAct1 _ main_v35 (by decide), keepAct0 _ main_v35 (by decide), score_v35,
    keepMask _ main_arg0 (by decide), keepCnt _ main_arg0 (by decide),
    keepMask _ main_arg1 (by decide), keepCnt _ main_arg1 (by decide),
    keepMask _ main_arg2 (by decide), keepCnt _ main_arg2 (by decide)]
  rfl

theorem ops_arg0 (V : Valuation τ sig (Elt F)) : after ops V (Proc.devRef .tc main_arg0) = V (Proc.devRef .tc main_arg0) := by
  rw [after_ops, keepOut _ main_arg0 (by decide), keepSoft _ main_arg0 (by decide), keepAct1 _ main_arg0 (by decide), keepAct0 _ main_arg0 (by decide),
    keepScore _ main_arg0 (by decide), keepMask _ main_arg0 (by decide), keepCnt _ main_arg0 (by decide)]

theorem ops_arg1 (V : Valuation τ sig (Elt F)) : after ops V (Proc.devRef .tc main_arg1) = V (Proc.devRef .tc main_arg1) := by
  rw [after_ops, keepOut _ main_arg1 (by decide), keepSoft _ main_arg1 (by decide), keepAct1 _ main_arg1 (by decide), keepAct0 _ main_arg1 (by decide),
    keepScore _ main_arg1 (by decide), keepMask _ main_arg1 (by decide), keepCnt _ main_arg1 (by decide)]

theorem ops_arg2 (V : Valuation τ sig (Elt F)) : after ops V (Proc.devRef .tc main_arg2) = V (Proc.devRef .tc main_arg2) := by
  rw [after_ops, keepOut _ main_arg2 (by decide), keepSoft _ main_arg2 (by decide), keepAct1 _ main_arg2 (by decide), keepAct0 _ main_arg2 (by decide),
    keepScore _ main_arg2 (by decide), keepMask _ main_arg2 (by decide), keepCnt _ main_arg2 (by decide)]

theorem ops_arg3 (V : Valuation τ sig (Elt F)) : after ops V (Proc.devRef .tc main_arg3) = V (Proc.devRef .tc main_arg3) := by
  rw [after_ops, keepOut _ main_arg3 (by decide), keepSoft _ main_arg3 (by decide), keepAct1 _ main_arg3 (by decide), keepAct0 _ main_arg3 (by decide),
    keepScore _ main_arg3 (by decide), keepMask _ main_arg3 (by decide), keepCnt _ main_arg3 (by decide)]

theorem ops_sub : (ops : List (HloOp τ sig (Elt F))).Forall fun op => op.bufs ⊆ tcRefs τ sig :=
  List.forall_append.mpr
    ⟨List.forall_append.mpr ⟨opsCnt_sub, List.forall_append.mpr ⟨opsMask_sub, List.forall_append.mpr ⟨opsScore_sub, opsAct0_sub⟩⟩⟩,
     List.forall_append.mpr ⟨opsAct1_sub, List.forall_append.mpr ⟨opsSoft_sub, opsOut_sub⟩⟩⟩

theorem ops_fresh : ∀ op ∈ (ops : List (HloOp τ sig (Elt F))), op.fresh = ∅ := by
  intro op h
  simp only [ops, List.mem_append] at h
  rcases h with (h | h | h | h) | (h | h | h)
  exacts [opsCnt_fresh op h, opsMask_fresh op h, opsScore_fresh op h, opsAct0_fresh op h, opsAct1_fresh op h,
    opsSoft_fresh op h, opsOut_fresh op h]

/-! ## @main is that list -/

set_option maxRecDepth 8192 in
set_option maxHeartbeats 4000000 in
theorem main_part0_eq (c : Dev nD) :
    main_part0 (F := F) c = seq (opsCnt ++ (opsMask ++ (opsScore ++ opsAct0))) := rfl

set_option maxRecDepth 8192 in
set_option maxHeartbeats 4000000 in
/-- The callees' definitions unfolded at their calls and sequencing reassociated, the second window is one chain of
    operations. -/
theorem main_part1_eq (c : Dev nD) :
    main_part1 (F := F) c = seq (opsAct1 ++ (opsSoft ++ opsOut)) := by
  simp only [main_part1, fn_where.body, fn_where_0.body, fn_elu.body, fn_where_1.body, fn_where_2.body, bind_assoc, pure_bind]
  rfl

theorem main_eq (c : Dev nD) : main (F := F) c = seq ops := by
  simp only [ops, seq_append, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

end Cert.ReferenceIdeal.Hand

end
-- ==== Proof.RefRun.lean ====
/-
  The reference's run: from any memory with zero counters every weakly fair execution of @main terminates, the
  result buffer at `refTerm` of the four arguments' launch contents, the arguments unchanged.
-/
import proofs.«413656_j34187939676687_3_alg».proof.Proof.RefRunB

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v65)
        = refTerm (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v65).trans (ops_v65 _),
      (h c main_arg0).trans (ops_arg0 _), (h c main_arg1).trans (ops_arg1 _),
      (h c main_arg2).trans (ops_arg2 _), (h c main_arg3).trans (ops_arg3 _)⟩)
    (run_seq scopedRefs_eq scopedSems_eq defs main (fun _ => ops) main_eq (fun _ => ops_sub) m ρ (fun _ => ops_fresh))

end Cert.ReferenceIdeal.Hand

end
-- ==== Proof.Spec.lean ====
/-
  The mathematics of the two programs, with no program imported: every array is a function of
  `Fin` coordinates into the extended reals (a neighbour table into 32-bit words).

  * `hW`, `h1`, `h2`: the projected features and the two attention logits' halves.
  * `cnt n i j`: how many of row i's 32 neighbour words name column j.
  * `kmask`: the closed form  cnt/64 + [i = j]/2 ;  `rmask`: counts normalised by their row sum,
    plus the identity, normalised by the row sum again. They agree when every neighbour word names a
    column (`rmask_eq_kmask`): each row of counts then sums to 32, and the second row sum is 2.
  * `att`: mask · (h1 i + h2 j), through the leaky slope, zeros replaced by the large negative fill.
  * `refOut`: one-shot row softmax of `att`, times `hW`, through ELU.
  * `kernelOut`: the same row processed 256 columns at a time with a running maximum `m`, a running
    denominator `l` and a running numerator `acc`, each rescaled by exp(m_old − m_new) at every step;
    after the 32nd step acc / l, through ELU.
  The two agree on finite inputs with in-range neighbour words (`kernelOut_eq_refOut`).
-/
import Idealize.ShloMosaic.PureOps.Ideal
import Idealize.ShloMosaic.Lib.ValueIdx

noncomputable section

namespace Cert.Spec

open Idealize.ShloMosaic

/-! ## The literals both programs carry, as the extended reals their words denote -/

def lit64 : EReal := Ideal.ofBits .f32 0x3C800000#32
def litHalf : EReal := Ideal.ofBits .f32 0x3F000000#32
def litOne : EReal := Ideal.ofBits .f32 0x3F800000#32
def litSlope : EReal := Ideal.ofBits .f32 0x3E4CCCCD#32
def litFill : EReal := Ideal.ofBits .f32 0xD9FFCB9E#32
def litNegInf : EReal := Ideal.ofBits .f32 0xFF800000#32

/-! ## Arrays as functions of coordinates -/

/-- A rank-2 array read at two coordinates. -/
def c2 {α : Type} {p q : Nat} (v : (⟨2, ![p, q]⟩ : Shape).Idx → α) : Fin p → Fin q → α :=
  fun i j => v (ValueIdx.ix2 i j)

/-- Every entry is a real number. -/
def Finite2 {p q : Nat} (v : Fin p → Fin q → EReal) : Prop := ∀ i j, ∃ r : ℝ, v i j = (r : EReal)
def Finite1 {p : Nat} (v : Fin p → EReal) : Prop := ∀ i, ∃ r : ℝ, v i = (r : EReal)

/-- Every neighbour word names one of the 8192 columns. -/
def InRange (n : Fin 8192 → Fin 32 → BitVec 32) : Prop := ∀ i k, (n i k).toNat < 8192

section Defs

variable (x : Fin 8192 → Fin 256 → EReal) (W : Fin 256 → Fin 128 → EReal) (a : Fin 256 → EReal)
  (n : Fin 8192 → Fin 32 → BitVec 32)

def hW (i : Fin 8192) (f : Fin 128) : EReal := ∑ k : Fin 256, x i k * W k f
def h1 (i : Fin 8192) : EReal := ∑ f : Fin 128, hW x W i f * a ⟨f.val, by omega⟩
def h2 (j : Fin 8192) : EReal := ∑ f : Fin 128, hW x W j f * a ⟨128 + f.val, by omega⟩

def cnt (i j : Fin 8192) : ℕ := (Finset.univ.filter fun k : Fin 32 => (n i k).toNat = j.val).card
def cntE (i j : Fin 8192) : EReal := ((cnt n i j : ℝ) : EReal)
def eye (i j : Fin 8192) : EReal := if i = j then 1 else 0

def kmask (i j : Fin 8192) : EReal := cntE n i j * lit64 + eye i j * litHalf

def rmask1 (i j : Fin 8192) : EReal := Ideal.div (cntE n i j) (∑ j' : Fin 8192, cntE n i j') + eye i j
def rmask (i j : Fin 8192) : EReal := Ideal.div (rmask1 n i j) (∑ j' : Fin 8192, rmask1 n i j')

def lrelu (z : EReal) : EReal := if 0 < z then z else litSlope * z
def fillz (z : EReal) : EReal := if z ≠ 0 then z else litFill
def att (mask : Fin 8192 → Fin 8192 → EReal) (i j : Fin 8192) : EReal :=
  fillz (lrelu (mask i j * (h1 x W a i + h2 x W a j)))

def elu (z : EReal) : EReal := if 0 < z then z else Ideal.exp z - 1

/-! ### One-shot softmax over a row -/

def softAgg (A : Fin 8192 → EReal) (V : Fin 8192 → Fin 128 → EReal) (f : Fin 128) : EReal :=
  ∑ j : Fin 8192, Ideal.div (Ideal.exp (A j - Finset.univ.sup A)) (∑ j' : Fin 8192, Ideal.exp (A j' - Finset.univ.sup A)) * V j f

def refOut (i : Fin 8192) (f : Fin 128) : EReal := elu (softAgg (att x W a (rmask n) i) (hW x W) f)

/-! ### The same row, 256 columns at a time -/

def col (c : Fin 32) (q : Fin 256) : Fin 8192 := ⟨256 * c.val + q.val, by omega⟩

structure St where
  m : EReal
  l : EReal
  acc : Fin 128 → EReal

def st0 : St := ⟨⊥, 0, fun _ => 0⟩

def step (A : Fin 8192 → EReal) (V : Fin 8192 → Fin 128 → EReal) (c : Fin 32) (s : St) : St :=
  let mNew := max s.m (Finset.univ.sup fun q : Fin 256 => A (col c q))
  { m := mNew
    l := Ideal.exp (s.m - mNew) * s.l + ∑ q : Fin 256, Ideal.exp (A (col c q) - mNew)
    acc := fun f => Ideal.exp (s.m - mNew) * s.acc f + ∑ q : Fin 256, Ideal.exp (A (col c q) - mNew) * V (col c q) f }

/-- The state after the first `k` column steps (k ≤ 32). -/
def online (A : Fin 8192 → EReal) (V : Fin 8192 → Fin 128 → EReal) : ℕ → St
  | 0 => st0
  | k + 1 => if h : k < 32 then step A V ⟨k, h⟩ (online A V k) else online A V k

def onlineAgg (A : Fin 8192 → EReal) (V : Fin 8192 → Fin 128 → EReal) (f : Fin 128) : EReal :=
  Ideal.div ((online A V 32).acc f) (online A V 32).l

def kernelOut (i : Fin 8192) (f : Fin 128) : EReal := elu (onlineAgg (att x W a (kmask n) i) (hW x W) f)

end Defs

end Cert.Spec

end
-- ==== Proof.RefValueA.lean ====
/-
  The reference's mask and score stages read at one entry.

  * A row normalisation at (i, j): the entry divided by the sum of row i.
  * The identity table at (i, j): 1 if i = j, else 0.
  * The mask: counts normalised by row, plus the identity, normalised again; at (i, j) this is
    Spec.rmask once the counts are Spec.cntE entrywise.
  * Slope and fill of mask · (h1 i + h2 j): z if 0 < z else slope · z, then exact zeros replaced by the fill.
-/
import proofs.«413656_j34187939676687_3_alg».proof.Proof.RefRunA
import proofs.«413656_j34187939676687_3_alg».proof.Proof.Spec
import Idealize.ShloMosaic.Lib.ValueIdx
import Idealize.ShloMosaic.Lib.Pipeline.Value
import Idealize.ShloMosaic.PureOps.Ideal.Laws

noncomputable section

namespace Cert.ReferenceIdeal.HandValue

open Idealize.ShloMosaic Idealize.ShloMosaic.ValueIdx
open Cert.ReferenceIdeal Cert.ReferenceIdeal.Gen Cert.ReferenceIdeal.Hand

/-! ## A value per row spread along the row; a scalar spread everywhere -/

/-- A scalar broadcast over the table reads the scalar. -/
theorem bcast0_apply {α : Type} (x : S_.Idx → α) (i j : Fin 8192) :
    broadcastInDim S8192x8192 ![] bcast_S_S8192x8192 x (ix2 i j) = x ix0 :=
  broadcastInDim_apply _ _ x (ix2 i j) ix0 (fun a => a.elim0)

/-- Entry (i, j) of the spread is the value of row i. -/
theorem stSpread_apply (r : FVec Ideal S8192 .f32) (i j : Fin 8192) :
    stSpread (F := Ideal) r (ix2 i j) = r (ix1 i) := by
  unfold stSpread
  refine (broadcastInDim_apply _ _ _ (ix2 i j) (ix2 i (0 : Fin 1)) (fun a => ?_)).trans ?_
  · match a with
    | ⟨0, _⟩ => rfl
    | ⟨1, _⟩ => rfl
  · refine broadcastInDim_apply _ _ r (ix2 i (0 : Fin 1)) (ix1 i) (fun a => ?_)
    match a with
    | ⟨0, _⟩ => rfl

/-! ## Row sums and the row normalisation -/

/-- The sum of row i, from zero. -/
theorem stRowSum_apply (V : FVec Ideal S8192x8192 .f32) (i : Fin 8192) :
    stRowSum (F := Ideal) V (ix1 i) = ∑ j' : Fin 8192, V (ix2 i j') := by
  have hR : S8192x8192.Reduces [1] S8192 := by decide
  unfold stRowSum Host.reduceAdd
  rw [Ideal.hostReduceAdd_def, Ideal.hostReduceAdd_single reducesTo_S8192x8192_S8192_d1 hR]
  show Ideal.ofBits .f32 0x00000000#32 + _ = _
  rw [Ideal.ofBits_zero_f32, zero_add]
  refine Finset.sum_congr rfl fun k _ => congrArg V ?_
  funext a
  match a with
  | ⟨0, _⟩ => rfl
  | ⟨1, _⟩ => rfl

/-- Entry (i, j) of the normalised table: the entry over the sum of its row. -/
theorem stRowNorm_apply (V : FVec Ideal S8192x8192 .f32) (i j : Fin 8192) :
    stRowNorm (F := Ideal) V (ix2 i j) = Ideal.div (V (ix2 i j)) (∑ j' : Fin 8192, V (ix2 i j')) := by
  unfold stRowNorm
  show Ideal.div (V (ix2 i j)) (stSpread (stRowSum V) (ix2 i j)) = _
  rw [stSpread_apply, stRowSum_apply]

/-! ## The identity table -/

/-- A coordinate below 8192 is recovered from its 32-bit word. -/
theorem ofNat32_inj {a b : Nat} (ha : a < 8192) (hb : b < 8192) (h : BitVec.ofNat 32 a = BitVec.ofNat 32 b) : a = b := by
  have h' := congrArg BitVec.toNat h
  rw [BitVec.toNat_ofNat, BitVec.toNat_ofNat, Nat.mod_eq_of_lt (by omega), Nat.mod_eq_of_lt (by omega)] at h'
  exact h'

/-- Entry (i, j) of the identity table. -/
theorem stEye_apply (i j : Fin 8192) : stEye (F := Ideal) (ix2 i j) = Spec.eye i j := by
  unfold stEye Spec.eye
  show (((IntOp.cmpi .eq
      (IntOp.addi (BitVec.ofNat 32 i.val)
        (broadcastInDim S8192x8192 ![] bcast_S_S8192x8192 (constantI S_ 32 0#32) (ix2 i j)))
      (BitVec.ofNat 32 j.val)).toNat : ℝ) : EReal) = _
  rw [bcast0_apply]
  show (((IntOp.cmpi .eq (IntOp.addi (BitVec.ofNat 32 i.val) 0#32) (BitVec.ofNat 32 j.val)).toNat : ℝ) : EReal) = _
  have h0 : IntOp.addi (BitVec.ofNat 32 i.val) 0#32 = BitVec.ofNat 32 i.val := by
    unfold IntOp.addi; exact BitVec.add_zero _
  rw [h0]
  by_cases hij : i = j
  · subst hij
    rw [if_pos rfl, IntOp.cmpi_eq.mpr rfl]
    simp
  · rw [if_neg hij]
    have hne : ¬ IntOp.cmpi .eq (BitVec.ofNat 32 i.val) (BitVec.ofNat 32 j.val) = 1#1 := fun h =>
      hij (Fin.ext (ofNat32_inj i.isLt j.isLt (IntOp.cmpi_eq.mp h)))
    rw [eq_zero_of_ne_one hne]
    simp

/-! ## The mask -/

/-- Entry (i, j) of the mask over counts that are Spec.cntE entrywise. -/
theorem stMask_apply (C : FVec Ideal S8192x8192 .f32) (n : Fin 8192 → Fin 32 → BitVec 32)
    (hC : ∀ i j : Fin 8192, C (ix2 i j) = Cert.Spec.cntE n i j) (i j : Fin 8192) :
    stMask (F := Ideal) C (ix2 i j) = Cert.Spec.rmask n i j := by
  have h1 : ∀ a b : Fin 8192, addf (F := Ideal) (stRowNorm C) stEye (ix2 a b) = Cert.Spec.rmask1 n a b := by
    intro a b
    show stRowNorm C (ix2 a b) + stEye (ix2 a b) = _
    rw [stRowNorm_apply, stEye_apply]
    simp only [hC]
    rfl
  unfold stMask
  rw [stRowNorm_apply]
  simp only [h1]
  rfl

/-! ## Slope and fill of the scores -/

/-- Entry (i, j) after the slope and the fill. -/
theorem stFill_stLrelu_stScores_apply (M : FVec Ideal S8192x8192 .f32) (hw : FVec Ideal S8192x128 .f32)
    (A : FVec Ideal S256x1 .f32) (i j : Fin 8192) :
    stFill (F := Ideal) (stLrelu (stScores M hw A)) (ix2 i j)
      = Cert.Spec.fillz (Cert.Spec.lrelu (M (ix2 i j) * stPairSum hw A (ix2 i j))) := by
  have hz : ∀ a b : Fin 8192,
      broadcastInDim S8192x8192 ![] bcast_S_S8192x8192 (constant (F := Ideal) S_ .f32 0x00000000#32) (ix2 a b) = (0 : EReal) := by
    intro a b
    rw [bcast0_apply]
    exact Ideal.ofBits_zero_f32
  have hs : ∀ a b : Fin 8192,
      broadcastInDim S8192x8192 ![] bcast_S_S8192x8192 (constant (F := Ideal) S_ .f32 0x3E4CCCCD#32) (ix2 a b) = Cert.Spec.litSlope := by
    intro a b
    rw [bcast0_apply]
    rfl
  have hf : ∀ a b : Fin 8192,
      broadcastInDim S8192x8192 ![] bcast_S_S8192x8192 (constant (F := Ideal) S_ .f32 0xD9FFCB9E#32) (ix2 a b) = Cert.Spec.litFill := by
    intro a b
    rw [bcast0_apply]
    rfl
  have hsc : stScores (F := Ideal) M hw A (ix2 i j) = M (ix2 i j) * stPairSum hw A (ix2 i j) := rfl
  have hl : stLrelu (F := Ideal) (stScores M hw A) (ix2 i j)
      = Cert.Spec.lrelu (M (ix2 i j) * stPairSum hw A (ix2 i j)) := by
    unfold stLrelu
    rw [select_apply, cmpf_apply, mulf_apply, hz, hs, hsc]
    show Scalar.select (Ideal.cmp .ogt _ 0) _ _ = _
    unfold Cert.Spec.lrelu Ideal.cmp Scalar.select
    by_cases hp : (0 : EReal) < M (ix2 i j) * stPairSum hw A (ix2 i j)
    · simp [hp]
    · simp [hp]
  unfold stFill
  rw [select_apply, cmpf_apply, hz, hf, hl]
  show Scalar.select (Ideal.cmp .une _ 0) _ _ = _
  unfold Cert.Spec.fillz Ideal.cmp Scalar.select
  by_cases hp : Cert.Spec.lrelu (M (ix2 i j) * stPairSum hw A (ix2 i j)) ≠ 0
  · simp [hp]
  · simp [hp]

end Cert.ReferenceIdeal.HandValue

end
-- ==== Proof.RefScatter.lean ====
/-
  The reference's neighbour counts read at an index. The reference builds, for each of the 262144 = 8192 · 32
  slots of the flattened neighbour table, the pair (row, word) — each coordinate passed through "add 8192 when
  negative", the identity on words that name a column — and adds a one at that pair into an 8192 × 8192 table
  of zeros. At (i, j) the result is therefore the number of k with word (i, k) = j.
-/
import proofs.«413656_j34187939676687_3_alg».proof.ReferenceIdeal
import proofs.«413656_j34187939676687_3_alg».proof.Proof.Gen.ReferenceIdeal
import proofs.«413656_j34187939676687_3_alg».proof.Proof.RefRunA
import proofs.«413656_j34187939676687_3_alg».proof.Proof.Spec
import Idealize.ShloMosaic.Lib.Pipeline.Value
import Idealize.ShloMosaic.Lib.StableHlo.Predicate
import Idealize.ShloMosaic.Lib.IdealHost
import Idealize.ShloMosaic.PureOps.Ideal.Laws

noncomputable section

namespace Cert.ReferenceIdeal.HandValue

open Idealize.ShloMosaic Cert.ReferenceIdeal Cert.ReferenceIdeal.Hand

/-- A word below 8192 is not negative, so "add 8192 when negative" leaves it alone. -/
private theorem stWrap_apply (v : IVec S262144 32) (u : S262144.Idx) (h : (v u).toNat < 8192) : stWrap v u = v u := by
  have hc : ¬ IntOp.cmpi .slt (v u) (0#32) = 1#1 := by
    rw [StableHlo.Predicate.slt_iff_toNat (by omega) (by decide)]
    simp
  show Scalar.select (IntOp.cmpi .slt (v u) 0#32) _ _ = _
  exact if_neg hc

/-- The scatter's dimension numbers: both operand axes are named by the index pair, no window axis. -/
private abbrev scat : ScatterDims S8192x8192 S262144x2 S262144 := scatter_S8192x8192_S262144x2_S262144_n_01_01_1

private theorem scat_window (u : S262144.Idx) (a : Fin 2) : scat.window u a = 0 := by
  unfold ScatterDims.window
  split
  · rename_i h
    exfalso
    have : scat.sKept = [] := by decide
    rw [this] at h
    simp at h
  · rfl

/-- Slot u reads component c of its pair at (u, c) of the index table. -/
private theorem scat_siIdx (u : S262144.Idx) (c : Fin 2) : scat.siIdx u c = ValueIdx.ix2 (u 0) c := by
  funext b
  match b with
  | ⟨0, _⟩ => rfl
  | ⟨1, _⟩ => rfl

private theorem scat_start0 (u : S262144.Idx) (idx : IVec S262144x2 32) :
    scat.start u idx 0 = (idx (ValueIdx.ix2 (u 0) 0)).toInt := by
  unfold ScatterDims.start
  rw [dif_pos (by decide)]
  exact congrArg (fun p => (idx p).toInt) (scat_siIdx u _)

private theorem scat_start1 (u : S262144.Idx) (idx : IVec S262144x2 32) :
    scat.start u idx 1 = (idx (ValueIdx.ix2 (u 0) 1)).toInt := by
  unfold ScatterDims.start
  rw [dif_pos (by decide)]
  exact congrArg (fun p => (idx p).toInt) (scat_siIdx u _)

/-- The slot lands on (i, j) exactly when its pair, read signed, is (i, j). -/
private theorem scat_resultIdx_iff (u : S262144.Idx) (idx : IVec S262144x2 32) (i j : Fin 8192) :
    scat.resultIdx? u idx = some (ValueIdx.ix2 i j) ↔
      (idx (ValueIdx.ix2 (u 0) 0)).toInt = (i.val : Int) ∧ (idx (ValueIdx.ix2 (u 0) 1)).toInt = (j.val : Int) := by
  have hi := i.isLt
  have hj := j.isLt
  unfold ScatterDims.resultIdx?
  split
  · rename_i h
    have h0 := (h 0).1
    have h1 := (h 1).1
    rw [scat_start0, scat_window] at h0
    rw [scat_start1, scat_window] at h1
    rw [Option.some.injEq]
    constructor
    · intro e
      have e0 : (scat.start u idx 0 + ((scat.window u 0 : Nat) : Int)).toNat = i.val := congrArg (fun f => (f 0).val) e
      have e1 : (scat.start u idx 1 + ((scat.window u 1 : Nat) : Int)).toNat = j.val := congrArg (fun f => (f 1).val) e
      rw [scat_start0, scat_window] at e0
      rw [scat_start1, scat_window] at e1
      constructor <;> omega
    · rintro ⟨e0, e1⟩
      refine funext (Fin.forall_fin_two.2 ⟨Fin.ext ?_, Fin.ext ?_⟩)
      · show (scat.start u idx 0 + ((scat.window u 0 : Nat) : Int)).toNat = i.val
        rw [scat_start0, scat_window, e0]; omega
      · show (scat.start u idx 1 + ((scat.window u 1 : Nat) : Int)).toNat = j.val
        rw [scat_start1, scat_window, e1]; omega
  · rename_i h
    constructor
    · intro e; cases e
    · rintro ⟨e0, e1⟩
      exfalso
      apply h
      refine Fin.forall_fin_two.2 ⟨?_, ?_⟩
      · rw [scat_start0, scat_window, e0]
        show 0 ≤ (i.val : Int) + ((0 : Nat) : Int) ∧ (i.val : Int) + ((0 : Nat) : Int) < ((8192 : Nat) : Int)
        omega
      · rw [scat_start1, scat_window, e1]
        show 0 ≤ (j.val : Int) + ((0 : Nat) : Int) ∧ (j.val : Int) + ((0 : Nat) : Int) < ((8192 : Nat) : Int)
        omega

/-- The flat slots and the (row, word) positions of the neighbour table correspond by row-major position. -/
private abbrev slotEquiv : S262144.Idx ≃ S8192x32.Idx := Shape.reshapeEquiv Gen.shapeCasts_S8192x32_S262144

private theorem size_S262144_ne_one : ¬ S262144.size (0 : Fin 1) = 1 := by decide
private theorem size_S8192_ne_one : ¬ S8192.size (0 : Fin 1) = 1 := by decide

private theorem stRowWords_apply (u : S262144.Idx) : stRowWords u = BitVec.ofNat 32 ((slotEquiv u) 0).val := by
  show (broadcastInDim S8192x32 ![0] Gen.bcast_S8192_S8192x32_0 (iotaInDim S8192 32 0)) (slotEquiv u) = _
  refine (broadcastInDim_apply (s := S8192) _ _ _ _ (ValueIdx.ix1 (n := 8192) ((slotEquiv u) 0)) ?_).trans rfl
  refine Fin.forall_fin_one.2 ?_
  rw [if_neg size_S8192_ne_one]
  rfl

private theorem stColWords_apply (Nn : IVec S8192x32 32) (u : S262144.Idx) : stColWords Nn u = Nn (slotEquiv u) := rfl

/-- Component 0 of slot u's pair is its (wrapped) row word, component 1 its (wrapped) neighbour word. -/
private theorem stPairs_apply_zero (Nn : IVec S8192x32 32) (u : S262144.Idx) :
    stPairs Nn (ValueIdx.ix2 (u 0) 0) = stWrap stRowWords u := by
  unfold stPairs
  refine (concatenate_pair_apply_left (t := S262144x2) (s₁ := S262144x1) (s₂ := S262144x1) 1 _ _ _
    (ValueIdx.ix2 (u 0) 0) rfl (ValueIdx.ix2 (u 0) 0) (Fin.forall_fin_two.2 ⟨rfl, rfl⟩)).trans ?_
  refine broadcastInDim_apply _ _ _ _ u ?_
  refine Fin.forall_fin_one.2 ?_
  rw [if_neg size_S262144_ne_one]
  rfl

private theorem stPairs_apply_one (Nn : IVec S8192x32 32) (u : S262144.Idx) :
    stPairs Nn (ValueIdx.ix2 (u 0) 1) = stWrap (stColWords Nn) u := by
  unfold stPairs
  refine (concatenate_pair_apply_right (t := S262144x2) (s₁ := S262144x1) (s₂ := S262144x1) 1 _ _ _
    (ValueIdx.ix2 (u 0) 1) rfl rfl (ValueIdx.ix2 (u 0) 0)
    (Fin.forall_fin_two.2 ⟨fun _ => rfl, fun h => absurd rfl h⟩) rfl).trans ?_
  refine broadcastInDim_apply _ _ _ _ u ?_
  refine Fin.forall_fin_one.2 ?_
  rw [if_neg size_S262144_ne_one]
  rfl

/-- A slot's row word is its row number, which is below 8192: the wrap leaves it, and signed it is the row number. -/
private theorem rowPair_toInt (u : S262144.Idx) : (stWrap stRowWords u).toInt = (((slotEquiv u) 0).val : Int) := by
  have hlt : ((slotEquiv u) 0).val < 8192 := ((slotEquiv u) 0).isLt
  have hv : (stRowWords u).toNat = ((slotEquiv u) 0).val := by
    rw [stRowWords_apply, BitVec.toNat_ofNat]; omega
  rw [stWrap_apply _ _ (by omega), StableHlo.Predicate.toInt_eq_toNat_of_lt (by omega), hv]

/-- A slot's neighbour word names a column: the wrap leaves it, and signed it is the column's number. -/
private theorem colPair_toInt (Nn : IVec S8192x32 32) (hn : Cert.Spec.InRange (Cert.Spec.c2 Nn)) (u : S262144.Idx) :
    (stWrap (stColWords Nn) u).toInt = ((Nn (slotEquiv u)).toNat : Int) := by
  have hlt : (Nn (slotEquiv u)).toNat < 8192 := by
    have h : (Nn (ValueIdx.ix2 ((slotEquiv u) 0) ((slotEquiv u) 1))).toNat < 8192 :=
      hn ((slotEquiv u) 0) ((slotEquiv u) 1)
    exact (congrArg (fun p => (Nn p).toNat < 8192) (ValueIdx.eq_ix2 (slotEquiv u))).mpr h
  rw [stWrap_apply _ _ (by rw [stColWords_apply]; exact hlt), stColWords_apply,
    StableHlo.Predicate.toInt_eq_toNat_of_lt (by omega)]

/-- Slot u lands on (i, j) exactly when it sits in row i of the neighbour table and its word names column j. -/
private theorem lands_iff (Nn : IVec S8192x32 32) (hn : Cert.Spec.InRange (Cert.Spec.c2 Nn)) (i j : Fin 8192)
    (u : S262144.Idx) :
    scat.resultIdx? u (stPairs Nn) = some (ValueIdx.ix2 i j) ↔
      (((slotEquiv u) 0).val = i.val ∧ (Nn (slotEquiv u)).toNat = j.val) := by
  rw [scat_resultIdx_iff, stPairs_apply_zero, stPairs_apply_one, rowPair_toInt, colPair_toInt Nn hn]
  constructor
  · rintro ⟨h0, h1⟩
    exact ⟨by exact_mod_cast h0, by exact_mod_cast h1⟩
  · rintro ⟨h0, h1⟩
    exact ⟨by exact_mod_cast h0, by exact_mod_cast h1⟩

/-- The slots of row i whose word names column j are as many as the words of row i that name column j:
    the slots correspond to the (row, word) positions, and only row i's count. -/
private theorem card_lands (Nn : IVec S8192x32 32) (i j : Fin 8192) :
    (Finset.univ.filter fun u : S262144.Idx =>
        ((slotEquiv u) 0).val = i.val ∧ (Nn (slotEquiv u)).toNat = j.val).card
      = Cert.Spec.cnt (Cert.Spec.c2 Nn) i j := by
  unfold Cert.Spec.cnt
  rw [Finset.card_filter, Finset.card_filter]
  refine (Equiv.sum_comp slotEquiv
    (fun p : S8192x32.Idx => if ((p 0).val = i.val ∧ (Nn p).toNat = j.val) then 1 else 0)).trans ?_
  rw [ValueIdx.sum_idx2, Finset.sum_eq_single i]
  · refine Finset.sum_congr rfl fun k _ => ?_
    have hk : (((ValueIdx.ix2 i k : S8192x32.Idx) 0).val = i.val) = True := eq_self _
    simp only [hk, true_and]
    rfl
  · intro a _ ha
    refine Finset.sum_eq_zero fun k _ => ?_
    rw [if_neg]
    rintro ⟨h, _⟩
    exact ha (Fin.ext h)
  · intro h
    exact absurd (Finset.mem_univ i) h

theorem stCounts_apply (Nn : IVec S8192x32 32) (hn : Cert.Spec.InRange (Cert.Spec.c2 Nn)) (i j : Fin 8192) :
    Cert.ReferenceIdeal.Hand.stCounts (F := Ideal) Nn (ValueIdx.ix2 i j) = Cert.Spec.cntE (Cert.Spec.c2 Nn) i j := by
  unfold stCounts Host.scatterAdd
  rw [Ideal.hostScatterAdd_def]
  unfold Ideal.hostScatterAdd
  show Ideal.ofBits .f32 0x00000000#32 + ∑ u ∈ _, Ideal.ofBits .f32 0x3F800000#32 = _
  rw [Ideal.ofBits_zero_f32, zero_add, Ideal.ofBits_one_f32, Finset.sum_const, nsmul_one,
    Finset.filter_congr (fun u _ => lands_iff Nn hn i j u), card_lands]
  rfl

end Cert.ReferenceIdeal.HandValue

end
-- ==== Proof.RefDots.lean ====
/-
  The reference's projected features and pair sums, read at an index, at the extended reals.

  X·W at (i, f) is the sum over the 256 contracted coordinates of X i k · W k f. Against the first and the last
  128 entries of the single column A it gives h1 and h2; the table of pair sums holds h1 i + h2 j at (i, j): the
  column h1 spread along rows, plus the column h2 turned into a row and spread along columns.
-/
import proofs.«413656_j34187939676687_3_alg».proof.Proof.RefRunA
import proofs.«413656_j34187939676687_3_alg».proof.Proof.Spec
import Idealize.ShloMosaic.Lib.StackMember
import Idealize.ShloMosaic.Lib.Pipeline.Value
import Idealize.ShloMosaic.Lib.ValueLayout
import Idealize.ShloMosaic.Lib.ValueIdx
import Idealize.ShloMosaic.PureOps.Ideal.Laws

noncomputable section

namespace Cert.ReferenceIdeal.HandValue

open Cert.ReferenceIdeal Cert.ReferenceIdeal.Gen Cert.ReferenceIdeal.Hand
open Idealize.ShloMosaic Idealize.ShloMosaic.ValueIdx

/-- The two dimension records are the plain rows × contraction by contraction × columns product. -/
theorem dotXW_eq_plain : dot_S8192x256_S256x128_S8192x128_1_0_0_1_n_n = DotDims.plain 8192 256 128 := rfl
theorem dotHA_eq_plain : dot_S8192x128_S128x1_S8192x1_1_0_0_1_n_n = DotDims.plain 8192 128 1 := rfl

/-- X·W at (i, f). -/
theorem stHW_apply (X : FVec Ideal S8192x256 .f32) (W : FVec Ideal S256x128 .f32) (i : Fin 8192) (f : Fin 128) :
    stHW (F := Ideal) X W (ix2 i f) = Cert.Spec.hW (Cert.Spec.c2 X) (Cert.Spec.c2 W) i f := by
  unfold stHW
  rw [dotXW_eq_plain, StackMember.dotGeneral_plain_apply]
  rfl

/-- The first 128 entries of the column. -/
theorem sliceLo_apply (A : FVec Ideal S256x1 .f32) (c : Fin 128) :
    extractStridedSlice S128x1 ![0, 0] A slices_S256x1_S128x1_0_0 (ix2 c 0) = A (ix2 ⟨c.val, by omega⟩ 0) := by
  refine extractStridedSlice_apply _ A _ _ _ fun a => ?_
  match a with
  | ⟨0, _⟩ => show c.val = 0 + c.val; omega
  | ⟨1, _⟩ => rfl

/-- The last 128 entries of the column. -/
theorem sliceHi_apply (A : FVec Ideal S256x1 .f32) (c : Fin 128) :
    extractStridedSlice S128x1 ![128, 0] A slices_S256x1_S128x1_128_0 (ix2 c 0) = A (ix2 ⟨128 + c.val, by omega⟩ 0) := by
  refine extractStridedSlice_apply _ A _ _ _ fun a => ?_
  match a with
  | ⟨0, _⟩ => rfl
  | ⟨1, _⟩ => rfl

theorem stH1_apply (hw : FVec Ideal S8192x128 .f32) (A : FVec Ideal S256x1 .f32) (i : Fin 8192) :
    stH1 (F := Ideal) hw A (ix2 i 0) = ∑ f : Fin 128, hw (ix2 i f) * A (ix2 ⟨f.val, by omega⟩ 0) := by
  unfold stH1
  rw [dotHA_eq_plain, StackMember.dotGeneral_plain_apply]
  exact Finset.sum_congr rfl fun f _ => by rw [sliceLo_apply]

theorem stH2_apply (hw : FVec Ideal S8192x128 .f32) (A : FVec Ideal S256x1 .f32) (j : Fin 8192) :
    stH2 (F := Ideal) hw A (ix2 j 0) = ∑ f : Fin 128, hw (ix2 j f) * A (ix2 ⟨128 + f.val, by omega⟩ 0) := by
  unfold stH2
  rw [dotHA_eq_plain, StackMember.dotGeneral_plain_apply]
  exact Finset.sum_congr rfl fun f _ => by rw [sliceHi_apply]

/-- The table of pair sums at (i, j): h1 i + h2 j. -/
theorem stPairSum_apply (hw : FVec Ideal S8192x128 .f32) (A : FVec Ideal S256x1 .f32) (i j : Fin 8192) :
    stPairSum (F := Ideal) hw A (ix2 i j)
      = (∑ f : Fin 128, hw (ix2 i f) * A (ix2 ⟨f.val, by omega⟩ 0))
        + (∑ f : Fin 128, hw (ix2 j f) * A (ix2 ⟨128 + f.val, by omega⟩ 0)) := by
  have e1 : broadcastInDim S8192x8192 ![0, 1] bcast_S8192x1_S8192x8192_0_1 (stH1 (F := Ideal) hw A) (ix2 i j)
      = stH1 (F := Ideal) hw A (ix2 i 0) :=
    broadcastInDim_apply _ _ _ _ _ fun a => match a with | ⟨0, _⟩ => rfl | ⟨1, _⟩ => rfl
  have e2 : broadcastInDim S8192x8192 ![0, 1] bcast_S1x8192_S8192x8192_0_1
      (transpose S1x8192 [1, 0] (stH2 (F := Ideal) hw A) transposes_S8192x1_S1x8192_1_0) (ix2 i j)
      = transpose S1x8192 [1, 0] (stH2 (F := Ideal) hw A) transposes_S8192x1_S1x8192_1_0 (ix2 0 j) :=
    broadcastInDim_apply _ _ _ _ _ fun a => match a with | ⟨0, _⟩ => rfl | ⟨1, _⟩ => rfl
  unfold stPairSum
  rw [addf_apply, e1, e2, transpose_ix2_apply, stH1_apply, stH2_apply]

/-- With the projected features themselves as the table: the two attention logits' halves. -/
theorem stPairSum_stHW_apply (X : FVec Ideal S8192x256 .f32) (W : FVec Ideal S256x128 .f32) (A : FVec Ideal S256x1 .f32)
    (i j : Fin 8192) :
    stPairSum (F := Ideal) (stHW (F := Ideal) X W) A (ix2 i j)
      = Cert.Spec.h1 (Cert.Spec.c2 X) (Cert.Spec.c2 W) (fun k => A (ix2 k 0)) i
        + Cert.Spec.h2 (Cert.Spec.c2 X) (Cert.Spec.c2 W) (fun k => A (ix2 k 0)) j := by
  rw [stPairSum_apply]
  simp only [stHW_apply]
  rfl

end Cert.ReferenceIdeal.HandValue

end
-- ==== Proof.Lits.lean ====
/-
  What the literal words denote: 1/64, 1/2, 1 and −∞ exactly; the leaky slope and the large negative fill
  are real numbers (the slope positive, the fill negative), which is all the argument uses of them.

  Each 32-bit word splits into a sign bit, eight exponent bits E and twenty-three fraction bits T;
  off the all-ones exponent and off zero exponent it denotes ±(2^23 + T) · 2^(E − 127 − 23).
-/
import proofs.«413656_j34187939676687_3_alg».proof.Proof.Spec
import Mathlib.Tactic.NormNum
import Mathlib.Tactic.Positivity

noncomputable section

namespace Cert.Spec

open Idealize.ShloMosaic

/-- 0x3C800000: sign +, E = 121, T = 0, so 2^23 · 2^(121 − 150) = 2^(−6). -/
theorem lit64_eq : lit64 = ((1 / 64 : ℝ) : EReal) := by
  have hneg : ((0x3C800000#32).extractLsb' (8 + 23) 1 == 1#1) = false := by decide
  have hex : ((0x3C800000#32).extractLsb' 23 8).toNat = 121 := by decide
  have hfr : ((0x3C800000#32).extractLsb' 0 23).toNat = 0 := by decide
  unfold lit64
  show Ideal.ieee 8 23 (0x3C800000#32) = _
  unfold Ideal.ieee
  simp only [hneg, hex, hfr]
  norm_num

/-- 0x3F000000: sign +, E = 126, T = 0, so 2^23 · 2^(126 − 150) = 2^(−1). -/
theorem litHalf_eq : litHalf = ((1 / 2 : ℝ) : EReal) := by
  have hneg : ((0x3F000000#32).extractLsb' (8 + 23) 1 == 1#1) = false := by decide
  have hex : ((0x3F000000#32).extractLsb' 23 8).toNat = 126 := by decide
  have hfr : ((0x3F000000#32).extractLsb' 0 23).toNat = 0 := by decide
  unfold litHalf
  show Ideal.ieee 8 23 (0x3F000000#32) = _
  unfold Ideal.ieee
  simp only [hneg, hex, hfr]
  norm_num

/-- 0x3F800000: sign +, E = 127, T = 0, so 2^23 · 2^(127 − 150) = 1. -/
theorem litOne_eq : litOne = 1 := by
  have hneg : ((0x3F800000#32).extractLsb' (8 + 23) 1 == 1#1) = false := by decide
  have hex : ((0x3F800000#32).extractLsb' 23 8).toNat = 127 := by decide
  have hfr : ((0x3F800000#32).extractLsb' 0 23).toNat = 0 := by decide
  unfold litOne
  show Ideal.ieee 8 23 (0x3F800000#32) = _
  unfold Ideal.ieee
  simp only [hneg, hex, hfr]
  norm_num

/-- 0xFF800000: sign −, all-ones exponent, T = 0: the negative infinity. -/
theorem litNegInf_eq : litNegInf = ⊥ := by
  have hneg : ((0xFF800000#32).extractLsb' (8 + 23) 1 == 1#1) = true := by decide
  have hex : ((0xFF800000#32).extractLsb' 23 8).toNat = 255 := by decide
  have hfr : ((0xFF800000#32).extractLsb' 0 23).toNat = 0 := by decide
  unfold litNegInf
  show Ideal.ieee 8 23 (0xFF800000#32) = _
  unfold Ideal.ieee
  simp only [hneg, hex, hfr]
  norm_num

/-- 0x3E4CCCCD: sign +, E = 124, T = 5033165, so (2^23 + 5033165) · 2^(−26) > 0. -/
theorem litSlope_real : ∃ r : ℝ, 0 < r ∧ litSlope = (r : EReal) := by
  have hneg : ((0x3E4CCCCD#32).extractLsb' (8 + 23) 1 == 1#1) = false := by decide
  have hex : ((0x3E4CCCCD#32).extractLsb' 23 8).toNat = 124 := by decide
  have hfr : ((0x3E4CCCCD#32).extractLsb' 0 23).toNat = 5033165 := by decide
  refine ⟨((2 ^ 23 + 5033165 : ℕ) : ℝ) * (2 : ℝ) ^ (-26 : ℤ), by positivity, ?_⟩
  unfold litSlope
  show Ideal.ieee 8 23 (0x3E4CCCCD#32) = _
  unfold Ideal.ieee
  simp only [hneg, hex, hfr]
  norm_num

/-- 0xD9FFCB9E: sign −, E = 179, T = 8375198, so −(2^23 + 8375198) · 2^29 < 0. -/
theorem litFill_real : ∃ r : ℝ, r < 0 ∧ litFill = (r : EReal) := by
  have hneg : ((0xD9FFCB9E#32).extractLsb' (8 + 23) 1 == 1#1) = true := by decide
  have hex : ((0xD9FFCB9E#32).extractLsb' 23 8).toNat = 179 := by decide
  have hfr : ((0xD9FFCB9E#32).extractLsb' 0 23).toNat = 8375198 := by decide
  refine ⟨-(((2 ^ 23 + 8375198 : ℕ) : ℝ) * (2 : ℝ) ^ (29 : ℤ)), neg_lt_zero.mpr (by positivity), ?_⟩
  unfold litFill
  show Ideal.ieee 8 23 (0xD9FFCB9E#32) = _
  unfold Ideal.ieee
  simp only [hneg, hex, hfr]
  norm_num

end Cert.Spec

end
-- ==== Proof.RefSoft.lean ====
/-
  The reference's row softmax, its product with the projected features, and the ELU, read at one entry.

  * The maximum of row i, taken from −∞ and once more against −∞, is the supremum of the row's entries.
  * Entry (i, j) of the shifted exponential: exp (z i j − that supremum).
  * Entry (i, j) of the softmax: the shifted exponential over the sum of its row.
  * Entry (i, f) of the product with H: Σ_j softmax i j · H j f, which is Spec.softAgg of row i.
  * The ELU at an entry y: y if 0 < y, else 1 · (exp (0 if 0 < y else y) − 1) = exp y − 1.
-/
import proofs.«413656_j34187939676687_3_alg».proof.Proof.RefRunA
import proofs.«413656_j34187939676687_3_alg».proof.Proof.RefValueA
import proofs.«413656_j34187939676687_3_alg».proof.Proof.Spec
import proofs.«413656_j34187939676687_3_alg».proof.Proof.Lits
import Idealize.ShloMosaic.Lib.ValueIdx
import Idealize.ShloMosaic.Lib.IdealHost
import Idealize.ShloMosaic.Lib.Pipeline.Value
import Idealize.ShloMosaic.PureOps.Ideal.Laws
import Idealize.ShloMosaic.PureOps.Reduce

noncomputable section

namespace Cert.ReferenceIdeal.HandValue

open Idealize.ShloMosaic Idealize.ShloMosaic.ValueIdx
open Cert.ReferenceIdeal Cert.ReferenceIdeal.Gen Cert.ReferenceIdeal.Hand

/-! ## The row maximum -/

/-- A scalar broadcast over the rows reads the scalar. -/
theorem bcastRow_apply {α : Type} (x : S_.Idx → α) (i : Fin 8192) :
    broadcastInDim S8192 ![] bcast_S_S8192 x (ix1 i) = x ix0 :=
  broadcastInDim_apply _ _ x (ix1 i) ix0 (fun a => a.elim0)

/-- The word 0xFF800000 is −∞. -/
theorem negInf_eq : Ideal.ofBits .f32 0xFF800000#32 = (⊥ : EReal) := Cert.Spec.litNegInf_eq

/-- The maximum of row i is the supremum of its entries. -/
theorem stRowMax_apply (Z : FVec Ideal S8192x8192 .f32) (i : Fin 8192) :
    stRowMax (F := Ideal) Z (ix1 i) = Finset.univ.sup (fun k : Fin 8192 => Z (ix2 i k)) := by
  have hR : S8192x8192.Reduces [1] S8192 := by decide
  have hfun : (Z ∘ hR.lift (ix1 i)) = fun k : Fin 8192 => Z (ix2 i k) :=
    funext fun k => congrArg Z (funext fun a => by
      match a with
      | ⟨0, _⟩ => rfl
      | ⟨1, _⟩ => rfl)
  unfold stRowMax
  rw [maximumf_apply, bcastRow_apply, constant_apply, negInf_eq, max_bot_left,
    Host.reduce_eq_fold_single FloatOps.maximumf Z _ reducesTo_S8192x8192_S8192_d1 hR h_S_ (ix1 i), hfun]
  show Finset.univ.fold FloatOps.maximumf (Ideal.ofBits .f32 0xFF800000#32) (fun k : Fin 8192 => Z (ix2 i k)) = _
  rw [negInf_eq]
  rfl

/-! ## The shifted exponential and the softmax -/

/-- Entry (i, j) of the shifted exponential. -/
theorem stExpShift_apply (Z : FVec Ideal S8192x8192 .f32) (i j : Fin 8192) :
    stExpShift (F := Ideal) Z (ix2 i j)
      = Ideal.exp (Z (ix2 i j) - Finset.univ.sup (fun k : Fin 8192 => Z (ix2 i k))) := by
  unfold stExpShift
  show Ideal.exp (Z (ix2 i j) - stSpread (stRowMax Z) (ix2 i j)) = _
  rw [stSpread_apply, stRowMax_apply]

/-- Entry (i, j) of the row softmax. -/
theorem stSoft_apply (Z : FVec Ideal S8192x8192 .f32) (i j : Fin 8192) :
    stSoft (F := Ideal) Z (ix2 i j)
      = Ideal.div (Ideal.exp (Z (ix2 i j) - Finset.univ.sup (fun k : Fin 8192 => Z (ix2 i k))))
          (∑ j' : Fin 8192, Ideal.exp (Z (ix2 i j') - Finset.univ.sup (fun k : Fin 8192 => Z (ix2 i k)))) := by
  unfold stSoft
  rw [stRowNorm_apply]
  simp only [stExpShift_apply]

/-! ## The product with the projected features -/

theorem lhs_agg_0 (i : S8192x128.Idx) (q : dot_S8192x8192_S8192x128_S8192x128_1_0_0_1_n_n.contr.Idx) :
    (dot_S8192x8192_S8192x128_S8192x128_1_0_0_1_n_n.lhsIdx i q 0).val = (i 0).val := by
  unfold DotDims.lhsIdx
  rw [dif_neg (show ¬(0 : Fin S8192x8192.rank) ∈ dot_S8192x8192_S8192x128_S8192x128_1_0_0_1_n_n.lhsBatch by decide),
    dif_pos (show (0 : Fin S8192x8192.rank) ∈ dot_S8192x8192_S8192x128_S8192x128_1_0_0_1_n_n.lhsNonContracting by decide)]
  rfl

theorem lhs_agg_1 (i : S8192x128.Idx) (q : dot_S8192x8192_S8192x128_S8192x128_1_0_0_1_n_n.contr.Idx) :
    (dot_S8192x8192_S8192x128_S8192x128_1_0_0_1_n_n.lhsIdx i q 1).val = (q ⟨0, by decide⟩).val :=
  dot_S8192x8192_S8192x128_S8192x128_1_0_0_1_n_n.lhsIdx_val_of_single rfl i q

theorem rhs_agg_0 (i : S8192x128.Idx) (q : dot_S8192x8192_S8192x128_S8192x128_1_0_0_1_n_n.contr.Idx) :
    (dot_S8192x8192_S8192x128_S8192x128_1_0_0_1_n_n.rhsIdx i q 0).val = (q ⟨0, by decide⟩).val :=
  dot_S8192x8192_S8192x128_S8192x128_1_0_0_1_n_n.rhsIdx_val_of_single rfl i q

theorem rhs_agg_1 (i : S8192x128.Idx) (q : dot_S8192x8192_S8192x128_S8192x128_1_0_0_1_n_n.contr.Idx) :
    (dot_S8192x8192_S8192x128_S8192x128_1_0_0_1_n_n.rhsIdx i q 1).val = (i 1).val := by
  unfold DotDims.rhsIdx
  rw [dif_neg (show ¬(1 : Fin S8192x128.rank) ∈ dot_S8192x8192_S8192x128_S8192x128_1_0_0_1_n_n.rhsBatch by decide),
    dif_pos (show (1 : Fin S8192x128.rank) ∈ dot_S8192x8192_S8192x128_S8192x128_1_0_0_1_n_n.rhsNonContracting by decide)]
  rfl

/-- Entry (i, f) of P · H: the sum over j of P i j · H j f. -/
theorem stAgg_apply (P : FVec Ideal S8192x8192 .f32) (H : FVec Ideal S8192x128 .f32) (i : Fin 8192) (f : Fin 128) :
    stAgg (F := Ideal) P H (ix2 i f) = ∑ k : Fin 8192, P (ix2 i k) * H (ix2 k f) := by
  unfold stAgg
  simp only [Host.dotGeneral]
  rw [Ideal.dotGeneral_apply, ← Equiv.sum_comp (contrEquiv1 dot_S8192x8192_S8192x128_S8192x128_1_0_0_1_n_n 8192 rfl rfl).symm]
  refine Finset.sum_congr rfl fun k _ => ?_
  have hk := contrEquiv1_symm_val dot_S8192x8192_S8192x128_S8192x128_1_0_0_1_n_n 8192 rfl rfl k
  have el : dot_S8192x8192_S8192x128_S8192x128_1_0_0_1_n_n.lhsIdx (ix2 i f) ((contrEquiv1 dot_S8192x8192_S8192x128_S8192x128_1_0_0_1_n_n 8192 rfl rfl).symm k) = ix2 i k :=
    funext fun a => Fin.ext (by
      match a with
      | ⟨0, _⟩ => exact lhs_agg_0 _ _
      | ⟨1, _⟩ => exact (lhs_agg_1 _ _).trans hk)
  have er : dot_S8192x8192_S8192x128_S8192x128_1_0_0_1_n_n.rhsIdx (ix2 i f) ((contrEquiv1 dot_S8192x8192_S8192x128_S8192x128_1_0_0_1_n_n 8192 rfl rfl).symm k) = ix2 k f :=
    funext fun a => Fin.ext (by
      match a with
      | ⟨0, _⟩ => exact (rhs_agg_0 _ _).trans hk
      | ⟨1, _⟩ => exact rhs_agg_1 _ _)
  rw [el, er]

/-- Entry (i, f) of softmax(Z) · H is the one-shot softmax aggregate of row i. -/
theorem stAgg_stSoft_apply (Z : FVec Ideal S8192x8192 .f32) (H : FVec Ideal S8192x128 .f32) (i : Fin 8192) (f : Fin 128) :
    Cert.ReferenceIdeal.Hand.stAgg (F := Ideal) (Cert.ReferenceIdeal.Hand.stSoft Z) H (ValueIdx.ix2 i f)
      = Cert.Spec.softAgg (fun j => Z (ValueIdx.ix2 i j)) (Cert.Spec.c2 H) f := by
  rw [stAgg_apply]
  simp only [stSoft_apply]
  unfold Cert.Spec.softAgg Cert.Spec.c2
  rfl

/-! ## The ELU -/

/-- A scalar broadcast over the output table reads the scalar. -/
theorem bcastOut_apply {α : Type} (x : S_.Idx → α) (i : Fin 8192) (f : Fin 128) :
    broadcastInDim S8192x128 ![] bcast_S_S8192x128 x (ix2 i f) = x ix0 :=
  broadcastInDim_apply _ _ x (ix2 i f) ix0 (fun a => a.elim0)

/-- Entry (i, f) of the ELU. -/
theorem stElu_apply (Y : FVec Ideal S8192x128 .f32) (i : Fin 8192) (f : Fin 128) :
    Cert.ReferenceIdeal.Hand.stElu (F := Ideal) Y (ValueIdx.ix2 i f) = Cert.Spec.elu (Y (ValueIdx.ix2 i f)) := by
  have hz : broadcastInDim S8192x128 ![] bcast_S_S8192x128 (constant (F := Ideal) S_ .f32 0x00000000#32) (ix2 i f)
      = (0 : EReal) := by
    rw [bcastOut_apply]
    exact Ideal.ofBits_zero_f32
  have ho : broadcastInDim S8192x128 ![] bcast_S_S8192x128 (constant (F := Ideal) S_ .f32 0x3F800000#32) (ix2 i f)
      = (1 : EReal) := by
    rw [bcastOut_apply]
    exact Cert.Spec.litOne_eq
  unfold stElu
  show Scalar.select
      (Ideal.cmp .ogt (Y (ix2 i f))
        (broadcastInDim S8192x128 ![] bcast_S_S8192x128 (constant (F := Ideal) S_ .f32 0x00000000#32) (ix2 i f)))
      (Y (ix2 i f))
      (broadcastInDim S8192x128 ![] bcast_S_S8192x128 (constant (F := Ideal) S_ .f32 0x3F800000#32) (ix2 i f)
        * (Ideal.exp
            (Scalar.select
              (Ideal.cmp .ogt (Y (ix2 i f))
                (broadcastInDim S8192x128 ![] bcast_S_S8192x128 (constant (F := Ideal) S_ .f32 0x00000000#32) (ix2 i f)))
              (broadcastInDim S8192x128 ![] bcast_S_S8192x128 (constant (F := Ideal) S_ .f32 0x00000000#32) (ix2 i f))
              (Y (ix2 i f))) - 1)) = _
  rw [hz, ho, one_mul]
  unfold Cert.Spec.elu Ideal.cmp Scalar.select
  by_cases hp : (0 : EReal) < Y (ix2 i f)
  · simp [hp]
  · simp [hp]

end Cert.ReferenceIdeal.HandValue

end
-- ==== Proof.RefValue.lean ====
/-
  The whole reference read at one entry.

  At (i, f) the composition of the stages is the ELU of the row-softmax aggregate: the scores of row i are
  mask · (h1 i + h2 j) through the slope and the fill, with the mask the twice-normalised neighbour counts;
  the softmax weights of row i multiply the rows of X·W. This is Spec.refOut.
-/
import proofs.«413656_j34187939676687_3_alg».proof.Proof.RefValueA
import proofs.«413656_j34187939676687_3_alg».proof.Proof.RefScatter
import proofs.«413656_j34187939676687_3_alg».proof.Proof.RefDots
import proofs.«413656_j34187939676687_3_alg».proof.Proof.RefSoft

noncomputable section

namespace Cert.ReferenceIdeal.HandValue

open Idealize.ShloMosaic Idealize.ShloMosaic.ValueIdx
open Cert.ReferenceIdeal Cert.ReferenceIdeal.Gen Cert.ReferenceIdeal.Hand

/-- The reference's value at (i, f): the ELU of the row softmax of the filled, sloped scores against X·W. -/
theorem refTerm_eq (X : FVec Ideal S8192x256 .f32) (W : FVec Ideal S256x128 .f32) (A : FVec Ideal S256x1 .f32)
    (Nn : IVec S8192x32 32) (hn : Cert.Spec.InRange (Cert.Spec.c2 Nn)) :
    refTerm (F := Ideal) X W A Nn
      = fun idx => Cert.Spec.refOut (Cert.Spec.c2 X) (Cert.Spec.c2 W) (fun k => A (ix2 k 0)) (Cert.Spec.c2 Nn) (idx 0) (idx 1) := by
  funext idx
  obtain ⟨i, f, rfl⟩ : ∃ (i : Fin 8192) (f : Fin 128), idx = ix2 i f := ⟨idx 0, idx 1, eq_ix2 idx⟩
  show refTerm (F := Ideal) X W A Nn (ix2 i f)
    = Cert.Spec.refOut (Cert.Spec.c2 X) (Cert.Spec.c2 W) (fun k => A (ix2 k 0)) (Cert.Spec.c2 Nn) i f
  have hatt : (fun j : Fin 8192 => stAtt (F := Ideal) X W A Nn (ix2 i j))
      = Cert.Spec.att (Cert.Spec.c2 X) (Cert.Spec.c2 W) (fun k => A (ix2 k 0)) (Cert.Spec.rmask (Cert.Spec.c2 Nn)) i := by
    funext j
    unfold stAtt
    rw [stFill_stLrelu_stScores_apply,
      stMask_apply (stCounts Nn) (Cert.Spec.c2 Nn) (fun a b => stCounts_apply Nn hn a b) i j,
      stPairSum_stHW_apply]
    rfl
  have hhw : Cert.Spec.c2 (stHW (F := Ideal) X W) = Cert.Spec.hW (Cert.Spec.c2 X) (Cert.Spec.c2 W) := by
    funext a b
    exact stHW_apply X W a b
  unfold refTerm
  rw [stElu_apply, stAgg_stSoft_apply, hatt, hhw]
  rfl

end Cert.ReferenceIdeal.HandValue

end
-- ==== Proof.BlockReads1.lean ====
/-
  Region 1's windows as parts of its arrays, at any float model.

  The region's grid is 8 × 32: the linear point t is row tile t / 32 at column step t % 32. At point t
    * window 0 is the whole array of projected features (8192 × 128), the same block at every point;
    * window 1 is rows 1024·(t / 32) … + 1023 of the first logit column (8192 × 1);
    * window 2 is columns 256·(t % 32) … + 255 of the second logit row (1 × 8192);
    * window 3 is rows 1024·(t / 32) … + 1023 of the neighbour table (8192 × 32 words);
    * window 4, the output, is rows 1024·(t / 32) … + 1023 of the result (8192 × 128); it is written back at
      column step 31 only, and the eight points 32·ρ + 31 tile the result's rows between them.
-/
import proofs.«413656_j34187939676687_3_alg».proof.Proof.R1

set_option maxRecDepth 16384

noncomputable section

namespace Cert.KernelIdeal.Hand

open Cert.KernelIdeal Cert.KernelIdeal.Gen
open Idealize.ShloMosaic Idealize.ShloMosaic.TcCoe
open Idealize.SL.Sem
open Idealize.ShloMosaic.Pipeline (Dat)

variable {F : FTy → Type} [FloatOps F]

/-! ## The grid's arithmetic, decided once over its 256 points -/

/-- The coordinates of the linear point t: row tile t / 32, column step t % 32. -/
theorem coords1 : ∀ t : Fin cfg1.N, ((grid1.coords t) 0).val = t.val / 32 ∧ ((grid1.coords t) 1).val = t.val % 32 :=
  (by decide +kernel : ∀ t : Fin grid1.N, _)

/-- The block index of each window at point t, axis by axis. -/
theorem block_index1 : ∀ t : Fin cfg1.N,
    win1_0.index t (0 : Fin 2) = 0 ∧ win1_0.index t (1 : Fin 2) = 0
    ∧ win1_1.index t (0 : Fin 2) = t.val / 32 ∧ win1_1.index t (1 : Fin 2) = 0
    ∧ win1_2.index t (0 : Fin 2) = 0 ∧ win1_2.index t (1 : Fin 2) = t.val % 32
    ∧ win1_3.index t (0 : Fin 2) = t.val / 32 ∧ win1_3.index t (1 : Fin 2) = 0
    ∧ win1_4.index t (0 : Fin 2) = t.val / 32 ∧ win1_4.index t (1 : Fin 2) = 0 :=
  (by decide +kernel : ∀ t : Fin grid1.N, _)

/-! ## The input blocks -/

section Blocks
variable (V : (c : Dev nD) → (b : Ref sig .tc) → Buf (Elt F) ((c : Thread nD τ).loc b))

/-- Window 0's block is the whole array of projected features, at every point. -/
theorem hWblk_apply (c : Dev nD) (t : Fin cfg1.N) (y : S8192x128.Idx) :
    (iblk1 V c 0 t : Vec F S8192x128 .f32) y = (V c main_v2_0 : S8192x128.Idx → Elt F .f32) y := by
  obtain ⟨e0, e1, -⟩ := block_index1 t
  unfold iblk1
  rw [View.read_apply]
  show V c main_v2_0 _ = V c main_v2_0 _
  congr 1
  funext a
  apply Fin.ext
  match a with
  | ⟨0, _⟩ => show win1_0.index t 0 * 8192 + 1 * (y 0).val = (y 0).val; rw [e0]; omega
  | ⟨1, _⟩ => show win1_0.index t 1 * 128 + 1 * (y 1).val = (y 1).val; rw [e1]; omega

theorem hWblk_eq (c : Dev nD) (t : Fin cfg1.N) :
    (iblk1 V c 0 t : Vec F S8192x128 .f32) = (V c main_v2_0 : S8192x128.Idx → Elt F .f32) :=
  funext (hWblk_apply V c t)

/-- Window 1's block at point t is rows 1024·(t / 32) … of the first logit column. -/
theorem h1blk_apply (c : Dev nD) (t : Fin cfg1.N) (y : S1024x1.Idx) (k : S8192x1.Idx)
    (hk0 : (k 0).val = 1024 * (t.val / 32) + (y 0).val) (hk1 : (k 1).val = (y 1).val) :
    (iblk1 V c 1 t : Vec F S1024x1 .f32) y = (V c main_v2_1 : S8192x1.Idx → Elt F .f32) k := by
  obtain ⟨-, -, e0, e1, -⟩ := block_index1 t
  unfold iblk1
  rw [View.read_apply]
  show V c main_v2_1 _ = V c main_v2_1 _
  congr 1
  funext a
  apply Fin.ext
  match a with
  | ⟨0, _⟩ => show win1_1.index t 0 * 1024 + 1 * (y 0).val = (k 0).val; rw [e0, hk0]; omega
  | ⟨1, _⟩ => show win1_1.index t 1 * 1 + 1 * (y 1).val = (k 1).val; rw [e1, hk1]; omega

/-- Window 2's block at point t is columns 256·(t % 32) … of the second logit row. -/
theorem h2blk_apply (c : Dev nD) (t : Fin cfg1.N) (y : S1x256.Idx) (k : S1x8192.Idx)
    (hk0 : (k 0).val = (y 0).val) (hk1 : (k 1).val = 256 * (t.val % 32) + (y 1).val) :
    (iblk1 V c 2 t : Vec F S1x256 .f32) y = (V c main_v3 : S1x8192.Idx → Elt F .f32) k := by
  obtain ⟨-, -, -, -, e0, e1, -⟩ := block_index1 t
  unfold iblk1
  rw [View.read_apply]
  show V c main_v3 _ = V c main_v3 _
  congr 1
  funext a
  apply Fin.ext
  match a with
  | ⟨0, _⟩ => show win1_2.index t 0 * 1 + 1 * (y 0).val = (k 0).val; rw [e0, hk0]; omega
  | ⟨1, _⟩ => show win1_2.index t 1 * 256 + 1 * (y 1).val = (k 1).val; rw [e1, hk1]; omega

/-- Window 3's block at point t is rows 1024·(t / 32) … of the neighbour table. -/
theorem nbblk_apply (c : Dev nD) (t : Fin cfg1.N) (y : S1024x32.Idx) (k : S8192x32.Idx)
    (hk0 : (k 0).val = 1024 * (t.val / 32) + (y 0).val) (hk1 : (k 1).val = (y 1).val) :
    (iblk1 V c 3 t : Vec F S1024x32 .i32) y = (V c main_arg3 : S8192x32.Idx → Elt F .i32) k := by
  obtain ⟨-, -, -, -, -, -, e0, e1, -⟩ := block_index1 t
  unfold iblk1
  rw [View.read_apply]
  show V c main_arg3 _ = V c main_arg3 _
  congr 1
  funext a
  apply Fin.ext
  match a with
  | ⟨0, _⟩ => show win1_3.index t 0 * 1024 + 1 * (y 0).val = (k 0).val; rw [e0, hk0]; omega
  | ⟨1, _⟩ => show win1_3.index t 1 * 32 + 1 * (y 1).val = (k 1).val; rw [e1, hk1]; omega

end Blocks

/-! ## The output window -/

/-- Block t of window 4 of any array of the result's shape is its rows 1024·(t / 32) … . -/
theorem outblk_read_apply (c : Dev nD) (t : Fin cfg1.N) (G : Buf (Elt F) ((cfg1.win 4).arr.view.loc (c.tc : Thread nD τ)))
    (y : S1024x128.Idx) (k : S8192x128.Idx)
    (hk0 : (k 0).val = 1024 * (t.val / 32) + (y 0).val) (hk1 : (k 1).val = (y 1).val) :
    (((cfg1.win 4).blk t).view.read (Elt F) G : Vec F S1024x128 .f32) y = (G : S8192x128.Idx → Elt F .f32) k := by
  obtain ⟨-, -, -, -, -, -, -, -, e0, e1⟩ := block_index1 t
  rw [View.read_apply]
  show (G : S8192x128.Idx → Elt F .f32) _ = (G : S8192x128.Idx → Elt F .f32) _
  congr 1
  funext a
  apply Fin.ext
  match a with
  | ⟨0, _⟩ => show win1_4.index t 0 * 1024 + 1 * (y 0).val = (k 0).val; rw [e0, hk0]; omega
  | ⟨1, _⟩ => show win1_4.index t 1 * 128 + 1 * (y 1).val = (k 1).val; rw [e1, hk1]; omega

/-- An index of the result is in point t's block iff each coordinate is in the block's range on its axis. -/
theorem mem_outblk (t : Fin cfg1.N) (i : S8192x128.Idx) :
    i ∈ ((cfg1.win 4).blk t).view.set ↔ ∀ a : Fin 2, win1_4.index t a * S1024x128.size a ≤ (i a).val ∧ (i a).val < win1_4.index t a * S1024x128.size a + S1024x128.size a := by
  show i ∈ ((View.whole main_v4).slice (win1_4.rect t)).set ↔ _
  rw [View.set_slice_whole, Rect.mem_set_unit]
  exact Iff.rfl

/-- The point that writes row i of the result back: column step 31 of row tile i / 1024. -/
def flushPt (i : Fin 8192) : Fin cfg1.N := ⟨32 * (i.val / 1024) + 31, by rw [show cfg1.N = 256 from N_1]; omega⟩

theorem flushPt_flush (i : Fin 8192) : (cfg1.win 4).flush (flushPt i) = true :=
  (flush1_4 (flushPt i)).mpr (by show (32 * (i.val / 1024) + 31) % 32 = 31; omega)

/-- Every index of the result lies in the block of a point that writes it back. -/
theorem out_cover (i : S8192x128.Idx) :
    ∃ t : Fin cfg1.N, (cfg1.win 4).flush t = true ∧ i ∈ ((cfg1.win 4).blk t).view.set := by
  refine ⟨flushPt (i 0), flushPt_flush (i 0), ?_⟩
  rw [mem_outblk]
  obtain ⟨-, -, -, -, -, -, -, -, e0, e1⟩ := block_index1 (flushPt (i 0))
  have hv : (flushPt (i 0)).val = 32 * ((i 0).val / 1024) + 31 := rfl
  have h0 : (i 0).val < 8192 := (i 0).isLt
  have h1 : (i 1).val < 128 := (i 1).isLt
  intro a
  match a with
  | ⟨0, _⟩ => show win1_4.index (flushPt (i 0)) (0 : Fin 2) * 1024 ≤ (i 0).val ∧ (i 0).val < win1_4.index (flushPt (i 0)) (0 : Fin 2) * 1024 + 1024
              rw [e0, hv]; omega
  | ⟨1, _⟩ => show win1_4.index (flushPt (i 0)) (1 : Fin 2) * 128 ≤ (i 1).val ∧ (i 1).val < win1_4.index (flushPt (i 0)) (1 : Fin 2) * 128 + 128
              rw [e1]; omega

end Cert.KernelIdeal.Hand

end
-- ==== Proof.TileCount.lean ====
/-
  Region 1's mask on one tile, read at an index.

  At grid point (ri, ci) the body compares each of the row's 32 neighbour words with the tile's 256 global column
  numbers 256·ci + q, widens each one-bit answer to a 32-bit word and adds the 32 words; it compares the global
  row number 1024·ri + r with the column number the same way; it converts both words to floats (signed), and
  forms  count · 1/64 + diagonal · 1/2.

  The sum of 32 zero-or-one words is at most 32, so it never wraps and its signed value is the number of hits.
  A word equals the word of a column number below 2³² exactly when its unsigned value is that number.
-/
import proofs.«413656_j34187939676687_3_alg».proof.Proof.Gen.KernelIdeal.Skeleton
import proofs.«413656_j34187939676687_3_alg».proof.Proof.Spec
import proofs.«413656_j34187939676687_3_alg».proof.Proof.Lits
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.HandValue

open Cert.KernelIdeal Cert.KernelIdeal.Gen
open Idealize.ShloMosaic Idealize.ShloMosaic.ValueIdx

/-! ## Layout: a column laid along the lanes, a row laid down the rows, a lane vector stood up as a column -/

section Layout
variable {α : Type}

/-- A 1024 × 1 column broadcast over 256 lanes reads its row's entry. -/
theorem bcast_col256 (v : S1024x1.Idx → α) (r : Fin 1024) (q : Fin 256) :
    broadcastTo S1024x256 v broadcasts_S1024x1_S1024x256 (ix2 r q) = v (ix2 r 0) :=
  broadcastTo_apply v _ (ix2 r q) (ix2 r 0) fun a => by
    match a with
    | ⟨0, _⟩ => rfl
    | ⟨1, _⟩ => rfl

/-- A 1 × 256 row broadcast down 1024 rows reads its lane's entry. -/
theorem bcast_row256 (v : S1x256.Idx → α) (r : Fin 1024) (q : Fin 256) :
    broadcastTo S1024x256 v broadcasts_S1x256_S1024x256 (ix2 r q) = v (ix2 0 q) :=
  broadcastTo_1b_ab_apply v _ r q

/-- A 1024 × 1 column broadcast over 128 lanes reads its row's entry. -/
theorem bcast_col128 (v : S1024x1.Idx → α) (r : Fin 1024) (f : Fin 128) :
    broadcastTo S1024x128 v broadcasts_S1024x1_S1024x128 (ix2 r f) = v (ix2 r 0) :=
  broadcastTo_apply v _ (ix2 r f) (ix2 r 0) fun a => by
    match a with
    | ⟨0, _⟩ => rfl
    | ⟨1, _⟩ => rfl

/-- A vector of 1024 entries stood up as a 1024 × 1 column reads the row's entry. -/
theorem cast_col (v : S1024.Idx → α) (r : Fin 1024) :
    shapeCast S1024x1 v shapeCasts_S1024_S1024x1 (ix2 r 0) = v (ix1 r) :=
  shapeCast_apply v _ _ _ (by
    rw [Shape.rowMajor_val_two, Shape.rowMajor_val_one]
    show r.val = r.val * 1 + 0
    omega)

end Layout

/-! ## Words: the row and column numbers, one compare, thirty-two compares added -/

/-- One compare of two words as a 32-bit word: one when they are equal, zero when not. -/
def hitW (w c : BitVec 32) : BitVec 32 := (IntOp.cmpi .eq w c).setWidth 32

theorem hitW_eq (w c : BitVec 32) : hitW w c = if w = c then 1#32 else 0#32 := by
  unfold hitW IntOp.cmpi
  by_cases h : w = c
  · rw [if_pos h, h]; simp
  · rw [if_neg h]
    have : (w == c) = false := by simpa using h
    rw [this]; rfl

/-- The global row number of the tile's row r, as a word. -/
theorem pay7_apply (i : grid1.Coords) (r : Fin 1024) :
    k1_pay7 i (ix2 r 0) = BitVec.ofNat 32 (1024 * (i 0).val + r.val) := by
  unfold k1_pay7
  show IntOp.addi (IntOp.muli (BitVec.ofNat 32 (i 0).val) 1024#32)
      (iota .tc S1024x1 32 [0] iota_S1024x1_d0_w32 (ix2 r 0)) = _
  rw [iota_single_apply]
  show BitVec.ofNat 32 (i 0).val * BitVec.ofNat 32 1024 + BitVec.ofNat 32 r.val = _
  rw [← BitVec.ofNat_mul, ← BitVec.ofNat_add, Nat.mul_comm]

/-- The global column number of the tile's column q, as a word. -/
theorem pay8_apply (i : grid1.Coords) (q : Fin 256) :
    k1_pay8 i (ix2 0 q) = BitVec.ofNat 32 (256 * (i 1).val + q.val) := by
  unfold k1_pay8
  show IntOp.addi (IntOp.muli (BitVec.ofNat 32 (i 1).val) 256#32)
      (iota .tc S1x256 32 [1] iota_S1x256_d1_w32 (ix2 0 q)) = _
  rw [iota_single_apply]
  show BitVec.ofNat 32 (i 1).val * BitVec.ofNat 32 256 + BitVec.ofNat 32 q.val = _
  rw [← BitVec.ofNat_mul, ← BitVec.ofNat_add, Nat.mul_comm]

/-- One more neighbour column compared with the column numbers and added to the running count. -/
def addHit (acc : IVec S1024x256 32) (nbk : Vec Ideal S1024x1 .i32) (v10 : IVec S1x256 32) : IVec S1024x256 32 :=
  addi acc (extui 32 (cmpi .eq (broadcastTo S1024x256 nbk broadcasts_S1024x1_S1024x256)
    (broadcastTo S1024x256 v10 broadcasts_S1x256_S1024x256)) natLt_1_32)

theorem addHit_apply (acc : IVec S1024x256 32) (nbk : Vec Ideal S1024x1 .i32) (v10 : IVec S1x256 32)
    (r : Fin 1024) (q : Fin 256) :
    addHit acc nbk v10 (ix2 r q) = acc (ix2 r q) + hitW (nbk (ix2 r 0)) (v10 (ix2 0 q)) := by
  show acc (ix2 r q)
      + (IntOp.cmpi .eq (broadcastTo S1024x256 nbk broadcasts_S1024x1_S1024x256 (ix2 r q))
          (broadcastTo S1024x256 v10 broadcasts_S1x256_S1024x256 (ix2 r q))).setWidth 32 = _
  rw [bcast_col256, bcast_row256]
  rfl

/-- The first n of 32 words compared with c, the hits added in order as 32-bit words. -/
def tally (w : Fin 32 → BitVec 32) (c : BitVec 32) : ℕ → BitVec 32
  | 0 => 0#32
  | n + 1 => tally w c n + (if h : n < 32 then hitW (w ⟨n, h⟩) c else 0#32)

/-- How many of the first n words equal c. -/
def hitsBelow (w : Fin 32 → BitVec 32) (c : BitVec 32) (n : ℕ) : ℕ :=
  (Finset.univ.filter fun k : Fin 32 => k.val < n ∧ w k = c).card

theorem hitsBelow_le (w : Fin 32 → BitVec 32) (c : BitVec 32) (n : ℕ) : hitsBelow w c n ≤ 32 := by
  unfold hitsBelow
  exact (Finset.card_filter_le _ _).trans (by simp)

theorem hitsBelow_all (w : Fin 32 → BitVec 32) (c : BitVec 32) :
    hitsBelow w c 32 = (Finset.univ.filter fun k : Fin 32 => w k = c).card := by
  unfold hitsBelow
  exact congrArg Finset.card (Finset.filter_congr fun k _ => by simp [k.isLt])

/-- No word is below position zero. -/
theorem hitsBelow_zero (w : Fin 32 → BitVec 32) (c : BitVec 32) : hitsBelow w c 0 = 0 := by
  unfold hitsBelow
  simp

/-- One more position adds one exactly when its word is c: as sums of indicators, the indicator of
    "below n + 1 and equal" is that of "below n and equal" plus that of "at n and equal". -/
theorem hitsBelow_succ (w : Fin 32 → BitVec 32) (c : BitVec 32) (n : ℕ) (h : n < 32) :
    hitsBelow w c (n + 1) = hitsBelow w c n + (if w ⟨n, h⟩ = c then 1 else 0) := by
  unfold hitsBelow
  rw [Finset.card_filter, Finset.card_filter]
  have hpt : ∀ k : Fin 32, (if k.val < n + 1 ∧ w k = c then 1 else 0 : ℕ)
      = (if k.val < n ∧ w k = c then 1 else 0) + (if k = ⟨n, h⟩ then (if w ⟨n, h⟩ = c then 1 else 0) else 0) := by
    intro k
    by_cases hk : k = ⟨n, h⟩
    · subst hk; simp
    · have hne : k.val ≠ n := fun e => hk (Fin.ext e)
      have hiff : (k.val < n + 1) ↔ (k.val < n) := by omega
      rw [if_neg hk]
      simp only [hiff, Nat.add_zero]
  rw [Finset.sum_congr rfl (fun k _ => hpt k), Finset.sum_add_distrib]
  simp

/-- Adding zero-or-one words never wraps below 2³²: the tally is the number of hits. -/
theorem tally_eq (w : Fin 32 → BitVec 32) (c : BitVec 32) :
    ∀ n, n ≤ 32 → tally w c n = BitVec.ofNat 32 (hitsBelow w c n) := by
  intro n
  induction n with
  | zero => intro _; rw [hitsBelow_zero]; rfl
  | succ n ih =>
    intro hn
    have h : n < 32 := by omega
    show tally w c n + (if h : n < 32 then hitW (w ⟨n, h⟩) c else 0#32) = _
    rw [dif_pos h, ih (by omega), hitW_eq, hitsBelow_succ w c n h]
    by_cases hp : w ⟨n, h⟩ = c
    · rw [if_pos hp, if_pos hp, BitVec.ofNat_add]
    · rw [if_neg hp, if_neg hp]; simp

/-- The signed value of the full tally is the number of words equal to c. -/
theorem tally_toInt (w : Fin 32 → BitVec 32) (c : BitVec 32) :
    (tally w c 32).toInt = ((Finset.univ.filter fun k : Fin 32 => w k = c).card : ℤ) := by
  have hle := hitsBelow_le w c 32
  rw [tally_eq w c 32 (le_refl _)]
  rw [hitsBelow_all] at hle ⊢
  generalize (Finset.univ.filter fun k : Fin 32 => w k = c).card = m at hle ⊢
  rw [BitVec.toInt_eq_toNat_cond, BitVec.toNat_ofNat]
  have hm : m % 2 ^ 32 = m := Nat.mod_eq_of_lt (by omega)
  rw [hm]
  split
  · rfl
  · omega

/-- A word is the word of a number below 2³² exactly when its unsigned value is that number. -/
theorem eq_ofNat_iff (w : BitVec 32) (n : ℕ) (hn : n < 2 ^ 32) : w = BitVec.ofNat 32 n ↔ w.toNat = n := by
  constructor
  · intro h; rw [h, BitVec.toNat_ofNat, Nat.mod_eq_of_lt hn]
  · intro h; apply BitVec.eq_of_toNat_eq; rw [BitVec.toNat_ofNat, Nat.mod_eq_of_lt hn, h]

/-- The words of two numbers below 2³² are equal exactly when the numbers are. -/
theorem ofNat_eq_ofNat_iff (a b : ℕ) (ha : a < 2 ^ 32) (hb : b < 2 ^ 32) :
    BitVec.ofNat 32 a = BitVec.ofNat 32 b ↔ a = b := by
  rw [eq_ofNat_iff _ _ hb, BitVec.toNat_ofNat, Nat.mod_eq_of_lt ha]

/-- One compare, read signed: one or zero. -/
theorem hitW_toInt (w c : BitVec 32) : (hitW w c).toInt = if w = c then 1 else 0 := by
  rw [hitW_eq]
  split <;> rfl

/-! ## The count chain and the mask -/

/-- The thirty-two neighbour columns compared and added as the body does it, five, seven, one and seven, seven,
    one and four at a time. -/
def countChain (i : grid1.Coords) (nb : Fin 32 → Vec Ideal S1024x1 .i32) : FVec Ideal S1024x256 .f32 :=
  k1_pay15 (k1_pay7 i) (k1_pay8 i)
    (k1_pay13 (k1_pay8 i)
      (k1_pay12 (k1_pay8 i)
        (k1_pay10 (k1_pay8 i) (k1_pay9 i (nb 0) (nb 1) (nb 2) (nb 3) (nb 4))
          (nb 5) (nb 6) (nb 7) (nb 8) (nb 9) (nb 10) (nb 11))
        (k1_pay11 (nb 12))
        (nb 13) (nb 14) (nb 15) (nb 16) (nb 17) (nb 18) (nb 19))
      (nb 20) (nb 21) (nb 22) (nb 23) (nb 24) (nb 25) (nb 26))
    (k1_pay14 (nb 27))
    (nb 28) (nb 29) (nb 30) (nb 31)

/-- Each payload of the count is a nest of compare-and-add steps: five from zero, -/
theorem pay9_eq (i : grid1.Coords) (a b c d e : Vec Ideal S1024x1 .i32) :
    k1_pay9 (F := Ideal) i a b c d e
      = addHit (addHit (addHit (addHit (addHit (broadcast S1024x256 0#32)
          a (k1_pay8 i)) b (k1_pay8 i)) c (k1_pay8 i)) d (k1_pay8 i)) e (k1_pay8 i) := rfl

/-- seven more, -/
theorem pay10_eq (v10 : IVec S1x256 32) (acc : IVec S1024x256 32) (a b c d e f g : Vec Ideal S1024x1 .i32) :
    k1_pay10 (F := Ideal) v10 acc a b c d e f g
      = addHit (addHit (addHit (addHit (addHit (addHit (addHit acc
          a v10) b v10) c v10) d v10) e v10) f v10) g v10 := rfl

/-- one whose column was spread beforehand and seven more, -/
theorem pay12_eq (v10 : IVec S1x256 32) (acc : IVec S1024x256 32) (x a b c d e f g : Vec Ideal S1024x1 .i32) :
    k1_pay12 (F := Ideal) v10 acc (k1_pay11 x) a b c d e f g
      = addHit (addHit (addHit (addHit (addHit (addHit (addHit (addHit acc
          x v10) a v10) b v10) c v10) d v10) e v10) f v10) g v10 := rfl

/-- and seven more. -/
theorem pay13_eq (v10 : IVec S1x256 32) (acc : IVec S1024x256 32) (a b c d e f g : Vec Ideal S1024x1 .i32) :
    k1_pay13 (F := Ideal) v10 acc a b c d e f g
      = addHit (addHit (addHit (addHit (addHit (addHit (addHit acc
          a v10) b v10) c v10) d v10) e v10) f v10) g v10 := rfl

/-- The body's 32-bit count at (r, q) is the tally of row r's 32 neighbour words against the column's number. -/
theorem count_word (i : grid1.Coords) (nb : Fin 32 → Vec Ideal S1024x1 .i32) (v10 : IVec S1x256 32)
    (r : Fin 1024) (q : Fin 256) :
    addHit (addHit (addHit (addHit (addHit
      (k1_pay13 v10
        (k1_pay12 v10
          (k1_pay10 v10 (addHit (addHit (addHit (addHit (addHit (broadcast S1024x256 0#32)
              (nb 0) v10) (nb 1) v10) (nb 2) v10) (nb 3) v10) (nb 4) v10)
            (nb 5) (nb 6) (nb 7) (nb 8) (nb 9) (nb 10) (nb 11))
          (k1_pay11 (nb 12))
          (nb 13) (nb 14) (nb 15) (nb 16) (nb 17) (nb 18) (nb 19))
        (nb 20) (nb 21) (nb 22) (nb 23) (nb 24) (nb 25) (nb 26))
      (nb 27) v10) (nb 28) v10) (nb 29) v10) (nb 30) v10) (nb 31) v10 (ix2 r q)
      = tally (fun k => nb k (ix2 r 0)) (v10 (ix2 0 q)) 32 := by
  simp only [addHit_apply]
  rw [pay13_eq]
  simp only [addHit_apply]
  rw [pay12_eq]
  simp only [addHit_apply]
  rw [pay10_eq]
  simp only [addHit_apply]
  rw [broadcast_apply]
  rfl

/-- The last payload at (r, q): the count word and the diagonal's compare, each read signed, times 1/64 and 1/2. -/
theorem pay15_apply (v7 : IVec S1024x1 32) (v10 : IVec S1x256 32) (acc : IVec S1024x256 32)
    (x a b c d : Vec Ideal S1024x1 .i32) (r : Fin 1024) (q : Fin 256) :
    k1_pay15 (F := Ideal) v7 v10 acc (k1_pay14 x) a b c d (ix2 r q)
      = ((((addHit (addHit (addHit (addHit (addHit acc x v10) a v10) b v10) c v10) d v10 (ix2 r q)).toInt : ℝ) : EReal))
          * Spec.lit64
        + ((((hitW (v7 (ix2 r 0)) (v10 (ix2 0 q))).toInt : ℝ) : EReal)) * Spec.litHalf := by
  have e : k1_pay15 (F := Ideal) v7 v10 acc (k1_pay14 x) a b c d (ix2 r q)
      = ((((addHit (addHit (addHit (addHit (addHit acc x v10) a v10) b v10) c v10) d v10 (ix2 r q)).toInt : ℝ) : EReal))
          * Spec.lit64
        + (((((IntOp.cmpi .eq (broadcastTo S1024x256 v7 broadcasts_S1024x1_S1024x256 (ix2 r q))
            (broadcastTo S1024x256 v10 broadcasts_S1x256_S1024x256 (ix2 r q))).setWidth 32).toInt : ℝ) : EReal))
          * Spec.litHalf := rfl
  rw [e, bcast_col256, bcast_row256]
  rfl

/-- The mask at (r, q): the count of the row's neighbour words naming column 256·ci + q, over 64, plus one half
    where the global row is that column. -/
theorem countChain_apply (i : grid1.Coords) (hri : (i 0).val < 8) (hci : (i 1).val < 32)
    (nb : Fin 32 → Vec Ideal S1024x1 .i32) (r : Fin 1024) (q : Fin 256) :
    countChain i nb (ix2 r q)
      = ((((Finset.univ.filter fun k : Fin 32 => (nb k (ix2 r 0)).toNat = 256 * (i 1).val + q.val).card : ℝ) : EReal))
          * Spec.lit64
        + (if 1024 * (i 0).val + r.val = 256 * (i 1).val + q.val then (1 : EReal) else 0) * Spec.litHalf := by
  have hc : 256 * (i 1).val + q.val < 2 ^ 32 := by have := q.isLt; omega
  have hg : 1024 * (i 0).val + r.val < 2 ^ 32 := by have := r.isLt; omega
  unfold countChain
  have hcount : (Finset.univ.filter fun k : Fin 32 => nb k (ix2 r 0) = BitVec.ofNat 32 (256 * (i 1).val + q.val))
      = (Finset.univ.filter fun k : Fin 32 => (nb k (ix2 r 0)).toNat = 256 * (i 1).val + q.val) :=
    Finset.filter_congr fun k _ => eq_ofNat_iff _ _ hc
  rw [pay15_apply, pay9_eq, count_word i nb (k1_pay8 i) r q, tally_toInt, hitW_toInt, pay7_apply, pay8_apply,
    hcount, Int.cast_natCast]
  by_cases hd : 1024 * (i 0).val + r.val = 256 * (i 1).val + q.val
  · rw [if_pos hd, if_pos (congrArg (BitVec.ofNat 32) hd)]
    simp only [Int.cast_one, EReal.coe_one]
  · rw [if_neg hd, if_neg (fun e => hd ((ofNat_eq_ofNat_iff _ _ hg hc).1 e))]
    simp only [Int.cast_zero, EReal.coe_zero]

/-- The same with the row's words named: `nrow k` is neighbour column k at row r. -/
theorem countChain_apply_of (i : grid1.Coords) (hri : (i 0).val < 8) (hci : (i 1).val < 32)
    (nb : Fin 32 → Vec Ideal S1024x1 .i32) (r : Fin 1024) (q : Fin 256) (nrow : Fin 32 → BitVec 32)
    (hn : ∀ k, nb k (ix2 r 0) = nrow k) :
    countChain i nb (ix2 r q)
      = ((((Finset.univ.filter fun k : Fin 32 => (nrow k).toNat = 256 * (i 1).val + q.val).card : ℝ) : EReal))
          * Spec.lit64
        + (if 1024 * (i 0).val + r.val = 256 * (i 1).val + q.val then (1 : EReal) else 0) * Spec.litHalf := by
  rw [countChain_apply i hri hci nb r q]
  simp only [hn]

end Cert.KernelIdeal.HandValue

end
-- ==== Proof.TileValue.lean ====
/-
  Region 1's body on one tile, read at an index, over the extended reals.

  A grid point (ri, ci) of region 1 sees rows [1024·ri, 1024·ri + 1024) and columns [256·ci, 256·ci + 256).
  Its body builds, entry by entry of that 1024 × 256 tile,
    * the mask: the number of the row's 32 neighbour words that name the column, times 1/64, plus one half on
      the diagonal (the 32 word compares are zero-or-one words added up: at most 32, so the 32-bit sum does
      not wrap and its signed value is the number of hits);
    * the logit sum h1(row) + h2(column);
    * the score: their product through the leaky slope, a zero replaced by the large negative fill;
  and then one step of the running softmax of each row: the new maximum, the factor exp(old maximum − new
  maximum) that rescales what was accumulated, the new denominator and the new numerator (a product of the
  tile's exponentials with 256 rows of the projected features).  At the last column step the output is the
  numerator over the denominator, through ELU.

  Every lemma below reads one of the body's values at explicit coordinates (r, q) or (r, f) of the tile, over
  abstract vectors for the values the body loaded.  The last lemmas say that the three stored values are the
  three fields of `Spec.step`.
-/
import proofs.«413656_j34187939676687_3_alg».proof.Proof.Gen.KernelIdeal.Skeleton
import proofs.«413656_j34187939676687_3_alg».proof.Proof.Spec
import proofs.«413656_j34187939676687_3_alg».proof.Proof.Lits
import proofs.«413656_j34187939676687_3_alg».proof.Proof.TileCount
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.HandValue

open Cert.KernelIdeal Cert.KernelIdeal.Gen
open Idealize.ShloMosaic Idealize.ShloMosaic.ValueIdx

/-! ## Three selects on one value -/

/-- The leaky slope as the body spells it: keep a positive value, scale the others. -/
theorem lrelu_select (z : EReal) :
    Scalar.select (Ideal.cmp .ogt z (Ideal.ofBits .f32 0x00000000#32)) z (Ideal.ofBits .f32 0x3E4CCCCD#32 * z)
      = Spec.lrelu z := by
  rw [Ideal.ofBits_zero_f32]
  unfold Ideal.cmp Spec.lrelu Scalar.select Spec.litSlope
  by_cases h : 0 < z
  · simp [h]
  · simp [h]

/-- The fill as the body spells it: keep a nonzero value, replace a zero. -/
theorem fillz_select (y : EReal) :
    Scalar.select (Ideal.cmp .one y (Ideal.ofBits .f32 0x00000000#32)) y (Ideal.ofBits .f32 0xD9FFCB9E#32)
      = Spec.fillz y := by
  rw [Ideal.ofBits_zero_f32]
  unfold Ideal.cmp Spec.fillz Scalar.select Spec.litFill
  by_cases h : y = 0
  · simp [h]
  · simp [h]

/-- ELU as the body spells it: keep a positive value, exp − 1 of the others. -/
theorem elu_select (z : EReal) :
    Scalar.select (Ideal.cmp .ogt z (Ideal.ofBits .f32 0x00000000#32)) z (Ideal.exp z - Ideal.ofBits .f32 0x3F800000#32)
      = Spec.elu z := by
  rw [Ideal.ofBits_zero_f32, show Ideal.ofBits .f32 0x3F800000#32 = (1 : EReal) from Spec.litOne_eq]
  unfold Ideal.cmp Spec.elu Scalar.select
  by_cases h : 0 < z
  · simp [h]
  · simp [h]

/-! ## The logit sum and the score -/

/-- The logit sum at (r, q): the row's first half plus the column's second half. -/
theorem pay16_apply (h1blk : Vec Ideal S1024x1 .f32) (h2blk : Vec Ideal S1x256 .f32) (r : Fin 1024) (q : Fin 256) :
    k1_pay16 h1blk h2blk (ix2 r q) = h1blk (ix2 r 0) + h2blk (ix2 0 q) := by
  show (broadcastTo S1024x256 (shapeCast S1024x1 h1blk shapeCasts_S1024x1_S1024x1) broadcasts_S1024x1_S1024x256 (ix2 r q) : EReal)
      + broadcastTo S1024x256 (shapeCast S1x256 h2blk shapeCasts_S1x256_S1x256) broadcasts_S1x256_S1024x256 (ix2 r q) = _
  rw [bcast_col256, bcast_row256, shapeCast_self, shapeCast_self]

/-- The score at an entry: mask times logit sum, through the leaky slope, a zero replaced by the fill. -/
theorem pay17_apply (v214 v221 : FVec Ideal S1024x256 .f32) (j : S1024x256.Idx) :
    k1_pay17 v214 v221 j = Spec.fillz (Spec.lrelu (v214 j * v221 j)) := by
  show Scalar.select (Ideal.cmp .one
        (Scalar.select (Ideal.cmp .ogt (v214 j * v221 j) (Ideal.ofBits .f32 0x00000000#32)) (v214 j * v221 j)
          (Ideal.ofBits .f32 0x3E4CCCCD#32 * (v214 j * v221 j)))
        (Ideal.ofBits .f32 0x00000000#32))
      (Scalar.select (Ideal.cmp .ogt (v214 j * v221 j) (Ideal.ofBits .f32 0x00000000#32)) (v214 j * v221 j)
          (Ideal.ofBits .f32 0x3E4CCCCD#32 * (v214 j * v221 j)))
      (Ideal.ofBits .f32 0xD9FFCB9E#32) = _
  rw [lrelu_select, fillz_select]

/-- The tile's score at (r, q). -/
def score (v214 v221 : FVec Ideal S1024x256 .f32) (r : Fin 1024) (q : Fin 256) : EReal :=
  Spec.fillz (Spec.lrelu (v214 (ix2 r q) * v221 (ix2 r q)))

/-! ## One step of the running softmax -/

/-- A row's maximum over the tile's 256 scores. -/
theorem rowMax_apply (src : FVec Ideal S1024x256 .f32) (r : Fin 1024) :
    multiReduction (F := Ideal) .maximumf [1] S1024 src 0xFF800000#32 reduces_S1024x256_S1024 (.inl rfl) rfl (ix1 r)
      = Finset.univ.sup fun q : Fin 256 => src (ix2 r q) := by
  refine (Ideal.multiReduction_maximumf_single src 0xFF800000#32 reduces_S1024x256_S1024 (.inl rfl) rfl (ix1 r)).trans ?_
  have hlift : (src ∘ reduces_S1024x256_S1024.lift (ix1 r)) = fun q : Fin 256 => src (ix2 r q) :=
    funext fun q => congrArg src (funext fun a => Fin.ext (by
      match a with
      | ⟨0, _⟩ => rfl
      | ⟨1, _⟩ => rfl))
  show Finset.fold max (Ideal.ofBits .f32 0xFF800000#32) (src ∘ reduces_S1024x256_S1024.lift (ix1 r))
      (Finset.univ : Finset (Fin 256)) = _
  rw [hlift, show Ideal.ofBits .f32 0xFF800000#32 = (⊥ : EReal) from Spec.litNegInf_eq]
  rfl

/-- A row's sum over the tile's 256 lanes. -/
theorem rowSum_apply (src : FVec Ideal S1024x256 .f32) (r : Fin 1024) :
    multiReduction (F := Ideal) .add [1] S1024 src 0x00000000#32 reduces_S1024x256_S1024 (.inl rfl) rfl (ix1 r)
      = ∑ q : Fin 256, src (ix2 r q) := by
  refine (Ideal.multiReduction_add_single src 0x00000000#32 reduces_S1024x256_S1024 (.inl rfl) rfl (ix1 r)).trans ?_
  show ∑ q : Fin 256, src (reduces_S1024x256_S1024.lift (ix1 r) q) = _
  refine Finset.sum_congr rfl fun q _ => congrArg src (funext fun a => Fin.ext (by
    match a with
    | ⟨0, _⟩ => rfl
    | ⟨1, _⟩ => rfl))

/-- The new running maximum of row r. -/
theorem pay18_apply (v214 v221 : FVec Ideal S1024x256 .f32) (mOld : Vec Ideal S1024x1 .f32) (r : Fin 1024) :
    k1_pay18 v214 v221 mOld (ix2 r 0)
      = max (mOld (ix2 r 0)) (Finset.univ.sup fun q : Fin 256 => score v214 v221 r q) := by
  show max (mOld (ix2 r 0))
      (shapeCast S1024x1
        (multiReduction (F := Ideal) .maximumf [1] S1024 (k1_pay17 v214 v221) 0xFF800000#32 reduces_S1024x256_S1024 (.inl rfl) rfl)
        shapeCasts_S1024_S1024x1 (ix2 r 0)) = _
  rw [cast_col, rowMax_apply]
  refine congrArg (max (mOld (ix2 r 0))) (congrArg Finset.univ.sup (funext fun q => ?_))
  exact pay17_apply v214 v221 (ix2 r q)

/-- The factor that rescales what row r accumulated under the old maximum. -/
theorem pay19_apply (v214 v221 : FVec Ideal S1024x256 .f32) (mOld mOld' : Vec Ideal S1024x1 .f32) (r : Fin 1024) :
    k1_pay19 v214 v221 mOld mOld' (ix2 r 0)
      = Ideal.exp (mOld' (ix2 r 0) - k1_pay18 v214 v221 mOld (ix2 r 0)) := rfl

/-- The tile's exponentials: exp(score − new maximum). -/
theorem pay20_apply (v214 v221 : FVec Ideal S1024x256 .f32) (mOld : Vec Ideal S1024x1 .f32) (r : Fin 1024) (q : Fin 256) :
    k1_pay20 v214 v221 mOld (ix2 r q)
      = Ideal.exp (score v214 v221 r q - k1_pay18 v214 v221 mOld (ix2 r 0)) := by
  show Ideal.exp (k1_pay17 v214 v221 (ix2 r q)
      - broadcastTo S1024x256 (k1_pay18 v214 v221 mOld) broadcasts_S1024x1_S1024x256 (ix2 r q)) = _
  rw [bcast_col256, pay17_apply]
  rfl

/-- The new denominator of row r. -/
theorem pay21_apply (v214 v221 : FVec Ideal S1024x256 .f32) (mOld mOld' lOld : Vec Ideal S1024x1 .f32) (r : Fin 1024) :
    k1_pay21 v214 v221 mOld mOld' lOld (ix2 r 0)
      = Ideal.exp (mOld' (ix2 r 0) - k1_pay18 v214 v221 mOld (ix2 r 0)) * lOld (ix2 r 0)
        + ∑ q : Fin 256, Ideal.exp (score v214 v221 r q - k1_pay18 v214 v221 mOld (ix2 r 0)) := by
  unfold k1_pay21
  rw [shapeCast_self]
  show k1_pay19 v214 v221 mOld mOld' (ix2 r 0) * lOld (ix2 r 0)
      + shapeCast S1024x1
          (multiReduction (F := Ideal) .add [1] S1024 (k1_pay20 v214 v221 mOld) 0x00000000#32 reduces_S1024x256_S1024 (.inl rfl) rfl)
          shapeCasts_S1024_S1024x1 (ix2 r 0) = _
  rw [cast_col, rowSum_apply, pay19_apply]
  refine congrArg (_ + ·) (Finset.sum_congr rfl fun q _ => ?_)
  exact pay20_apply v214 v221 mOld r q

/-- The product's left operand is read at the output's row -/
theorem tileDot_lhs_0 (i : S1024x128.Idx) (k : dot_S1024x256_S256x128_S1024x128_1_0_0_1_n_n.contr.Idx) :
    (dot_S1024x256_S256x128_S1024x128_1_0_0_1_n_n.lhsIdx i k 0).val = (i 0).val := by
  unfold DotDims.lhsIdx
  rw [dif_neg (show ¬(0 : Fin S1024x256.rank) ∈ dot_S1024x256_S256x128_S1024x128_1_0_0_1_n_n.lhsBatch by decide),
    dif_pos (show (0 : Fin S1024x256.rank) ∈ dot_S1024x256_S256x128_S1024x128_1_0_0_1_n_n.lhsNonContracting by decide)]
  rfl

/-- and the summed lane, -/
theorem tileDot_lhs_1 (i : S1024x128.Idx) (k : dot_S1024x256_S256x128_S1024x128_1_0_0_1_n_n.contr.Idx) :
    (dot_S1024x256_S256x128_S1024x128_1_0_0_1_n_n.lhsIdx i k 1).val = (k ⟨0, by decide⟩).val :=
  dot_S1024x256_S256x128_S1024x128_1_0_0_1_n_n.lhsIdx_val_of_single rfl i k

/-- the right operand at the summed lane as its row -/
theorem tileDot_rhs_0 (i : S1024x128.Idx) (k : dot_S1024x256_S256x128_S1024x128_1_0_0_1_n_n.contr.Idx) :
    (dot_S1024x256_S256x128_S1024x128_1_0_0_1_n_n.rhsIdx i k 0).val = (k ⟨0, by decide⟩).val :=
  dot_S1024x256_S256x128_S1024x128_1_0_0_1_n_n.rhsIdx_val_of_single rfl i k

/-- and the output's column. -/
theorem tileDot_rhs_1 (i : S1024x128.Idx) (k : dot_S1024x256_S256x128_S1024x128_1_0_0_1_n_n.contr.Idx) :
    (dot_S1024x256_S256x128_S1024x128_1_0_0_1_n_n.rhsIdx i k 1).val = (i 1).val := by
  unfold DotDims.rhsIdx
  rw [dif_neg (show ¬(1 : Fin S256x128.rank) ∈ dot_S1024x256_S256x128_S1024x128_1_0_0_1_n_n.rhsBatch by decide),
    dif_pos (show (1 : Fin S256x128.rank) ∈ dot_S1024x256_S256x128_S1024x128_1_0_0_1_n_n.rhsNonContracting by decide)]
  rfl

/-- The tile's exponentials times 256 rows of projected features, at (r, f). -/
theorem tileDot_apply (p : FVec Ideal S1024x256 .bf16) (w : FVec Ideal S256x128 .bf16) (r : Fin 1024) (f : Fin 128) :
    matmul (F := Ideal) dot_S1024x256_S256x128_S1024x128_1_0_0_1_n_n none p w (constant S1024x128 .f32 0x00000000#32) (ix2 r f)
      = ∑ q : Fin 256, p (ix2 r q) * w (ix2 q f) := by
  refine (Ideal.matmul_constant_zero_apply dot_S1024x256_S256x128_S1024x128_1_0_0_1_n_n none p w (ix2 r f)).trans ?_
  rw [← Equiv.sum_comp (contrEquiv1 dot_S1024x256_S256x128_S1024x128_1_0_0_1_n_n 256 rfl rfl).symm]
  refine Finset.sum_congr rfl fun k _ => ?_
  have hk := contrEquiv1_symm_val dot_S1024x256_S256x128_S1024x128_1_0_0_1_n_n 256 rfl rfl k
  have el : dot_S1024x256_S256x128_S1024x128_1_0_0_1_n_n.lhsIdx (ix2 r f)
      ((contrEquiv1 dot_S1024x256_S256x128_S1024x128_1_0_0_1_n_n 256 rfl rfl).symm k) = ix2 r k :=
    funext fun a => Fin.ext (by
      match a with
      | ⟨0, _⟩ => exact tileDot_lhs_0 _ _
      | ⟨1, _⟩ => exact (tileDot_lhs_1 _ _).trans hk)
  have er : dot_S1024x256_S256x128_S1024x128_1_0_0_1_n_n.rhsIdx (ix2 r f)
      ((contrEquiv1 dot_S1024x256_S256x128_S1024x128_1_0_0_1_n_n 256 rfl rfl).symm k) = ix2 k f :=
    funext fun a => Fin.ext (by
      match a with
      | ⟨0, _⟩ => exact (tileDot_rhs_0 _ _).trans hk
      | ⟨1, _⟩ => exact tileDot_rhs_1 _ _)
  rw [el, er]

/-- The new numerator of row r at feature f. -/
theorem pay22_apply (v214 v221 : FVec Ideal S1024x256 .f32) (mOld mOld' : Vec Ideal S1024x1 .f32)
    (hWrows : Vec Ideal S256x128 .f32) (accOld : Vec Ideal S1024x128 .f32) (r : Fin 1024) (f : Fin 128) :
    k1_pay22 v214 v221 mOld mOld' hWrows accOld (ix2 r f)
      = Ideal.exp (mOld' (ix2 r 0) - k1_pay18 v214 v221 mOld (ix2 r 0)) * accOld (ix2 r f)
        + ∑ q : Fin 256, Ideal.exp (score v214 v221 r q - k1_pay18 v214 v221 mOld (ix2 r 0)) * hWrows (ix2 q f) := by
  show broadcastTo S1024x128 (k1_pay19 v214 v221 mOld mOld') broadcasts_S1024x1_S1024x128 (ix2 r f) * accOld (ix2 r f)
      + matmul (F := Ideal) dot_S1024x256_S256x128_S1024x128_1_0_0_1_n_n none
          (truncf .bf16 (k1_pay20 v214 v221 mOld) bitsLt_bf16_f32)
          (truncf .bf16 (shapeCast S256x128 hWrows shapeCasts_S256x128_S256x128) bitsLt_bf16_f32)
          (constant S1024x128 .f32 0x00000000#32) (ix2 r f) = _
  rw [bcast_col128, tileDot_apply, pay19_apply, shapeCast_self]
  refine congrArg (_ + ·) (Finset.sum_congr rfl fun q _ => ?_)
  show k1_pay20 v214 v221 mOld (ix2 r q) * hWrows (ix2 q f) = _
  rw [pay20_apply]

/-! ## The last column step's output, the reset values, and the stores that change nothing -/

/-- The output at (r, f): numerator over denominator, through ELU. -/
theorem out_apply (acc : Vec Ideal S1024x128 .f32) (l : Vec Ideal S1024x1 .f32) (r : Fin 1024) (f : Fin 128) :
    k1_pay3 acc l (ix2 r f) = Spec.elu (Ideal.div (acc (ix2 r f)) (l (ix2 r 0))) := by
  show Scalar.select (Ideal.cmp .ogt
        (Ideal.div (acc (ix2 r f)) (broadcastTo S1024x128 l broadcasts_S1024x1_S1024x128 (ix2 r f)))
        (Ideal.ofBits .f32 0x00000000#32))
      (Ideal.div (acc (ix2 r f)) (broadcastTo S1024x128 l broadcasts_S1024x1_S1024x128 (ix2 r f)))
      (Ideal.exp (Ideal.div (acc (ix2 r f)) (broadcastTo S1024x128 l broadcasts_S1024x1_S1024x128 (ix2 r f)))
        - Ideal.ofBits .f32 0x3F800000#32) = _
  rw [bcast_col128, elu_select]

/-- The running maximum is reset to −∞, -/
theorem pay4_apply (j : S1024x1.Idx) : k1_pay4 (F := Ideal) j = ⊥ := by
  unfold k1_pay4
  rw [shapeCast_self]
  exact Spec.litNegInf_eq

/-- the denominator to zero, -/
theorem pay5_apply (j : S1024x1.Idx) : k1_pay5 (F := Ideal) j = 0 := by
  unfold k1_pay5
  rw [shapeCast_self]
  exact Ideal.ofBits_zero_f32

/-- and the numerator to zero. -/
theorem pay6_apply (j : S1024x128.Idx) : k1_pay6 (F := Ideal) j = 0 := by
  unfold k1_pay6
  rw [shapeCast_self]
  exact Ideal.ofBits_zero_f32

/-- The numerator is stored as computed, -/
theorem pay1_eq {F : FTy → Type} [FloatOps F] (v : FVec F S1024x128 .f32) : k1_pay1 v = v :=
  shapeCast_self v _

/-- and so is the maximum. -/
theorem pay2_eq {F : FTy → Type} [FloatOps F] (v : FVec F S1024x1 .f32) : k1_pay2 v = v :=
  shapeCast_self v _

/-! ## The three stored values are one step of the specification's running softmax -/

/-- With m, l, acc the scratch before the step and the tile's scores and feature rows those of column step c of
    a row of the whole problem, the new maximum, denominator and numerator at row r are `Spec.step`'s. -/
theorem tile_step (v214 v221 : FVec Ideal S1024x256 .f32) (m l : Vec Ideal S1024x1 .f32)
    (acc : Vec Ideal S1024x128 .f32) (hWrows : Vec Ideal S256x128 .f32) (r : Fin 1024)
    (A : Fin 8192 → EReal) (V : Fin 8192 → Fin 128 → EReal) (c : Fin 32)
    (hA : ∀ q : Fin 256, score v214 v221 r q = A (Spec.col c q))
    (hV : ∀ (q : Fin 256) (f : Fin 128), hWrows (ix2 q f) = V (Spec.col c q) f) :
    k1_pay18 v214 v221 m (ix2 r 0)
        = (Spec.step A V c ⟨m (ix2 r 0), l (ix2 r 0), fun f => acc (ix2 r f)⟩).m
      ∧ k1_pay21 v214 v221 m m l (ix2 r 0)
        = (Spec.step A V c ⟨m (ix2 r 0), l (ix2 r 0), fun f => acc (ix2 r f)⟩).l
      ∧ ∀ f : Fin 128, k1_pay22 v214 v221 m m hWrows acc (ix2 r f)
        = (Spec.step A V c ⟨m (ix2 r 0), l (ix2 r 0), fun f => acc (ix2 r f)⟩).acc f := by
  have hAf : (fun q : Fin 256 => score v214 v221 r q) = fun q : Fin 256 => A (Spec.col c q) := funext hA
  have h18 : k1_pay18 v214 v221 m (ix2 r 0)
      = max (m (ix2 r 0)) (Finset.univ.sup fun q : Fin 256 => A (Spec.col c q)) := by
    rw [pay18_apply, hAf]
  refine ⟨h18, ?_, fun f => ?_⟩
  · show _ = Ideal.exp (m (ix2 r 0) - max (m (ix2 r 0)) (Finset.univ.sup fun q : Fin 256 => A (Spec.col c q))) * l (ix2 r 0)
        + ∑ q : Fin 256, Ideal.exp (A (Spec.col c q) - max (m (ix2 r 0)) (Finset.univ.sup fun q : Fin 256 => A (Spec.col c q)))
    rw [pay21_apply, h18]
    refine congrArg (_ + ·) (Finset.sum_congr rfl fun q _ => ?_)
    rw [hA]
  · show _ = Ideal.exp (m (ix2 r 0) - max (m (ix2 r 0)) (Finset.univ.sup fun q : Fin 256 => A (Spec.col c q))) * acc (ix2 r f)
        + ∑ q : Fin 256, Ideal.exp (A (Spec.col c q) - max (m (ix2 r 0)) (Finset.univ.sup fun q : Fin 256 => A (Spec.col c q)))
            * V (Spec.col c q) f
    rw [pay22_apply, h18]
    refine congrArg (_ + ·) (Finset.sum_congr rfl fun q _ => ?_)
    rw [hA, hV]

/-- The tile's score from what the body loaded: the mask of the count chain times the logit sum. -/
theorem score_chain (i : grid1.Coords) (hri : (i 0).val < 8) (hci : (i 1).val < 32)
    (nb : Fin 32 → Vec Ideal S1024x1 .i32) (h1blk : Vec Ideal S1024x1 .f32) (h2blk : Vec Ideal S1x256 .f32)
    (r : Fin 1024) (q : Fin 256) :
    score (countChain i nb) (k1_pay16 h1blk h2blk) r q
      = Spec.fillz (Spec.lrelu
          ((((((Finset.univ.filter fun k : Fin 32 => (nb k (ix2 r 0)).toNat = 256 * (i 1).val + q.val).card : ℝ) : EReal))
              * Spec.lit64
            + (if 1024 * (i 0).val + r.val = 256 * (i 1).val + q.val then (1 : EReal) else 0) * Spec.litHalf)
           * (h1blk (ix2 r 0) + h2blk (ix2 0 q)))) := by
  unfold score
  rw [countChain_apply i hri hci nb r q, pay16_apply]

end Cert.KernelIdeal.HandValue

end
-- ==== Proof.KValue0.lean ====
/-
  Region 0 over the extended reals: what its three stores hold at an index, and what the two host stretches
  around it write.

  The region's body multiplies a tile x of 1024 rows by the weight matrix W, and the product by each half of the
  attention vector a. Over the extended reals a change of float format is the identity, a matrix product into a zero
  accumulator is the plain sum over the contracted axis, and a shape cast to the same shape moves nothing, so at row r
    * the first store holds   Σ k, x r k · W k f                       at column f,
    * the second holds        Σ f, (Σ k, x r k · W k f) · a₁ f,
    * the third holds         Σ f, (Σ k, x r k · W k f) · a₂ f.
  Before the region the host cuts a (256 rows, one column) into its rows 0 … 127 (a₁) and 128 … 255 (a₂); after it the
  host lays the third store's column of 8192 entries out as a row, entry j of the column at position j of the row.
-/
import proofs.«413656_j34187939676687_3_alg».proof.Proof.Gen.KernelIdeal.Skeleton
import proofs.«413656_j34187939676687_3_alg».proof.Proof.Gen.KernelIdeal.Launch
import proofs.«413656_j34187939676687_3_alg».proof.Proof.Gen.KernelIdeal.Regions
import proofs.«413656_j34187939676687_3_alg».proof.Proof.Spec
import proofs.«413656_j34187939676687_3_alg».proof.Proof.R0
import Idealize.ShloMosaic.PureOps.Ideal.Laws
import Idealize.ShloMosaic.Lib.ValueIdx
import Idealize.ShloMosaic.Lib.Pipeline.Value
import Idealize.ShloMosaic.Lib.StableHlo.Run

set_option maxRecDepth 16384

noncomputable section

namespace Cert.KernelIdeal.HandValue

open Cert.KernelIdeal Cert.KernelIdeal.Gen
open Idealize.ShloMosaic Idealize.ShloMosaic.TcCoe Idealize.ShloMosaic.ValueIdx
open Idealize.SL.Sem

/-! ## The operand indices of the product x · W

At output index (r, f) and contraction coordinate k the left operand is read at (r, k), the right at (k, f). -/

theorem lhs_xW_0 (i : S1024x128.Idx) (q : dot_S1024x256_S256x128_S1024x128_1_0_0_1_n_n.contr.Idx) :
    (dot_S1024x256_S256x128_S1024x128_1_0_0_1_n_n.lhsIdx i q 0).val = (i 0).val := by
  unfold DotDims.lhsIdx
  rw [dif_neg (show ¬(0 : Fin S1024x256.rank) ∈ dot_S1024x256_S256x128_S1024x128_1_0_0_1_n_n.lhsBatch by decide),
    dif_pos (show (0 : Fin S1024x256.rank) ∈ dot_S1024x256_S256x128_S1024x128_1_0_0_1_n_n.lhsNonContracting by decide)]
  rfl
theorem lhs_xW_1 (i : S1024x128.Idx) (q : dot_S1024x256_S256x128_S1024x128_1_0_0_1_n_n.contr.Idx) :
    (dot_S1024x256_S256x128_S1024x128_1_0_0_1_n_n.lhsIdx i q 1).val = (q ⟨0, by decide⟩).val :=
  dot_S1024x256_S256x128_S1024x128_1_0_0_1_n_n.lhsIdx_val_of_single rfl i q
theorem rhs_xW_0 (i : S1024x128.Idx) (q : dot_S1024x256_S256x128_S1024x128_1_0_0_1_n_n.contr.Idx) :
    (dot_S1024x256_S256x128_S1024x128_1_0_0_1_n_n.rhsIdx i q 0).val = (q ⟨0, by decide⟩).val :=
  dot_S1024x256_S256x128_S1024x128_1_0_0_1_n_n.rhsIdx_val_of_single rfl i q
theorem rhs_xW_1 (i : S1024x128.Idx) (q : dot_S1024x256_S256x128_S1024x128_1_0_0_1_n_n.contr.Idx) :
    (dot_S1024x256_S256x128_S1024x128_1_0_0_1_n_n.rhsIdx i q 1).val = (i 1).val := by
  unfold DotDims.rhsIdx
  rw [dif_neg (show ¬(1 : Fin S256x128.rank) ∈ dot_S1024x256_S256x128_S1024x128_1_0_0_1_n_n.rhsBatch by decide),
    dif_pos (show (1 : Fin S256x128.rank) ∈ dot_S1024x256_S256x128_S1024x128_1_0_0_1_n_n.rhsNonContracting by decide)]
  rfl

/-! ## The operand indices of a product (x · W) · (a half of a)

At output index (r, 0) and contraction coordinate f the left operand is read at (r, f), the right at (f, 0). -/

theorem lhs_hWa_0 (i : S1024x1.Idx) (q : dot_S1024x128_S128x1_S1024x1_1_0_0_1_n_n.contr.Idx) :
    (dot_S1024x128_S128x1_S1024x1_1_0_0_1_n_n.lhsIdx i q 0).val = (i 0).val := by
  unfold DotDims.lhsIdx
  rw [dif_neg (show ¬(0 : Fin S1024x128.rank) ∈ dot_S1024x128_S128x1_S1024x1_1_0_0_1_n_n.lhsBatch by decide),
    dif_pos (show (0 : Fin S1024x128.rank) ∈ dot_S1024x128_S128x1_S1024x1_1_0_0_1_n_n.lhsNonContracting by decide)]
  rfl
theorem lhs_hWa_1 (i : S1024x1.Idx) (q : dot_S1024x128_S128x1_S1024x1_1_0_0_1_n_n.contr.Idx) :
    (dot_S1024x128_S128x1_S1024x1_1_0_0_1_n_n.lhsIdx i q 1).val = (q ⟨0, by decide⟩).val :=
  dot_S1024x128_S128x1_S1024x1_1_0_0_1_n_n.lhsIdx_val_of_single rfl i q
theorem rhs_hWa_0 (i : S1024x1.Idx) (q : dot_S1024x128_S128x1_S1024x1_1_0_0_1_n_n.contr.Idx) :
    (dot_S1024x128_S128x1_S1024x1_1_0_0_1_n_n.rhsIdx i q 0).val = (q ⟨0, by decide⟩).val :=
  dot_S1024x128_S128x1_S1024x1_1_0_0_1_n_n.rhsIdx_val_of_single rfl i q
theorem rhs_hWa_1 (i : S1024x1.Idx) (q : dot_S1024x128_S128x1_S1024x1_1_0_0_1_n_n.contr.Idx) :
    (dot_S1024x128_S128x1_S1024x1_1_0_0_1_n_n.rhsIdx i q 1).val = (i 1).val := by
  unfold DotDims.rhsIdx
  rw [dif_neg (show ¬(1 : Fin S128x1.rank) ∈ dot_S1024x128_S128x1_S1024x1_1_0_0_1_n_n.rhsBatch by decide),
    dif_pos (show (1 : Fin S128x1.rank) ∈ dot_S1024x128_S128x1_S1024x1_1_0_0_1_n_n.rhsNonContracting by decide)]
  rfl

/-! ## The three stores at an index -/

/-- The first store: row r of the tile times column f of the weights. -/
theorem pay1_apply (v0 : Vec Ideal S1024x256 .f32) (v2 : Vec Ideal S256x128 .f32) (r : Fin 1024) (f : Fin 128) :
    Gen.k0_pay1 v0 v2 (ix2 r f) = ∑ k : Fin 256, v0 (ix2 r k) * v2 (ix2 k f) := by
  unfold Gen.k0_pay1
  refine (Ideal.matmul_constant_zero_apply dot_S1024x256_S256x128_S1024x128_1_0_0_1_n_n none _ _ (ix2 r f)).trans ?_
  rw [← Equiv.sum_comp (contrEquiv1 dot_S1024x256_S256x128_S1024x128_1_0_0_1_n_n 256 rfl rfl).symm]
  refine Finset.sum_congr rfl fun k _ => ?_
  have hk := contrEquiv1_symm_val dot_S1024x256_S256x128_S1024x128_1_0_0_1_n_n 256 rfl rfl k
  have el : dot_S1024x256_S256x128_S1024x128_1_0_0_1_n_n.lhsIdx (ix2 r f) ((contrEquiv1 dot_S1024x256_S256x128_S1024x128_1_0_0_1_n_n 256 rfl rfl).symm k) = ix2 r k :=
    funext fun a => Fin.ext (by
      match a with
      | ⟨0, _⟩ => exact lhs_xW_0 _ _
      | ⟨1, _⟩ => exact (lhs_xW_1 _ _).trans hk)
  have er : dot_S1024x256_S256x128_S1024x128_1_0_0_1_n_n.rhsIdx (ix2 r f) ((contrEquiv1 dot_S1024x256_S256x128_S1024x128_1_0_0_1_n_n 256 rfl rfl).symm k) = ix2 k f :=
    funext fun a => Fin.ext (by
      match a with
      | ⟨0, _⟩ => exact (rhs_xW_0 _ _).trans hk
      | ⟨1, _⟩ => exact rhs_xW_1 _ _)
  rw [el, er]
  rfl

/-- A product of the first store with a column of 128 entries, at row r. -/
theorem hWa_apply (p : FVec Ideal S1024x128 .f32) (v : FVec Ideal S128x1 .f32) (r : Fin 1024) :
    (matmul dot_S1024x128_S128x1_S1024x1_1_0_0_1_n_n none p (shapeCast S128x1 v shapeCasts_S128x1_S128x1) (constant S1024x1 .f32 0x00000000#32) : FVec Ideal S1024x1 .f32)
        (ix2 r 0) = ∑ f : Fin 128, p (ix2 r f) * v (ix2 f 0) := by
  refine (Ideal.matmul_constant_zero_apply dot_S1024x128_S128x1_S1024x1_1_0_0_1_n_n none _ _ (ix2 r 0)).trans ?_
  rw [← Equiv.sum_comp (contrEquiv1 dot_S1024x128_S128x1_S1024x1_1_0_0_1_n_n 128 rfl rfl).symm]
  refine Finset.sum_congr rfl fun f _ => ?_
  have hf := contrEquiv1_symm_val dot_S1024x128_S128x1_S1024x1_1_0_0_1_n_n 128 rfl rfl f
  have el : dot_S1024x128_S128x1_S1024x1_1_0_0_1_n_n.lhsIdx (ix2 r 0) ((contrEquiv1 dot_S1024x128_S128x1_S1024x1_1_0_0_1_n_n 128 rfl rfl).symm f) = ix2 r f :=
    funext fun a => Fin.ext (by
      match a with
      | ⟨0, _⟩ => exact lhs_hWa_0 _ _
      | ⟨1, _⟩ => exact (lhs_hWa_1 _ _).trans hf)
  have er : dot_S1024x128_S128x1_S1024x1_1_0_0_1_n_n.rhsIdx (ix2 r 0) ((contrEquiv1 dot_S1024x128_S128x1_S1024x1_1_0_0_1_n_n 128 rfl rfl).symm f) = ix2 f 0 :=
    funext fun a => Fin.ext (by
      match a with
      | ⟨0, _⟩ => exact (rhs_hWa_0 _ _).trans hf
      | ⟨1, _⟩ => exact rhs_hWa_1 _ _)
  rw [el, er, shapeCast_self]

/-- The second store: row r of the first store against the first half of a. -/
theorem pay2_apply (v0 : Vec Ideal S1024x256 .f32) (v2 : Vec Ideal S256x128 .f32) (v6 : Vec Ideal S128x1 .f32) (r : Fin 1024) :
    Gen.k0_pay2 v0 v2 v6 (ix2 r 0) = ∑ f : Fin 128, Gen.k0_pay1 v0 v2 (ix2 r f) * v6 (ix2 f 0) := by
  unfold Gen.k0_pay2
  exact hWa_apply (Gen.k0_pay1 v0 v2) v6 r

/-- The third store: row r of the first store against the second half of a. -/
theorem pay3_apply (v0 : Vec Ideal S1024x256 .f32) (v2 : Vec Ideal S256x128 .f32) (v10 : Vec Ideal S128x1 .f32) (r : Fin 1024) :
    Gen.k0_pay3 v0 v2 v10 (ix2 r 0) = ∑ f : Fin 128, Gen.k0_pay1 v0 v2 (ix2 r f) * v10 (ix2 f 0) := by
  unfold Gen.k0_pay3
  exact hWa_apply (Gen.k0_pay1 v0 v2) v10 r

/-! ## The host stretch before the region: the two halves of a -/

section Host
variable (V : Valuation τ sig (Elt Ideal))

/-- The first half is a's rows 0 … 127. -/
theorem hostOps0_main_v0 :
    (StableHlo.after (Gen.hostOps0 (F := Ideal)) V main_v0 : S128x1.Idx → EReal)
      = extractStridedSlice S128x1 ![0, 0] (V main_arg2 : S256x1.Idx → EReal) slices_S256x1_S128x1_0_0 := by
  dsimp only [Gen.hostOps0]
  after_results

/-- The second half is a's rows 128 … 255. -/
theorem hostOps0_main_v1 :
    (StableHlo.after (Gen.hostOps0 (F := Ideal)) V main_v1 : S128x1.Idx → EReal)
      = extractStridedSlice S128x1 ![128, 0] (V main_arg2 : S256x1.Idx → EReal) slices_S256x1_S128x1_128_0 := by
  dsimp only [Gen.hostOps0]
  after_results

theorem hostOps0_main_v0_apply (k : Fin 128) :
    (StableHlo.after (Gen.hostOps0 (F := Ideal)) V main_v0 : S128x1.Idx → EReal) (ix2 k 0)
      = (V main_arg2 : S256x1.Idx → EReal) (ix2 ⟨k.val, by omega⟩ 0) := by
  rw [hostOps0_main_v0]
  refine extractStridedSlice_apply _ _ _ _ _ fun a => ?_
  match a with
  | ⟨0, _⟩ => show k.val = 0 + k.val; omega
  | ⟨1, _⟩ => show 0 = 0 + 0; rfl

theorem hostOps0_main_v1_apply (k : Fin 128) :
    (StableHlo.after (Gen.hostOps0 (F := Ideal)) V main_v1 : S128x1.Idx → EReal) (ix2 k 0)
      = (V main_arg2 : S256x1.Idx → EReal) (ix2 ⟨128 + k.val, by omega⟩ 0) := by
  rw [hostOps0_main_v1]
  refine extractStridedSlice_apply _ _ _ _ _ fun a => ?_
  match a with
  | ⟨0, _⟩ => show 128 + k.val = 128 + k.val; rfl
  | ⟨1, _⟩ => show 0 = 0 + 0; rfl

/-! ## The host stretch after the region: the second logit column laid out as a row -/

theorem hostOps1_main_v3 :
    (StableHlo.after (Gen.hostOps1 (F := Ideal)) V main_v3 : S1x8192.Idx → EReal)
      = shapeCast S1x8192 (V main_v2_2 : S8192x1.Idx → EReal) shapeCasts_S8192x1_S1x8192 := by
  dsimp only [Gen.hostOps1]
  after_results
  rfl

theorem hostOps1_main_v3_apply (j : Fin 8192) :
    (StableHlo.after (Gen.hostOps1 (F := Ideal)) V main_v3 : S1x8192.Idx → EReal) (ix2 0 j)
      = (V main_v2_2 : S8192x1.Idx → EReal) (ix2 j 0) := by
  rw [hostOps1_main_v3]
  refine shapeCast_apply _ _ _ _ ?_
  show (S8192x1.rowMajor (ix2 j 0)).val = (S1x8192.rowMajor (ix2 0 j)).val
  rw [Shape.rowMajor_val_two, Shape.rowMajor_val_two]
  show j.val * 1 + 0 = 0 * 8192 + j.val
  omega

end Host

/-! ## The region's windows

The grid has 8 points. At point t the feature window and the three output windows sit on block t of their arrays'
rows (1024 rows to a block); the weights and the two halves of a are one block each, the same at every point. -/

section Arrays
open Cert.KernelIdeal.Hand
open Idealize.ShloMosaic.Pipeline (Dat)

variable (V : (c : Dev nD) → (b : Ref sig .tc) → Buf (Elt Ideal) ((c : Thread nD τ).loc b))

theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- The feature block at point t is rows 1024·t … 1024·t + 1023 of the features. -/
theorem tile_apply (c : Dev nD) (t : Fin cfg0.N) (y : S1024x256.Idx) (k : S8192x256.Idx)
    (hk0 : (k 0).val = 1024 * t.val + (y 0).val) (hk1 : (k 1).val = (y 1).val) :
    (iblk0 V c 0 t : Vec Ideal S1024x256 .f32) y = (V c main_arg0 : S8192x256.Idx → EReal) k := by
  obtain ⟨e0, e1, -⟩ := block_index t
  unfold iblk0
  rw [View.read_apply]
  show V c main_arg0 _ = V c main_arg0 _
  congr 1
  funext a
  apply Fin.ext
  match a with
  | ⟨0, _⟩ => show win0_0.index t 0 * 1024 + 1 * (y 0).val = (k 0).val; rw [e0, hk0]; omega
  | ⟨1, _⟩ => show win0_0.index t 1 * 256 + 1 * (y 1).val = (k 1).val; rw [e1, hk1]; omega

/-- The weight block is the whole weight matrix at every point. -/
theorem weights_apply (c : Dev nD) (t : Fin cfg0.N) (y : S256x128.Idx) :
    (iblk0 V c 1 t : Vec Ideal S256x128 .f32) y = (V c main_arg1 : S256x128.Idx → EReal) y := by
  obtain ⟨-, -, e0, e1, -⟩ := block_index t
  unfold iblk0
  rw [View.read_apply]
  show V c main_arg1 _ = V c main_arg1 _
  congr 1
  funext a
  apply Fin.ext
  match a with
  | ⟨0, _⟩ => show win0_1.index t 0 * 256 + 1 * (y 0).val = (y 0).val; rw [e0]; omega
  | ⟨1, _⟩ => show win0_1.index t 1 * 128 + 1 * (y 1).val = (y 1).val; rw [e1]; omega

/-- So is each half of a. -/
theorem half1_apply (c : Dev nD) (t : Fin cfg0.N) (y : S128x1.Idx) :
    (iblk0 V c 2 t : Vec Ideal S128x1 .f32) y = (V c main_v0 : S128x1.Idx → EReal) y := by
  obtain ⟨-, -, -, -, e0, e1, -⟩ := block_index t
  unfold iblk0
  rw [View.read_apply]
  show V c main_v0 _ = V c main_v0 _
  congr 1
  funext a
  apply Fin.ext
  match a with
  | ⟨0, _⟩ => show win0_2.index t 0 * 128 + 1 * (y 0).val = (y 0).val; rw [e0]; omega
  | ⟨1, _⟩ => show win0_2.index t 1 * 1 + 1 * (y 1).val = (y 1).val; rw [e1]; omega

theorem half2_apply (c : Dev nD) (t : Fin cfg0.N) (y : S128x1.Idx) :
    (iblk0 V c 3 t : Vec Ideal S128x1 .f32) y = (V c main_v1 : S128x1.Idx → EReal) y := by
  obtain ⟨-, -, -, -, -, -, e0, e1, -⟩ := block_index t
  unfold iblk0
  rw [View.read_apply]
  show V c main_v1 _ = V c main_v1 _
  congr 1
  funext a
  apply Fin.ext
  match a with
  | ⟨0, _⟩ => show win0_3.index t 0 * 128 + 1 * (y 0).val = (y 0).val; rw [e0]; omega
  | ⟨1, _⟩ => show win0_3.index t 1 * 1 + 1 * (y 1).val = (y 1).val; rw [e1]; omega

/-! ## The three arrays the region leaves, index by index -/

/-- The projected features: row i of the features against column f of the weights. -/
abbrev hWArr (c : Dev nD) : S8192x128.Idx → EReal :=
  fun idx => Spec.hW (Spec.c2 (V c main_arg0 : S8192x256.Idx → EReal)) (Spec.c2 (V c main_arg1 : S256x128.Idx → EReal)) (idx 0) (idx 1)

/-- A logit column: row i of the projected features against the first half of a vector a of 256 entries … -/
abbrev h1Arr (c : Dev nD) (a : Fin 256 → EReal) : S8192x1.Idx → EReal :=
  fun idx => Spec.h1 (Spec.c2 (V c main_arg0 : S8192x256.Idx → EReal)) (Spec.c2 (V c main_arg1 : S256x128.Idx → EReal)) a (idx 0)

/-- … and against its second half. -/
abbrev h2Arr (c : Dev nD) (a : Fin 256 → EReal) : S8192x1.Idx → EReal :=
  fun idx => Spec.h2 (Spec.c2 (V c main_arg0 : S8192x256.Idx → EReal)) (Spec.c2 (V c main_arg1 : S256x128.Idx → EReal)) a (idx 0)

/-! ### One block of each store is the matching rows of its array -/

/-- Block t of the first store at (r, f) is the projected features at row 1024·t + r, column f. -/
theorem prod_block (c : Dev nD) (t : Fin cfg0.N) (r : Fin 1024) (f : Fin 128) (i : Fin 8192) (f' : Fin 128)
    (hi : i.val = 1024 * t.val + r.val) (hf : f'.val = f.val) :
    Gen.k0_pay1 (iblk0 V c 0 t) (iblk0 V c 1 t) (ix2 r f) = Spec.hW (Spec.c2 (V c main_arg0 : S8192x256.Idx → EReal)) (Spec.c2 (V c main_arg1 : S256x128.Idx → EReal)) i f' := by
  obtain rfl : f' = f := Fin.ext hf
  refine (pay1_apply (iblk0 V c 0 t) (iblk0 V c 1 t) r f').trans ?_
  unfold Spec.hW Spec.c2
  refine Finset.sum_congr rfl fun k _ => ?_
  exact congrArg₂ (· * ·) (tile_apply V c t (ix2 r k) (ix2 i k) hi rfl) (weights_apply V c t (ix2 k f'))

theorem prod_block_idx (c : Dev nD) (t : Fin cfg0.N) (j : S1024x128.Idx) (i : S8192x128.Idx)
    (h0 : (i 0).val = 1024 * t.val + (j 0).val) (h1 : (i 1).val = (j 1).val) :
    Gen.k0_pay1 (iblk0 V c 0 t) (iblk0 V c 1 t) j = hWArr V c i := by
  obtain ⟨r, f, rfl⟩ : ∃ (r : Fin 1024) (f : Fin 128), j = ix2 r f := ⟨j 0, j 1, eq_ix2 j⟩
  exact prod_block V c t r f (i 0) (i 1) h0 h1

/-- Block t of the second store at row r is the first logit column at row 1024·t + r, when the first half's block
    holds entries 0 … 127 of a. -/
theorem col1_block_idx (c : Dev nD) (t : Fin cfg0.N) (a : Fin 256 → EReal)
    (ha : ∀ k : Fin 128, (V c main_v0 : S128x1.Idx → EReal) (ix2 k 0) = a ⟨k.val, by omega⟩)
    (j : S1024x1.Idx) (i : S8192x1.Idx) (h0 : (i 0).val = 1024 * t.val + (j 0).val) :
    Gen.k0_pay2 (iblk0 V c 0 t) (iblk0 V c 1 t) (iblk0 V c 2 t) j = h1Arr V c a i := by
  obtain ⟨r, z, rfl⟩ : ∃ (r : Fin 1024) (z : Fin 1), j = ix2 r z := ⟨j 0, j 1, eq_ix2 j⟩
  obtain rfl : z = 0 := Subsingleton.elim _ _
  refine (pay2_apply (iblk0 V c 0 t) (iblk0 V c 1 t) (iblk0 V c 2 t) r).trans ?_
  show _ = Spec.h1 (Spec.c2 (V c main_arg0 : S8192x256.Idx → EReal)) (Spec.c2 (V c main_arg1 : S256x128.Idx → EReal)) a (i 0)
  unfold Spec.h1
  refine Finset.sum_congr rfl fun f _ => ?_
  exact congrArg₂ (· * ·) (prod_block V c t r f (i 0) f h0 rfl) ((half1_apply V c t (ix2 f 0)).trans (ha f))

/-- Block t of the third store likewise, when the second half's block holds entries 128 … 255 of a. -/
theorem col2_block_idx (c : Dev nD) (t : Fin cfg0.N) (a : Fin 256 → EReal)
    (ha : ∀ k : Fin 128, (V c main_v1 : S128x1.Idx → EReal) (ix2 k 0) = a ⟨128 + k.val, by omega⟩)
    (j : S1024x1.Idx) (i : S8192x1.Idx) (h0 : (i 0).val = 1024 * t.val + (j 0).val) :
    Gen.k0_pay3 (iblk0 V c 0 t) (iblk0 V c 1 t) (iblk0 V c 3 t) j = h2Arr V c a i := by
  obtain ⟨r, z, rfl⟩ : ∃ (r : Fin 1024) (z : Fin 1), j = ix2 r z := ⟨j 0, j 1, eq_ix2 j⟩
  obtain rfl : z = 0 := Subsingleton.elim _ _
  refine (pay3_apply (iblk0 V c 0 t) (iblk0 V c 1 t) (iblk0 V c 3 t) r).trans ?_
  show _ = Spec.h2 (Spec.c2 (V c main_arg0 : S8192x256.Idx → EReal)) (Spec.c2 (V c main_arg1 : S256x128.Idx → EReal)) a (i 0)
  unfold Spec.h2
  refine Finset.sum_congr rfl fun f _ => ?_
  exact congrArg₂ (· * ·) (prod_block V c t r f (i 0) f h0 rfl) ((half2_apply V c t (ix2 f 0)).trans (ha f))

/-! ### What each point writes back -/

theorem flushed4_eq (c : Dev nD) (t : Fin cfg0.N) :
    (dat0 V c).flushed 4 t = ((cfg0.win 4).blk t).view.read (Elt Ideal) (hWArr V c) := by
  obtain ⟨-, -, -, -, -, -, -, -, e0, e1, -⟩ := block_index t
  show (cfg0.win 4).cut (grid0.coords t) ((dat0 V c).after 4 t) = _
  rw [after0_4]
  unfold out0_4
  funext j
  show Gen.k0_pay1 (iblk0 V c 0 t) (iblk0 V c 1 t) j = hWArr V c (((cfg0.win 4).blk t).view.emb j)
  refine prod_block_idx V c t j _ ?_ ?_
  · show win0_4.index t 0 * 1024 + 1 * (j 0).val = 1024 * t.val + (j 0).val; rw [e0]; omega
  · show win0_4.index t 1 * 128 + 1 * (j 1).val = (j 1).val; rw [e1]; omega

theorem flushed5_eq (c : Dev nD) (a : Fin 256 → EReal)
    (ha : ∀ k : Fin 128, (V c main_v0 : S128x1.Idx → EReal) (ix2 k 0) = a ⟨k.val, by omega⟩) (t : Fin cfg0.N) :
    (dat0 V c).flushed 5 t = ((cfg0.win 5).blk t).view.read (Elt Ideal) (h1Arr V c a) := by
  obtain ⟨-, -, -, -, -, -, -, -, -, -, e0, -⟩ := block_index t
  show (cfg0.win 5).cut (grid0.coords t) ((dat0 V c).after 5 t) = _
  rw [after0_5]
  unfold out0_5
  funext j
  show Gen.k0_pay2 (iblk0 V c 0 t) (iblk0 V c 1 t) (iblk0 V c 2 t) j = h1Arr V c a (((cfg0.win 5).blk t).view.emb j)
  refine col1_block_idx V c t a ha j _ ?_
  show win0_5.index t 0 * 1024 + 1 * (j 0).val = 1024 * t.val + (j 0).val; rw [e0]; omega

theorem flushed6_eq (c : Dev nD) (a : Fin 256 → EReal)
    (ha : ∀ k : Fin 128, (V c main_v1 : S128x1.Idx → EReal) (ix2 k 0) = a ⟨128 + k.val, by omega⟩) (t : Fin cfg0.N) :
    (dat0 V c).flushed 6 t = ((cfg0.win 6).blk t).view.read (Elt Ideal) (h2Arr V c a) := by
  obtain ⟨-, -, -, -, -, -, -, -, -, -, -, -, e0, -⟩ := block_index t
  show (cfg0.win 6).cut (grid0.coords t) ((dat0 V c).after 6 t) = _
  rw [after0_6]
  unfold out0_6
  funext j
  show Gen.k0_pay3 (iblk0 V c 0 t) (iblk0 V c 1 t) (iblk0 V c 3 t) j = h2Arr V c a (((cfg0.win 6).blk t).view.emb j)
  refine col2_block_idx V c t a ha j _ ?_
  show win0_6.index t 0 * 1024 + 1 * (j 0).val = 1024 * t.val + (j 0).val; rw [e0]; omega

/-! ### Every row is in the block of the point row / 1024 -/

theorem mem_blk4 (t : Fin cfg0.N) (i : S8192x128.Idx) :
    i ∈ ((cfg0.win 4).blk t).view.set ↔ ∀ a : Fin 2, win0_4.index t a * S1024x128.size a ≤ (i a).val ∧ (i a).val < win0_4.index t a * S1024x128.size a + S1024x128.size a := by
  show i ∈ ((View.whole main_v2_0).slice (win0_4.rect t)).set ↔ _
  rw [View.set_slice_whole, Rect.mem_set_unit]
  exact Iff.rfl

theorem mem_blk5 (t : Fin cfg0.N) (i : S8192x1.Idx) :
    i ∈ ((cfg0.win 5).blk t).view.set ↔ ∀ a : Fin 2, win0_5.index t a * S1024x1.size a ≤ (i a).val ∧ (i a).val < win0_5.index t a * S1024x1.size a + S1024x1.size a := by
  show i ∈ ((View.whole main_v2_1).slice (win0_5.rect t)).set ↔ _
  rw [View.set_slice_whole, Rect.mem_set_unit]
  exact Iff.rfl

theorem mem_blk6 (t : Fin cfg0.N) (i : S8192x1.Idx) :
    i ∈ ((cfg0.win 6).blk t).view.set ↔ ∀ a : Fin 2, win0_6.index t a * S1024x1.size a ≤ (i a).val ∧ (i a).val < win0_6.index t a * S1024x1.size a + S1024x1.size a := by
  show i ∈ ((View.whole main_v2_2).slice (win0_6.rect t)).set ↔ _
  rw [View.set_slice_whole, Rect.mem_set_unit]
  exact Iff.rfl

theorem cover4 (i : S8192x128.Idx) : ∃ t : Fin cfg0.N, (cfg0.win 4).flush t = true ∧ i ∈ ((cfg0.win 4).blk t).view.set := by
  have hi0 : (i 0).val < 8192 := (i 0).isLt
  have hi1 : (i 1).val < 128 := (i 1).isLt
  have hN : cfg0.N = 8 := N_0
  obtain ⟨t, ht⟩ : ∃ t : Fin cfg0.N, t.val = (i 0).val / 1024 := ⟨⟨(i 0).val / 1024, by rw [hN]; omega⟩, rfl⟩
  obtain ⟨-, -, -, -, -, -, -, -, e0, e1, -⟩ := block_index t
  refine ⟨t, flush0_4 t, ?_⟩
  rw [mem_blk4]
  intro a
  match a with
  | ⟨0, _⟩ => show win0_4.index t 0 * 1024 ≤ (i 0).val ∧ (i 0).val < win0_4.index t 0 * 1024 + 1024; rw [e0, ht]; omega
  | ⟨1, _⟩ => show win0_4.index t 1 * 128 ≤ (i 1).val ∧ (i 1).val < win0_4.index t 1 * 128 + 128; rw [e1]; omega

theorem cover5 (i : S8192x1.Idx) : ∃ t : Fin cfg0.N, (cfg0.win 5).flush t = true ∧ i ∈ ((cfg0.win 5).blk t).view.set := by
  have hi0 : (i 0).val < 8192 := (i 0).isLt
  have hi1 : (i 1).val < 1 := (i 1).isLt
  have hN : cfg0.N = 8 := N_0
  obtain ⟨t, ht⟩ : ∃ t : Fin cfg0.N, t.val = (i 0).val / 1024 := ⟨⟨(i 0).val / 1024, by rw [hN]; omega⟩, rfl⟩
  obtain ⟨-, -, -, -, -, -, -, -, -, -, e0, e1, -⟩ := block_index t
  refine ⟨t, flush0_5 t, ?_⟩
  rw [mem_blk5]
  intro a
  match a with
  | ⟨0, _⟩ => show win0_5.index t 0 * 1024 ≤ (i 0).val ∧ (i 0).val < win0_5.index t 0 * 1024 + 1024; rw [e0, ht]; omega
  | ⟨1, _⟩ => show win0_5.index t 1 * 1 ≤ (i 1).val ∧ (i 1).val < win0_5.index t 1 * 1 + 1; rw [e1]; omega

theorem cover6 (i : S8192x1.Idx) : ∃ t : Fin cfg0.N, (cfg0.win 6).flush t = true ∧ i ∈ ((cfg0.win 6).blk t).view.set := by
  have hi0 : (i 0).val < 8192 := (i 0).isLt
  have hi1 : (i 1).val < 1 := (i 1).isLt
  have hN : cfg0.N = 8 := N_0
  obtain ⟨t, ht⟩ : ∃ t : Fin cfg0.N, t.val = (i 0).val / 1024 := ⟨⟨(i 0).val / 1024, by rw [hN]; omega⟩, rfl⟩
  obtain ⟨-, -, -, -, -, -, -, -, -, -, -, -, e0, e1⟩ := block_index t
  refine ⟨t, flush0_6 t, ?_⟩
  rw [mem_blk6]
  intro a
  match a with
  | ⟨0, _⟩ => show win0_6.index t 0 * 1024 ≤ (i 0).val ∧ (i 0).val < win0_6.index t 0 * 1024 + 1024; rw [e0, ht]; omega
  | ⟨1, _⟩ => show win0_6.index t 1 * 1 ≤ (i 1).val ∧ (i 1).val < win0_6.index t 1 * 1 + 1; rw [e1]; omega

/-! ### The arrays after the region -/

/-- The first output array ends holding the projected features. -/
theorem hW_array (c : Dev nD) : (dat0 V c).arrAt 4 cfg0.N = hWArr V c :=
  (dat0 V c).arrAt_eq_of_cover 4 (hWArr V c) (fun t _ => flushed4_eq V c t) cover4

/-- The second ends holding the first logit column, when the first half's array holds entries 0 … 127 of a. -/
theorem h1_array (c : Dev nD) (a : Fin 256 → EReal)
    (ha : ∀ k : Fin 128, (V c main_v0 : S128x1.Idx → EReal) (ix2 k 0) = a ⟨k.val, by omega⟩) :
    (dat0 V c).arrAt 5 cfg0.N = h1Arr V c a :=
  (dat0 V c).arrAt_eq_of_cover 5 (h1Arr V c a) (fun t _ => flushed5_eq V c a ha t) cover5

/-- The third ends holding the second logit column, when the second half's array holds entries 128 … 255 of a. -/
theorem h2_array (c : Dev nD) (a : Fin 256 → EReal)
    (ha : ∀ k : Fin 128, (V c main_v1 : S128x1.Idx → EReal) (ix2 k 0) = a ⟨128 + k.val, by omega⟩) :
    (dat0 V c).arrAt 6 cfg0.N = h2Arr V c a :=
  (dat0 V c).arrAt_eq_of_cover 6 (h2Arr V c a) (fun t _ => flushed6_eq V c a ha t) cover6

end Arrays

/-! ## The three arrays in terms of the program's arguments

Region 0 is entered with the launch contents and the two halves of a written by the host. No host operation before it
writes the features or the weights, so the arrays it leaves are the projected features and the two logit columns of the
arguments themselves, with a read down its one column. -/

section AtLaunch
open Cert.KernelIdeal.Hand

variable (m : (ℓ : Loc nD τ sig) → Buf (Elt Ideal) ℓ)

/-- The core's buffers when region 0 is entered. -/
abbrev entry0 (c : Dev nD) (b : Ref sig .tc) : Buf (Elt Ideal) ((c : Thread nD τ).loc b) := Gen.V1 m c b

theorem entry0_arg0 (c : Dev nD) : entry0 m c main_arg0 = m ((c : Thread nD τ).loc main_arg0) :=
  (Gen.V1_of m c main_arg0 (by decide)).trans rfl

theorem entry0_arg1 (c : Dev nD) : entry0 m c main_arg1 = m ((c : Thread nD τ).loc main_arg1) :=
  (Gen.V1_of m c main_arg1 (by decide)).trans rfl

/-- The attention vector as a function of its row. -/
abbrev aCol (c : Dev nD) : Fin 256 → EReal := fun k => (m ((c : Thread nD τ).loc main_arg2) : S256x1.Idx → EReal) (ix2 k 0)

theorem entry0_half1 (c : Dev nD) (k : Fin 128) :
    (entry0 m c main_v0 : S128x1.Idx → EReal) (ix2 k 0) = aCol m c ⟨k.val, by omega⟩ :=
  hostOps0_main_v0_apply (Gen.V0 m c) k

theorem entry0_half2 (c : Dev nD) (k : Fin 128) :
    (entry0 m c main_v1 : S128x1.Idx → EReal) (ix2 k 0) = aCol m c ⟨128 + k.val, by omega⟩ :=
  hostOps0_main_v1_apply (Gen.V0 m c) k

theorem hW_array_launch (c : Dev nD) :
    (dat0 (entry0 m) c).arrAt 4 cfg0.N
      = fun idx => Spec.hW (Spec.c2 (m ((c : Thread nD τ).loc main_arg0) : S8192x256.Idx → EReal)) (Spec.c2 (m ((c : Thread nD τ).loc main_arg1) : S256x128.Idx → EReal)) (idx 0) (idx 1) := by
  refine (hW_array (entry0 m) c).trans ?_
  funext idx
  exact congrArg₂ (fun (x : S8192x256.Idx → EReal) (w : S256x128.Idx → EReal) => Spec.hW (Spec.c2 x) (Spec.c2 w) (idx 0) (idx 1))
    (entry0_arg0 m c) (entry0_arg1 m c)

theorem h1_array_launch (c : Dev nD) :
    (dat0 (entry0 m) c).arrAt 5 cfg0.N
      = fun idx => Spec.h1 (Spec.c2 (m ((c : Thread nD τ).loc main_arg0) : S8192x256.Idx → EReal)) (Spec.c2 (m ((c : Thread nD τ).loc main_arg1) : S256x128.Idx → EReal)) (aCol m c) (idx 0) := by
  refine (h1_array (entry0 m) c (aCol m c) (entry0_half1 m c)).trans ?_
  funext idx
  exact congrArg₂ (fun (x : S8192x256.Idx → EReal) (w : S256x128.Idx → EReal) => Spec.h1 (Spec.c2 x) (Spec.c2 w) (aCol m c) (idx 0))
    (entry0_arg0 m c) (entry0_arg1 m c)

theorem h2_array_launch (c : Dev nD) :
    (dat0 (entry0 m) c).arrAt 6 cfg0.N
      = fun idx => Spec.h2 (Spec.c2 (m ((c : Thread nD τ).loc main_arg0) : S8192x256.Idx → EReal)) (Spec.c2 (m ((c : Thread nD τ).loc main_arg1) : S256x128.Idx → EReal)) (aCol m c) (idx 0) := by
  refine (h2_array (entry0 m) c (aCol m c) (entry0_half2 m c)).trans ?_
  funext idx
  exact congrArg₂ (fun (x : S8192x256.Idx → EReal) (w : S256x128.Idx → EReal) => Spec.h2 (Spec.c2 x) (Spec.c2 w) (aCol m c) (idx 0))
    (entry0_arg0 m c) (entry0_arg1 m c)

end AtLaunch

end Cert.KernelIdeal.HandValue

end
-- ==== Proof.FrameEntry.lean ====
/-
  The two regions' entry contents, buffer by buffer.

  Region 0 is entered with the three float arguments as launched and with the two halves of `a` as the first host
  stretch leaves them. Region 1 is entered with region 0's first two results as its write-backs left them, with the
  third result laid out as a row by the second host stretch, and with the neighbour table as launched.
-/
import proofs.«413656_j34187939676687_3_alg».proof.Proof.FrameAsm

noncomputable section

namespace Cert.KernelIdeal.Hand

open Cert.KernelIdeal Cert.KernelIdeal.Gen
open Idealize.ShloMosaic Idealize.ShloMosaic.TcCoe
open Idealize.SL.Sem
open Idealize.ShloMosaic.Pipeline (Dat)

variable {F : FTy → Type} [FloatOps F]

variable (m : (ℓ : Loc nD τ sig) → Buf (Elt F) ℓ)

/-! ## Region 0 -/

/-- No host operation before region 0 writes an argument. -/
theorem ent0_main_arg0 (c : Dev nD) : ent0 m c main_arg0 = m ((c : Thread nD τ).loc main_arg0) := Gen.V1_of m c main_arg0 (by decide)
theorem ent0_main_arg1 (c : Dev nD) : ent0 m c main_arg1 = m ((c : Thread nD τ).loc main_arg1) := Gen.V1_of m c main_arg1 (by decide)
theorem ent0_main_arg2 (c : Dev nD) : ent0 m c main_arg2 = m ((c : Thread nD τ).loc main_arg2) := Gen.V1_of m c main_arg2 (by decide)
/-- The launch valuation at `a`. -/
theorem V0_main_arg2 (c : Dev nD) : Gen.V0 m c main_arg2 = m ((c : Thread nD τ).loc main_arg2) := rfl
/-- The two halves of `a`: what the first host stretch leaves, from the launch contents. -/
theorem ent0_main_v0 (c : Dev nD) : ent0 m c main_v0 = StableHlo.after hostOps0 (Gen.V0 m c) main_v0 := rfl
theorem ent0_main_v1 (c : Dev nD) : ent0 m c main_v1 = StableHlo.after hostOps0 (Gen.V0 m c) main_v1 := rfl

/-! ## Region 1 -/

/-- Region 0's first two results reach region 1 as the write-backs left them: the reshape writes neither. -/
theorem ent1_main_v2_0 (c : Dev nD) : ent1 m c main_v2_0 = (dat0 (ent0 m) c).arrAt 4 cfg0.N :=
  (Gen.V3_of m (outs0 m) c main_v2_0 (by decide)).trans ((V2_main_v2_0 m (outs0 m) c).trans (exit0_arr m c 4))
theorem ent1_main_v2_1 (c : Dev nD) : ent1 m c main_v2_1 = (dat0 (ent0 m) c).arrAt 5 cfg0.N :=
  (Gen.V3_of m (outs0 m) c main_v2_1 (by decide)).trans ((V2_main_v2_1 m (outs0 m) c).trans (exit0_arr m c 5))
/-- The third result as the second host stretch finds it, -/
theorem V2_outs0_main_v2_2 (c : Dev nD) : Gen.V2 m (outs0 m) c main_v2_2 = (dat0 (ent0 m) c).arrAt 6 cfg0.N :=
  (V2_main_v2_2 m (outs0 m) c).trans (exit0_arr m c 6)
/-- and as it leaves it: laid out as a row. -/
theorem ent1_main_v3 (c : Dev nD) : ent1 m c main_v3 = StableHlo.after hostOps1 (Gen.V2 m (outs0 m) c) main_v3 := rfl
/-- No item before region 1 writes the neighbour table. -/
theorem ent1_main_arg3 (c : Dev nD) : ent1 m c main_arg3 = m ((c : Thread nD τ).loc main_arg3) :=
  (Gen.V3_of m (outs0 m) c main_arg3 (by decide)).trans <| (Gen.V2_of m (outs0 m) c main_arg3 (by decide)).trans <|
    (Gen.V1_of m c main_arg3 (by decide)).trans rfl

end Cert.KernelIdeal.Hand

end
-- ==== Proof.KValue1.lean ====
/-
  Region 1 over the extended reals: the array it leaves is the specification's tiled softmax.

  Region 1 is entered with four arrays in place: the projected features hW (8192 × 128), the first logit half h1 as a
  column, the second logit half h2 as a row, and the neighbour table. Its grid point t = 32·ρ + κ works on rows
  1024·ρ … 1024·ρ + 1023 against columns 256·κ … 256·κ + 255. Fix a row r of the tile and write i = 1024·ρ + r for
  the row of the whole problem. The three scratch values the point leaves at row r are one more step of the running
  softmax of row i of the attention scores: the running maximum, the denominator and the numerator after κ + 1 column
  steps (the scratch is reset before column step 0). So after column step 31 the scratch at row r is the state after
  all 32 steps, and the block the point writes back is ELU(numerator / denominator): the specification's tiled output
  at row i. The eight points that write back tile the result's rows, which gives the whole array.
-/
import proofs.«413656_j34187939676687_3_alg».proof.Proof.BlockReads1
import proofs.«413656_j34187939676687_3_alg».proof.Proof.Spec
import proofs.«413656_j34187939676687_3_alg».proof.Proof.TileValue
import proofs.«413656_j34187939676687_3_alg».proof.Proof.KValue0
import proofs.«413656_j34187939676687_3_alg».proof.Proof.FrameAsm
import proofs.«413656_j34187939676687_3_alg».proof.Proof.FrameEntry
import Idealize.ShloMosaic.Lib.ValueIdx
import Idealize.ShloMosaic.Lib.Pipeline.Value

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat)

/-! ## The running softmax, unfolded one step -/

theorem online_succ (A : Fin 8192 → EReal) (Vv : Fin 8192 → Fin 128 → EReal) (k : ℕ) (h : k < 32) :
    Spec.online A Vv (k + 1) = Spec.step A Vv ⟨k, h⟩ (Spec.online A Vv k) := by
  show (if h' : k < 32 then Spec.step A Vv ⟨k, h'⟩ (Spec.online A Vv k) else Spec.online A Vv k) = _
  rw [dif_pos h]

/-! ## A row of the scratch as a state of the running softmax -/

/-- Row r of the scratch: its maximum, its denominator, its numerator. -/
def rowSt (s : Scr Ideal) (r : Fin 1024) : Spec.St :=
  ⟨s.1 (ix2 r 0), s.2.1 (ix2 r 0), fun f => s.2.2 (ix2 r f)⟩

/-- Two states with the same maximum, denominator and numerator are the same state. -/
theorem st_ext (S S' : Spec.St) (hm : S.m = S'.m) (hl : S.l = S'.l) (hacc : ∀ f, S.acc f = S'.acc f) : S = S' := by
  cases S; cases S'
  simp only at hm hl hacc
  subst hm hl
  congr
  funext f
  exact hacc f

/-! ## One column step of the body, read at a row

The body's step on the scratch is the specification's step on the row, once the tile's scores are the row's attention
scores at the step's 256 columns and the 256 rows of projected features it loads are those columns' features. -/

/-- Column k of a block of neighbour words sits inside the block. -/
theorem inbCol (k : Fin 32) : ∀ a, (![0, k.val] : Fin 2 → Nat) a + S1024x1.size a ≤ S1024x32.size a := by
  intro a
  match a with
  | ⟨0, _⟩ => show 0 + 1024 ≤ 1024; omega
  | ⟨1, _⟩ => show k.val + 1 ≤ 32; omega

/-- Column k of a block of neighbour words, read at row r, is the block's entry (r, k). -/
theorem ld_col (x3 : Vec Ideal S1024x32 .i32) (k : Fin 32)
    (inb : ∀ a, (![0, k.val] : Fin 2 → Nat) a + S1024x1.size a ≤ S1024x32.size a) (r : Fin 1024) :
    View.ld x3 (Rect.unit (s := S1024x32) ![0, k.val] S1024x1.size inb) (ix2 r 0) = x3 (ix2 r k) := by
  show x3 ((Rect.unit (s := S1024x32) ![0, k.val] S1024x1.size inb).emb (ix2 r 0)) = x3 (ix2 r k)
  congr 1
  funext b
  apply Fin.ext
  match b with
  | ⟨0, _⟩ => show 0 + 1 * r.val = r.val; omega
  | ⟨1, _⟩ => show k.val + 1 * 0 = k.val; omega

/-- The 32 columns of a block of neighbour words. -/
def nbCols (x3 : Vec Ideal S1024x32 .i32) : Fin 32 → Vec Ideal S1024x1 .i32 :=
  fun k => View.ld x3 (Rect.unit (s := S1024x32) ![0, k.val] S1024x1.size (inbCol k))

theorem nbCols_apply (x3 : Vec Ideal S1024x32 .i32) (r : Fin 1024) (k : Fin 32) :
    nbCols x3 k (ix2 r 0) = x3 (ix2 r k) :=
  ld_col x3 k (inbCol k) r

/-- The step's mask is the count chain over the block's 32 columns. -/
theorem maskOf_eq (i : grid1.Coords) (x3 : Vec Ideal S1024x32 .i32) :
    maskOf (F := Ideal) i x3 = countChain i (nbCols x3) := rfl

theorem step_row (i : grid1.Coords) (ρ : Fin 8) (κ : Fin 32) (hi0 : (i 0).val = ρ.val) (hi1 : (i 1).val = κ.val)
    (x0 : Vec Ideal S8192x128 .f32) (x1 : Vec Ideal S1024x1 .f32) (x2 : Vec Ideal S1x256 .f32) (x3 : Vec Ideal S1024x32 .i32)
    (x : Fin 8192 → Fin 256 → EReal) (w : Fin 256 → Fin 128 → EReal) (a : Fin 256 → EReal) (n : Fin 8192 → Fin 32 → BitVec 32)
    (r : Fin 1024) (gi : Fin 8192) (hgi : gi.val = 1024 * ρ.val + r.val)
    (hx0 : ∀ (j : Fin 8192) (f : Fin 128), x0 (ix2 j f) = Spec.hW x w j f)
    (hx1 : x1 (ix2 r 0) = Spec.h1 x w a gi)
    (hx2 : ∀ q : Fin 256, x2 (ix2 0 q) = Spec.h2 x w a (Spec.col κ q))
    (hx3 : ∀ k : Fin 32, x3 (ix2 r k) = n gi k)
    (s : Scr Ideal) :
    rowSt (stepUpd i x0 x1 x2 x3 s) r = Spec.step (Spec.att x w a (Spec.kmask n) gi) (Spec.hW x w) κ (rowSt s r) := by
  have hρ : ρ.val < 8 := ρ.isLt
  have hκ : κ.val < 32 := κ.isLt
  -- the tile's scores are row gi's attention scores at the step's columns
  have hA : ∀ q : Fin 256, score (maskOf i x3) (logitOf x1 x2) r q
      = Spec.att x w a (Spec.kmask n) gi (Spec.col κ q) := by
    intro q
    rw [maskOf_eq]
    show score (countChain i (nbCols x3)) (k1_pay16 x1 x2) r q = _
    rw [score_chain i (by omega) (by omega) (nbCols x3) x1 x2 r q]
    have hcnt : (Finset.univ.filter fun k : Fin 32 => (nbCols x3 k (ix2 r 0)).toNat = 256 * (i 1).val + q.val)
        = Finset.univ.filter fun k : Fin 32 => (n gi k).toNat = (Spec.col κ q).val := by
      refine Finset.filter_congr fun k _ => ?_
      show _ ↔ (n gi k).toNat = 256 * κ.val + q.val
      rw [nbCols_apply, hx3 k, hi1]
    have heye : (if 1024 * (i 0).val + r.val = 256 * (i 1).val + q.val then (1 : EReal) else 0)
        = (if gi = Spec.col κ q then (1 : EReal) else 0) := by
      refine if_congr ?_ rfl rfl
      rw [hi0, hi1, ← hgi]
      exact ⟨fun h => Fin.ext h, fun h => congrArg Fin.val h⟩
    rw [hcnt, heye, hx1, hx2 q]
    rfl
  -- the rows of projected features the step loads are the step's columns' features
  have hV : ∀ (q : Fin 256) (f : Fin 128), View.ld x0 (rHW i) (ix2 q f) = Spec.hW x w (Spec.col κ q) f := by
    intro q f
    refine Eq.trans ?_ (hx0 (Spec.col κ q) f)
    show x0 ((rHW i).emb (ix2 q f)) = x0 (ix2 (Spec.col κ q) f)
    congr 1
    funext b
    apply Fin.ext
    have ho := k1_off1_eq i
    match b with
    | ⟨0, _⟩ =>
      show k1_off1 i 0 + 1 * q.val = 256 * κ.val + q.val
      rw [ho, ← hi1]
      show 256 * (i 1).val + 1 * q.val = 256 * (i 1).val + q.val
      omega
    | ⟨1, _⟩ =>
      show k1_off1 i 1 + 1 * f.val = f.val
      rw [ho]
      show 0 + 1 * f.val = f.val
      omega
  obtain ⟨e1, e2, e3⟩ := tile_step (maskOf i x3) (logitOf x1 x2) s.1 s.2.1 s.2.2 (View.ld x0 (rHW i)) r
    (Spec.att x w a (Spec.kmask n) gi) (Spec.hW x w) κ hA hV
  refine st_ext _ _ ?_ ?_ ?_
  · show k1_pay2 (k1_pay18 (maskOf i x3) (logitOf x1 x2) s.1) (ix2 r 0) = _
    rw [pay2_eq]
    exact e1
  · exact e2
  · intro f
    show k1_pay1 (k1_pay22 (maskOf i x3) (logitOf x1 x2) s.1 s.1 (View.ld x0 (rHW i)) s.2.2) (ix2 r f) = _
    rw [pay1_eq]
    exact e3 f

/-- The scratch as reset before column step 0 is the running softmax's initial state, at every row. -/
theorem reset_row (r : Fin 1024) : rowSt (k1_pay4 (F := Ideal), k1_pay5 (F := Ideal), k1_pay6 (F := Ideal)) r = Spec.st0 :=
  st_ext _ _ (pay4_apply (ix2 r 0)) (pay5_apply (ix2 r 0)) (fun f => pay6_apply (ix2 r f))

/-- The output block of a scratch, at (r, f): the row's numerator over its denominator, through ELU. -/
theorem outOf_row (s : Scr Ideal) (r : Fin 1024) (f : Fin 128) :
    outOf s (ix2 r f) = Spec.elu (Ideal.div ((rowSt s r).acc f) (rowSt s r).l) := by
  unfold outOf
  exact out_apply s.2.2 s.2.1 r f

/-! ## What region 1 is entered with -/

section Region
variable (V : (c : Dev nD) → (b : Ref sig .tc) → Buf (Elt Ideal) ((c : Thread nD τ).loc b))
variable (x : Fin 8192 → Fin 256 → EReal) (w : Fin 256 → Fin 128 → EReal) (a : Fin 256 → EReal)
  (n : Fin 8192 → Fin 32 → BitVec 32)

/-- The four arrays region 1 reads, as the specification's functions of the arguments. -/
structure Entered (c : Dev nD) : Prop where
  hW : ∀ (i : Fin 8192) (f : Fin 128), (V c main_v2_0 : S8192x128.Idx → EReal) (ix2 i f) = Spec.hW x w i f
  h1 : ∀ i : Fin 8192, (V c main_v2_1 : S8192x1.Idx → EReal) (ix2 i 0) = Spec.h1 x w a i
  h2 : ∀ j : Fin 8192, (V c main_v3 : S1x8192.Idx → EReal) (ix2 0 j) = Spec.h2 x w a j
  nb : ∀ (i : Fin 8192) (k : Fin 32), (V c main_arg3 : S8192x32.Idx → BitVec 32) (ix2 i k) = n i k

/-- The point's four input blocks, each at its literal type. -/
abbrev hWb (c : Dev nD) (t : Fin cfg1.N) : Vec Ideal S8192x128 .f32 := iblk1 V c 0 t
abbrev h1b (c : Dev nD) (t : Fin cfg1.N) : Vec Ideal S1024x1 .f32 := iblk1 V c 1 t
abbrev h2b (c : Dev nD) (t : Fin cfg1.N) : Vec Ideal S1x256 .f32 := iblk1 V c 2 t
abbrev nbb (c : Dev nD) (t : Fin cfg1.N) : Vec Ideal S1024x32 .i32 := iblk1 V c 3 t

variable {V x w a n}

/-- One point's update of any scratch, read at row r: one step of row 1024·(t / 32) + r's running softmax, at
    column step t % 32. -/
theorem point_step {c : Dev nD} (hE : Entered V x w a n c) (t : Fin cfg1.N) (r : Fin 1024) (gi : Fin 8192)
    (hgi : gi.val = 1024 * (t.val / 32) + r.val) (κ : Fin 32) (hκ : κ.val = t.val % 32) (s : Scr Ideal) :
    rowSt (stepUpd (grid1.coords t) (hWb V c t) (h1b V c t) (h2b V c t) (nbb V c t) s) r
      = Spec.step (Spec.att x w a (Spec.kmask n) gi) (Spec.hW x w) κ (rowSt s r) := by
  have ht : t.val < 256 := lt_of_lt_of_eq t.isLt N_1
  obtain ⟨c0, c1⟩ := coords1 t
  refine step_row (grid1.coords t) ⟨t.val / 32, by omega⟩ κ c0 (c1.trans hκ.symm)
    (hWb V c t) (h1b V c t) (h2b V c t) (nbb V c t) x w a n r gi hgi ?_ ?_ ?_ ?_ s
  · intro j f
    exact (hWblk_apply V c t (ix2 j f)).trans (hE.hW j f)
  · exact (h1blk_apply V c t (ix2 r 0) (ix2 gi 0) (by show gi.val = _; rw [hgi]) rfl).trans (hE.h1 gi)
  · intro q
    exact (h2blk_apply V c t (ix2 0 q) (ix2 0 (Spec.col κ q)) rfl
      (by show 256 * κ.val + q.val = 256 * (t.val % 32) + q.val; rw [hκ])).trans (hE.h2 (Spec.col κ q))
  · intro k
    exact (nbblk_apply V c t (ix2 r k) (ix2 gi k) (by show gi.val = _; rw [hgi]) rfl).trans (hE.nb gi k)

/-! ## The scratch after every point -/

/-- After point k = 32·ρ + κ the scratch at row r is the running softmax of row 1024·ρ + r after κ + 1 steps. -/
theorem scratch_online {c : Dev nD} (hE : Entered V x w a n c) :
    ∀ (k : ℕ) (hk : k < cfg1.N) (r : Fin 1024) (gi : Fin 8192), gi.val = 1024 * (k / 32) + r.val →
      rowSt (outsAt1 V c k hk).2 r
        = Spec.online (Spec.att x w a (Spec.kmask n) gi) (Spec.hW x w) (k % 32 + 1) := by
  intro k
  induction k with
  | zero =>
    intro hk r gi hgi
    rw [outsAt1_A V c ⟨0, hk⟩ rfl]
    dsimp only
    unfold stepA
    refine (point_step hE ⟨0, hk⟩ r gi hgi ⟨0, by omega⟩ rfl _).trans ?_
    rw [reset_row]
    exact (online_succ _ _ 0 (by omega)).symm
  | succ k ih =>
    intro hk r gi hgi
    have hk256 : k + 1 < 256 := lt_of_lt_of_eq hk N_1
    by_cases h0 : (k + 1) % 32 = 0
    · rw [outsAt1_A V c ⟨k + 1, hk⟩ h0]
      dsimp only
      unfold stepA
      refine (point_step hE ⟨k + 1, hk⟩ r gi hgi ⟨0, by omega⟩ h0.symm _).trans ?_
      rw [reset_row, h0]
      exact (online_succ _ _ 0 (by omega)).symm
    · have hprev : rowSt (outsAt1 V c k (Nat.lt_of_succ_lt hk)).2 r
          = Spec.online (Spec.att x w a (Spec.kmask n) gi) (Spec.hW x w) ((k + 1) % 32) := by
        rw [ih (Nat.lt_of_succ_lt hk) r gi (by omega)]
        congr 1
        omega
      rw [online_succ _ _ ((k + 1) % 32) (Nat.mod_lt _ (by decide))]
      by_cases h1 : (k + 1) % 32 = 31
      · rw [outsAt1_C V c ⟨k + 1, hk⟩ h1]
        dsimp only
        unfold stepC
        refine (point_step hE ⟨k + 1, hk⟩ r gi hgi ⟨(k + 1) % 32, Nat.mod_lt _ (by decide)⟩ rfl _).trans ?_
        exact congrArg _ hprev
      · rw [outsAt1_B V c ⟨k + 1, hk⟩ h0 h1]
        dsimp only
        unfold stepB
        refine (point_step hE ⟨k + 1, hk⟩ r gi hgi ⟨(k + 1) % 32, Nat.mod_lt _ (by decide)⟩ rfl _).trans ?_
        exact congrArg _ hprev

/-! ## The block a point writes back, and the whole array -/

variable (x w a n) in
/-- The specification's tiled output as an array of the result's shape. -/
def outFn : S8192x128.Idx → EReal := fun idx => Spec.kernelOut x w a n (idx 0) (idx 1)

/-- What a point at column step 31 writes back is its block of the tiled output. -/
theorem flushed_eq {c : Dev nD} (hE : Entered V x w a n c) (t : Fin cfg1.N) (hf : (cfg1.win 4).flush t = true) :
    (dat1 V c).flushed 4 t = ((cfg1.win 4).blk t).view.read (Elt Ideal) (outFn x w a n) := by
  have h31 : t.val % 32 = 31 := (flush1_4 t).mp hf
  have ht : t.val < 256 := lt_of_lt_of_eq t.isLt N_1
  show (cfg1.win 4).cut (grid1.coords t) ((dat1 V c).after 4 t) = _
  rw [after1_4]
  funext y
  obtain ⟨r, f, rfl⟩ : ∃ (r : Fin 1024) (f : Fin 128), (y : S1024x128.Idx) = ix2 r f :=
    ⟨y 0, y 1, eq_ix2 (y : S1024x128.Idx)⟩
  refine Eq.trans ?_ (outblk_read_apply (F := Ideal) c t (outFn x w a n) (ix2 r f)
    (ix2 ⟨1024 * (t.val / 32) + r.val, by omega⟩ f) rfl rfl).symm
  show outOf (outsAt1 V c t.val t.isLt).2 (ix2 r f)
    = Spec.kernelOut x w a n ⟨1024 * (t.val / 32) + r.val, by omega⟩ f
  rw [outOf_row, scratch_online hE t.val t.isLt r ⟨1024 * (t.val / 32) + r.val, by omega⟩ rfl, h31]
  rfl

/-- The array region 1 leaves: the specification's tiled output. -/
theorem out_array {c : Dev nD} (hE : Entered V x w a n c) :
    (dat1 V c).arrAt 4 cfg1.N = outFn x w a n :=
  (dat1 V c).arrAt_eq_of_cover 4 (outFn x w a n) (flushed_eq hE) out_cover

end Region

/-! ## The run's result array

Region 1 is entered, in the run, with region 0's three arrays (the second logit column laid out as a row by the host)
and the neighbour table as launched; these are the specification's hW, h1, h2 of the arguments. -/

section AtLaunch
variable (m : (ℓ : Loc nD τ sig) → Buf (Elt Ideal) ℓ)

theorem entered1 (c : Dev nD) :
    Entered (ent1 m)
      (Spec.c2 (m ((c.tc : Thread nD τ).loc main_arg0) : S8192x256.Idx → EReal))
      (Spec.c2 (m ((c.tc : Thread nD τ).loc main_arg1) : S256x128.Idx → EReal))
      (fun k => (m ((c.tc : Thread nD τ).loc main_arg2) : S256x1.Idx → EReal) (ix2 k 0))
      (Spec.c2 (m ((c.tc : Thread nD τ).loc main_arg3) : S8192x32.Idx → BitVec 32)) c where
  hW i f := (congrFun (ent1_main_v2_0 m c) (ix2 i f)).trans (congrFun (hW_array_launch m c) (ix2 i f))
  h1 i := (congrFun (ent1_main_v2_1 m c) (ix2 i 0)).trans (congrFun (h1_array_launch m c) (ix2 i 0))
  h2 j := by
    refine (hostOps1_main_v3_apply (Gen.V2 m (outs0 m) c) j).trans ?_
    refine (congrFun (V2_outs0_main_v2_2 m c) (ix2 j 0)).trans ?_
    exact congrFun (h2_array_launch m c) (ix2 j 0)
  nb i k := congrFun (ent1_main_arg3 m c) (ix2 i k)

/-- The array the run leaves in the result: the specification's tiled softmax of the arguments. -/
theorem kernelOutArr_eq (c : Dev nD) :
    kernelOutArr (F := Ideal) m c
      = fun idx => Spec.kernelOut (Spec.c2 (m ((c.tc : Thread nD τ).loc main_arg0)))
          (Spec.c2 (m ((c.tc : Thread nD τ).loc main_arg1)))
          (fun k => m ((c.tc : Thread nD τ).loc main_arg2) (ix2 k 0))
          (Spec.c2 (m ((c.tc : Thread nD τ).loc main_arg3))) (idx 0) (idx 1) :=
  out_array (entered1 m c)

end AtLaunch

end Cert.KernelIdeal.HandValue

end
-- ==== Proof.PreDecode.lean ====
/-
  What the printed precondition says of the four argument arrays.

  The predicate is a conjunction of five `all`s: |x| < +inf over every entry of each of the three
  float arrays, and 0 ≤ n, n < 8192 (both signed) over every neighbour word. At the extended reals
  |x| is max x (−x) and +inf is ⊤, so |x| < ⊤ holds exactly when x is a real number; a 32-bit word
  that is signed-nonnegative and signed-below 8192 has unsigned value below 8192.
-/
import proofs.«413656_j34187939676687_3_alg».proof.Pre_finite_inputs
import proofs.«413656_j34187939676687_3_alg».proof.Proof.Gen.Pre_finite_inputs
import proofs.«413656_j34187939676687_3_alg».proof.Proof.Spec
import Idealize.ShloMosaic.Lib.ReduceAll
import Idealize.ShloMosaic.Lib.ValueIdx
import Idealize.ShloMosaic.PureOps.Ideal

noncomputable section

namespace Cert.PreDecode

open Idealize.ShloMosaic Cert.Pre_finite_inputs Cert.Spec

/-- The rank-0 shape has one index. -/
instance subsingleton_scalar_idx : Subsingleton S_.Idx := ⟨fun a b => funext fun d => d.elim0⟩

/-- An extended real whose absolute value is below +inf is a real number: the pattern 0x7F800000 denotes ⊤,
    and max x (−x) is ⊤ at both infinities. -/
theorem real_of_abs_lt_inf (x : EReal)
    (h : Ideal.cmp .olt (max x (-x)) (Ideal.ofBits .f32 0x7F800000#32) = 1#1) : ∃ r : ℝ, x = (r : EReal) := by
  have hinf : Ideal.ofBits .f32 0x7F800000#32 = ⊤ := by simp [Ideal.ofBits, Ideal.ieee]
  rw [hinf] at h
  induction x using EReal.rec with
  | bot => simp [Ideal.cmp] at h
  | coe r => exact ⟨r, rfl⟩
  | top => simp [Ideal.cmp] at h

/-- A word that is signed-nonnegative and signed-below 8192 is below 8192 unsigned: a nonnegative signed
    value is the unsigned value, and a word with the top bit set reads negative. -/
theorem toNat_lt_of_signed (v : BitVec 32) (h0 : IntOp.cmpi .sge v 0#32 = 1#1) (h1 : IntOp.cmpi .slt v 8192#32 = 1#1) :
    v.toNat < 8192 := by
  rw [IntOp.cmpi_sge] at h0
  rw [IntOp.cmpi_slt] at h1
  have e0 : (0#32 : BitVec 32).toInt = 0 := by decide
  have e1 : (8192#32 : BitVec 32).toInt = 8192 := by decide
  rw [e0] at h0
  rw [e1] at h1
  rw [BitVec.toInt_eq_toNat_cond] at h0 h1
  split at h0 <;> omega

section

variable (X : FVec Ideal S8192x256 .f32) (W : FVec Ideal S256x128 .f32) (A : FVec Ideal S256x1 .f32)
  (Nn : IVec S8192x32 32)

/-- The five `all`s of the predicate, each read at an index: the scalar result is a conjunction of five
    reductions by `and` from 1, and a reduction over every axis that is 1 met 1 at every index. -/
theorem split (h : Cert.Pre_finite_inputs.fn (F := Ideal) X W A Nn = fun _ => 1#1) :
    (∀ i, Ideal.cmp .olt (max (X i) (-(X i))) (Ideal.ofBits .f32 0x7F800000#32) = 1#1) ∧
    (∀ i, Ideal.cmp .olt (max (W i) (-(W i))) (Ideal.ofBits .f32 0x7F800000#32) = 1#1) ∧
    (∀ i, Ideal.cmp .olt (max (A i) (-(A i))) (Ideal.ofBits .f32 0x7F800000#32) = 1#1) ∧
    (∀ i, IntOp.cmpi .sge (Nn i) 0#32 = 1#1) ∧
    (∀ i, IntOp.cmpi .slt (Nn i) 8192#32 = 1#1) := by
  have h0 := congrFun h ValueIdx.ix0
  dsimp only [Cert.Pre_finite_inputs.fn, Cert.Pre_finite_inputs.fn_part1] at h0
  simp only [Idealize.ShloMosaic.andi, IntOp.andi_eq_one] at h0
  obtain ⟨⟨⟨⟨hx, hw⟩, ha⟩, hn0⟩, hn1⟩ := h0
  refine ⟨fun i => ?_, fun i => ?_, fun i => ?_, fun i => ?_, fun i => ?_⟩
  · exact Host.reduce_andi_all _ _ _ _ _ hx i
  · exact Host.reduce_andi_all _ _ _ _ _ hw i
  · exact Host.reduce_andi_all _ _ _ _ _ ha i
  · exact Host.reduce_andi_all _ _ _ _ _ hn0 i
  · exact Host.reduce_andi_all _ _ _ _ _ hn1 i

/-- Every entry of the feature array is a real number. -/
theorem finite_x (h : Cert.Pre_finite_inputs.fn (F := Ideal) X W A Nn = fun _ => 1#1) : Finite2 (c2 X) :=
  fun i j => real_of_abs_lt_inf _ ((split X W A Nn h).1 (ValueIdx.ix2 i j))

/-- Every entry of the weight array is a real number. -/
theorem finite_w (h : Cert.Pre_finite_inputs.fn (F := Ideal) X W A Nn = fun _ => 1#1) : Finite2 (c2 W) :=
  fun i j => real_of_abs_lt_inf _ ((split X W A Nn h).2.1 (ValueIdx.ix2 i j))

/-- Every entry of the attention vector (a single column) is a real number. -/
theorem finite_a (h : Cert.Pre_finite_inputs.fn (F := Ideal) X W A Nn = fun _ => 1#1) :
    Finite1 (fun k => A (ValueIdx.ix2 k 0)) :=
  fun k => real_of_abs_lt_inf _ ((split X W A Nn h).2.2.1 (ValueIdx.ix2 k 0))

/-- Every neighbour word names one of the 8192 columns. -/
theorem in_range (h : Cert.Pre_finite_inputs.fn (F := Ideal) X W A Nn = fun _ => 1#1) : InRange (c2 Nn) :=
  fun i k => toNat_lt_of_signed _ ((split X W A Nn h).2.2.2.1 (ValueIdx.ix2 i k)) ((split X W A Nn h).2.2.2.2 (ValueIdx.ix2 i k))

end

end Cert.PreDecode

end
-- ==== Proof.MaskMath.lean ====
/-
  With every neighbour word naming a column, each row of counts sums to 32 (each of the 32 words is
  counted at exactly one column), so counts / 32 sums to 1 over a row, the row with the identity added
  sums to 2, and the twice-normalised mask is  cnt/64 + [i = j]/2.
-/
import proofs.«413656_j34187939676687_3_alg».proof.Proof.Spec
import proofs.«413656_j34187939676687_3_alg».proof.Proof.Lits

noncomputable section

namespace Cert.Spec

open Idealize.ShloMosaic

/-- Each of the 32 words of row i names exactly one column, so the counts of a row add up to 32:
    the 32 positions are partitioned by the column they name. -/
theorem sum_cnt (n : Fin 8192 → Fin 32 → BitVec 32) (hn : InRange n) (i : Fin 8192) :
    ∑ j : Fin 8192, cnt n i j = 32 := by
  have h := Finset.card_eq_sum_card_fiberwise (s := (Finset.univ : Finset (Fin 32)))
    (t := (Finset.univ : Finset (Fin 8192))) (f := fun k => (⟨(n i k).toNat, hn i k⟩ : Fin 8192))
    (fun _ _ => Finset.mem_coe.2 (Finset.mem_univ _))
  rw [Finset.card_univ, Fintype.card_fin] at h
  rw [h]
  refine Finset.sum_congr rfl fun j _ => ?_
  unfold cnt
  congr 1
  ext k
  simp [Fin.ext_iff]

/-- The embedding of the reals into the extended reals carries finite sums to finite sums. -/
private theorem coe_sum {ι : Type} (s : Finset ι) (f : ι → ℝ) :
    ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- The identity matrix's entry as a real number. -/
private def eyeR (i j : Fin 8192) : ℝ := if i = j then 1 else 0

private theorem eye_eq (i j : Fin 8192) : eye i j = ((eyeR i j : ℝ) : EReal) := by
  unfold eye eyeR
  split_ifs <;> simp

private theorem sum_eyeR (i : Fin 8192) : ∑ j : Fin 8192, eyeR i j = 1 := by
  simp [eyeR]

/-- A row of counts, as reals, sums to 32. -/
private theorem sum_cntR (n : Fin 8192 → Fin 32 → BitVec 32) (hn : InRange n) (i : Fin 8192) :
    ∑ j : Fin 8192, (cnt n i j : ℝ) = 32 := by
  have h := sum_cnt n hn i
  exact_mod_cast h

private theorem sum_cntE (n : Fin 8192 → Fin 32 → BitVec 32) (hn : InRange n) (i : Fin 8192) :
    ∑ j : Fin 8192, cntE n i j = ((32 : ℝ) : EReal) := by
  unfold cntE
  rw [← coe_sum, sum_cntR n hn i]

/-- Once normalised, with the identity added: the real number cnt/32 + [i = j]. -/
private theorem rmask1_eq (n : Fin 8192 → Fin 32 → BitVec 32) (hn : InRange n) (i j : Fin 8192) :
    rmask1 n i j = (((cnt n i j : ℝ) * (1 / 32) + eyeR i j : ℝ) : EReal) := by
  unfold rmask1
  rw [sum_cntE n hn i, Ideal.div_coe (by norm_num : (32 : ℝ) ≠ 0), eye_eq, cntE, ← EReal.coe_mul,
    ← EReal.coe_add]

/-- The second row sum is 32/32 + 1 = 2. -/
private theorem sum_rmask1 (n : Fin 8192 → Fin 32 → BitVec 32) (hn : InRange n) (i : Fin 8192) :
    ∑ j : Fin 8192, rmask1 n i j = ((2 : ℝ) : EReal) := by
  have h : ∑ j : Fin 8192, ((cnt n i j : ℝ) * (1 / 32) + eyeR i j) = 2 := by
    rw [Finset.sum_add_distrib, ← Finset.sum_mul, sum_cntR n hn i, sum_eyeR]
    norm_num
  rw [← h, coe_sum]
  exact Finset.sum_congr rfl fun j _ => rmask1_eq n hn i j

/-- The closed form as a real number. -/
private theorem kmask_eq (n : Fin 8192 → Fin 32 → BitVec 32) (i j : Fin 8192) :
    kmask n i j = (((cnt n i j : ℝ) * (1 / 64) + eyeR i j * (1 / 2) : ℝ) : EReal) := by
  unfold kmask
  rw [lit64_eq, litHalf_eq, eye_eq, cntE, ← EReal.coe_mul, ← EReal.coe_mul, ← EReal.coe_add]

theorem rmask_eq_kmask (n : Fin 8192 → Fin 32 → BitVec 32) (hn : InRange n) : rmask n = kmask n := by
  funext i j
  unfold rmask
  rw [sum_rmask1 n hn i, Ideal.div_coe (by norm_num : (2 : ℝ) ≠ 0), rmask1_eq n hn i j, kmask_eq,
    ← EReal.coe_mul]
  congr 1
  ring

theorem kmask_finite (n : Fin 8192 → Fin 32 → BitVec 32) : Finite2 (kmask n) :=
  fun i j => ⟨_, kmask_eq n i j⟩

end Cert.Spec

end
-- ==== Proof.SoftmaxMath.lean ====
/-
  Running softmax equals one-shot softmax on a row of real scores A and real values V.
  Invariant after k column steps, with M_k the maximum of the first 256·k scores:
     m = M_k ,  l = Σ_{j < 256k} exp(A j − M_k) ,  acc f = Σ_{j < 256k} exp(A j − M_k) · V j f ,
  kept by  exp(M_old − M_new) · exp(A j − M_old) = exp(A j − M_new)  (at the first step the old maximum is −∞
  and the rescaling factor exp(−∞) is 0, against l = acc = 0). After 32 steps  acc f / l  is
  Σ_j (exp(A j − M) / Σ_j' exp(A j' − M)) · V j f : a quotient of real sums, the denominator at least 1.
-/
import proofs.«413656_j34187939676687_3_alg».proof.Proof.Spec
import Mathlib.Data.Finset.Lattice.Fold
import Mathlib.Algebra.BigOperators.Group.Finset.Basic

noncomputable section

namespace Cert.Spec

open Idealize.ShloMosaic

/-! ## Finite sums of reals read in the extended reals -/

theorem coe_sum {ι : Type} (s : Finset ι) (g : ι → ℝ) :
    ∑ j ∈ s, ((g j : ℝ) : EReal) = ((∑ j ∈ s, g j : ℝ) : EReal) :=
  (map_sum (⟨⟨Real.toEReal, EReal.coe_zero⟩, EReal.coe_add⟩ : ℝ →+ EReal) g s).symm

/-! ## The columns seen after k steps, and the columns of one step -/

/-- The first 256·k columns. -/
def pre (k : ℕ) : Finset (Fin 8192) := Finset.univ.filter fun j => j.val < 256 * k

/-- The 256 columns of step c. -/
def blk (c : Fin 32) : Finset (Fin 8192) := Finset.univ.image (col c)

theorem mem_pre (k : ℕ) (j : Fin 8192) : j ∈ pre k ↔ j.val < 256 * k := by
  simp [pre]

theorem mem_blk (c : Fin 32) (j : Fin 8192) :
    j ∈ blk c ↔ 256 * c.val ≤ j.val ∧ j.val < 256 * c.val + 256 := by
  constructor
  · intro h
    obtain ⟨q, _, rfl⟩ := Finset.mem_image.mp h
    have := q.isLt
    simp only [col]
    omega
  · rintro ⟨h1, h2⟩
    exact Finset.mem_image.mpr ⟨⟨j.val - 256 * c.val, by omega⟩, Finset.mem_univ _, Fin.ext (by simp only [col]; omega)⟩

theorem col_injective (c : Fin 32) : Function.Injective (col c) := by
  intro p q h
  have := congrArg Fin.val h
  simp only [col] at this
  exact Fin.ext (by omega)

theorem pre_zero : pre 0 = ∅ := by
  ext j; simp [mem_pre]

theorem pre_full : pre 32 = Finset.univ := by
  ext j
  have := j.isLt
  simp only [mem_pre, Finset.mem_univ, iff_true]
  omega

theorem pre_succ (c : Fin 32) : pre (c.val + 1) = pre c.val ∪ blk c := by
  ext j
  rw [Finset.mem_union, mem_pre, mem_pre, mem_blk]
  omega

theorem pre_disjoint (c : Fin 32) : Disjoint (pre c.val) (blk c) := by
  rw [Finset.disjoint_left]
  intro j hp hb
  rw [mem_pre] at hp
  rw [mem_blk] at hb
  omega

theorem pre_succ_nonempty (c : Fin 32) : (pre (c.val + 1)).Nonempty :=
  ⟨⟨0, by omega⟩, by rw [mem_pre]; simp⟩

theorem sum_blk (c : Fin 32) (g : Fin 8192 → EReal) :
    ∑ q : Fin 256, g (col c q) = ∑ j ∈ blk c, g j := by
  rw [blk, Finset.sum_image (fun p _ q _ h => col_injective c h)]

theorem sup_blk (c : Fin 32) (A : Fin 8192 → EReal) :
    (Finset.univ.sup fun q : Fin 256 => A (col c q)) = (blk c).sup A := by
  rw [blk, Finset.sup_image]; rfl

/-! ## The maximum of finitely many reals is one of them -/

theorem sup_real (A : Fin 8192 → EReal) (hA : Finite1 A) (S : Finset (Fin 8192)) (hS : S.Nonempty) :
    ∃ μ : ℝ, S.sup A = (μ : EReal) := by
  obtain ⟨i, _, hi⟩ := Finset.exists_mem_eq_sup S hS A
  obtain ⟨r, hr⟩ := hA i
  exact ⟨r, hi.trans hr⟩

/-! ## Rescaling a partial sum from its own maximum to a later one -/

/-- exp(M − μ') · Σ_S exp(A j − M) · W j = Σ_S exp(A j − μ') · W j, with M the maximum of A over S
    (over the empty set M = −∞, the factor is 0 and both sides are 0). -/
theorem rescale (A W : Fin 8192 → EReal) (hA : Finite1 A) (hW : Finite1 W) (S : Finset (Fin 8192)) (μ' : ℝ) :
    Ideal.exp (S.sup A - (μ' : EReal)) * ∑ j ∈ S, Ideal.exp (A j - S.sup A) * W j
      = ∑ j ∈ S, Ideal.exp (A j - (μ' : EReal)) * W j := by
  rcases S.eq_empty_or_nonempty with rfl | hS
  · simp
  · obtain ⟨μ, hμ⟩ := sup_real A hA S hS
    choose a ha using hA
    choose w hw using hW
    rw [hμ]
    have h1 : ∀ j, Ideal.exp (A j - (μ : EReal)) * W j = ((Real.exp (a j - μ) * w j : ℝ) : EReal) := by
      intro j; rw [ha, hw, ← EReal.coe_sub, Ideal.exp_coe, ← EReal.coe_mul]
    have h2 : ∀ j, Ideal.exp (A j - (μ' : EReal)) * W j = ((Real.exp (a j - μ') * w j : ℝ) : EReal) := by
      intro j; rw [ha, hw, ← EReal.coe_sub, Ideal.exp_coe, ← EReal.coe_mul]
    simp only [h1, h2]
    rw [coe_sum, coe_sum, ← EReal.coe_sub, Ideal.exp_coe, ← EReal.coe_mul]
    congr 1
    rw [Finset.mul_sum]
    refine Finset.sum_congr rfl fun j _ => ?_
    rw [← mul_assoc, ← Real.exp_add]
    congr 2
    ring

/-- The same with every weight 1. -/
theorem rescale_one (A : Fin 8192 → EReal) (hA : Finite1 A) (S : Finset (Fin 8192)) (μ' : ℝ) :
    Ideal.exp (S.sup A - (μ' : EReal)) * ∑ j ∈ S, Ideal.exp (A j - S.sup A)
      = ∑ j ∈ S, Ideal.exp (A j - (μ' : EReal)) := by
  have h := rescale A (fun _ => 1) hA (fun _ => ⟨1, rfl⟩) S μ'
  simpa only [mul_one] using h

/-! ## The invariant -/

/-- One column step keeps the invariant. -/
theorem step_inv (A : Fin 8192 → EReal) (V : Fin 8192 → Fin 128 → EReal) (hA : Finite1 A) (hV : Finite2 V)
    (c : Fin 32) (s : St)
    (hm : s.m = (pre c.val).sup A)
    (hl : s.l = ∑ j ∈ pre c.val, Ideal.exp (A j - (pre c.val).sup A))
    (hacc : ∀ f, s.acc f = ∑ j ∈ pre c.val, Ideal.exp (A j - (pre c.val).sup A) * V j f) :
    (step A V c s).m = (pre (c.val + 1)).sup A ∧
    (step A V c s).l = ∑ j ∈ pre (c.val + 1), Ideal.exp (A j - (pre (c.val + 1)).sup A) ∧
    ∀ f, (step A V c s).acc f = ∑ j ∈ pre (c.val + 1), Ideal.exp (A j - (pre (c.val + 1)).sup A) * V j f := by
  have hmNew : max s.m (Finset.univ.sup fun q : Fin 256 => A (col c q)) = (pre (c.val + 1)).sup A := by
    rw [hm, sup_blk, pre_succ, Finset.sup_union]
  obtain ⟨μ', hμ'⟩ := sup_real A hA _ (pre_succ_nonempty c)
  refine ⟨hmNew, ?_, ?_⟩
  · show Ideal.exp (s.m - max s.m (Finset.univ.sup fun q : Fin 256 => A (col c q))) * s.l
        + ∑ q : Fin 256, Ideal.exp (A (col c q) - max s.m (Finset.univ.sup fun q : Fin 256 => A (col c q))) = _
    rw [hmNew, hμ', hm, hl, rescale_one A hA, sum_blk c (fun j => Ideal.exp (A j - (μ' : EReal))),
      pre_succ, Finset.sum_union (pre_disjoint c)]
  · intro f
    show Ideal.exp (s.m - max s.m (Finset.univ.sup fun q : Fin 256 => A (col c q))) * s.acc f
        + ∑ q : Fin 256, Ideal.exp (A (col c q) - max s.m (Finset.univ.sup fun q : Fin 256 => A (col c q))) * V (col c q) f = _
    rw [hmNew, hμ', hm, hacc f, rescale A (fun j => V j f) hA (fun j => hV j f),
      sum_blk c (fun j => Ideal.exp (A j - (μ' : EReal)) * V j f),
      pre_succ, Finset.sum_union (pre_disjoint c)]

/-- After k ≤ 32 steps: the running maximum is the maximum of the first 256·k scores, and the running sums
    are the partial sums taken against it. -/
theorem online_inv (A : Fin 8192 → EReal) (V : Fin 8192 → Fin 128 → EReal) (hA : Finite1 A) (hV : Finite2 V)
    (k : ℕ) (hk : k ≤ 32) :
    (online A V k).m = (pre k).sup A ∧
    (online A V k).l = ∑ j ∈ pre k, Ideal.exp (A j - (pre k).sup A) ∧
    ∀ f, (online A V k).acc f = ∑ j ∈ pre k, Ideal.exp (A j - (pre k).sup A) * V j f := by
  induction k with
  | zero =>
    refine ⟨?_, ?_, fun f => ?_⟩ <;> simp [online, st0, pre_zero]
  | succ k ih =>
    have hk' : k < 32 := by omega
    obtain ⟨ihm, ihl, ihacc⟩ := ih (by omega)
    have hon : online A V (k + 1) = step A V ⟨k, hk'⟩ (online A V k) := by
      simp only [online, dif_pos hk']
    rw [hon]
    exact step_inv A V hA hV ⟨k, hk'⟩ (online A V k) ihm ihl ihacc

theorem onlineAgg_eq_softAgg (A : Fin 8192 → EReal) (V : Fin 8192 → Fin 128 → EReal)
    (hA : Finite1 A) (hV : Finite2 V) (f : Fin 128) : onlineAgg A V f = softAgg A V f := by
  obtain ⟨_, hl, hacc⟩ := online_inv A V hA hV 32 le_rfl
  rw [pre_full] at hl hacc
  obtain ⟨μ, hμ⟩ := sup_real A hA Finset.univ Finset.univ_nonempty
  choose a ha using hA
  choose v hv using hV
  have he : ∀ j, Ideal.exp (A j - (μ : EReal)) = ((Real.exp (a j - μ) : ℝ) : EReal) := by
    intro j; rw [ha, ← EReal.coe_sub, Ideal.exp_coe]
  have hLpos : (0 : ℝ) < ∑ j : Fin 8192, Real.exp (a j - μ) :=
    Finset.sum_pos (fun j _ => Real.exp_pos _) Finset.univ_nonempty
  have hL : ∑ j : Fin 8192, ((Real.exp (a j - μ) : ℝ) : EReal)
      = ((∑ j : Fin 8192, Real.exp (a j - μ) : ℝ) : EReal) := coe_sum _ _
  unfold onlineAgg softAgg
  rw [hl, hacc f, hμ]
  simp only [he, hv, hL, Ideal.div_coe hLpos.ne', ← EReal.coe_mul]
  rw [coe_sum, coe_sum, ← EReal.coe_mul, EReal.coe_eq_coe_iff, Finset.sum_mul]
  refine Finset.sum_congr rfl fun j _ => ?_
  ring

end Cert.Spec

end
-- ==== Proof.FiniteMath.lean ====
/-
  Finite inputs give finite intermediates: finite sums of products of reals are real, and the score
  passed through the leaky slope and the zero-fill is a real number whenever mask and logits are.
-/
import proofs.«413656_j34187939676687_3_alg».proof.Proof.Spec
import proofs.«413656_j34187939676687_3_alg».proof.Proof.Lits

noncomputable section

namespace Cert.Spec

open Idealize.ShloMosaic

/-- A finite sum of real numbers is a real number. -/
private theorem real_sum {ι : Type} (s : Finset ι) (g : ι → EReal)
    (hg : ∀ k, ∃ r : ℝ, g k = (r : EReal)) : ∃ r : ℝ, s.sum g = (r : EReal) := by
  classical
  refine Finset.induction_on s ⟨0, by simp⟩ ?_
  intro k s hk ih
  obtain ⟨r, hr⟩ := ih
  obtain ⟨q, hq⟩ := hg k
  exact ⟨q + r, by rw [Finset.sum_insert hk, hq, hr, ← EReal.coe_add]⟩

/-- A product of two real numbers is a real number. -/
private theorem real_mul {u v : EReal} (hu : ∃ r : ℝ, u = (r : EReal)) (hv : ∃ r : ℝ, v = (r : EReal)) :
    ∃ r : ℝ, u * v = (r : EReal) := by
  obtain ⟨p, rfl⟩ := hu
  obtain ⟨q, rfl⟩ := hv
  exact ⟨p * q, (EReal.coe_mul p q).symm⟩

/-- A sum of two real numbers is a real number. -/
private theorem real_add {u v : EReal} (hu : ∃ r : ℝ, u = (r : EReal)) (hv : ∃ r : ℝ, v = (r : EReal)) :
    ∃ r : ℝ, u + v = (r : EReal) := by
  obtain ⟨p, rfl⟩ := hu
  obtain ⟨q, rfl⟩ := hv
  exact ⟨p + q, (EReal.coe_add p q).symm⟩

/-- The leaky slope of a real number is a real number: the number itself, or the slope times it. -/
private theorem lrelu_real {z : EReal} (hz : ∃ r : ℝ, z = (r : EReal)) : ∃ r : ℝ, lrelu z = (r : EReal) := by
  unfold lrelu
  split_ifs
  · exact hz
  · obtain ⟨s, -, hs⟩ := litSlope_real
    exact real_mul ⟨s, hs⟩ hz

/-- The zero-fill of a real number is a real number: the number itself, or the fill. -/
private theorem fillz_real {z : EReal} (hz : ∃ r : ℝ, z = (r : EReal)) : ∃ r : ℝ, fillz z = (r : EReal) := by
  unfold fillz
  split_ifs
  · exact hz
  · obtain ⟨s, -, hs⟩ := litFill_real
    exact ⟨s, hs⟩

theorem hW_finite (x : Fin 8192 → Fin 256 → EReal) (W : Fin 256 → Fin 128 → EReal) (hx : Finite2 x) (hw : Finite2 W) :
    Finite2 (hW x W) := by
  intro i f
  exact real_sum _ _ fun k => real_mul (hx i k) (hw k f)

/-- Both logit halves are real: sums over the 128 features of a real times a real. -/
private theorem h1_real (x : Fin 8192 → Fin 256 → EReal) (W : Fin 256 → Fin 128 → EReal) (a : Fin 256 → EReal)
    (hx : Finite2 x) (hw : Finite2 W) (ha : Finite1 a) (i : Fin 8192) : ∃ r : ℝ, h1 x W a i = (r : EReal) :=
  real_sum _ _ fun f => real_mul (hW_finite x W hx hw i f) (ha _)

private theorem h2_real (x : Fin 8192 → Fin 256 → EReal) (W : Fin 256 → Fin 128 → EReal) (a : Fin 256 → EReal)
    (hx : Finite2 x) (hw : Finite2 W) (ha : Finite1 a) (j : Fin 8192) : ∃ r : ℝ, h2 x W a j = (r : EReal) :=
  real_sum _ _ fun f => real_mul (hW_finite x W hx hw j f) (ha _)

theorem att_finite (x : Fin 8192 → Fin 256 → EReal) (W : Fin 256 → Fin 128 → EReal) (a : Fin 256 → EReal)
    (mask : Fin 8192 → Fin 8192 → EReal) (hx : Finite2 x) (hw : Finite2 W) (ha : Finite1 a) (hm : Finite2 mask)
    (i : Fin 8192) : Finite1 (att x W a mask i) := by
  intro j
  exact fillz_real (lrelu_real (real_mul (hm i j)
    (real_add (h1_real x W a hx hw ha i) (h2_real x W a hx hw ha j))))

end Cert.Spec

end
-- ==== Proof.SpecMain.lean ====
/-
  The two programs' results agree: the masks agree (in-range neighbour words), so the scores agree, and on
  a row of real scores and real values the running softmax is the one-shot softmax.
-/
import proofs.«413656_j34187939676687_3_alg».proof.Proof.Spec
import proofs.«413656_j34187939676687_3_alg».proof.Proof.MaskMath
import proofs.«413656_j34187939676687_3_alg».proof.Proof.SoftmaxMath
import proofs.«413656_j34187939676687_3_alg».proof.Proof.FiniteMath

noncomputable section

namespace Cert.Spec

open Idealize.ShloMosaic

theorem kernelOut_eq_refOut (x : Fin 8192 → Fin 256 → EReal) (W : Fin 256 → Fin 128 → EReal) (a : Fin 256 → EReal)
    (n : Fin 8192 → Fin 32 → BitVec 32) (hx : Finite2 x) (hw : Finite2 W) (ha : Finite1 a) (hn : InRange n) :
    kernelOut x W a n = refOut x W a n := by
  funext i f
  unfold kernelOut refOut
  rw [rmask_eq_kmask n hn]
  rw [onlineAgg_eq_softAgg _ _ (att_finite x W a (kmask n) hx hw ha (kmask_finite n) i) (hW_finite x W hx hw) f]

end Cert.Spec

end
-- ==== Proof.lean ====
/-
  The certificate of the fused graph-attention kernel against its dense reference, over the extended reals.

  The kernel runs in two launches. The first, one row tile of 1024 at a time, forms  hW = h·W  and the two
  logit halves  h1 = hW·a[0:128],  h2 = hW·a[128:256].  The second walks each row tile across 32 column tiles
  of 256: it rebuilds the tile of the mask  cnt/64 + [i = j]/2  by comparing the row's 32 neighbour words with
  the tile's column numbers, forms the scores  mask·(h1 i + h2 j)  through the leaky slope and the zero fill,
  and keeps a running maximum, a running denominator and a running numerator of the row softmax, rescaling the
  latter two by  exp(m_old − m_new)  at every tile; after the last tile it writes  ELU(numerator / denominator).
  The reference scatter-adds the neighbour counts into a dense matrix, normalises its rows, adds the identity,
  normalises again, and takes a dense row softmax of the same scores before the product with hW and ELU.

  With every neighbour word naming one of the 8192 columns each row of counts sums to 32, so the twice
  normalised mask is the closed form; on finite inputs every score is a real number, and on a row of real
  scores the running softmax is the one-shot softmax. That is the algebraic claim. The three frame claims are
  the runs themselves: each launch's body at every grid point, the carried scratch followed from point to
  point, and the reference's operations in order. The idealized kernel is the kernel's own text (no rewrite).
-/
import proofs.«413656_j34187939676687_3_alg».proof.Defs
import proofs.«413656_j34187939676687_3_alg».proof.Proof.Gen.Kernel
import proofs.«413656_j34187939676687_3_alg».proof.Proof.Gen.KernelIdeal
import proofs.«413656_j34187939676687_3_alg».proof.Proof.Gen.ReferenceIdeal
import proofs.«413656_j34187939676687_3_alg».proof.Proof.Gen.Pre_finite_inputs
import proofs.«413656_j34187939676687_3_alg».proof.Proof.FrameAsm
import proofs.«413656_j34187939676687_3_alg».proof.Proof.FrameAsmBits
import proofs.«413656_j34187939676687_3_alg».proof.Proof.RefRun
import proofs.«413656_j34187939676687_3_alg».proof.Proof.RefValue
import proofs.«413656_j34187939676687_3_alg».proof.Proof.KValue1
import proofs.«413656_j34187939676687_3_alg».proof.Proof.PreDecode
import proofs.«413656_j34187939676687_3_alg».proof.Proof.SpecMain

noncomputable section

namespace Cert.Proof

open Idealize.ShloMosaic Idealize.SL.Sem

section Claims

attribute [local instance] Cert.Kernel.Gen.facts Cert.KernelIdeal.Gen.facts Cert.ReferenceIdeal.Gen.facts Cert.Pre_finite_inputs.Gen.facts

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Hand.run (F := Ideal) m ρ)

theorem algebraic : Cert.algebraic_KernelIdeal_ReferenceIdeal := by
  intro m ρ m' ρ' hpre hagree
  refine ⟨fun c => Cert.KernelIdeal.Hand.kernelOutArr (F := Ideal) m c, Cert.KernelIdeal.Hand.run_val (F := Ideal) m ρ, ?_⟩
  refine (θ_run Cert.ReferenceIdeal.defs _ _).mono (fun _ h c => ⟨(h c).1.trans ?_, (h c).2⟩)
    (Cert.ReferenceIdeal.Hand.run (F := Ideal) m' ρ')
  rw [(hagree c).1, (hagree c).2.1, (hagree c).2.2.1, (hagree c).2.2.2]
  have hp := hpre c
  have hr := Cert.PreDecode.in_range _ _ _ _ hp
  show _ = Cert.KernelIdeal.Hand.kernelOutArr (F := Ideal) m c
  refine (Cert.ReferenceIdeal.HandValue.refTerm_eq _ _ _ _ hr).trans ?_
  refine Eq.trans ?_ (Cert.KernelIdeal.HandValue.kernelOutArr_eq m c).symm
  funext idx
  exact (congrFun (congrFun (Cert.Spec.kernelOut_eq_refOut _ _ _ _ (Cert.PreDecode.finite_x _ _ _ _ hp)
    (Cert.PreDecode.finite_w _ _ _ _ hp) (Cert.PreDecode.finite_a _ _ _ _ hp) hr) _) _).symm

end Claims

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
